-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part4 {F : FTy → Type} [FloatOps F] (main_arg14 : FVec F S256 .f32) (main_arg15 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  main_v78

def fn_part3 {F : FTy → Type} [FloatOps F] (main_arg11 : FVec F S128 .f32) (main_arg12 : FVec F S128x256 .f32) (main_arg13 : FVec F S256 .f32) (main_arg14 : FVec F S256 .f32) (main_arg15 : FVec F S256 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S256 .f32) (main_arg8 : FVec F S256x256 .f32) (main_arg9 : FVec F S256 .f32) (main_arg10 : FVec F S256x128 .f32) (main_arg11 : FVec F S128 .f32) (main_arg12 : FVec F S128x256 .f32) (main_arg13 : FVec F S256 .f32) (main_arg14 : FVec F S256 .f32) (main_arg15 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg14 main_arg15 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x128 .f32) (main_arg11 : FVec F S128 .f32) (main_arg12 : FVec F S128x256 .f32) (main_arg13 : FVec F S256 .f32) (main_arg14 : FVec F S256 .f32) (main_arg15 : FVec F S256 .f32) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x256 .f32) (main_arg1 : FVec F S8192x256 .f32) (main_arg2 : FVec F S8192x256 .f32) (main_arg3 : FVec F S8192x256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x128 .f32) (main_arg11 : FVec F S128 .f32) (main_arg12 : FVec F S128x256 .f32) (main_arg13 : FVec F S256 .f32) (main_arg14 : FVec F S256 .f32) (main_arg15 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x256 : Shape := ⟨2, ![8192, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S2048x256 : Shape := ⟨2, ![2048, 256]⟩
abbrev S1x256 : Shape := ⟨2, ![1, 256]⟩
abbrev S512x256 : Shape := ⟨2, ![512, 256]⟩
abbrev S2048x1 : Shape := ⟨2, ![2048, 1]⟩
abbrev S256x512 : Shape := ⟨2, ![256, 512]⟩
abbrev S2048x512 : Shape := ⟨2, ![2048, 512]⟩
abbrev S2048 : Shape := ⟨1, ![2048]⟩
abbrev S2048x128 : Shape := ⟨2, ![2048, 128]⟩
abbrev S1x128 : Shape := ⟨2, ![1, 128]⟩

abbrev nBuf : Space → Nat
  | .hbm => 25
  | .vmem => 74
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S8192x256, .bf16⟩
  | .hbm, ⟨17, _⟩ => ⟨S8192x256, .bf16⟩
  | .hbm, ⟨18, _⟩ => ⟨S8192x256, .bf16⟩
  | .hbm, ⟨19, _⟩ => ⟨S8192x256, .f32⟩
  | .hbm, ⟨20, _⟩ => ⟨S8192x256, .bf16⟩
  | .hbm, ⟨21, _⟩ => ⟨S8192x256, .bf16⟩
  | .hbm, ⟨22, _⟩ => ⟨S8192x256, .bf16⟩
  | .hbm, ⟨23, _⟩ => ⟨S8192x256, .f32⟩
  | .hbm, ⟨24, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S2048x256, .f32⟩
  | .local _ .vmem, ⟨25, _⟩ => ⟨S2048x256, .f32⟩
  | .local _ .vmem, ⟨26, _⟩ => ⟨S256, .f32⟩
  | .local _ .vmem, ⟨27, _⟩ => ⟨S256, .f32⟩
  | .local _ .vmem, ⟨28, _⟩ => ⟨S2048x256, .f32⟩
  | .local _ .vmem, ⟨29, _⟩ => ⟨S2048x256, .f32⟩
  | .local _ .vmem, ⟨30, _⟩ => ⟨S2048x1, .f32⟩
  | .local _ .vmem, ⟨31, _⟩ => ⟨S2048x1, .f32⟩
  | .local _ .vmem, ⟨32, _⟩ => ⟨S2048x256, .f32⟩
  | .local _ .vmem, ⟨33, _⟩ => ⟨S2048x256, .f32⟩
  | .local _ .vmem, ⟨34, _⟩ => ⟨S2048x256, .f32⟩
  | .local _ .vmem, ⟨35, _⟩ => ⟨S2048x256, .f32⟩
  | .local _ .vmem, ⟨36, _⟩ => ⟨S2048x256, .f32⟩
  | .local _ .vmem, ⟨37, _⟩ => ⟨S256x256, .f32⟩
  | .local _ .vmem, ⟨38, _⟩ => ⟨S256, .f32⟩
  | .local _ .vmem, ⟨39, _⟩ => ⟨S256x256, .f32⟩
  | .local _ .vmem, ⟨40, _⟩ => ⟨S256, .f32⟩
  | .local _ .vmem, ⟨41, _⟩ => ⟨S256x256, .f32⟩
  | .local _ .vmem, ⟨42, _⟩ => ⟨S256, .f32⟩
  | .local _ .vmem, ⟨43, _⟩ => ⟨S2048x256, .bf16⟩
  | .local _ .vmem, ⟨44, _⟩ => ⟨S2048x256, .bf16⟩
  | .local _ .vmem, ⟨45, _⟩ => ⟨S2048x256, .bf16⟩
  | .local _ .vmem, ⟨46, _⟩ => ⟨S2048x256, .bf16⟩
  | .local _ .vmem, ⟨47, _⟩ => ⟨S2048x256, .bf16⟩
  | .local _ .vmem, ⟨48, _⟩ => ⟨S2048x256, .bf16⟩
  | .local _ .vmem, ⟨49, _⟩ => ⟨S2048x256, .bf16⟩
  | .local _ .vmem, ⟨50, _⟩ => ⟨S2048x256, .bf16⟩
  | .local _ .vmem, ⟨51, _⟩ => ⟨S512x256, .bf16⟩
  | .local _ .vmem, ⟨52, _⟩ => ⟨S512x256, .bf16⟩
  | .local _ .vmem, ⟨53, _⟩ => ⟨S512x256, .bf16⟩
  | .local _ .vmem, ⟨54, _⟩ => ⟨S512x256, .bf16⟩
  | .local _ .vmem, ⟨55, _⟩ => ⟨S2048x256, .f32⟩
  | .local _ .vmem, ⟨56, _⟩ => ⟨S2048x256, .f32⟩
  | .local _ .vmem, ⟨57, _⟩ => ⟨S256, .f32⟩
  | .local _ .vmem, ⟨58, _⟩ => ⟨S256, .f32⟩
  | .local _ .vmem, ⟨59, _⟩ => ⟨S2048x256, .f32⟩
  | .local _ .vmem, ⟨60, _⟩ => ⟨S2048x256, .f32⟩
  | .local _ .vmem, ⟨61, _⟩ => ⟨S2048x1, .f32⟩
  | .local _ .vmem, ⟨62, _⟩ => ⟨S2048x1, .f32⟩
  | .local _ .vmem, ⟨63, _⟩ => ⟨S2048x256, .f32⟩
  | .local _ .vmem, ⟨64, _⟩ => ⟨S2048x256, .f32⟩
  | .local _ .vmem, ⟨65, _⟩ => ⟨S2048x256, .f32⟩
  | .local _ .vmem, ⟨66, _⟩ => ⟨S256x128, .f32⟩
  | .local _ .vmem, ⟨67, _⟩ => ⟨S128, .f32⟩
  | .local _ .vmem, ⟨68, _⟩ => ⟨S128x256, .f32⟩
  | .local _ .vmem, ⟨69, _⟩ => ⟨S256, .f32⟩
  | .local _ .vmem, ⟨70, _⟩ => ⟨S256, .f32⟩
  | .local _ .vmem, ⟨71, _⟩ => ⟨S256, .f32⟩
  | .local _ .vmem, ⟨72, _⟩ => ⟨S2048x256, .f32⟩
  | .local _ .vmem, ⟨73, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v1 : Ref sig .tc := ⟨.hbm, 19, rfl⟩
abbrev main_v2_0 : Ref sig .tc := ⟨.hbm, 20, rfl⟩
abbrev main_v2_1 : Ref sig .tc := ⟨.hbm, 21, rfl⟩
abbrev main_v2_2 : Ref sig .tc := ⟨.hbm, 22, rfl⟩
abbrev main_v3 : Ref sig .tc := ⟨.hbm, 23, rfl⟩
abbrev main_v4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg8_1 : Ref sig .tc := ⟨.vmem, 44, rfl⟩
abbrev cc2_stg9_0 : Ref sig .tc := ⟨.vmem, 45, rfl⟩
abbrev cc2_stg9_1 : Ref sig .tc := ⟨.vmem, 46, rfl⟩
abbrev cc2_stg10_0 : Ref sig .tc := ⟨.vmem, 47, rfl⟩
abbrev cc2_stg10_1 : Ref sig .tc := ⟨.vmem, 48, rfl⟩
abbrev cc3_stg0_0 : Ref sig .tc := ⟨.vmem, 49, rfl⟩
abbrev cc3_stg0_1 : Ref sig .tc := ⟨.vmem, 50, rfl⟩
abbrev cc3_stg1_0 : Ref sig .tc := ⟨.vmem, 51, rfl⟩
abbrev cc3_stg1_1 : Ref sig .tc := ⟨.vmem, 52, rfl⟩
abbrev cc3_stg2_0 : Ref sig .tc := ⟨.vmem, 53, rfl⟩
abbrev cc3_stg2_1 : Ref sig .tc := ⟨.vmem, 54, rfl⟩
abbrev cc3_stg3_0 : Ref sig .tc := ⟨.vmem, 55, rfl⟩
abbrev cc3_stg3_1 : Ref sig .tc := ⟨.vmem, 56, rfl⟩
abbrev cc3_stg4_0 : Ref sig .tc := ⟨.vmem, 57, rfl⟩
abbrev cc3_stg5_0 : Ref sig .tc := ⟨.vmem, 58, rfl⟩
abbrev cc3_stg6_0 : Ref sig .tc := ⟨.vmem, 59, rfl⟩
abbrev cc3_stg6_1 : Ref sig .tc := ⟨.vmem, 60, rfl⟩
abbrev cc3_scratch0 : Ref sig .tc := ⟨.vmem, 61, rfl⟩
abbrev cc3_scratch1 : Ref sig .tc := ⟨.vmem, 62, rfl⟩
abbrev cc3_scratch2 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg2_0 : Ref sig .tc := ⟨.vmem, 67, rfl⟩
abbrev cc4_stg3_0 : Ref sig .tc := ⟨.vmem, 68, rfl⟩
abbrev cc4_stg4_0 : Ref sig .tc := ⟨.vmem, 69, rfl⟩
abbrev cc4_stg5_0 : Ref sig .tc := ⟨.vmem, 70, rfl⟩
abbrev cc4_stg6_0 : Ref sig .tc := ⟨.vmem, 71, rfl⟩
abbrev cc4_stg7_0 : Ref sig .tc := ⟨.vmem, 72, rfl⟩
abbrev cc4_stg7_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem6_0 : DmaSem sig := 28
abbrev cc1_sem6_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem8_1 : DmaSem sig := 41
abbrev cc2_sem9_0 : DmaSem sig := 42
abbrev cc2_sem9_1 : DmaSem sig := 43
abbrev cc2_sem10_0 : DmaSem sig := 44
abbrev cc2_sem10_1 : DmaSem sig := 45
abbrev cc3_sem0_0 : DmaSem sig := 46
abbrev cc3_sem0_1 : DmaSem sig := 47
abbrev cc3_sem1_0 : DmaSem sig := 48
abbrev cc3_sem1_1 : DmaSem sig := 49
abbrev cc3_sem2_0 : DmaSem sig := 50
abbrev cc3_sem2_1 : DmaSem sig := 51
abbrev cc3_sem3_0 : DmaSem sig := 52
abbrev cc3_sem3_1 : DmaSem sig := 53
abbrev cc3_sem4_0 : DmaSem sig := 54
abbrev cc3_sem5_0 : DmaSem sig := 55
abbrev cc3_sem6_0 : DmaSem sig := 56
abbrev cc3_sem6_1 : DmaSem sig := 57
abbrev cc4_sem0_0 : DmaSem sig := 58
abbrev cc4_sem0_1 : DmaSem sig := 59
abbrev cc4_sem1_0 : DmaSem sig := 60
abbrev cc4_sem2_0 : DmaSem sig := 61
abbrev cc4_sem3_0 : DmaSem sig := 62
abbrev cc4_sem4_0 : DmaSem sig := 63
abbrev cc4_sem5_0 : DmaSem sig := 64
abbrev cc4_sem6_0 : DmaSem sig := 65
abbrev cc4_sem7_0 : DmaSem sig := 66
abbrev cc4_sem7_1 : DmaSem sig := 67

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_21 : BitVec 32 := 0#32
  let v42 : BitVec 1 := Scalar.cmpi .ne v41 c0_i32_21
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2048x256 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2048x256 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2048x256 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨2, ![4, 16], ![false, false]⟩

def k3_cond2 (i : grid3.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_21 : BitVec 32 := 0#32
  let v42 : BitVec 1 := Scalar.cmpi .ne v41 c0_i32_21
  v42

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S2048x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2048x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  packedbf16_S2048x256_S2048x256_0_0 : (Rect.unit (s := S2048x256) ![0, 0] S2048x256.size inb_S2048x256_S2048x256_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x256 : S2048x1.Broadcasts S2048x256
  reduces_S2048x256_S2048 : S2048x256.Reduces [1] S2048
  inb_S256x128_S256x128_0_0 : ∀ a, (![0, 0] : Fin 2 → Nat) a + S256x128.size a ≤ S256x128.size a
  h_S256x128 : 0 < S256x128.numel
  inb_S128x256_S128x256_0_0 : ∀ a, (![0, 0] : Fin 2 → Nat) a + S128x256.size a ≤ S128x256.size a
  h_S128x256 : 0 < S128x256.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  dot_S2048x256_S256x256_S2048x256_1_0_0_1_n_n_wf : DotDims.WF S2048x256 S256x256 S2048x256 [1] [0] [0] [1] [] []
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  dot_S2048x256_S256x128_S2048x128_1_0_0_1_n_n_wf : DotDims.WF S2048x256 S256x128 S2048x128 [1] [0] [0] [1] [] []
  dot_S2048x128_S128x256_S2048x256_1_0_0_1_n_n_wf : DotDims.WF S2048x128 S128x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S8192x256.size a
  hwx0_9 : ∀ i : grid0.Coords, EltTy.bits .bf16 = 32 ∨ (Rect.block (s := S8192x256) S2048x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S8192x256.size a
  hwx0_10 : ∀ i : grid0.Coords, EltTy.bits .bf16 = 32 ∨ (Rect.block (s := S8192x256) S2048x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S8192x256.size a
  hwx0_11 : ∀ i : grid0.Coords, EltTy.bits .bf16 = 32 ∨ (Rect.block (s := S8192x256) S2048x256.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .bf16 = 32 ∨ (Rect.block (s := S8192x256) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .bf16 = 32 ∨ (Rect.block (s := S8192x256) S512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x256.size a
  hwx1_2 : ∀ i : grid1.Coords, EltTy.bits .bf16 = 32 ∨ (Rect.block (s := S8192x256) S512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .f32 = 32 ∨ (Rect.block (s := S8192x256) S2048x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S8192x256.size a
  hwx1_6 : ∀ i : grid1.Coords, EltTy.bits .f32 = 32 ∨ (Rect.block (s := S8192x256) S2048x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S8192x256.size a
  hwx2_0 : ∀ i : grid2.Coords, EltTy.bits .f32 = 32 ∨ (Rect.block (s := S8192x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .f32 = 32 ∨ (Rect.block (s := S8192x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256.size a ≤ S256.size a
  hwx2_7 : ∀ i : grid2.Coords, EltTy.bits .f32 = 32 ∨ (Rect.block (s := S256) S256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x256.size a ≤ S8192x256.size a
  hwx2_8 : ∀ i : grid2.Coords, EltTy.bits .bf16 = 32 ∨ (Rect.block (s := S8192x256) S2048x256.size (cc2_transform_8 i) (hinb2_8 i)).WholeWords (EltTy.packing .bf16)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x256.size a ≤ S8192x256.size a
  hwx2_9 : ∀ i : grid2.Coords, EltTy.bits .bf16 = 32 ∨ (Rect.block (s := S8192x256) S2048x256.size (cc2_transform_9 i) (hinb2_9 i)).WholeWords (EltTy.packing .bf16)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2048x256.size a ≤ S8192x256.size a
  hwx2_10 : ∀ i : grid2.Coords, EltTy.bits .bf16 = 32 ∨ (Rect.block (s := S8192x256) S2048x256.size (cc2_transform_10 i) (hinb2_10 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S8192x256.size a
  hwx3_0 : ∀ i : grid3.Coords, EltTy.bits .bf16 = 32 ∨ (Rect.block (s := S8192x256) S2048x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S8192x256.size a
  hwx3_1 : ∀ i : grid3.Coords, EltTy.bits .bf16 = 32 ∨ (Rect.block (s := S8192x256) S512x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x256.size a ≤ S8192x256.size a
  hwx3_2 : ∀ i : grid3.Coords, EltTy.bits .bf16 = 32 ∨ (Rect.block (s := S8192x256) S512x256.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x256.size a ≤ S8192x256.size a
  hwx3_3 : ∀ i : grid3.Coords, EltTy.bits .f32 = 32 ∨ (Rect.block (s := S8192x256) S2048x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2048x256.size a ≤ S8192x256.size a
  hwx3_6 : ∀ i : grid3.Coords, EltTy.bits .f32 = 32 ∨ (Rect.block (s := S8192x256) S2048x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S8192x256.size a
  hwx4_0 : ∀ i : grid4.Coords, EltTy.bits .f32 = 32 ∨ (Rect.block (s := S8192x256) S2048x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x256.size a ≤ S128x256.size a
  hwx4_3 : ∀ i : grid4.Coords, EltTy.bits .f32 = 32 ∨ (Rect.block (s := S128x256) S128x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256.size a ≤ S256.size a
  hwx4_4 : ∀ i : grid4.Coords, EltTy.bits .f32 = 32 ∨ (Rect.block (s := S256) S256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256.size a ≤ S256.size a
  hwx4_5 : ∀ i : grid4.Coords, EltTy.bits .f32 = 32 ∨ (Rect.block (s := S256) S256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256.size a ≤ S256.size a
  hwx4_6 : ∀ i : grid4.Coords, EltTy.bits .f32 = 32 ∨ (Rect.block (s := S256) S256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2048x256.size a ≤ S8192x256.size a
  hwx4_7 : ∀ i : grid4.Coords, EltTy.bits .f32 = 32 ∨ (Rect.block (s := S8192x256) S2048x256.size (cc4_transform_7 i) (hinb4_7 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S2048x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S2048x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S2048x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v0_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S2048x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S2048x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_arg3) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v2_0) S2048x256.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v2_1) S2048x256.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v2_2) S2048x256.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v2_0) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2_1) S512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2_2) S512x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S2048x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v3) S2048x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v3) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S128x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg13) S256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg15) S256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v4) S2048x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S8192x256 : Shape := ⟨2, ![8192, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S1x256 : Shape := ⟨2, ![1, 256]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S1x128 : Shape := ⟨2, ![1, 128]⟩

abbrev nBuf : Space → Nat
  | .hbm => 220
  | .vmem => 0
  | .smem => 0
  | _ => 0

abbrev hbmTy0_0 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x128, .f32⟩
  | 11 => ⟨S128, .f32⟩
  | 12 => ⟨S128x256, .f32⟩
  | 13 => ⟨S256, .f32⟩
  | 14 => ⟨S256, .f32⟩
  | 15 => ⟨S256, .f32⟩
  | 16 => ⟨S8192x256, .f32⟩
  | 17 => ⟨S1x256, .f32⟩
  | 18 => ⟨S8192x256, .f32⟩
  | 19 => ⟨S8192x256, .f32⟩
  | 20 => ⟨S8192x256, .f32⟩
  | 21 => ⟨S1x256, .f32⟩
  | 22 => ⟨S8192x256, .f32⟩
  | 23 => ⟨S8192x256, .f32⟩
  | 24 => ⟨S8192x256, .f32⟩
  | 25 => ⟨S1x256, .f32⟩
  | 26 => ⟨S8192x256, .f32⟩
  | 27 => ⟨S8192x256, .f32⟩
  | 28 => ⟨S256x8192, .f32⟩
  | 29 => ⟨S8192x8192, .f32⟩
  | 30 => ⟨S_, .f32⟩
  | 31 => ⟨S8192, .f32⟩
  | 32 => ⟨S_, .f32⟩
  | 33 => ⟨S8192, .f32⟩
  | 34 => ⟨S8192, .f32⟩
  | 35 => ⟨S8192x1, .f32⟩
  | 36 => ⟨S8192x8192, .f32⟩
  | 37 => ⟨S8192x8192, .f32⟩
  | 38 => ⟨S8192x8192, .f32⟩
  | 39 => ⟨S_, .f32⟩
  | 40 => ⟨S8192, .f32⟩
  | 41 => ⟨S8192x1, .f32⟩
  | 42 => ⟨S8192x8192, .f32⟩
  | 43 => ⟨S8192x8192, .f32⟩
  | 44 => ⟨S8192x256, .f32⟩
  | 45 => ⟨S8192x256, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .i32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S8192x256, .f32⟩
  | 60 => ⟨S8192x256, .f32⟩
  | 61 => ⟨S8192x256, .f32⟩
  | 62 => ⟨S_, .f32⟩
  | 63 => ⟨S_, .f32⟩
  | 64 => ⟨S_, .f32⟩
  | 65 => ⟨S_, .f32⟩
  | 66 => ⟨S8192, .f32⟩
  | 67 => ⟨S8192x1, .f32⟩
  | 68 => ⟨S8192x1, .f32⟩
  | 69 => ⟨S8192x1, .f32⟩
  | 70 => ⟨S_, .f32⟩
  | 71 => ⟨S_, .i1⟩
  | 72 => ⟨S_, .f32⟩
  | 73 => ⟨S_, .f32⟩
  | 74 => ⟨S8192x1, .f32⟩
  | 75 => ⟨S8192x1, .f32⟩
  | 76 => ⟨S8192x256, .f32⟩
  | 77 => ⟨S8192x256, .f32⟩
  | 78 => ⟨S_, .f32⟩
  | 79 => ⟨S8192x1, .f32⟩
  | 80 => ⟨S8192x1, .f32⟩
  | 81 => ⟨S8192x1, .f32⟩
  | 82 => ⟨S8192x256, .f32⟩
  | 83 => ⟨S8192x256, .f32⟩
  | 84 => ⟨S1x256, .f32⟩
  | 85 => ⟨S8192x256, .f32⟩
  | 86 => ⟨S8192x256, .f32⟩
  | 87 => ⟨S1x256, .f32⟩
  | 88 => ⟨S8192x256, .f32⟩
  | 89 => ⟨S8192x256, .f32⟩
  | 90 => ⟨S8192x256, .f32⟩
  | 91 => ⟨S1x256, .f32⟩
  | 92 => ⟨S8192x256, .f32⟩
  | 93 => ⟨S8192x256, .f32⟩
  | 94 => ⟨S8192x256, .f32⟩
  | 95 => ⟨S1x256, .f32⟩
  | 96 => ⟨S8192x256, .f32⟩
  | 97 => ⟨S8192x256, .f32⟩
  | 98 => ⟨S8192x256, .f32⟩
  | 99 => ⟨S1x256, .f32⟩
  | 100 => ⟨S8192x256, .f32⟩
  | 101 => ⟨S8192x256, .f32⟩
  | 102 => ⟨S256x8192, .f32⟩
  | 103 => ⟨S8192x8192, .f32⟩
  | 104 => ⟨S_, .f32⟩
  | 105 => ⟨S8192, .f32⟩
  | 106 => ⟨S_, .f32⟩
  | 107 => ⟨S8192, .f32⟩
  | 108 => ⟨S8192, .f32⟩
  | 109 => ⟨S8192x1, .f32⟩
  | 110 => ⟨S8192x8192, .f32⟩
  | 111 => ⟨S8192x8192, .f32⟩
  | 112 => ⟨S8192x8192, .f32⟩
  | 113 => ⟨S_, .f32⟩
  | 114 => ⟨S8192, .f32⟩
  | 115 => ⟨S8192x1, .f32⟩
  | 116 => ⟨S8192x8192, .f32⟩
  | 117 => ⟨S8192x8192, .f32⟩
  | 118 => ⟨S8192x256, .f32⟩
  | 119 => ⟨S8192x256, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S_, .i32⟩
  | 127 => ⟨S_, .f32⟩
  | _ => ⟨S8192x256, .f32⟩

abbrev hbmTy0_1 (i : Nat) : BufTy := match i % 128 with
  | 0 => ⟨S8192, .f32⟩
  | 1 => ⟨S8192x1, .f32⟩
  | 2 => ⟨S_, .f32⟩
  | 3 => ⟨S8192x1, .f32⟩
  | 4 => ⟨S8192x1, .f32⟩
  | 5 => ⟨S8192x256, .f32⟩
  | 6 => ⟨S8192x256, .f32⟩
  | 7 => ⟨S8192x256, .f32⟩
  | 8 => ⟨S_, .f32⟩
  | 9 => ⟨S_, .f32⟩
  | 10 => ⟨S_, .f32⟩
  | 11 => ⟨S_, .f32⟩
  | 12 => ⟨S8192, .f32⟩
  | 13 => ⟨S8192x1, .f32⟩
  | 14 => ⟨S8192x1, .f32⟩
  | 15 => ⟨S8192x1, .f32⟩
  | 16 => ⟨S_, .f32⟩
  | 17 => ⟨S_, .i1⟩
  | 18 => ⟨S_, .f32⟩
  | 19 => ⟨S_, .f32⟩
  | 20 => ⟨S8192x1, .f32⟩
  | 21 => ⟨S8192x1, .f32⟩
  | 22 => ⟨S8192x256, .f32⟩
  | 23 => ⟨S8192x256, .f32⟩
  | 24 => ⟨S_, .f32⟩
  | 25 => ⟨S8192x1, .f32⟩
  | 26 => ⟨S8192x1, .f32⟩
  | 27 => ⟨S8192x1, .f32⟩
  | 28 => ⟨S8192x256, .f32⟩
  | 29 => ⟨S8192x256, .f32⟩
  | 30 => ⟨S1x256, .f32⟩
  | 31 => ⟨S8192x256, .f32⟩
  | 32 => ⟨S8192x256, .f32⟩
  | 33 => ⟨S1x256, .f32⟩
  | 34 => ⟨S8192x256, .f32⟩
  | 35 => ⟨S8192x256, .f32⟩
  | 36 => ⟨S8192x128, .f32⟩
  | 37 => ⟨S1x128, .f32⟩
  | 38 => ⟨S8192x128, .f32⟩
  | 39 => ⟨S8192x128, .f32⟩
  | 40 => ⟨S_, .f32⟩
  | 41 => ⟨S8192x128, .f32⟩
  | 42 => ⟨S8192x128, .f32⟩
  | 43 => ⟨S8192x256, .f32⟩
  | 44 => ⟨S1x256, .f32⟩
  | 45 => ⟨S8192x256, .f32⟩
  | 46 => ⟨S8192x256, .f32⟩
  | 47 => ⟨S8192x256, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .i32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S8192x256, .f32⟩
  | 62 => ⟨S8192x256, .f32⟩
  | 63 => ⟨S8192x256, .f32⟩
  | 64 => ⟨S_, .f32⟩
  | 65 => ⟨S_, .f32⟩
  | 66 => ⟨S_, .f32⟩
  | 67 => ⟨S_, .f32⟩
  | 68 => ⟨S8192, .f32⟩
  | 69 => ⟨S8192x1, .f32⟩
  | 70 => ⟨S8192x1, .f32⟩
  | 71 => ⟨S8192x1, .f32⟩
  | 72 => ⟨S_, .f32⟩
  | 73 => ⟨S_, .i1⟩
  | 74 => ⟨S_, .f32⟩
  | 75 => ⟨S_, .f32⟩
  | 76 => ⟨S8192x1, .f32⟩
  | 77 => ⟨S8192x1, .f32⟩
  | 78 => ⟨S8192x256, .f32⟩
  | 79 => ⟨S8192x256, .f32⟩
  | 80 => ⟨S_, .f32⟩
  | 81 => ⟨S8192x1, .f32⟩
  | 82 => ⟨S8192x1, .f32⟩
  | 83 => ⟨S8192x1, .f32⟩
  | 84 => ⟨S8192x256, .f32⟩
  | 85 => ⟨S8192x256, .f32⟩
  | 86 => ⟨S1x256, .f32⟩
  | 87 => ⟨S8192x256, .f32⟩
  | 88 => ⟨S8192x256, .f32⟩
  | 89 => ⟨S1x256, .f32⟩
  | 90 => ⟨S8192x256, .f32⟩
  | 91 => ⟨S8192x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_c : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_v12 : Ref sig .tc := ⟨.hbm, 69, rfl⟩
abbrev main_call0_cst_3 : Ref sig .tc := ⟨.hbm, 70, rfl⟩
abbrev main_call0_v13 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_4 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_5 : Ref sig .tc := ⟨.hbm, 104, rfl⟩
abbrev main_v59 : Ref sig .tc := ⟨.hbm, 105, rfl⟩
abbrev main_cst_6 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_7 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_8 : Ref sig .tc := ⟨.hbm, 120, rfl⟩
abbrev main_v72 : Ref sig .tc := ⟨.hbm, 121, rfl⟩
abbrev main_v73 : Ref sig .tc := ⟨.hbm, 122, rfl⟩
abbrev main_cst_9 : Ref sig .tc := ⟨.hbm, 123, rfl⟩
abbrev main_v74 : Ref sig .tc := ⟨.hbm, 124, rfl⟩
abbrev main_v75 : Ref sig .tc := ⟨.hbm, 125, rfl⟩
abbrev main_c_10 : Ref sig .tc := ⟨.hbm, 126, rfl⟩
abbrev main_call1_cst : Ref sig .tc := ⟨.hbm, 127, rfl⟩
abbrev main_call1_v0 : Ref sig .tc := ⟨.hbm, 128, rfl⟩
abbrev main_call1_v1 : Ref sig .tc := ⟨.hbm, 129, rfl⟩
abbrev main_call1_cst_0 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_v6 : Ref sig .tc := ⟨.hbm, 135, rfl⟩
abbrev main_call1_v7 : Ref sig .tc := ⟨.hbm, 136, rfl⟩
abbrev main_call1_cst_1 : Ref sig .tc := ⟨.hbm, 137, rfl⟩
abbrev main_call1_v8 : Ref sig .tc := ⟨.hbm, 138, rfl⟩
abbrev main_call1_cst_2 : Ref sig .tc := ⟨.hbm, 139, rfl⟩
abbrev main_call1_v9 : Ref sig .tc := ⟨.hbm, 140, rfl⟩
abbrev main_call1_v10 : Ref sig .tc := ⟨.hbm, 141, rfl⟩
abbrev main_call1_v11 : Ref sig .tc := ⟨.hbm, 142, rfl⟩
abbrev main_call1_v12 : Ref sig .tc := ⟨.hbm, 143, rfl⟩
abbrev main_call1_cst_3 : Ref sig .tc := ⟨.hbm, 144, rfl⟩
abbrev main_call1_v13 : Ref sig .tc := ⟨.hbm, 145, rfl⟩
abbrev main_call1_cst_4 : Ref sig .tc := ⟨.hbm, 146, rfl⟩
abbrev main_call1_call0_v0 : Ref sig .tc := ⟨.hbm, 147, rfl⟩
abbrev main_call1_call0_v1 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_cst_11 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_call2_cst : Ref sig .tc := ⟨.hbm, 168, rfl⟩
abbrev main_call2_v0 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_cst_12 : Ref sig .tc := ⟨.hbm, 176, rfl⟩
abbrev main_v100 : Ref sig .tc := ⟨.hbm, 177, rfl⟩
abbrev main_v101 : Ref sig .tc := ⟨.hbm, 178, rfl⟩
abbrev main_cst_13 : Ref sig .tc := ⟨.hbm, 179, rfl⟩
abbrev main_v102 : Ref sig .tc := ⟨.hbm, 180, rfl⟩
abbrev main_v103 : Ref sig .tc := ⟨.hbm, 181, rfl⟩
abbrev main_c_14 : Ref sig .tc := ⟨.hbm, 182, rfl⟩
abbrev main_call3_cst : Ref sig .tc := ⟨.hbm, 183, rfl⟩
abbrev main_call3_v0 : Ref sig .tc := ⟨.hbm, 184, rfl⟩
abbrev main_call3_v1 : Ref sig .tc := ⟨.hbm, 185, rfl⟩
abbrev main_call3_cst_0 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_call3_v5 : Ref sig .tc := ⟨.hbm, 190, rfl⟩
abbrev main_call3_v6 : Ref sig .tc := ⟨.hbm, 191, rfl⟩
abbrev main_call3_v7 : Ref sig .tc := ⟨.hbm, 192, rfl⟩
abbrev main_call3_cst_1 : Ref sig .tc := ⟨.hbm, 193, rfl⟩
abbrev main_call3_v8 : Ref sig .tc := ⟨.hbm, 194, rfl⟩
abbrev main_call3_cst_2 : Ref sig .tc := ⟨.hbm, 195, rfl⟩
abbrev main_call3_v9 : Ref sig .tc := ⟨.hbm, 196, rfl⟩
abbrev main_call3_v10 : Ref sig .tc := ⟨.hbm, 197, rfl⟩
abbrev main_call3_v11 : Ref sig .tc := ⟨.hbm, 198, rfl⟩
abbrev main_call3_v12 : Ref sig .tc := ⟨.hbm, 199, rfl⟩
abbrev main_call3_cst_3 : Ref sig .tc := ⟨.hbm, 200, rfl⟩
abbrev main_call3_v13 : Ref sig .tc := ⟨.hbm, 201, rfl⟩
abbrev main_call3_cst_4 : Ref sig .tc := ⟨.hbm, 202, rfl⟩
abbrev main_call3_call0_v0 : Ref sig .tc := ⟨.hbm, 203, rfl⟩
abbrev main_call3_call0_v1 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_cst_15 : Ref sig .tc := ⟨.hbm, 208, rfl⟩
abbrev main_v107 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  reducesTo_S8192x256_S8192_d1 : S8192x256.ReducesTo [1] S8192
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x256_S256x128_S8192x128_1_0_0_1_n_n_wf : DotDims.WF S8192x256 S256x128 S8192x128 [1] [0] [0] [1] [] []
  dot_S8192x128_S128x256_S8192x256_1_0_0_1_n_n_wf : DotDims.WF S8192x128 S128x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

class Facts : Prop extends Facts₀ where

variable [Facts]
-- ==== Proof.K.A0.lean ====
/- THE FRAME HALF OF REGION 0 of @main: custom_call 0, `cc0_proj3_kernel` (pipeline 0), at a PARAMETER `V` — the
   TensorCore's buffer contents when the region is entered. The body loads its nine input windows whole, computes,
   and stores each of its three output windows whole, with no scratch and no branch: each window's block at a point
   (`iblk0`), each input's staging buffer at its block at every point (`before0_W`), each output's buffer after the
   body as the canonical contents of its one store (`out0_W`), the body's triple (`sound_kernel0`), the proof data
   (`dat0`) and the body obligation (`body_obligation0`). -/
import proofs.«422171_j68341519614500_3_alg».proof.Proof.Gen.Kernel.Launch
import proofs.«422171_j68341519614500_3_alg».proof.Proof.Gen.Kernel.Skeleton
import proofs.«422171_j68341519614500_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0_proj3_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block index has
    not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof
    data whose array is `V`'s (`hA`) and whose body leaves the block in place (`hafter`): unfetched, the block index has
    not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for ANY proof
    data whose array is `V`'s (`hA`) and whose body leaves the block in place (`hafter`): unfetched, the block index has
    not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for ANY proof
    data whose array is `V`'s (`hA`) and whose body leaves the block in place (`hafter`): unfetched, the block index has
    not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for ANY proof
    data whose array is `V`'s (`hA`) and whose body leaves the block in place (`hafter`): unfetched, the block index has
    not moved; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for ANY proof
    data whose array is `V`'s (`hA`) and whose body leaves the block in place (`hafter`): unfetched, the block index has
    not moved; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x256 := Rect.unit (s := S2048x256) ![0, 0] S2048x256.size inb_S2048x256_S2048x256_0_0
abbrev r0_1 : Rect S256x256 := Rect.unit (s := S256x256) ![0, 0] S256x256.size inb_S256x256_S256x256_0_0
abbrev r0_2 : Rect S256 := Rect.unit (s := S256) ![0] S256.size inb_S256_S256_0

/-! ## What the body leaves in each output window's buffer -/

/-- Window 9's staging buffer after the body, from the input windows' blocks: its 1 store as a piece, the payload the
    skeleton's over what the loads read. -/
def out0_9 (x0 : Vec F S2048x256 .f32) (x1 : Vec F S2048x256 .f32) (x2 : Vec F S2048x256 .f32) (x3 : Vec F S256x256 .f32) (x4 : Vec F S256 .f32) (x5 : Vec F S256x256 .f32) (x6 : Vec F S256 .f32) (x7 : Vec F S256x256 .f32) (x8 : Vec F S256 .f32) : Vec F S2048x256 .bf16 :=
  View.canon [⟨r0_0, k0_pay1 (View.ld x0 r0_0) (View.ld x3 r0_1) (View.ld x4 r0_2)⟩]

/-- Its store tiles the buffer (checked by evaluation), so it covers it. -/
theorem cover0_9 (p0 : Vec F S2048x256 .bf16) (y : S2048x256.Idx) :
    ∃ pc ∈ ([⟨r0_0, p0⟩] : List (View.Piece (Elt F) S2048x256 .bf16)), y ∈ pc.1.set :=
  View.cover_of_tiled [⟨r0_0, p0⟩] S2048x256.size (by rfl) y

/-- Window 10's staging buffer after the body, from the input windows' blocks: its 1 store as a piece, the payload the
    skeleton's over what the loads read. -/
def out0_10 (x0 : Vec F S2048x256 .f32) (x1 : Vec F S2048x256 .f32) (x2 : Vec F S2048x256 .f32) (x3 : Vec F S256x256 .f32) (x4 : Vec F S256 .f32) (x5 : Vec F S256x256 .f32) (x6 : Vec F S256 .f32) (x7 : Vec F S256x256 .f32) (x8 : Vec F S256 .f32) : Vec F S2048x256 .bf16 :=
  View.canon [⟨r0_0, k0_pay2 (View.ld x1 r0_0) (View.ld x5 r0_1) (View.ld x6 r0_2)⟩]

/-- Its store tiles the buffer (checked by evaluation), so it covers it. -/
theorem cover0_10 (p0 : Vec F S2048x256 .bf16) (y : S2048x256.Idx) :
    ∃ pc ∈ ([⟨r0_0, p0⟩] : List (View.Piece (Elt F) S2048x256 .bf16)), y ∈ pc.1.set :=
  View.cover_of_tiled [⟨r0_0, p0⟩] S2048x256.size (by rfl) y

/-- Window 11's staging buffer after the body, from the input windows' blocks: its 1 store as a piece, the payload the
    skeleton's over what the loads read. -/
def out0_11 (x0 : Vec F S2048x256 .f32) (x1 : Vec F S2048x256 .f32) (x2 : Vec F S2048x256 .f32) (x3 : Vec F S256x256 .f32) (x4 : Vec F S256 .f32) (x5 : Vec F S256x256 .f32) (x6 : Vec F S256 .f32) (x7 : Vec F S256x256 .f32) (x8 : Vec F S256 .f32) : Vec F S2048x256 .bf16 :=
  View.canon [⟨r0_0, k0_pay3 (View.ld x2 r0_0) (View.ld x7 r0_1) (View.ld x8 r0_2)⟩]

/-- Its store tiles the buffer (checked by evaluation), so it covers it. -/
theorem cover0_11 (p0 : Vec F S2048x256 .bf16) (y : S2048x256.Idx) :
    ∃ pc ∈ ([⟨r0_0, p0⟩] : List (View.Piece (Elt F) S2048x256 .bf16)), y ∈ pc.1.set :=
  View.cover_of_tiled [⟨r0_0, p0⟩] S2048x256.size (by rfl) y

/-! ## The body's triple -/

set_option maxHeartbeats 1000000 in
/-- The kernel body on whole staging memrefs, the inputs' at read contents `xW` and the outputs' at anything, runs to
    the continuation holding the inputs' as they were and each output's at `out0_W` of the inputs': the printed
    functions are their skeletons, run statement by statement through the part call. -/
theorem sound_kernel0 (c : Dev nD) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole)
    (x0 : Vec F S2048x256 .f32) (x1 : Vec F S2048x256 .f32) (x2 : Vec F S2048x256 .f32) (x3 : Vec F S256x256 .f32) (x4 : Vec F S256 .f32) (x5 : Vec F S256x256 .f32) (x6 : Vec F S256 .f32) (x7 : Vec F S256x256 .f32) (x8 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8)) -∗ K ⟨⟩))
      ⊢ wp frame (wpE (defs₀ (F := F)) Variants.none c none) E (cc0_proj3_kernel i arg1 harg1 arg2 harg2 arg3 harg3 arg4 harg4 arg5 harg5 arg6 harg6 arg7 harg7 arg8 harg8 arg9 harg9 arg10 harg10 arg11 harg11 arg12 harg12) K := by
  simp only [cc0_proj3_kernel_eq_skeleton]; unfold cc0_proj3_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  isplitl [H10]
  · iexists _; isplitr
    swap; · iexact H10
    ipureintro
    try dsimp only
    exact View.read_writes_eq_canon _ _ _ (cover0_10 _)
  iexists _; isplitr
  swap; · iexact H11
  ipureintro
  try dsimp only
  exact View.read_writes_eq_canon _ _ _ (cover0_11 _)

/-! ## The pipeline's proof data -/

/-- The proof data of pipeline 0 on core `c`: the arrays as the region finds them (`V`); after the body at
    point `t` each input's buffer at its block and each output's at `out0_W` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.F1Runs.lean ====
/- What the three case runs of custom_call 1's frame half share: the windows' blocks read off the region-entry
   contents, the body's two branch conditions decided over the grid, where output window 6 is idle, the staging
   and scratch memrefs, and the region invariant with the three scratch operands opened. -/
import proofs.«422171_j68341519614500_3_alg».proof.Proof.Gen.Kernel.Launch
import proofs.«422171_j68341519614500_3_alg».proof.Proof.Gen.Kernel.Skeleton
import proofs.«422171_j68341519614500_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof
    data whose array is `V`'s (`hA`) and whose body leaves the block in place (`hafter`): unfetched, the block index
    has not moved; the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the reset of the three scratch), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16): the first kv step of each q block. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (normalise, add the residual, layer-normalise, store). -/
abbrev cond1_1 (i : grid1.Coords) : Prop := k1_cond2 i = 1#1
/-- It holds at the points ≡ 15 (mod 16): the last kv step of each q block. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- At the points of case A output 6 is idle: the case stores nothing into it. -/
theorem idleAt1_6_A : ∀ t : Fin cfg1.N, cond1_0 (grid1.coords t) → ¬cond1_1 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → (cfg1.win 6).flush t = false := by decide +kernel
/-- At the points of case B output 6 is idle: the case stores nothing into it. -/
theorem idleAt1_6_B : ∀ t : Fin cfg1.N, ¬cond1_0 (grid1.coords t) → ¬cond1_1 (grid1.coords t) → cfg1.idle 6 (grid1.coords t) = true := by decide +kernel
/-- At the points of case B the pipeline does not write output 6's block back. -/
theorem noFlush1_6_B : ∀ t : Fin cfg1.N, ¬cond1_0 (grid1.coords t) → ¬cond1_1 (grid1.coords t) → (cfg1.win 6).flush t = false := by decide +kernel
/-- At the points of case C output 6 is live: the case stores into it. -/
theorem liveAt1_6_C : ∀ t : Fin cfg1.N, ¬cond1_0 (grid1.coords t) → cond1_1 (grid1.coords t) → cfg1.idle 6 (grid1.coords t) = false := by decide +kernel

/-! ## The staging and scratch memrefs -/

/-- One staging buffer of output window 6, through which its contents are stated (the choice does not matter). -/
abbrev VO1_6 : View sig .tc .vmem S2048x256 .f32 := (Memref.whole cc1_stg6_0 : Memref sig .tc .vmem S2048x256 .f32).view
/-- Each window's current staging memref at point `t`, spelled as the pipeline passes it, and its wholeness. -/
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x256 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows
    (the running maximum, the running sum, the accumulator). -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x256 .f32 := Memref.whole cc1_scratch2
/-- The scratch the kernel carries between points, as views: what they hold is stated through them. -/
abbrev VS1_0 : View sig .tc .vmem S2048x1 .f32 := scM1_0.view
abbrev VS1_1 : View sig .tc .vmem S2048x1 .f32 := scM1_1.view
abbrev VS1_2 : View sig .tc .vmem S2048x256 .f32 := scM1_2.view

/-- The scoped buffers of the core that are neither a staging buffer of this call nor one of its three scratch
    operands, at some contents each: carried through the region unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region invariant with the three scratch operands as memrefs owned at some contents, the other scoped
    buffers unopened and the generator register at some state: what the body obligation hands the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restBut1 (F := F) c) ∗ (∃ r, prngReg c r)) := by
  unfold Pipeline.ΦA; rw [scopedRest1_split]; simp only [scM1_0, scM1_1, scM1_2, owns_whole]; try rfl

end Cert.Kernel.Hand

end
-- ==== Proof.K.F1RunA.lean ====
/- The whole-body run of custom_call 1's kernel in case A of its frame half (the first kv step of a q block:
   the three scratch are reset, then updated; the output is not touched). -/
import proofs.«422171_j68341519614500_3_alg».proof.Proof.K.F1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- What the body's stores leave in the output's staging memref and in the three scratch, as pieces (last first), IN
    CASE A (first `scf.if` taken, second not), WITH the proof that on whole memrefs — the inputs' at their contents,
    the output's at contents `xi6` handed back untouched, the three scratch at anything — the body runs to the
    continuation holding the inputs' as they were, the output's as it was and each scratch with its pieces written. -/
noncomputable def kernelRun1_A (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (xi6 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_flash_ln_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc1_flash_ln_kernel_eq_skeleton]; unfold cc1_flash_ln_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.F1RunB.lean ====
/- The whole-body run of custom_call 1's kernel in case B of its frame half (a middle kv step: the three scratch,
   at what the point before left, are updated; the output is not touched). -/
import proofs.«422171_j68341519614500_3_alg».proof.Proof.K.F1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- What the body's stores leave in the output's staging memref and in the three scratch, as pieces (last first), IN
    CASE B (neither `scf.if` taken), WITH the proof that on whole memrefs — the inputs' at their contents, the output's
    at contents `xi6` handed back untouched, the three scratch at the contents the point before left (`xs·`) — the body
    runs to the continuation holding the inputs' as they were, the output's as it was and each scratch with its pieces
    written. -/
noncomputable def kernelRun1_B (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (xi6 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_flash_ln_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc1_flash_ln_kernel_eq_skeleton]; unfold cc1_flash_ln_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.F1RunC.lean ====
/- The whole-body run of custom_call 1's kernel in case C of its frame half (the last kv step of a q block: the
   three scratch, at what the point before left, are updated; then the accumulator is normalised, the residual added,
   the row layer-normalised and the output block stored). -/
import proofs.«422171_j68341519614500_3_alg».proof.Proof.K.F1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- What the body's stores leave in the output's staging memref and in the three scratch, as pieces (last first), IN
    CASE C (first `scf.if` not taken, second taken), WITH the proof that on whole memrefs — the inputs' at their
    contents, the output's at anything, the three scratch at the contents the point before left (`xs·`) — the body runs
    to the continuation holding the inputs' as they were and the output's and each scratch with its pieces written. -/
noncomputable def kernelRun1_C (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_flash_ln_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_flash_ln_kernel_eq_skeleton]; unfold cc1_flash_ln_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.Kernel.Hand

end
-- ==== Proof.K.F1.lean ====
/- The frame half of custom_call 1 (the attention kernel with a layer-normalised residual, 4 × 16 grid): what the
   output and the three carried scratch hold per case and point by point, the proof data, the body obligation at every
   point, and the invariant's two ends. -/
import proofs.«422171_j68341519614500_3_alg».proof.Proof.K.F1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-- Case A stores nothing into output 6 (the window is idle at its points and not written back there): no pieces —
    a placeholder (junk read back) that nothing consults. -/
def out1_A_6 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x256 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 hc1 x0 x1 x2 x3 x4 x5).1)

/-- Case A's pieces for the running maximum (scratch `arg9`), which the kernel carries between points, cover it (whole-buffer stores). -/
theorem scover1_A_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (y : S2048x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.1 S2048x1.size (by sl_kernel_rfl) y

/-- What case A leaves in the running maximum (scratch `arg9`): its pieces read back over junk. -/
def sout1_A_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5).2.1)

/-- Case A's pieces for the running sum (scratch `arg10`), which the kernel carries between points, cover it (whole-buffer stores). -/
theorem scover1_A_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (y : S2048x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.1 S2048x1.size (by sl_kernel_rfl) y

/-- What case A leaves in the running sum (scratch `arg10`): its pieces read back over junk. -/
def sout1_A_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5).2.2.1)

/-- Case A's pieces for the accumulator (scratch `arg11`), which the kernel carries between points, cover it (whole-buffer stores). -/
theorem scover1_A_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (y : S2048x256.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.2.1 S2048x256.size (by sl_kernel_rfl) y

/-- What case A leaves in the accumulator (scratch `arg11`): its pieces read back over junk. -/
def sout1_A_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x256 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B stores nothing into output 6 (the window is idle at its points and not written back there): no pieces —
    a placeholder (junk read back) that nothing consults. -/
def out1_B_6 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case B's pieces for the running maximum (scratch `arg9`), which the kernel carries between points, cover it (whole-buffer stores). -/
theorem scover1_B_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S2048x1.size (by sl_kernel_rfl) y

/-- What case B leaves in the running maximum (scratch `arg9`): its pieces read back over junk. -/
def sout1_B_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case B's pieces for the running sum (scratch `arg10`), which the kernel carries between points, cover it (whole-buffer stores). -/
theorem scover1_B_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S2048x1.size (by sl_kernel_rfl) y

/-- What case B leaves in the running sum (scratch `arg10`): its pieces read back over junk. -/
def sout1_B_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case B's pieces for the accumulator (scratch `arg11`), which the kernel carries between points, cover it (whole-buffer stores). -/
theorem scover1_B_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x256.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S2048x256.size (by sl_kernel_rfl) y

/-- What case B leaves in the accumulator (scratch `arg11`): its pieces read back over junk. -/
def sout1_B_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- Case C's pieces for output 6 tile its block (one whole-block store), so they cover it. -/
theorem cover1_C_6 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S2048x256.size (by sl_kernel_rfl) y

/-- What case C leaves in output 6's staging buffer: its pieces read back over junk. -/
def out1_C_6 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case C's pieces for the running maximum (scratch `arg9`), which the kernel carries between points, cover it (whole-buffer stores). -/
theorem scover1_C_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S2048x1.size (by sl_kernel_rfl) y

/-- What case C leaves in the running maximum (scratch `arg9`): its pieces read back over junk. -/
def sout1_C_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case C's pieces for the running sum (scratch `arg10`), which the kernel carries between points, cover it (whole-buffer stores). -/
theorem scover1_C_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S2048x1.size (by sl_kernel_rfl) y

/-- What case C leaves in the running sum (scratch `arg10`): its pieces read back over junk. -/
def sout1_C_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case C's pieces for the accumulator (scratch `arg11`), which the kernel carries between points, cover it (whole-buffer stores). -/
theorem scover1_C_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S2048x256.size (by sl_kernel_rfl) y

/-- What case C leaves in the accumulator (scratch `arg11`): its pieces read back over junk. -/
def sout1_C_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-! ## What the output and the scratch hold after each point -/

/-- THE ACCUMULATION. What output 6's staging buffer and the three scratch the kernel carries between points hold after the
    body at position `n` (the output's buffer, then the running maximum, the running sum, the accumulator): the case the
    closed forms select at `n`, run at the point's memrefs and input blocks, the scratch at what this leaves at `n - 1`.
    An assignment of the conditions no point meets is no case. -/
def outsAt1 (c : Dev nD) : (n : ℕ) → n < cfg1.N → Vec F S2048x256 .f32 × Vec F S2048x1 .f32 × Vec F S2048x1 .f32 × Vec F S2048x256 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 16 = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the three carried scratch at what the point before left in them (`outsAt1`'s scratch components), the
    other scoped buffers unopened and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restBut1 (F := F) c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ restBut1 (F := F) c) ∗ (∃ r, prngReg c r)) := by
  cases n with
  | zero => exact absurd rfl hz
  | succ n => rfl

/-! ## The pipeline's proof data -/

/-- The proof data of custom_call 1's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms say which case the point is in; so that
    case's run applies; the invariant hands the body the three carried scratch at what the point before left (at anything
    at the first point), and takes them back at this point's contents; the output's buffer is handed back untouched where
    the window is idle, and at the stored block at the last kv step; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 16 = 0
  · by_cases h1 : t.val % 16 = 15
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 16 = 15
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0 sout1_C_1 sout1_C_2; (try dsimp only)
      by_cases hz : t.val = 0
      · exfalso; omega
      · rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.A2.lean ====
import proofs.«422171_j68341519614500_3_alg».proof.Proof.Gen.Kernel.Launch
import proofs.«422171_j68341519614500_3_alg».proof.Proof.Gen.Kernel.Skeleton
import proofs.«422171_j68341519614500_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of region 2 of @main (custom_call 2, `cc2_proj_shared_kernel`, pipeline 2), at a parameter `V`:
    the TensorCore's buffer contents when the region is entered. The body loads its eight input windows whole,
    computes three projections and stores each of its three output windows whole: each window's block at a point
    (`iblk2`), what the body leaves in each output window's buffer (`out2_W`), the body's triple (`sound_kernel2`),
    the pipeline's proof data (`dat2`) and the body obligation at every point (`body_obligation2`). -/

-- membership in a rectangle of long extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s (`hA`) and whose body leaves the block in place (`hafter`): unfetched, the block index
    has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s (`hA`) and whose body leaves the block in place (`hafter`): unfetched, the block index
    has not moved; the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x256 := Rect.unit (s := S2048x256) ![0, 0] S2048x256.size inb_S2048x256_S2048x256_0_0
abbrev r2_1 : Rect S256x256 := Rect.unit (s := S256x256) ![0, 0] S256x256.size inb_S256x256_S256x256_0_0
abbrev r2_2 : Rect S256 := Rect.unit (s := S256) ![0] S256.size inb_S256_S256_0

/-! ## What the body leaves in each output window's buffer -/

/-- Window 8's staging buffer after the body, from the input windows' blocks: its one store as a piece, the
    payload the projection of the blocks loaded. -/
def out2_8 (x0 : Vec F S2048x256 .f32) (x1 : Vec F S2048x256 .f32) (x2 : Vec F S256x256 .f32) (x3 : Vec F S256 .f32) (x4 : Vec F S256x256 .f32) (x5 : Vec F S256 .f32) (x6 : Vec F S256x256 .f32) (x7 : Vec F S256 .f32) : Vec F S2048x256 .bf16 :=
  View.canon [⟨r2_0, k2_pay2 (View.ld x0 r2_0) (View.ld x2 r2_1) (View.ld x3 r2_2)⟩]

/-- Its store tiles the buffer (checked by evaluation), so it covers it. -/
theorem cover2_8 (p0 : Vec F S2048x256 .bf16) (y : S2048x256.Idx) :
    ∃ pc ∈ ([⟨r2_0, p0⟩] : List (View.Piece (Elt F) S2048x256 .bf16)), y ∈ pc.1.set :=
  View.cover_of_tiled [⟨r2_0, p0⟩] S2048x256.size (by rfl) y

/-- Window 9's staging buffer after the body, from the input windows' blocks: its one store as a piece, the
    payload the projection of the blocks loaded. -/
def out2_9 (x0 : Vec F S2048x256 .f32) (x1 : Vec F S2048x256 .f32) (x2 : Vec F S256x256 .f32) (x3 : Vec F S256 .f32) (x4 : Vec F S256x256 .f32) (x5 : Vec F S256 .f32) (x6 : Vec F S256x256 .f32) (x7 : Vec F S256 .f32) : Vec F S2048x256 .bf16 :=
  View.canon [⟨r2_0, k2_pay3 (View.ld x1 r2_0) (View.ld x4 r2_1) (View.ld x5 r2_2)⟩]

/-- Its store tiles the buffer (checked by evaluation), so it covers it. -/
theorem cover2_9 (p0 : Vec F S2048x256 .bf16) (y : S2048x256.Idx) :
    ∃ pc ∈ ([⟨r2_0, p0⟩] : List (View.Piece (Elt F) S2048x256 .bf16)), y ∈ pc.1.set :=
  View.cover_of_tiled [⟨r2_0, p0⟩] S2048x256.size (by rfl) y

/-- Window 10's staging buffer after the body, from the input windows' blocks: its one store as a piece, the
    payload the projection of the blocks loaded. -/
def out2_10 (x0 : Vec F S2048x256 .f32) (x1 : Vec F S2048x256 .f32) (x2 : Vec F S256x256 .f32) (x3 : Vec F S256 .f32) (x4 : Vec F S256x256 .f32) (x5 : Vec F S256 .f32) (x6 : Vec F S256x256 .f32) (x7 : Vec F S256 .f32) : Vec F S2048x256 .bf16 :=
  View.canon [⟨r2_0, k2_pay4 (View.ld x1 r2_0) (View.ld x6 r2_1) (View.ld x7 r2_2)⟩]

/-- Its store tiles the buffer (checked by evaluation), so it covers it. -/
theorem cover2_10 (p0 : Vec F S2048x256 .bf16) (y : S2048x256.Idx) :
    ∃ pc ∈ ([⟨r2_0, p0⟩] : List (View.Piece (Elt F) S2048x256 .bf16)), y ∈ pc.1.set :=
  View.cover_of_tiled [⟨r2_0, p0⟩] S2048x256.size (by rfl) y

/-! ## The body's triple -/

set_option maxHeartbeats 1000000 in
/-- The kernel body on whole staging memrefs, the inputs' at read contents `xW` and the outputs' at anything, runs to
    the continuation holding the inputs' as they were and each output's at `out2_W` of the inputs': the printed function
    is its skeleton of loads and stores over payloads, run operation by operation. -/
theorem sound_kernel2 (c : Dev nD) (E : Set ℕ) (i : grid2.Coords) (arg1 : Memref sig .tc .vmem S2048x256 .f32) (harg1 : arg1.IsWhole) (arg2 : Memref sig .tc .vmem S2048x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole)
    (x0 : Vec F S2048x256 .f32) (x1 : Vec F S2048x256 .f32) (x2 : Vec F S256x256 .f32) (x3 : Vec F S256 .f32) (x4 : Vec F S256x256 .f32) (x5 : Vec F S256 .f32) (x6 : Vec F S256x256 .f32) (x7 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7) ∗ owns (c : Thread nD τ) arg10 fullShare (out2_9 x0 x1 x2 x3 x4 x5 x6 x7) ∗ owns (c : Thread nD τ) arg11 fullShare (out2_10 x0 x1 x2 x3 x4 x5 x6 x7)) -∗ K ⟨⟩))
      ⊢ wp frame (wpE (defs₀ (F := F)) Variants.none c none) E (cc2_proj_shared_kernel i arg1 harg1 arg2 harg2 arg3 harg3 arg4 harg4 arg5 harg5 arg6 harg6 arg7 harg7 arg8 harg8 arg9 harg9 arg10 harg10 arg11 harg11) K := by
  simp only [cc2_proj_shared_kernel_eq_skeleton]; unfold cc2_proj_shared_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover2_8 _)
  isplitl [H9]
  · iexists _; isplitr
    swap; · iexact H9
    ipureintro
    exact View.read_writes_eq_canon _ _ _ (cover2_9 _)
  iexists _; isplitr
  swap; · iexact H10
  ipureintro
  exact View.read_writes_eq_canon _ _ _ (cover2_10 _)

/-! ## The pipeline's proof data -/

/-- The proof data of pipeline 2 on core `c`: the arrays as the region finds them (`V`); after the body at point `t`
    each input's buffer at its block and each output's at `out2_W` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
    | ⟨9, _⟩ => out2_9 (iblk2 V c 0 t) (iblk2 V c 1 t) (iblk2 V c 2 t) (iblk2 V c 3 t) (iblk2 V c 4 t) (iblk2 V c 5 t) (iblk2 V c 6 t) (iblk2 V c 7 t)
    | ⟨10, _⟩ => out2_10 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.F3Runs.lean ====
/- What the three case runs of custom_call 3's frame half share: the windows' blocks read off the region-entry
   contents, the body's two branch conditions decided over the grid, where output window 6 is idle, the staging
   and scratch memrefs, and the region invariant with the three scratch operands opened. -/
import proofs.«422171_j68341519614500_3_alg».proof.Proof.Gen.Kernel.Launch
import proofs.«422171_j68341519614500_3_alg».proof.Proof.Gen.Kernel.Skeleton
import proofs.«422171_j68341519614500_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, fetched there or not, for any proof
    data whose array is `V`'s (`hA`) and whose body leaves the block in place (`hafter`): unfetched, the block index
    has not moved; the windows are uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first `scf.if` (the reset of the three scratch), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 16): the first kv step of each q block. -/
theorem hcond3_0 : ∀ t : Fin cfg3.N, cond3_0 (grid3.coords t) ↔ t.val % 16 = 0 :=
  (by decide +kernel : ∀ t : Fin grid3.N, cond3_0 (grid3.coords t) ↔ t.val % 16 = 0)

/-- The condition of the body's second `scf.if` (normalise, add the residual, layer-normalise, store). -/
abbrev cond3_1 (i : grid3.Coords) : Prop := k3_cond2 i = 1#1
/-- It holds at the points ≡ 15 (mod 16): the last kv step of each q block. -/
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- Window 3 is never idle (an input). -/
theorem liveAt3_3 : ∀ t : Fin cfg3.N, cfg3.idle 3 (grid3.coords t) = false := by decide +kernel
/-- Window 4 is never idle (an input). -/
theorem liveAt3_4 : ∀ t : Fin cfg3.N, cfg3.idle 4 (grid3.coords t) = false := by decide +kernel
/-- Window 5 is never idle (an input). -/
theorem liveAt3_5 : ∀ t : Fin cfg3.N, cfg3.idle 5 (grid3.coords t) = false := by decide +kernel
/-- At the points of case A output 6 is idle: the case stores nothing into it. -/
theorem idleAt3_6_A : ∀ t : Fin cfg3.N, cond3_0 (grid3.coords t) → ¬cond3_1 (grid3.coords t) → cfg3.idle 6 (grid3.coords t) = true := by decide +kernel
/-- At the points of case A the pipeline does not write output 6's block back. -/
theorem noFlush3_6_A : ∀ t : Fin cfg3.N, cond3_0 (grid3.coords t) → ¬cond3_1 (grid3.coords t) → (cfg3.win 6).flush t = false := by decide +kernel
/-- At the points of case B output 6 is idle: the case stores nothing into it. -/
theorem idleAt3_6_B : ∀ t : Fin cfg3.N, ¬cond3_0 (grid3.coords t) → ¬cond3_1 (grid3.coords t) → cfg3.idle 6 (grid3.coords t) = true := by decide +kernel
/-- At the points of case B the pipeline does not write output 6's block back. -/
theorem noFlush3_6_B : ∀ t : Fin cfg3.N, ¬cond3_0 (grid3.coords t) → ¬cond3_1 (grid3.coords t) → (cfg3.win 6).flush t = false := by decide +kernel
/-- At the points of case C output 6 is live: the case stores into it. -/
theorem liveAt3_6_C : ∀ t : Fin cfg3.N, ¬cond3_0 (grid3.coords t) → cond3_1 (grid3.coords t) → cfg3.idle 6 (grid3.coords t) = false := by decide +kernel

/-! ## The staging and scratch memrefs -/

/-- One staging buffer of output window 6, through which its contents are stated (the choice does not matter). -/
abbrev VO3_6 : View sig .tc .vmem S2048x256 .f32 := (Memref.whole cc3_stg6_0 : Memref sig .tc .vmem S2048x256 .f32).view
/-- Each window's current staging memref at point `t`, spelled as the pipeline passes it, and its wholeness. -/
abbrev ms3_0 (t : Fin cfg3.N) : Memref sig .tc .vmem S2048x256 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x256 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S256 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S256 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2048x256 .f32 := win3_6.stage (cfg3.slots t 6)
abbrev hs3_6 (t : Fin cfg3.N) : (ms3_6 t).IsWhole := hstage3_6 ((cfg3.slots t 6).cast nbuf3_6)
/-- The scratch operands: whole scoped buffers of the kernel's own, passed beside the windows
    (the running maximum, the running sum, the accumulator). -/
abbrev scM3_0 : Memref sig .tc .vmem S2048x1 .f32 := Memref.whole cc3_scratch0
abbrev scM3_1 : Memref sig .tc .vmem S2048x1 .f32 := Memref.whole cc3_scratch1
abbrev scM3_2 : Memref sig .tc .vmem S2048x256 .f32 := Memref.whole cc3_scratch2
/-- The scratch the kernel carries between points, as views: what they hold is stated through them. -/
abbrev VS3_0 : View sig .tc .vmem S2048x1 .f32 := scM3_0.view
abbrev VS3_1 : View sig .tc .vmem S2048x1 .f32 := scM3_1.view
abbrev VS3_2 : View sig .tc .vmem S2048x256 .f32 := scM3_2.view

/-- The scoped buffers of the core that are neither a staging buffer of this call nor one of its three scratch
    operands, at some contents each: carried through the region unopened. -/
abbrev restBut3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The region invariant with the three scratch operands as memrefs owned at some contents, the other scoped
    buffers unopened and the generator register at some state: what the body obligation hands the run and takes back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ restBut3 (F := F) c) ∗ (∃ r, prngReg c r)) := by
  unfold Pipeline.ΦA; rw [scopedRest3_split]; simp only [scM3_0, scM3_1, scM3_2, owns_whole]; try rfl

end Cert.Kernel.Hand

end
-- ==== Proof.K.F3RunA.lean ====
/- The whole-body run of custom_call 3's kernel in case A of its frame half (the first kv step of a q block:
   the three scratch are reset, then updated; the output is not touched). -/
import proofs.«422171_j68341519614500_3_alg».proof.Proof.K.F3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- What the body's stores leave in the output's staging memref and in the three scratch, as pieces (last first), IN
    CASE A (first `scf.if` taken, second not), WITH the proof that on whole memrefs — the inputs' at their contents,
    the output's at contents `xi6` handed back untouched, the three scratch at anything — the body runs to the
    continuation holding the inputs' as they were, the output's as it was and each scratch with its pieces written. -/
noncomputable def kernelRun3_A (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (xi6 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3_flash_ln_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc3_flash_ln_kernel_eq_skeleton]; unfold cc3_flash_ln_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.F3RunB.lean ====
/- The whole-body run of custom_call 3's kernel in case B of its frame half (a middle kv step: the three scratch,
   at what the point before left, are updated; the output is not touched). -/
import proofs.«422171_j68341519614500_3_alg».proof.Proof.K.F3RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- What the body's stores leave in the output's staging memref and in the three scratch, as pieces (last first), IN
    CASE B (neither `scf.if` taken), WITH the proof that on whole memrefs — the inputs' at their contents, the output's
    at contents `xi6` handed back untouched, the three scratch at the contents the point before left (`xs·`) — the body
    runs to the continuation holding the inputs' as they were, the output's as it was and each scratch with its pieces
    written. -/
noncomputable def kernelRun3_B (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (xi6 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3_flash_ln_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc3_flash_ln_kernel_eq_skeleton]; unfold cc3_flash_ln_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.F3RunC.lean ====
/- The whole-body run of custom_call 3's kernel in case C of its frame half (the last kv step of a q block: the
   three scratch, at what the point before left, are updated; then the accumulator is normalised, the residual added,
   the row layer-normalised and the output block stored). -/
import proofs.«422171_j68341519614500_3_alg».proof.Proof.K.F3RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- What the body's stores leave in the output's staging memref and in the three scratch, as pieces (last first), IN
    CASE C (first `scf.if` not taken, second taken), WITH the proof that on whole memrefs — the inputs' at their
    contents, the output's at anything, the three scratch at the contents the point before left (`xs·`) — the body runs
    to the continuation holding the inputs' as they were and the output's and each scratch with its pieces written. -/
noncomputable def kernelRun3_C (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3_flash_ln_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc3_flash_ln_kernel_eq_skeleton]; unfold cc3_flash_ln_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.Kernel.Hand

end
-- ==== Proof.K.F3.lean ====
/- The frame half of custom_call 3 (the attention kernel with a layer-normalised residual, 4 × 16 grid): what the
   output and the three carried scratch hold per case and point by point, the proof data, the body obligation at every
   point, and the invariant's two ends. -/
import proofs.«422171_j68341519614500_3_alg».proof.Proof.K.F3RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-- Case A stores nothing into output 6 (the window is idle at its points and not written back there): no pieces —
    a placeholder (junk read back) that nothing consults. -/
def out3_A_6 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x256 .f32 :=
  VO3_6.read (Elt F) (VO3_6.writes (Elt F) VO3_6.junk (kernelRun3_A c i arg2 harg2 arg3 harg3 arg4 harg4 arg5 harg5 arg6 harg6 arg7 harg7 arg8 harg8 arg9 harg9 arg10 harg10 arg11 harg11 hc0 hc1 x0 x1 x2 x3 x4 x5).1)

/-- Case A's pieces for the running maximum (scratch `arg9`), which the kernel carries between points, cover it (whole-buffer stores). -/
theorem scover3_A_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (y : S2048x1.Idx) :
    ∃ pc ∈ (kernelRun3_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun3_A c i arg2 harg2 arg3 harg3 arg4 harg4 arg5 harg5 arg6 harg6 arg7 harg7 arg8 harg8 arg9 harg9 arg10 harg10 arg11 harg11 hc0 hc1 x0 x1 x2 x3 x4 x5).2.1 S2048x1.size (by sl_kernel_rfl) y

/-- What case A leaves in the running maximum (scratch `arg9`): its pieces read back over junk. -/
def sout3_A_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x1 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 arg11 harg11 hc0 hc1 x0 x1 x2 x3 x4 x5).2.1)

/-- Case A's pieces for the running sum (scratch `arg10`), which the kernel carries between points, cover it (whole-buffer stores). -/
theorem scover3_A_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (y : S2048x1.Idx) :
    ∃ pc ∈ (kernelRun3_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun3_A c i arg2 harg2 arg3 harg3 arg4 harg4 arg5 harg5 arg6 harg6 arg7 harg7 arg8 harg8 arg9 harg9 arg10 harg10 arg11 harg11 hc0 hc1 x0 x1 x2 x3 x4 x5).2.2.1 S2048x1.size (by sl_kernel_rfl) y

/-- What case A leaves in the running sum (scratch `arg10`): its pieces read back over junk. -/
def sout3_A_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x1 .f32 :=
  VS3_1.read (Elt F) (VS3_1.writes (Elt F) VS3_1.junk (kernelRun3_A c i arg2 harg2 arg3 harg3 arg4 harg4 arg5 harg5 arg6 harg6 arg7 harg7 arg8 harg8 arg9 harg9 arg10 harg10 arg11 harg11 hc0 hc1 x0 x1 x2 x3 x4 x5).2.2.1)

/-- Case A's pieces for the accumulator (scratch `arg11`), which the kernel carries between points, cover it (whole-buffer stores). -/
theorem scover3_A_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (y : S2048x256.Idx) :
    ∃ pc ∈ (kernelRun3_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun3_A c i arg2 harg2 arg3 harg3 arg4 harg4 arg5 harg5 arg6 harg6 arg7 harg7 arg8 harg8 arg9 harg9 arg10 harg10 arg11 harg11 hc0 hc1 x0 x1 x2 x3 x4 x5).2.2.2.1 S2048x256.size (by sl_kernel_rfl) y

/-- What case A leaves in the accumulator (scratch `arg11`): its pieces read back over junk. -/
def sout3_A_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x256 .f32 :=
  VS3_2.read (Elt F) (VS3_2.writes (Elt F) VS3_2.junk (kernelRun3_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B stores nothing into output 6 (the window is idle at its points and not written back there): no pieces —
    a placeholder (junk read back) that nothing consults. -/
def out3_B_6 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VO3_6.read (Elt F) (VO3_6.writes (Elt F) VO3_6.junk (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case B's pieces for the running maximum (scratch `arg9`), which the kernel carries between points, cover it (whole-buffer stores). -/
theorem scover3_B_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S2048x1.size (by sl_kernel_rfl) y

/-- What case B leaves in the running maximum (scratch `arg9`): its pieces read back over junk. -/
def sout3_B_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS3_0.read (Elt F) (VS3_0.writes (Elt F) VS3_0.junk (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case B's pieces for the running sum (scratch `arg10`), which the kernel carries between points, cover it (whole-buffer stores). -/
theorem scover3_B_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S2048x1.size (by sl_kernel_rfl) y

/-- What case B leaves in the running sum (scratch `arg10`): its pieces read back over junk. -/
def sout3_B_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS3_1.read (Elt F) (VS3_1.writes (Elt F) VS3_1.junk (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case B's pieces for the accumulator (scratch `arg11`), which the kernel carries between points, cover it (whole-buffer stores). -/
theorem scover3_B_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x256.Idx) :
    ∃ pc ∈ (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S2048x256.size (by sl_kernel_rfl) y

/-- What case B leaves in the accumulator (scratch `arg11`): its pieces read back over junk. -/
def sout3_B_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VS3_2.read (Elt F) (VS3_2.writes (Elt F) VS3_2.junk (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- Case C's pieces for output 6 tile its block (one whole-block store), so they cover it. -/
theorem cover3_C_6 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x256.Idx) :
    ∃ pc ∈ (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S2048x256.size (by sl_kernel_rfl) y

/-- What case C leaves in output 6's staging buffer: its pieces read back over junk. -/
def out3_C_6 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VO3_6.read (Elt F) (VO3_6.writes (Elt F) VO3_6.junk (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case C's pieces for the running maximum (scratch `arg9`), which the kernel carries between points, cover it (whole-buffer stores). -/
theorem scover3_C_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S2048x1.size (by sl_kernel_rfl) y

/-- What case C leaves in the running maximum (scratch `arg9`): its pieces read back over junk. -/
def sout3_C_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS3_0.read (Elt F) (VS3_0.writes (Elt F) VS3_0.junk (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case C's pieces for the running sum (scratch `arg10`), which the kernel carries between points, cover it (whole-buffer stores). -/
theorem scover3_C_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S2048x1.size (by sl_kernel_rfl) y

/-- What case C leaves in the running sum (scratch `arg10`): its pieces read back over junk. -/
def sout3_C_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS3_1.read (Elt F) (VS3_1.writes (Elt F) VS3_1.junk (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case C's pieces for the accumulator (scratch `arg11`), which the kernel carries between points, cover it (whole-buffer stores). -/
theorem scover3_C_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x256.Idx) :
    ∃ pc ∈ (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S2048x256.size (by sl_kernel_rfl) y

/-- What case C leaves in the accumulator (scratch `arg11`): its pieces read back over junk. -/
def sout3_C_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VS3_2.read (Elt F) (VS3_2.writes (Elt F) VS3_2.junk (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-! ## What the output and the scratch hold after each point -/

/-- THE ACCUMULATION. What output 6's staging buffer and the three scratch the kernel carries between points hold after the
    body at position `n` (the output's buffer, then the running maximum, the running sum, the accumulator): the case the
    closed forms select at `n`, run at the point's memrefs and input blocks, the scratch at what this leaves at `n - 1`.
    An assignment of the conditions no point meets is no case. -/
def outsAt3 (c : Dev nD) : (n : ℕ) → n < cfg3.N → Vec F S2048x256 .f32 × Vec F S2048x1 .f32 × Vec F S2048x1 .f32 × Vec F S2048x256 .f32
  | 0, hn => (out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩))
  | n + 1, hn =>
    if h0 : (n + 1) % 16 = 0 then
      if h1 : (n + 1) % 16 = 15 then
        False.elim (by omega)
      else
        (out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩))
    else
      if h1 : (n + 1) % 16 = 15 then
        (out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2, sout3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2)
      else
        (out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2)

/-- `outsAt3` at a point of case A: that case's contents. -/
theorem outsAt3_A (c : Dev nD) (t : Fin cfg3.N) (h0 : t.val % 16 = 0) (h1 : ¬t.val % 16 = 15) :
    outsAt3 V c t.val t.isLt = (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_2 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 16 = 0) (h1 : ¬t.val % 16 = 15) :
    outsAt3 V c t.val t.isLt = (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 16 = 0) (h1 : t.val % 16 = 15) :
    outsAt3 V c t.val t.isLt = (out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_2 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the three carried scratch at what the point before left in them (`outsAt3`'s scratch components), the
    other scoped buffers unopened and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the carried scratch at that point's contents. -/
theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ restBut3 (F := F) c) ∗ (∃ r, prngReg c r)) := rfl

/-- Before a point that is not the first: the carried scratch at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2.1) ∗ owns (c : Thread nD τ) scM3_2 fullShare ((outsAt3 V c (n - 1) (by omega)).2.2.2)) ∗ restBut3 (F := F) c) ∗ (∃ r, prngReg c r)) := by
  cases n with
  | zero => exact absurd rfl hz
  | succ n => rfl

/-! ## The pipeline's proof data -/

/-- The proof data of custom_call 3's pipeline on core `c`: the arrays as the region finds them (`V`); after the body at
    point `t` each input's buffer at its block and the output's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point: the inputs' memrefs hold their blocks; the closed forms say which case the point is in; so that
    case's run applies; the invariant hands the body the three carried scratch at what the point before left (at anything
    at the first point), and takes them back at this point's contents; the output's buffer is handed back untouched where
    the window is idle, and at the stored block at the last kv step; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 16 = 0
  · by_cases h1 : t.val % 16 = 15
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [Dat.leavesExact_idle (dat3 V c) 6 t (idleAt3_6_A t ((hcond3_0 t).mpr h0) (fun h => h1 ((hcond3_1 t).mp h))) (noFlush3_6_A t ((hcond3_0 t).mpr h0) (fun h => h1 ((hcond3_1 t).mp h)))]
      rw [outsAt3_A V c t h0 h1]
      unfold sout3_A_0 sout3_A_1 sout3_A_2; (try dsimp only)
      by_cases hz : t.val = 0
      · rw [PhiS3_castSucc V c t, PhiS3_zero V c _ _ hz, PhiA3_eq]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS3_castSucc V c t, PhiS3_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 16 = 15
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [show (dat3 V c).leavesExact 6 t = owns (c : Thread nD τ) (ms3_6 t) fullShare ((dat3 V c).after 6 t) from by
        unfold Dat.leavesExact; rw [liveAt3_6_C t (fun h => h0 ((hcond3_0 t).mp h)) ((hcond3_1 t).mpr h1)], after3_6]
      rw [outsAt3_C V c t h0 h1]
      unfold out3_C_6 sout3_C_0 sout3_C_1 sout3_C_2; (try dsimp only)
      by_cases hz : t.val = 0
      · exfalso; omega
      · rw [PhiS3_castSucc V c t, PhiS3_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_C c (grid3.coords t) _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_C_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_C_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover3_C_2 c _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover3_C_6 c _ _ _ _ _ _ _ _ _ _ _ _ _ _ _ _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [Dat.leavesExact_idle (dat3 V c) 6 t (idleAt3_6_B t (fun h => h0 ((hcond3_0 t).mp h)) (fun h => h1 ((hcond3_1 t).mp h))) (noFlush3_6_B t (fun h => h0 ((hcond3_0 t).mp h)) (fun h => h1 ((hcond3_1 t).mp h)))]
      rw [outsAt3_B V c t h0 h1]
      unfold sout3_B_0 sout3_B_1 sout3_B_2; (try dsimp only)
      by_cases hz : t.val = 0
      · exfalso; omega
      · rw [PhiS3_castSucc V c t, PhiS3_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_B c (grid3.coords t) _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_B_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_B_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover3_B_2 c _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.Kernel.Hand

end
-- ==== Proof.K.A4.lean ====
import proofs.«422171_j68341519614500_3_alg».proof.Proof.Gen.Kernel.Launch
import proofs.«422171_j68341519614500_3_alg».proof.Proof.Gen.Kernel.Skeleton
import proofs.«422171_j68341519614500_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 (the MLP + layer-norm call), the frame half

The fifth call has no scratch and no branch: at every point of its grid it loads its seven input windows whole,
computes, and stores its one output window whole. This module states, at the buffer contents `V` the region is
entered with, each window's block at a point, what the body leaves in the output window's buffer as a function of
the input blocks, the body's triple, the pipeline's proof data and the body obligation at every point. -/

-- membership in a rectangle of large extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): unfetched, the block
    index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for ANY proof
    data whose array is `V`'s (`hA`) and whose body leaves the block in place (`hafter`): unfetched, the block
    index has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for ANY proof
    data whose array is `V`'s (`hA`) and whose body leaves the block in place (`hafter`): unfetched, the block
    index has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for ANY proof
    data whose array is `V`'s (`hA`) and whose body leaves the block in place (`hafter`): unfetched, the block
    index has not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for ANY proof
    data whose array is `V`'s (`hA`) and whose body leaves the block in place (`hafter`): unfetched, the block
    index has not moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for ANY proof
    data whose array is `V`'s (`hA`) and whose body leaves the block in place (`hafter`): unfetched, the block
    index has not moved; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for ANY proof
    data whose array is `V`'s (`hA`) and whose body leaves the block in place (`hafter`): unfetched, the block
    index has not moved; the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2048x256 := Rect.unit (s := S2048x256) ![0, 0] S2048x256.size inb_S2048x256_S2048x256_0_0
abbrev r4_1 : Rect S256x128 := Rect.unit (s := S256x128) ![0, 0] S256x128.size inb_S256x128_S256x128_0_0
abbrev r4_2 : Rect S128 := Rect.unit (s := S128) ![0] S128.size inb_S128_S128_0
abbrev r4_3 : Rect S128x256 := Rect.unit (s := S128x256) ![0, 0] S128x256.size inb_S128x256_S128x256_0_0
abbrev r4_4 : Rect S256 := Rect.unit (s := S256) ![0] S256.size inb_S256_S256_0

/-! ## What the body leaves in the output window's buffer -/

/-- Window 7's staging buffer after the body, from the input windows' blocks: its one store as a piece, the payload
    the skeleton's (the normalised rows scaled, then the last bias row added). -/
def out4_7 (x0 : Vec F S2048x256 .f32) (x1 : Vec F S256x128 .f32) (x2 : Vec F S128 .f32) (x3 : Vec F S128x256 .f32)
    (x4 : Vec F S256 .f32) (x5 : Vec F S256 .f32) (x6 : Vec F S256 .f32) : Vec F S2048x256 .f32 :=
  View.canon [⟨r4_0, k4_pay1 (k4_pay2 (View.ld x0 r4_0) (View.ld x1 r4_1) (View.ld x3 r4_3) (View.ld x2 r4_2) (View.ld x4 r4_4) (View.ld x5 r4_4)) (View.ld x6 r4_4)⟩]

/-- Its store tiles the buffer (checked by evaluation), so it covers it. -/
theorem cover4_7 (p0 : Vec F S2048x256 .f32) (y : S2048x256.Idx) :
    ∃ pc ∈ ([⟨r4_0, p0⟩] : List (View.Piece (Elt F) S2048x256 .f32)), y ∈ pc.1.set :=
  View.cover_of_tiled [⟨r4_0, p0⟩] S2048x256.size (by rfl) y

/-! ## The body's triple -/

set_option maxHeartbeats 1000000 in
/-- The kernel body on whole staging memrefs, the inputs' at read contents `xW` and the output's at anything, runs to
    the continuation holding the inputs' as they were and the output's at `out4_7` of the inputs': the printed functions
    are their skeletons, run load by load through the part call and the one store. -/
theorem sound_kernel4 (c : Dev nD) (E : Set ℕ) (i : grid4.Coords) (arg1 : Memref sig .tc .vmem S2048x256 .f32) (harg1 : arg1.IsWhole) (arg2 : Memref sig .tc .vmem S256x128 .f32) (harg2 : arg2.IsWhole) (arg3 : Memref sig .tc .vmem S128 .f32) (harg3 : arg3.IsWhole) (arg4 : Memref sig .tc .vmem S128x256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole)
    (x0 : Vec F S2048x256 .f32) (x1 : Vec F S256x128 .f32) (x2 : Vec F S128 .f32) (x3 : Vec F S128x256 .f32) (x4 : Vec F S256 .f32) (x5 : Vec F S256 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4_mlp_ln_kernel i arg1 harg1 arg2 harg2 arg3 harg3 arg4 harg4 arg5 harg5 arg6 harg6 arg7 harg7 arg8 harg8) K := by
  simp only [cc4_mlp_ln_kernel_eq_skeleton]; unfold cc4_mlp_ln_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them (`V`); after the body at
    point `t` each input's buffer at its block and the output's at `out4_7` of the input blocks; the invariant the
    class's (the scoped rest and the random-number register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ (grid4.coords t) _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
import proofs.«422171_j68341519614500_3_alg».proof.Proof.K.A0
import proofs.«422171_j68341519614500_3_alg».proof.Proof.K.F1
import proofs.«422171_j68341519614500_3_alg».proof.Proof.K.A2
import proofs.«422171_j68341519614500_3_alg».proof.Proof.K.F3
import proofs.«422171_j68341519614500_3_alg».proof.Proof.K.A4

/-! THE RUN of @main: five kernel regions in a row, no host operation between them. The buffer contents at each
    boundary are a fold from the launch memory — a region's arrays at what its write-backs leave, every other buffer
    as it was —; every pipeline's proof data are taken at its region's entry contents; each region is a segment over
    the thread state "every unscoped buffer at the boundary's contents, the generator register at some state, nothing
    owed"; the launch theorem for a list of segments then says that every weakly fair execution terminates with
    every unscoped buffer at the last boundary's contents `W5`. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references: region 0's entry contents. -/
abbrev E0 : (c : Dev nD) → (b : Ref sig .tc) → Buf (Elt F) ((c : Thread nD τ).loc b) := fun c b => W0 m ρ c b

/-- At region 0's exit: its arrays at what the pipeline leaves (the inputs as entered, each output's write-backs
    folded), every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: region 0's exit contents, region 1's entry contents. -/
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- At region 1's exit: its arrays at what the pipeline leaves (the inputs as entered, each output's write-backs
    folded), every other buffer as entered. -/
def W2 (c : Dev nD) : Valuation τ sig (Elt F) :=
  Pipeline.withArrays spec1 c (W1 m ρ c) fun w => (dat1 (E1 m ρ) c).arrAt w cfg1.N
theorem W2_arr (c : Dev nD) (w : Fin cfg1.W) :
    W2 m ρ c (Proc.devRef .tc (Pipeline.arrRef spec1 w)) = (dat1 (E1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references: region 1's exit contents, region 2's entry contents. -/
abbrev E2 : (c : Dev nD) → (b : Ref sig .tc) → Buf (Elt F) ((c : Thread nD τ).loc b) := fun c b => W2 m ρ c b
theorem hF1 (c : Dev nD) (w : Fin cfg1.W) : (dat1 (E1 m ρ) c).arrAt w cfg1.N = E2 m ρ c (Pipeline.arrRef spec1 w) :=
  (W2_arr m ρ c w).symm
theorem hrest1 (c : Dev nD) : ∀ b, b ∉ Finset.univ.image (Pipeline.arrRef spec1) → E2 m ρ c b = E1 m ρ c b :=
  fun b hb => W2_of_ne m ρ c b fun w e => hb (Finset.mem_image.mpr ⟨w, Finset.mem_univ _, e⟩)

/-- At region 2's exit: its arrays at what the pipeline leaves (the inputs as entered, each output's write-backs
    folded), every other buffer as entered. -/
def W3 (c : Dev nD) : Valuation τ sig (Elt F) :=
  Pipeline.withArrays spec2 c (W2 m ρ c) fun w => (dat2 (E2 m ρ) c).arrAt w cfg2.N
theorem W3_arr (c : Dev nD) (w : Fin cfg2.W) :
    W3 m ρ c (Proc.devRef .tc (Pipeline.arrRef spec2 w)) = (dat2 (E2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references: region 2's exit contents, region 3's entry contents. -/
abbrev E3 : (c : Dev nD) → (b : Ref sig .tc) → Buf (Elt F) ((c : Thread nD τ).loc b) := fun c b => W3 m ρ c b
theorem hF2 (c : Dev nD) (w : Fin cfg2.W) : (dat2 (E2 m ρ) c).arrAt w cfg2.N = E3 m ρ c (Pipeline.arrRef spec2 w) :=
  (W3_arr m ρ c w).symm
theorem hrest2 (c : Dev nD) : ∀ b, b ∉ Finset.univ.image (Pipeline.arrRef spec2) → E3 m ρ c b = E2 m ρ c b :=
  fun b hb => W3_of_ne m ρ c b fun w e => hb (Finset.mem_image.mpr ⟨w, Finset.mem_univ _, e⟩)

/-- At region 3's exit: its arrays at what the pipeline leaves (the inputs as entered, each output's write-backs
    folded), every other buffer as entered. -/
def W4 (c : Dev nD) : Valuation τ sig (Elt F) :=
  Pipeline.withArrays spec3 c (W3 m ρ c) fun w => (dat3 (E3 m ρ) c).arrAt w cfg3.N
theorem W4_arr (c : Dev nD) (w : Fin cfg3.W) :
    W4 m ρ c (Proc.devRef .tc (Pipeline.arrRef spec3 w)) = (dat3 (E3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references: region 3's exit contents, region 4's entry contents. -/
abbrev E4 : (c : Dev nD) → (b : Ref sig .tc) → Buf (Elt F) ((c : Thread nD τ).loc b) := fun c b => W4 m ρ c b
theorem hF3 (c : Dev nD) (w : Fin cfg3.W) : (dat3 (E3 m ρ) c).arrAt w cfg3.N = E4 m ρ c (Pipeline.arrRef spec3 w) :=
  (W4_arr m ρ c w).symm
theorem hrest3 (c : Dev nD) : ∀ b, b ∉ Finset.univ.image (Pipeline.arrRef spec3) → E4 m ρ c b = E3 m ρ c b :=
  fun b hb => W4_of_ne m ρ c b fun w e => hb (Finset.mem_image.mpr ⟨w, Finset.mem_univ _, e⟩)

/-- At region 4's exit: its arrays at what the pipeline leaves (the inputs as entered, each output's write-backs
    folded), every other buffer as entered. -/
def W5 (c : Dev nD) : Valuation τ sig (Elt F) :=
  Pipeline.withArrays spec4 c (W4 m ρ c) fun w => (dat4 (E4 m ρ) c).arrAt w cfg4.N
theorem W5_arr (c : Dev nD) (w : Fin cfg4.W) :
    W5 m ρ c (Proc.devRef .tc (Pipeline.arrRef spec4 w)) = (dat4 (E4 m ρ) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m ρ c (Proc.devRef .tc b) = W4 m ρ c (Proc.devRef .tc b) := by
  unfold W5; exact Pipeline.withArrays_of_ne spec4 c _ _ b hb
/-- The same read at the TensorCore's references: region 4's exit contents. -/
abbrev E5 : (c : Dev nD) → (b : Ref sig .tc) → Buf (Elt F) ((c : Thread nD τ).loc b) := fun c b => W5 m ρ c b
theorem hF4 (c : Dev nD) (w : Fin cfg4.W) : (dat4 (E4 m ρ) c).arrAt w cfg4.N = E5 m ρ c (Pipeline.arrRef spec4 w) :=
  (W5_arr m ρ c w).symm
theorem hrest4 (c : Dev nD) : ∀ b, b ∉ Finset.univ.image (Pipeline.arrRef spec4) → E5 m ρ c b = E4 m ρ c b :=
  fun b hb => W5_of_ne m ρ c b fun w e => hb (Finset.mem_image.mpr ⟨w, Finset.mem_univ _, e⟩)

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
  | ⟨4, _⟩ => fun c => dat4 (E4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at `W0`, left at `W1`. Its arrays are split
    out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at `W1`, left at `W2`. Its arrays are split
    out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (E1 m ρ) c)
    unfold Pipeline.ΦA
    iintro ⟨Hp, -, Hr⟩
    isplitl [Hr]; · iexact Hr
    iexact Hp
  hout c := by
    refine BIBase.Entails.trans (show (pdats m ρ 1 c).Φ (Fin.last _) ⊢ Pipeline.ΦA spec1 c from hout1 (E1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at `W2`, left at `W3`. Its arrays are split
    out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (E3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 3 over the thread state: entered from every unscoped buffer at `W3`, left at `W4`. Its arrays are split
    out of the unscoped buffers and put back at the exit contents; the generator register goes into the region's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec3 c ⊢ (pdats m ρ 3 c).Φ 0 from hin3 (E3 m ρ) c)
    unfold Pipeline.ΦA
    iintro ⟨Hp, -, Hr⟩
    isplitl [Hr]; · iexact Hr
    iexact Hp
  hout c := by
    refine BIBase.Entails.trans (show (pdats m ρ 3 c).Φ (Fin.last _) ⊢ Pipeline.ΦA spec3 c from hout3 (E3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (E4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 4 over the thread state: entered from every unscoped buffer at `W4`, left at `W5`. Its arrays are split
    out of the unscoped buffers and put back at the exit contents; the generator register goes into the region's
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E4 m ρ c) (E5 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]

/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and every final state holds every unscoped buffer at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Args.lean ====
import proofs.«422171_j68341519614500_3_alg».proof.Proof.K.Run

/-! What the last boundary's contents are at the buffers the claims speak of: every ARGUMENT array is as launched
    (no region writes one: a region either reads it through an input window, whose array the write-backs leave alone,
    or does not touch it); each region's entry contents at the arrays it reads, traced back to the region that wrote
    them or to the launch memory. -/

set_option maxRecDepth 16384

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ) (ρ : Dev nD → PrngReg)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 3).trans (((dat1 (E1 m ρ) c).arrAt_in 3 rfl _).trans (A_eq1 (E1 m ρ) c 3))
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (E0 m ρ) c).arrAt_in 1 rfl _).trans (A_eq0 (E0 m ρ) c 1))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 2).trans (((dat0 (E0 m ρ) c).arrAt_in 2 rfl _).trans (A_eq0 (E0 m ρ) c 2))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := (W4_arr m ρ c 3).trans (((dat3 (E3 m ρ) c).arrAt_in 3 rfl _).trans (A_eq3 (E3 m ρ) c 3))
    _ = W2 m ρ c (Proc.devRef .tc main_arg3) := (W3_arr m ρ c 0).trans (((dat2 (E2 m ρ) c).arrAt_in 0 rfl _).trans (A_eq2 (E2 m ρ) c 0))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := (W3_arr m ρ c 2).trans (((dat2 (E2 m ρ) c).arrAt_in 2 rfl _).trans (A_eq2 (E2 m ρ) c 2))
    _ = W1 m ρ c (Proc.devRef .tc main_arg4) := W2_of_ne m ρ c main_arg4 (by decide)
    _ = W0 m ρ c (Proc.devRef .tc main_arg4) := (W1_arr m ρ c 3).trans (((dat0 (E0 m ρ) c).arrAt_in 3 rfl _).trans (A_eq0 (E0 m ρ) c 3))
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := (W3_arr m ρ c 3).trans (((dat2 (E2 m ρ) c).arrAt_in 3 rfl _).trans (A_eq2 (E2 m ρ) c 3))
    _ = W1 m ρ c (Proc.devRef .tc main_arg5) := W2_of_ne m ρ c main_arg5 (by decide)
    _ = W0 m ρ c (Proc.devRef .tc main_arg5) := (W1_arr m ρ c 4).trans (((dat0 (E0 m ρ) c).arrAt_in 4 rfl _).trans (A_eq0 (E0 m ρ) c 4))
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := (W3_arr m ρ c 4).trans (((dat2 (E2 m ρ) c).arrAt_in 4 rfl _).trans (A_eq2 (E2 m ρ) c 4))
    _ = W1 m ρ c (Proc.devRef .tc main_arg6) := W2_of_ne m ρ c main_arg6 (by decide)
    _ = W0 m ρ c (Proc.devRef .tc main_arg6) := (W1_arr m ρ c 5).trans (((dat0 (E0 m ρ) c).arrAt_in 5 rfl _).trans (A_eq0 (E0 m ρ) c 5))
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := (W3_arr m ρ c 5).trans (((dat2 (E2 m ρ) c).arrAt_in 5 rfl _).trans (A_eq2 (E2 m ρ) c 5))
    _ = W1 m ρ c (Proc.devRef .tc main_arg7) := W2_of_ne m ρ c main_arg7 (by decide)
    _ = W0 m ρ c (Proc.devRef .tc main_arg7) := (W1_arr m ρ c 6).trans (((dat0 (E0 m ρ) c).arrAt_in 6 rfl _).trans (A_eq0 (E0 m ρ) c 6))
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := (W3_arr m ρ c 6).trans (((dat2 (E2 m ρ) c).arrAt_in 6 rfl _).trans (A_eq2 (E2 m ρ) c 6))
    _ = W1 m ρ c (Proc.devRef .tc main_arg8) := W2_of_ne m ρ c main_arg8 (by decide)
    _ = W0 m ρ c (Proc.devRef .tc main_arg8) := (W1_arr m ρ c 7).trans (((dat0 (E0 m ρ) c).arrAt_in 7 rfl _).trans (A_eq0 (E0 m ρ) c 7))
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := (W3_arr m ρ c 7).trans (((dat2 (E2 m ρ) c).arrAt_in 7 rfl _).trans (A_eq2 (E2 m ρ) c 7))
    _ = W1 m ρ c (Proc.devRef .tc main_arg9) := W2_of_ne m ρ c main_arg9 (by decide)
    _ = W0 m ρ c (Proc.devRef .tc main_arg9) := (W1_arr m ρ c 8).trans (((dat0 (E0 m ρ) c).arrAt_in 8 rfl _).trans (A_eq0 (E0 m ρ) c 8))
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := (W5_arr m ρ c 1).trans (((dat4 (E4 m ρ) c).arrAt_in 1 rfl _).trans (A_eq4 (E4 m ρ) c 1))
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := (W5_arr m ρ c 2).trans (((dat4 (E4 m ρ) c).arrAt_in 2 rfl _).trans (A_eq4 (E4 m ρ) c 2))
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl

theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := (W5_arr m ρ c 3).trans (((dat4 (E4 m ρ) c).arrAt_in 3 rfl _).trans (A_eq4 (E4 m ρ) c 3))
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of_ne m ρ c main_arg12 (by decide)
    _ = m ((c : Thread nD τ).loc main_arg12) := rfl

theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := (W5_arr m ρ c 4).trans (((dat4 (E4 m ρ) c).arrAt_in 4 rfl _).trans (A_eq4 (E4 m ρ) c 4))
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := W1_of_ne m ρ c main_arg13 (by decide)
    _ = m ((c : Thread nD τ).loc main_arg13) := rfl

theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := (W5_arr m ρ c 5).trans (((dat4 (E4 m ρ) c).arrAt_in 5 rfl _).trans (A_eq4 (E4 m ρ) c 5))
    _ = W3 m ρ c (Proc.devRef .tc main_arg14) := (W4_arr m ρ c 4).trans (((dat3 (E3 m ρ) c).arrAt_in 4 rfl _).trans (A_eq3 (E3 m ρ) c 4))
    _ = W2 m ρ c (Proc.devRef .tc main_arg14) := W3_of_ne m ρ c main_arg14 (by decide)
    _ = W1 m ρ c (Proc.devRef .tc main_arg14) := (W2_arr m ρ c 4).trans (((dat1 (E1 m ρ) c).arrAt_in 4 rfl _).trans (A_eq1 (E1 m ρ) c 4))
    _ = W0 m ρ c (Proc.devRef .tc main_arg14) := W1_of_ne m ρ c main_arg14 (by decide)
    _ = m ((c : Thread nD τ).loc main_arg14) := rfl

theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := (W5_arr m ρ c 6).trans (((dat4 (E4 m ρ) c).arrAt_in 6 rfl _).trans (A_eq4 (E4 m ρ) c 6))
    _ = W3 m ρ c (Proc.devRef .tc main_arg15) := (W4_arr m ρ c 5).trans (((dat3 (E3 m ρ) c).arrAt_in 5 rfl _).trans (A_eq3 (E3 m ρ) c 5))
    _ = W2 m ρ c (Proc.devRef .tc main_arg15) := W3_of_ne m ρ c main_arg15 (by decide)
    _ = W1 m ρ c (Proc.devRef .tc main_arg15) := (W2_arr m ρ c 5).trans (((dat1 (E1 m ρ) c).arrAt_in 5 rfl _).trans (A_eq1 (E1 m ρ) c 5))
    _ = W0 m ρ c (Proc.devRef .tc main_arg15) := W1_of_ne m ρ c main_arg15 (by decide)
    _ = m ((c : Thread nD τ).loc main_arg15) := rfl

/-! ## Each region's entry contents at the arrays it reads -/

theorem E0_main_arg0 (c : Dev nD) : E0 m ρ c main_arg0 = m ((c : Thread nD τ).loc main_arg0) :=
  calc W0 m ρ c (Proc.devRef .tc main_arg0)
    _ = m ((c : Thread nD τ).loc main_arg0) := rfl

theorem E0_main_arg1 (c : Dev nD) : E0 m ρ c main_arg1 = m ((c : Thread nD τ).loc main_arg1) :=
  calc W0 m ρ c (Proc.devRef .tc main_arg1)
    _ = m ((c : Thread nD τ).loc main_arg1) := rfl

theorem E0_main_arg2 (c : Dev nD) : E0 m ρ c main_arg2 = m ((c : Thread nD τ).loc main_arg2) :=
  calc W0 m ρ c (Proc.devRef .tc main_arg2)
    _ = m ((c : Thread nD τ).loc main_arg2) := rfl

theorem E0_main_arg4 (c : Dev nD) : E0 m ρ c main_arg4 = m ((c : Thread nD τ).loc main_arg4) :=
  calc W0 m ρ c (Proc.devRef .tc main_arg4)
    _ = m ((c : Thread nD τ).loc main_arg4) := rfl

theorem E0_main_arg5 (c : Dev nD) : E0 m ρ c main_arg5 = m ((c : Thread nD τ).loc main_arg5) :=
  calc W0 m ρ c (Proc.devRef .tc main_arg5)
    _ = m ((c : Thread nD τ).loc main_arg5) := rfl

theorem E0_main_arg6 (c : Dev nD) : E0 m ρ c main_arg6 = m ((c : Thread nD τ).loc main_arg6) :=
  calc W0 m ρ c (Proc.devRef .tc main_arg6)
    _ = m ((c : Thread nD τ).loc main_arg6) := rfl

theorem E0_main_arg7 (c : Dev nD) : E0 m ρ c main_arg7 = m ((c : Thread nD τ).loc main_arg7) :=
  calc W0 m ρ c (Proc.devRef .tc main_arg7)
    _ = m ((c : Thread nD τ).loc main_arg7) := rfl

theorem E0_main_arg8 (c : Dev nD) : E0 m ρ c main_arg8 = m ((c : Thread nD τ).loc main_arg8) :=
  calc W0 m ρ c (Proc.devRef .tc main_arg8)
    _ = m ((c : Thread nD τ).loc main_arg8) := rfl

theorem E0_main_arg9 (c : Dev nD) : E0 m ρ c main_arg9 = m ((c : Thread nD τ).loc main_arg9) :=
  calc W0 m ρ c (Proc.devRef .tc main_arg9)
    _ = m ((c : Thread nD τ).loc main_arg9) := rfl

theorem E1_main_v0_0 (c : Dev nD) : E1 m ρ c main_v0_0 = (dat0 (E0 m ρ) c).arrAt 9 cfg0.N :=
  calc W1 m ρ c (Proc.devRef .tc main_v0_0)
    _ = (dat0 (E0 m ρ) c).arrAt 9 cfg0.N := W1_arr m ρ c 9

theorem E1_main_v0_1 (c : Dev nD) : E1 m ρ c main_v0_1 = (dat0 (E0 m ρ) c).arrAt 10 cfg0.N :=
  calc W1 m ρ c (Proc.devRef .tc main_v0_1)
    _ = (dat0 (E0 m ρ) c).arrAt 10 cfg0.N := W1_arr m ρ c 10

theorem E1_main_v0_2 (c : Dev nD) : E1 m ρ c main_v0_2 = (dat0 (E0 m ρ) c).arrAt 11 cfg0.N :=
  calc W1 m ρ c (Proc.devRef .tc main_v0_2)
    _ = (dat0 (E0 m ρ) c).arrAt 11 cfg0.N := W1_arr m ρ c 11

theorem E1_main_arg0 (c : Dev nD) : E1 m ρ c main_arg0 = m ((c : Thread nD τ).loc main_arg0) :=
  calc W1 m ρ c (Proc.devRef .tc main_arg0)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

theorem E1_main_arg14 (c : Dev nD) : E1 m ρ c main_arg14 = m ((c : Thread nD τ).loc main_arg14) :=
  calc W1 m ρ c (Proc.devRef .tc main_arg14)
    _ = W0 m ρ c (Proc.devRef .tc main_arg14) := W1_of_ne m ρ c main_arg14 (by decide)
    _ = m ((c : Thread nD τ).loc main_arg14) := rfl

theorem E1_main_arg15 (c : Dev nD) : E1 m ρ c main_arg15 = m ((c : Thread nD τ).loc main_arg15) :=
  calc W1 m ρ c (Proc.devRef .tc main_arg15)
    _ = W0 m ρ c (Proc.devRef .tc main_arg15) := W1_of_ne m ρ c main_arg15 (by decide)
    _ = m ((c : Thread nD τ).loc main_arg15) := rfl

theorem E2_main_arg3 (c : Dev nD) : E2 m ρ c main_arg3 = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem E2_main_v1 (c : Dev nD) : E2 m ρ c main_v1 = (dat1 (E1 m ρ) c).arrAt 6 cfg1.N :=
  calc W2 m ρ c (Proc.devRef .tc main_v1)
    _ = (dat1 (E1 m ρ) c).arrAt 6 cfg1.N := W2_arr m ρ c 6

theorem E2_main_arg4 (c : Dev nD) : E2 m ρ c main_arg4 = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := (W1_arr m ρ c 3).trans (((dat0 (E0 m ρ) c).arrAt_in 3 rfl _).trans (A_eq0 (E0 m ρ) c 3))
    _ = m ((c : Thread nD τ).loc main_arg4) := rfl

theorem E2_main_arg5 (c : Dev nD) : E2 m ρ c main_arg5 = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := (W1_arr m ρ c 4).trans (((dat0 (E0 m ρ) c).arrAt_in 4 rfl _).trans (A_eq0 (E0 m ρ) c 4))
    _ = m ((c : Thread nD τ).loc main_arg5) := rfl

theorem E2_main_arg6 (c : Dev nD) : E2 m ρ c main_arg6 = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := (W1_arr m ρ c 5).trans (((dat0 (E0 m ρ) c).arrAt_in 5 rfl _).trans (A_eq0 (E0 m ρ) c 5))
    _ = m ((c : Thread nD τ).loc main_arg6) := rfl

theorem E2_main_arg7 (c : Dev nD) : E2 m ρ c main_arg7 = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := (W1_arr m ρ c 6).trans (((dat0 (E0 m ρ) c).arrAt_in 6 rfl _).trans (A_eq0 (E0 m ρ) c 6))
    _ = m ((c : Thread nD τ).loc main_arg7) := rfl

theorem E2_main_arg8 (c : Dev nD) : E2 m ρ c main_arg8 = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := (W1_arr m ρ c 7).trans (((dat0 (E0 m ρ) c).arrAt_in 7 rfl _).trans (A_eq0 (E0 m ρ) c 7))
    _ = m ((c : Thread nD τ).loc main_arg8) := rfl

theorem E2_main_arg9 (c : Dev nD) : E2 m ρ c main_arg9 = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := (W1_arr m ρ c 8).trans (((dat0 (E0 m ρ) c).arrAt_in 8 rfl _).trans (A_eq0 (E0 m ρ) c 8))
    _ = m ((c : Thread nD τ).loc main_arg9) := rfl

theorem E3_main_v2_0 (c : Dev nD) : E3 m ρ c main_v2_0 = (dat2 (E2 m ρ) c).arrAt 8 cfg2.N :=
  calc W3 m ρ c (Proc.devRef .tc main_v2_0)
    _ = (dat2 (E2 m ρ) c).arrAt 8 cfg2.N := W3_arr m ρ c 8

theorem E3_main_v2_1 (c : Dev nD) : E3 m ρ c main_v2_1 = (dat2 (E2 m ρ) c).arrAt 9 cfg2.N :=
  calc W3 m ρ c (Proc.devRef .tc main_v2_1)
    _ = (dat2 (E2 m ρ) c).arrAt 9 cfg2.N := W3_arr m ρ c 9

theorem E3_main_v2_2 (c : Dev nD) : E3 m ρ c main_v2_2 = (dat2 (E2 m ρ) c).arrAt 10 cfg2.N :=
  calc W3 m ρ c (Proc.devRef .tc main_v2_2)
    _ = (dat2 (E2 m ρ) c).arrAt 10 cfg2.N := W3_arr m ρ c 10

theorem E3_main_arg3 (c : Dev nD) : E3 m ρ c main_arg3 = m ((c : Thread nD τ).loc main_arg3) :=
  calc W3 m ρ c (Proc.devRef .tc main_arg3)
    _ = W2 m ρ c (Proc.devRef .tc main_arg3) := (W3_arr m ρ c 0).trans (((dat2 (E2 m ρ) c).arrAt_in 0 rfl _).trans (A_eq2 (E2 m ρ) c 0))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem E3_main_arg14 (c : Dev nD) : E3 m ρ c main_arg14 = m ((c : Thread nD τ).loc main_arg14) :=
  calc W3 m ρ c (Proc.devRef .tc main_arg14)
    _ = W2 m ρ c (Proc.devRef .tc main_arg14) := W3_of_ne m ρ c main_arg14 (by decide)
    _ = W1 m ρ c (Proc.devRef .tc main_arg14) := (W2_arr m ρ c 4).trans (((dat1 (E1 m ρ) c).arrAt_in 4 rfl _).trans (A_eq1 (E1 m ρ) c 4))
    _ = W0 m ρ c (Proc.devRef .tc main_arg14) := W1_of_ne m ρ c main_arg14 (by decide)
    _ = m ((c : Thread nD τ).loc main_arg14) := rfl

theorem E3_main_arg15 (c : Dev nD) : E3 m ρ c main_arg15 = m ((c : Thread nD τ).loc main_arg15) :=
  calc W3 m ρ c (Proc.devRef .tc main_arg15)
    _ = W2 m ρ c (Proc.devRef .tc main_arg15) := W3_of_ne m ρ c main_arg15 (by decide)
    _ = W1 m ρ c (Proc.devRef .tc main_arg15) := (W2_arr m ρ c 5).trans (((dat1 (E1 m ρ) c).arrAt_in 5 rfl _).trans (A_eq1 (E1 m ρ) c 5))
    _ = W0 m ρ c (Proc.devRef .tc main_arg15) := W1_of_ne m ρ c main_arg15 (by decide)
    _ = m ((c : Thread nD τ).loc main_arg15) := rfl

theorem E4_main_v3 (c : Dev nD) : E4 m ρ c main_v3 = (dat3 (E3 m ρ) c).arrAt 6 cfg3.N :=
  calc W4 m ρ c (Proc.devRef .tc main_v3)
    _ = (dat3 (E3 m ρ) c).arrAt 6 cfg3.N := W4_arr m ρ c 6

theorem E4_main_arg10 (c : Dev nD) : E4 m ρ c main_arg10 = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

theorem E4_main_arg11 (c : Dev nD) : E4 m ρ c main_arg11 = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl

theorem E4_main_arg12 (c : Dev nD) : E4 m ρ c main_arg12 = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of_ne m ρ c main_arg12 (by decide)
    _ = m ((c : Thread nD τ).loc main_arg12) := rfl

theorem E4_main_arg13 (c : Dev nD) : E4 m ρ c main_arg13 = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := W1_of_ne m ρ c main_arg13 (by decide)
    _ = m ((c : Thread nD τ).loc main_arg13) := rfl

theorem E4_main_arg14 (c : Dev nD) : E4 m ρ c main_arg14 = m ((c : Thread nD τ).loc main_arg14) :=
  calc W4 m ρ c (Proc.devRef .tc main_arg14)
    _ = W3 m ρ c (Proc.devRef .tc main_arg14) := (W4_arr m ρ c 4).trans (((dat3 (E3 m ρ) c).arrAt_in 4 rfl _).trans (A_eq3 (E3 m ρ) c 4))
    _ = W2 m ρ c (Proc.devRef .tc main_arg14) := W3_of_ne m ρ c main_arg14 (by decide)
    _ = W1 m ρ c (Proc.devRef .tc main_arg14) := (W2_arr m ρ c 4).trans (((dat1 (E1 m ρ) c).arrAt_in 4 rfl _).trans (A_eq1 (E1 m ρ) c 4))
    _ = W0 m ρ c (Proc.devRef .tc main_arg14) := W1_of_ne m ρ c main_arg14 (by decide)
    _ = m ((c : Thread nD τ).loc main_arg14) := rfl

theorem E4_main_arg15 (c : Dev nD) : E4 m ρ c main_arg15 = m ((c : Thread nD τ).loc main_arg15) :=
  calc W4 m ρ c (Proc.devRef .tc main_arg15)
    _ = W3 m ρ c (Proc.devRef .tc main_arg15) := (W4_arr m ρ c 5).trans (((dat3 (E3 m ρ) c).arrAt_in 5 rfl _).trans (A_eq3 (E3 m ρ) c 5))
    _ = W2 m ρ c (Proc.devRef .tc main_arg15) := W3_of_ne m ρ c main_arg15 (by decide)
    _ = W1 m ρ c (Proc.devRef .tc main_arg15) := (W2_arr m ρ c 5).trans (((dat1 (E1 m ρ) c).arrAt_in 5 rfl _).trans (A_eq1 (E1 m ρ) c 5))
    _ = W0 m ρ c (Proc.devRef .tc main_arg15) := W1_of_ne m ρ c main_arg15 (by decide)
    _ = m ((c : Thread nD τ).loc main_arg15) := rfl

theorem E5_main_v4 (c : Dev nD) : E5 m ρ c main_v4 = (dat4 (E4 m ρ) c).arrAt 7 cfg4.N :=
  calc W5 m ρ c (Proc.devRef .tc main_v4)
    _ = (dat4 (E4 m ρ) c).arrAt 7 cfg4.N := W5_arr m ρ c 7

end Cert.Kernel.Hand

end
-- ==== Proof.KI.A0.lean ====
/- THE FRAME HALF OF REGION 0 of @main: custom_call 0, `cc0_proj3_kernel` (pipeline 0), at a PARAMETER `V` — the
   TensorCore's buffer contents when the region is entered. The body loads its nine input windows whole, computes,
   and stores each of its three output windows whole, with no scratch and no branch: each window's block at a point
   (`iblk0`), each input's staging buffer at its block at every point (`before0_W`), each output's buffer after the
   body as the canonical contents of its one store (`out0_W`), the body's triple (`sound_kernel0`), the proof data
   (`dat0`) and the body obligation (`body_obligation0`). -/
import proofs.«422171_j68341519614500_3_alg».proof.Proof.Gen.KernelIdeal.Launch
import proofs.«422171_j68341519614500_3_alg».proof.Proof.Gen.KernelIdeal.Skeleton
import proofs.«422171_j68341519614500_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0_proj3_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block index has
    not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof
    data whose array is `V`'s (`hA`) and whose body leaves the block in place (`hafter`): unfetched, the block index has
    not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for ANY proof
    data whose array is `V`'s (`hA`) and whose body leaves the block in place (`hafter`): unfetched, the block index has
    not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for ANY proof
    data whose array is `V`'s (`hA`) and whose body leaves the block in place (`hafter`): unfetched, the block index has
    not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for ANY proof
    data whose array is `V`'s (`hA`) and whose body leaves the block in place (`hafter`): unfetched, the block index has
    not moved; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for ANY proof
    data whose array is `V`'s (`hA`) and whose body leaves the block in place (`hafter`): unfetched, the block index has
    not moved; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x256 := Rect.unit (s := S2048x256) ![0, 0] S2048x256.size inb_S2048x256_S2048x256_0_0
abbrev r0_1 : Rect S256x256 := Rect.unit (s := S256x256) ![0, 0] S256x256.size inb_S256x256_S256x256_0_0
abbrev r0_2 : Rect S256 := Rect.unit (s := S256) ![0] S256.size inb_S256_S256_0

/-! ## What the body leaves in each output window's buffer -/

/-- Window 9's staging buffer after the body, from the input windows' blocks: its 1 store as a piece, the payload the
    skeleton's over what the loads read. -/
def out0_9 (x0 : Vec F S2048x256 .f32) (x1 : Vec F S2048x256 .f32) (x2 : Vec F S2048x256 .f32) (x3 : Vec F S256x256 .f32) (x4 : Vec F S256 .f32) (x5 : Vec F S256x256 .f32) (x6 : Vec F S256 .f32) (x7 : Vec F S256x256 .f32) (x8 : Vec F S256 .f32) : Vec F S2048x256 .bf16 :=
  View.canon [⟨r0_0, k0_pay1 (View.ld x0 r0_0) (View.ld x3 r0_1) (View.ld x4 r0_2)⟩]

/-- Its store tiles the buffer (checked by evaluation), so it covers it. -/
theorem cover0_9 (p0 : Vec F S2048x256 .bf16) (y : S2048x256.Idx) :
    ∃ pc ∈ ([⟨r0_0, p0⟩] : List (View.Piece (Elt F) S2048x256 .bf16)), y ∈ pc.1.set :=
  View.cover_of_tiled [⟨r0_0, p0⟩] S2048x256.size (by rfl) y

/-- Window 10's staging buffer after the body, from the input windows' blocks: its 1 store as a piece, the payload the
    skeleton's over what the loads read. -/
def out0_10 (x0 : Vec F S2048x256 .f32) (x1 : Vec F S2048x256 .f32) (x2 : Vec F S2048x256 .f32) (x3 : Vec F S256x256 .f32) (x4 : Vec F S256 .f32) (x5 : Vec F S256x256 .f32) (x6 : Vec F S256 .f32) (x7 : Vec F S256x256 .f32) (x8 : Vec F S256 .f32) : Vec F S2048x256 .bf16 :=
  View.canon [⟨r0_0, k0_pay2 (View.ld x1 r0_0) (View.ld x5 r0_1) (View.ld x6 r0_2)⟩]

/-- Its store tiles the buffer (checked by evaluation), so it covers it. -/
theorem cover0_10 (p0 : Vec F S2048x256 .bf16) (y : S2048x256.Idx) :
    ∃ pc ∈ ([⟨r0_0, p0⟩] : List (View.Piece (Elt F) S2048x256 .bf16)), y ∈ pc.1.set :=
  View.cover_of_tiled [⟨r0_0, p0⟩] S2048x256.size (by rfl) y

/-- Window 11's staging buffer after the body, from the input windows' blocks: its 1 store as a piece, the payload the
    skeleton's over what the loads read. -/
def out0_11 (x0 : Vec F S2048x256 .f32) (x1 : Vec F S2048x256 .f32) (x2 : Vec F S2048x256 .f32) (x3 : Vec F S256x256 .f32) (x4 : Vec F S256 .f32) (x5 : Vec F S256x256 .f32) (x6 : Vec F S256 .f32) (x7 : Vec F S256x256 .f32) (x8 : Vec F S256 .f32) : Vec F S2048x256 .bf16 :=
  View.canon [⟨r0_0, k0_pay3 (View.ld x2 r0_0) (View.ld x7 r0_1) (View.ld x8 r0_2)⟩]

/-- Its store tiles the buffer (checked by evaluation), so it covers it. -/
theorem cover0_11 (p0 : Vec F S2048x256 .bf16) (y : S2048x256.Idx) :
    ∃ pc ∈ ([⟨r0_0, p0⟩] : List (View.Piece (Elt F) S2048x256 .bf16)), y ∈ pc.1.set :=
  View.cover_of_tiled [⟨r0_0, p0⟩] S2048x256.size (by rfl) y

/-! ## The body's triple -/

set_option maxHeartbeats 1000000 in
/-- The kernel body on whole staging memrefs, the inputs' at read contents `xW` and the outputs' at anything, runs to
    the continuation holding the inputs' as they were and each output's at `out0_W` of the inputs': the printed
    functions are their skeletons, run statement by statement through the part call. -/
theorem sound_kernel0 (c : Dev nD) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole)
    (x0 : Vec F S2048x256 .f32) (x1 : Vec F S2048x256 .f32) (x2 : Vec F S2048x256 .f32) (x3 : Vec F S256x256 .f32) (x4 : Vec F S256 .f32) (x5 : Vec F S256x256 .f32) (x6 : Vec F S256 .f32) (x7 : Vec F S256x256 .f32) (x8 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8)) -∗ K ⟨⟩))
      ⊢ wp frame (wpE (defs₀ (F := F)) Variants.none c none) E (cc0_proj3_kernel i arg1 harg1 arg2 harg2 arg3 harg3 arg4 harg4 arg5 harg5 arg6 harg6 arg7 harg7 arg8 harg8 arg9 harg9 arg10 harg10 arg11 harg11 arg12 harg12) K := by
  simp only [cc0_proj3_kernel_eq_skeleton]; unfold cc0_proj3_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  isplitl [H10]
  · iexists _; isplitr
    swap; · iexact H10
    ipureintro
    try dsimp only
    exact View.read_writes_eq_canon _ _ _ (cover0_10 _)
  iexists _; isplitr
  swap; · iexact H11
  ipureintro
  try dsimp only
  exact View.read_writes_eq_canon _ _ _ (cover0_11 _)

/-! ## The pipeline's proof data -/

/-- The proof data of pipeline 0 on core `c`: the arrays as the region finds them (`V`); after the body at
    point `t` each input's buffer at its block and each output's at `out0_W` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.F1Runs.lean ====
/- What the three case runs of custom_call 1's frame half share: the windows' blocks read off the region-entry
   contents, the body's two branch conditions decided over the grid, where output window 6 is idle, the staging
   and scratch memrefs, and the region invariant with the three scratch operands opened. -/
import proofs.«422171_j68341519614500_3_alg».proof.Proof.Gen.KernelIdeal.Launch
import proofs.«422171_j68341519614500_3_alg».proof.Proof.Gen.KernelIdeal.Skeleton
import proofs.«422171_j68341519614500_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof
    data whose array is `V`'s (`hA`) and whose body leaves the block in place (`hafter`): unfetched, the block index
    has not moved; the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the reset of the three scratch), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16): the first kv step of each q block. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (normalise, add the residual, layer-normalise, store). -/
abbrev cond1_1 (i : grid1.Coords) : Prop := k1_cond2 i = 1#1
/-- It holds at the points ≡ 15 (mod 16): the last kv step of each q block. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- At the points of case A output 6 is idle: the case stores nothing into it. -/
theorem idleAt1_6_A : ∀ t : Fin cfg1.N, cond1_0 (grid1.coords t) → ¬cond1_1 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → (cfg1.win 6).flush t = false := by decide +kernel
/-- At the points of case B output 6 is idle: the case stores nothing into it. -/
theorem idleAt1_6_B : ∀ t : Fin cfg1.N, ¬cond1_0 (grid1.coords t) → ¬cond1_1 (grid1.coords t) → cfg1.idle 6 (grid1.coords t) = true := by decide +kernel
/-- At the points of case B the pipeline does not write output 6's block back. -/
theorem noFlush1_6_B : ∀ t : Fin cfg1.N, ¬cond1_0 (grid1.coords t) → ¬cond1_1 (grid1.coords t) → (cfg1.win 6).flush t = false := by decide +kernel
/-- At the points of case C output 6 is live: the case stores into it. -/
theorem liveAt1_6_C : ∀ t : Fin cfg1.N, ¬cond1_0 (grid1.coords t) → cond1_1 (grid1.coords t) → cfg1.idle 6 (grid1.coords t) = false := by decide +kernel

/-! ## The staging and scratch memrefs -/

/-- One staging buffer of output window 6, through which its contents are stated (the choice does not matter). -/
abbrev VO1_6 : View sig .tc .vmem S2048x256 .f32 := (Memref.whole cc1_stg6_0 : Memref sig .tc .vmem S2048x256 .f32).view
/-- Each window's current staging memref at point `t`, spelled as the pipeline passes it, and its wholeness. -/
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x256 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows
    (the running maximum, the running sum, the accumulator). -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x256 .f32 := Memref.whole cc1_scratch2
/-- The scratch the kernel carries between points, as views: what they hold is stated through them. -/
abbrev VS1_0 : View sig .tc .vmem S2048x1 .f32 := scM1_0.view
abbrev VS1_1 : View sig .tc .vmem S2048x1 .f32 := scM1_1.view
abbrev VS1_2 : View sig .tc .vmem S2048x256 .f32 := scM1_2.view

/-- The scoped buffers of the core that are neither a staging buffer of this call nor one of its three scratch
    operands, at some contents each: carried through the region unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region invariant with the three scratch operands as memrefs owned at some contents, the other scoped
    buffers unopened and the generator register at some state: what the body obligation hands the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restBut1 (F := F) c) ∗ (∃ r, prngReg c r)) := by
  unfold Pipeline.ΦA; rw [scopedRest1_split]; simp only [scM1_0, scM1_1, scM1_2, owns_whole]; try rfl

end Cert.KernelIdeal.Hand

end
-- ==== Proof.KI.F1RunA.lean ====
/- The whole-body run of custom_call 1's kernel in case A of its frame half (the first kv step of a q block:
   the three scratch are reset, then updated; the output is not touched). -/
import proofs.«422171_j68341519614500_3_alg».proof.Proof.KI.F1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- What the body's stores leave in the output's staging memref and in the three scratch, as pieces (last first), IN
    CASE A (first `scf.if` taken, second not), WITH the proof that on whole memrefs — the inputs' at their contents,
    the output's at contents `xi6` handed back untouched, the three scratch at anything — the body runs to the
    continuation holding the inputs' as they were, the output's as it was and each scratch with its pieces written. -/
noncomputable def kernelRun1_A (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (xi6 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_flash_ln_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc1_flash_ln_kernel_eq_skeleton]; unfold cc1_flash_ln_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.F1RunB.lean ====
/- The whole-body run of custom_call 1's kernel in case B of its frame half (a middle kv step: the three scratch,
   at what the point before left, are updated; the output is not touched). -/
import proofs.«422171_j68341519614500_3_alg».proof.Proof.KI.F1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- What the body's stores leave in the output's staging memref and in the three scratch, as pieces (last first), IN
    CASE B (neither `scf.if` taken), WITH the proof that on whole memrefs — the inputs' at their contents, the output's
    at contents `xi6` handed back untouched, the three scratch at the contents the point before left (`xs·`) — the body
    runs to the continuation holding the inputs' as they were, the output's as it was and each scratch with its pieces
    written. -/
noncomputable def kernelRun1_B (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (xi6 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_flash_ln_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc1_flash_ln_kernel_eq_skeleton]; unfold cc1_flash_ln_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.F1RunC.lean ====
/- The whole-body run of custom_call 1's kernel in case C of its frame half (the last kv step of a q block: the
   three scratch, at what the point before left, are updated; then the accumulator is normalised, the residual added,
   the row layer-normalised and the output block stored). -/
import proofs.«422171_j68341519614500_3_alg».proof.Proof.KI.F1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- What the body's stores leave in the output's staging memref and in the three scratch, as pieces (last first), IN
    CASE C (first `scf.if` not taken, second taken), WITH the proof that on whole memrefs — the inputs' at their
    contents, the output's at anything, the three scratch at the contents the point before left (`xs·`) — the body runs
    to the continuation holding the inputs' as they were and the output's and each scratch with its pieces written. -/
noncomputable def kernelRun1_C (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_flash_ln_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_flash_ln_kernel_eq_skeleton]; unfold cc1_flash_ln_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.KernelIdeal.Hand

end
-- ==== Proof.KI.F1.lean ====
/- The frame half of custom_call 1 (the attention kernel with a layer-normalised residual, 4 × 16 grid): what the
   output and the three carried scratch hold per case and point by point, the proof data, the body obligation at every
   point, and the invariant's two ends. -/
import proofs.«422171_j68341519614500_3_alg».proof.Proof.KI.F1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-- Case A stores nothing into output 6 (the window is idle at its points and not written back there): no pieces —
    a placeholder (junk read back) that nothing consults. -/
def out1_A_6 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x256 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 hc1 x0 x1 x2 x3 x4 x5).1)

/-- Case A's pieces for the running maximum (scratch `arg9`), which the kernel carries between points, cover it (whole-buffer stores). -/
theorem scover1_A_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (y : S2048x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.1 S2048x1.size (by sl_kernel_rfl) y

/-- What case A leaves in the running maximum (scratch `arg9`): its pieces read back over junk. -/
def sout1_A_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5).2.1)

/-- Case A's pieces for the running sum (scratch `arg10`), which the kernel carries between points, cover it (whole-buffer stores). -/
theorem scover1_A_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (y : S2048x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.1 S2048x1.size (by sl_kernel_rfl) y

/-- What case A leaves in the running sum (scratch `arg10`): its pieces read back over junk. -/
def sout1_A_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5).2.2.1)

/-- Case A's pieces for the accumulator (scratch `arg11`), which the kernel carries between points, cover it (whole-buffer stores). -/
theorem scover1_A_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (y : S2048x256.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.2.1 S2048x256.size (by sl_kernel_rfl) y

/-- What case A leaves in the accumulator (scratch `arg11`): its pieces read back over junk. -/
def sout1_A_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x256 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B stores nothing into output 6 (the window is idle at its points and not written back there): no pieces —
    a placeholder (junk read back) that nothing consults. -/
def out1_B_6 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case B's pieces for the running maximum (scratch `arg9`), which the kernel carries between points, cover it (whole-buffer stores). -/
theorem scover1_B_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S2048x1.size (by sl_kernel_rfl) y

/-- What case B leaves in the running maximum (scratch `arg9`): its pieces read back over junk. -/
def sout1_B_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case B's pieces for the running sum (scratch `arg10`), which the kernel carries between points, cover it (whole-buffer stores). -/
theorem scover1_B_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S2048x1.size (by sl_kernel_rfl) y

/-- What case B leaves in the running sum (scratch `arg10`): its pieces read back over junk. -/
def sout1_B_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case B's pieces for the accumulator (scratch `arg11`), which the kernel carries between points, cover it (whole-buffer stores). -/
theorem scover1_B_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x256.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S2048x256.size (by sl_kernel_rfl) y

/-- What case B leaves in the accumulator (scratch `arg11`): its pieces read back over junk. -/
def sout1_B_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- Case C's pieces for output 6 tile its block (one whole-block store), so they cover it. -/
theorem cover1_C_6 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S2048x256.size (by sl_kernel_rfl) y

/-- What case C leaves in output 6's staging buffer: its pieces read back over junk. -/
def out1_C_6 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case C's pieces for the running maximum (scratch `arg9`), which the kernel carries between points, cover it (whole-buffer stores). -/
theorem scover1_C_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S2048x1.size (by sl_kernel_rfl) y

/-- What case C leaves in the running maximum (scratch `arg9`): its pieces read back over junk. -/
def sout1_C_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case C's pieces for the running sum (scratch `arg10`), which the kernel carries between points, cover it (whole-buffer stores). -/
theorem scover1_C_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S2048x1.size (by sl_kernel_rfl) y

/-- What case C leaves in the running sum (scratch `arg10`): its pieces read back over junk. -/
def sout1_C_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case C's pieces for the accumulator (scratch `arg11`), which the kernel carries between points, cover it (whole-buffer stores). -/
theorem scover1_C_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S2048x256.size (by sl_kernel_rfl) y

/-- What case C leaves in the accumulator (scratch `arg11`): its pieces read back over junk. -/
def sout1_C_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-! ## What the output and the scratch hold after each point -/

/-- THE ACCUMULATION. What output 6's staging buffer and the three scratch the kernel carries between points hold after the
    body at position `n` (the output's buffer, then the running maximum, the running sum, the accumulator): the case the
    closed forms select at `n`, run at the point's memrefs and input blocks, the scratch at what this leaves at `n - 1`.
    An assignment of the conditions no point meets is no case. -/
def outsAt1 (c : Dev nD) : (n : ℕ) → n < cfg1.N → Vec F S2048x256 .f32 × Vec F S2048x1 .f32 × Vec F S2048x1 .f32 × Vec F S2048x256 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 16 = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the three carried scratch at what the point before left in them (`outsAt1`'s scratch components), the
    other scoped buffers unopened and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restBut1 (F := F) c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ restBut1 (F := F) c) ∗ (∃ r, prngReg c r)) := by
  cases n with
  | zero => exact absurd rfl hz
  | succ n => rfl

/-! ## The pipeline's proof data -/

/-- The proof data of custom_call 1's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms say which case the point is in; so that
    case's run applies; the invariant hands the body the three carried scratch at what the point before left (at anything
    at the first point), and takes them back at this point's contents; the output's buffer is handed back untouched where
    the window is idle, and at the stored block at the last kv step; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 16 = 0
  · by_cases h1 : t.val % 16 = 15
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 16 = 15
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0 sout1_C_1 sout1_C_2; (try dsimp only)
      by_cases hz : t.val = 0
      · exfalso; omega
      · rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.A2.lean ====
import proofs.«422171_j68341519614500_3_alg».proof.Proof.Gen.KernelIdeal.Launch
import proofs.«422171_j68341519614500_3_alg».proof.Proof.Gen.KernelIdeal.Skeleton
import proofs.«422171_j68341519614500_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of region 2 of @main (custom_call 2, `cc2_proj_shared_kernel`, pipeline 2), at a parameter `V`:
    the TensorCore's buffer contents when the region is entered. The body loads its eight input windows whole,
    computes three projections and stores each of its three output windows whole: each window's block at a point
    (`iblk2`), what the body leaves in each output window's buffer (`out2_W`), the body's triple (`sound_kernel2`),
    the pipeline's proof data (`dat2`) and the body obligation at every point (`body_obligation2`). -/

-- membership in a rectangle of long extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s (`hA`) and whose body leaves the block in place (`hafter`): unfetched, the block index
    has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s (`hA`) and whose body leaves the block in place (`hafter`): unfetched, the block index
    has not moved; the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x256 := Rect.unit (s := S2048x256) ![0, 0] S2048x256.size inb_S2048x256_S2048x256_0_0
abbrev r2_1 : Rect S256x256 := Rect.unit (s := S256x256) ![0, 0] S256x256.size inb_S256x256_S256x256_0_0
abbrev r2_2 : Rect S256 := Rect.unit (s := S256) ![0] S256.size inb_S256_S256_0

/-! ## What the body leaves in each output window's buffer -/

/-- Window 8's staging buffer after the body, from the input windows' blocks: its one store as a piece, the
    payload the projection of the blocks loaded. -/
def out2_8 (x0 : Vec F S2048x256 .f32) (x1 : Vec F S2048x256 .f32) (x2 : Vec F S256x256 .f32) (x3 : Vec F S256 .f32) (x4 : Vec F S256x256 .f32) (x5 : Vec F S256 .f32) (x6 : Vec F S256x256 .f32) (x7 : Vec F S256 .f32) : Vec F S2048x256 .bf16 :=
  View.canon [⟨r2_0, k2_pay2 (View.ld x0 r2_0) (View.ld x2 r2_1) (View.ld x3 r2_2)⟩]

/-- Its store tiles the buffer (checked by evaluation), so it covers it. -/
theorem cover2_8 (p0 : Vec F S2048x256 .bf16) (y : S2048x256.Idx) :
    ∃ pc ∈ ([⟨r2_0, p0⟩] : List (View.Piece (Elt F) S2048x256 .bf16)), y ∈ pc.1.set :=
  View.cover_of_tiled [⟨r2_0, p0⟩] S2048x256.size (by rfl) y

/-- Window 9's staging buffer after the body, from the input windows' blocks: its one store as a piece, the
    payload the projection of the blocks loaded. -/
def out2_9 (x0 : Vec F S2048x256 .f32) (x1 : Vec F S2048x256 .f32) (x2 : Vec F S256x256 .f32) (x3 : Vec F S256 .f32) (x4 : Vec F S256x256 .f32) (x5 : Vec F S256 .f32) (x6 : Vec F S256x256 .f32) (x7 : Vec F S256 .f32) : Vec F S2048x256 .bf16 :=
  View.canon [⟨r2_0, k2_pay3 (View.ld x1 r2_0) (View.ld x4 r2_1) (View.ld x5 r2_2)⟩]

/-- Its store tiles the buffer (checked by evaluation), so it covers it. -/
theorem cover2_9 (p0 : Vec F S2048x256 .bf16) (y : S2048x256.Idx) :
    ∃ pc ∈ ([⟨r2_0, p0⟩] : List (View.Piece (Elt F) S2048x256 .bf16)), y ∈ pc.1.set :=
  View.cover_of_tiled [⟨r2_0, p0⟩] S2048x256.size (by rfl) y

/-- Window 10's staging buffer after the body, from the input windows' blocks: its one store as a piece, the
    payload the projection of the blocks loaded. -/
def out2_10 (x0 : Vec F S2048x256 .f32) (x1 : Vec F S2048x256 .f32) (x2 : Vec F S256x256 .f32) (x3 : Vec F S256 .f32) (x4 : Vec F S256x256 .f32) (x5 : Vec F S256 .f32) (x6 : Vec F S256x256 .f32) (x7 : Vec F S256 .f32) : Vec F S2048x256 .bf16 :=
  View.canon [⟨r2_0, k2_pay4 (View.ld x1 r2_0) (View.ld x6 r2_1) (View.ld x7 r2_2)⟩]

/-- Its store tiles the buffer (checked by evaluation), so it covers it. -/
theorem cover2_10 (p0 : Vec F S2048x256 .bf16) (y : S2048x256.Idx) :
    ∃ pc ∈ ([⟨r2_0, p0⟩] : List (View.Piece (Elt F) S2048x256 .bf16)), y ∈ pc.1.set :=
  View.cover_of_tiled [⟨r2_0, p0⟩] S2048x256.size (by rfl) y

/-! ## The body's triple -/

set_option maxHeartbeats 1000000 in
/-- The kernel body on whole staging memrefs, the inputs' at read contents `xW` and the outputs' at anything, runs to
    the continuation holding the inputs' as they were and each output's at `out2_W` of the inputs': the printed function
    is its skeleton of loads and stores over payloads, run operation by operation. -/
theorem sound_kernel2 (c : Dev nD) (E : Set ℕ) (i : grid2.Coords) (arg1 : Memref sig .tc .vmem S2048x256 .f32) (harg1 : arg1.IsWhole) (arg2 : Memref sig .tc .vmem S2048x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole)
    (x0 : Vec F S2048x256 .f32) (x1 : Vec F S2048x256 .f32) (x2 : Vec F S256x256 .f32) (x3 : Vec F S256 .f32) (x4 : Vec F S256x256 .f32) (x5 : Vec F S256 .f32) (x6 : Vec F S256x256 .f32) (x7 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7) ∗ owns (c : Thread nD τ) arg10 fullShare (out2_9 x0 x1 x2 x3 x4 x5 x6 x7) ∗ owns (c : Thread nD τ) arg11 fullShare (out2_10 x0 x1 x2 x3 x4 x5 x6 x7)) -∗ K ⟨⟩))
      ⊢ wp frame (wpE (defs₀ (F := F)) Variants.none c none) E (cc2_proj_shared_kernel i arg1 harg1 arg2 harg2 arg3 harg3 arg4 harg4 arg5 harg5 arg6 harg6 arg7 harg7 arg8 harg8 arg9 harg9 arg10 harg10 arg11 harg11) K := by
  simp only [cc2_proj_shared_kernel_eq_skeleton]; unfold cc2_proj_shared_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover2_8 _)
  isplitl [H9]
  · iexists _; isplitr
    swap; · iexact H9
    ipureintro
    exact View.read_writes_eq_canon _ _ _ (cover2_9 _)
  iexists _; isplitr
  swap; · iexact H10
  ipureintro
  exact View.read_writes_eq_canon _ _ _ (cover2_10 _)

/-! ## The pipeline's proof data -/

/-- The proof data of pipeline 2 on core `c`: the arrays as the region finds them (`V`); after the body at point `t`
    each input's buffer at its block and each output's at `out2_W` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
    | ⟨9, _⟩ => out2_9 (iblk2 V c 0 t) (iblk2 V c 1 t) (iblk2 V c 2 t) (iblk2 V c 3 t) (iblk2 V c 4 t) (iblk2 V c 5 t) (iblk2 V c 6 t) (iblk2 V c 7 t)
    | ⟨10, _⟩ => out2_10 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.F3Runs.lean ====
/- What the three case runs of custom_call 3's frame half share: the windows' blocks read off the region-entry
   contents, the body's two branch conditions decided over the grid, where output window 6 is idle, the staging
   and scratch memrefs, and the region invariant with the three scratch operands opened. -/
import proofs.«422171_j68341519614500_3_alg».proof.Proof.Gen.KernelIdeal.Launch
import proofs.«422171_j68341519614500_3_alg».proof.Proof.Gen.KernelIdeal.Skeleton
import proofs.«422171_j68341519614500_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, fetched there or not, for any proof
    data whose array is `V`'s (`hA`) and whose body leaves the block in place (`hafter`): unfetched, the block index
    has not moved; the windows are uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first `scf.if` (the reset of the three scratch), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 16): the first kv step of each q block. -/
theorem hcond3_0 : ∀ t : Fin cfg3.N, cond3_0 (grid3.coords t) ↔ t.val % 16 = 0 :=
  (by decide +kernel : ∀ t : Fin grid3.N, cond3_0 (grid3.coords t) ↔ t.val % 16 = 0)

/-- The condition of the body's second `scf.if` (normalise, add the residual, layer-normalise, store). -/
abbrev cond3_1 (i : grid3.Coords) : Prop := k3_cond2 i = 1#1
/-- It holds at the points ≡ 15 (mod 16): the last kv step of each q block. -/
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- Window 3 is never idle (an input). -/
theorem liveAt3_3 : ∀ t : Fin cfg3.N, cfg3.idle 3 (grid3.coords t) = false := by decide +kernel
/-- Window 4 is never idle (an input). -/
theorem liveAt3_4 : ∀ t : Fin cfg3.N, cfg3.idle 4 (grid3.coords t) = false := by decide +kernel
/-- Window 5 is never idle (an input). -/
theorem liveAt3_5 : ∀ t : Fin cfg3.N, cfg3.idle 5 (grid3.coords t) = false := by decide +kernel
/-- At the points of case A output 6 is idle: the case stores nothing into it. -/
theorem idleAt3_6_A : ∀ t : Fin cfg3.N, cond3_0 (grid3.coords t) → ¬cond3_1 (grid3.coords t) → cfg3.idle 6 (grid3.coords t) = true := by decide +kernel
/-- At the points of case A the pipeline does not write output 6's block back. -/
theorem noFlush3_6_A : ∀ t : Fin cfg3.N, cond3_0 (grid3.coords t) → ¬cond3_1 (grid3.coords t) → (cfg3.win 6).flush t = false := by decide +kernel
/-- At the points of case B output 6 is idle: the case stores nothing into it. -/
theorem idleAt3_6_B : ∀ t : Fin cfg3.N, ¬cond3_0 (grid3.coords t) → ¬cond3_1 (grid3.coords t) → cfg3.idle 6 (grid3.coords t) = true := by decide +kernel
/-- At the points of case B the pipeline does not write output 6's block back. -/
theorem noFlush3_6_B : ∀ t : Fin cfg3.N, ¬cond3_0 (grid3.coords t) → ¬cond3_1 (grid3.coords t) → (cfg3.win 6).flush t = false := by decide +kernel
/-- At the points of case C output 6 is live: the case stores into it. -/
theorem liveAt3_6_C : ∀ t : Fin cfg3.N, ¬cond3_0 (grid3.coords t) → cond3_1 (grid3.coords t) → cfg3.idle 6 (grid3.coords t) = false := by decide +kernel

/-! ## The staging and scratch memrefs -/

/-- One staging buffer of output window 6, through which its contents are stated (the choice does not matter). -/
abbrev VO3_6 : View sig .tc .vmem S2048x256 .f32 := (Memref.whole cc3_stg6_0 : Memref sig .tc .vmem S2048x256 .f32).view
/-- Each window's current staging memref at point `t`, spelled as the pipeline passes it, and its wholeness. -/
abbrev ms3_0 (t : Fin cfg3.N) : Memref sig .tc .vmem S2048x256 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x256 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S256 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S256 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2048x256 .f32 := win3_6.stage (cfg3.slots t 6)
abbrev hs3_6 (t : Fin cfg3.N) : (ms3_6 t).IsWhole := hstage3_6 ((cfg3.slots t 6).cast nbuf3_6)
/-- The scratch operands: whole scoped buffers of the kernel's own, passed beside the windows
    (the running maximum, the running sum, the accumulator). -/
abbrev scM3_0 : Memref sig .tc .vmem S2048x1 .f32 := Memref.whole cc3_scratch0
abbrev scM3_1 : Memref sig .tc .vmem S2048x1 .f32 := Memref.whole cc3_scratch1
abbrev scM3_2 : Memref sig .tc .vmem S2048x256 .f32 := Memref.whole cc3_scratch2
/-- The scratch the kernel carries between points, as views: what they hold is stated through them. -/
abbrev VS3_0 : View sig .tc .vmem S2048x1 .f32 := scM3_0.view
abbrev VS3_1 : View sig .tc .vmem S2048x1 .f32 := scM3_1.view
abbrev VS3_2 : View sig .tc .vmem S2048x256 .f32 := scM3_2.view

/-- The scoped buffers of the core that are neither a staging buffer of this call nor one of its three scratch
    operands, at some contents each: carried through the region unopened. -/
abbrev restBut3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The region invariant with the three scratch operands as memrefs owned at some contents, the other scoped
    buffers unopened and the generator register at some state: what the body obligation hands the run and takes back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ restBut3 (F := F) c) ∗ (∃ r, prngReg c r)) := by
  unfold Pipeline.ΦA; rw [scopedRest3_split]; simp only [scM3_0, scM3_1, scM3_2, owns_whole]; try rfl

end Cert.KernelIdeal.Hand

end
-- ==== Proof.KI.F3RunA.lean ====
/- The whole-body run of custom_call 3's kernel in case A of its frame half (the first kv step of a q block:
   the three scratch are reset, then updated; the output is not touched). -/
import proofs.«422171_j68341519614500_3_alg».proof.Proof.KI.F3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- What the body's stores leave in the output's staging memref and in the three scratch, as pieces (last first), IN
    CASE A (first `scf.if` taken, second not), WITH the proof that on whole memrefs — the inputs' at their contents,
    the output's at contents `xi6` handed back untouched, the three scratch at anything — the body runs to the
    continuation holding the inputs' as they were, the output's as it was and each scratch with its pieces written. -/
noncomputable def kernelRun3_A (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (xi6 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3_flash_ln_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc3_flash_ln_kernel_eq_skeleton]; unfold cc3_flash_ln_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.F3RunB.lean ====
/- The whole-body run of custom_call 3's kernel in case B of its frame half (a middle kv step: the three scratch,
   at what the point before left, are updated; the output is not touched). -/
import proofs.«422171_j68341519614500_3_alg».proof.Proof.KI.F3RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- What the body's stores leave in the output's staging memref and in the three scratch, as pieces (last first), IN
    CASE B (neither `scf.if` taken), WITH the proof that on whole memrefs — the inputs' at their contents, the output's
    at contents `xi6` handed back untouched, the three scratch at the contents the point before left (`xs·`) — the body
    runs to the continuation holding the inputs' as they were, the output's as it was and each scratch with its pieces
    written. -/
noncomputable def kernelRun3_B (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (xi6 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3_flash_ln_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc3_flash_ln_kernel_eq_skeleton]; unfold cc3_flash_ln_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.F3RunC.lean ====
/- The whole-body run of custom_call 3's kernel in case C of its frame half (the last kv step of a q block: the
   three scratch, at what the point before left, are updated; then the accumulator is normalised, the residual added,
   the row layer-normalised and the output block stored). -/
import proofs.«422171_j68341519614500_3_alg».proof.Proof.KI.F3RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- What the body's stores leave in the output's staging memref and in the three scratch, as pieces (last first), IN
    CASE C (first `scf.if` not taken, second taken), WITH the proof that on whole memrefs — the inputs' at their
    contents, the output's at anything, the three scratch at the contents the point before left (`xs·`) — the body runs
    to the continuation holding the inputs' as they were and the output's and each scratch with its pieces written. -/
noncomputable def kernelRun3_C (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3_flash_ln_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc3_flash_ln_kernel_eq_skeleton]; unfold cc3_flash_ln_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.KernelIdeal.Hand

end
-- ==== Proof.KI.F3.lean ====
/- The frame half of custom_call 3 (the attention kernel with a layer-normalised residual, 4 × 16 grid): what the
   output and the three carried scratch hold per case and point by point, the proof data, the body obligation at every
   point, and the invariant's two ends. -/
import proofs.«422171_j68341519614500_3_alg».proof.Proof.KI.F3RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-- Case A stores nothing into output 6 (the window is idle at its points and not written back there): no pieces —
    a placeholder (junk read back) that nothing consults. -/
def out3_A_6 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x256 .f32 :=
  VO3_6.read (Elt F) (VO3_6.writes (Elt F) VO3_6.junk (kernelRun3_A c i arg2 harg2 arg3 harg3 arg4 harg4 arg5 harg5 arg6 harg6 arg7 harg7 arg8 harg8 arg9 harg9 arg10 harg10 arg11 harg11 hc0 hc1 x0 x1 x2 x3 x4 x5).1)

/-- Case A's pieces for the running maximum (scratch `arg9`), which the kernel carries between points, cover it (whole-buffer stores). -/
theorem scover3_A_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (y : S2048x1.Idx) :
    ∃ pc ∈ (kernelRun3_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun3_A c i arg2 harg2 arg3 harg3 arg4 harg4 arg5 harg5 arg6 harg6 arg7 harg7 arg8 harg8 arg9 harg9 arg10 harg10 arg11 harg11 hc0 hc1 x0 x1 x2 x3 x4 x5).2.1 S2048x1.size (by sl_kernel_rfl) y

/-- What case A leaves in the running maximum (scratch `arg9`): its pieces read back over junk. -/
def sout3_A_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x1 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 arg11 harg11 hc0 hc1 x0 x1 x2 x3 x4 x5).2.1)

/-- Case A's pieces for the running sum (scratch `arg10`), which the kernel carries between points, cover it (whole-buffer stores). -/
theorem scover3_A_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (y : S2048x1.Idx) :
    ∃ pc ∈ (kernelRun3_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun3_A c i arg2 harg2 arg3 harg3 arg4 harg4 arg5 harg5 arg6 harg6 arg7 harg7 arg8 harg8 arg9 harg9 arg10 harg10 arg11 harg11 hc0 hc1 x0 x1 x2 x3 x4 x5).2.2.1 S2048x1.size (by sl_kernel_rfl) y

/-- What case A leaves in the running sum (scratch `arg10`): its pieces read back over junk. -/
def sout3_A_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x1 .f32 :=
  VS3_1.read (Elt F) (VS3_1.writes (Elt F) VS3_1.junk (kernelRun3_A c i arg2 harg2 arg3 harg3 arg4 harg4 arg5 harg5 arg6 harg6 arg7 harg7 arg8 harg8 arg9 harg9 arg10 harg10 arg11 harg11 hc0 hc1 x0 x1 x2 x3 x4 x5).2.2.1)

/-- Case A's pieces for the accumulator (scratch `arg11`), which the kernel carries between points, cover it (whole-buffer stores). -/
theorem scover3_A_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (y : S2048x256.Idx) :
    ∃ pc ∈ (kernelRun3_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun3_A c i arg2 harg2 arg3 harg3 arg4 harg4 arg5 harg5 arg6 harg6 arg7 harg7 arg8 harg8 arg9 harg9 arg10 harg10 arg11 harg11 hc0 hc1 x0 x1 x2 x3 x4 x5).2.2.2.1 S2048x256.size (by sl_kernel_rfl) y

/-- What case A leaves in the accumulator (scratch `arg11`): its pieces read back over junk. -/
def sout3_A_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) : Vec F S2048x256 .f32 :=
  VS3_2.read (Elt F) (VS3_2.writes (Elt F) VS3_2.junk (kernelRun3_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B stores nothing into output 6 (the window is idle at its points and not written back there): no pieces —
    a placeholder (junk read back) that nothing consults. -/
def out3_B_6 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VO3_6.read (Elt F) (VO3_6.writes (Elt F) VO3_6.junk (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case B's pieces for the running maximum (scratch `arg9`), which the kernel carries between points, cover it (whole-buffer stores). -/
theorem scover3_B_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S2048x1.size (by sl_kernel_rfl) y

/-- What case B leaves in the running maximum (scratch `arg9`): its pieces read back over junk. -/
def sout3_B_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS3_0.read (Elt F) (VS3_0.writes (Elt F) VS3_0.junk (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case B's pieces for the running sum (scratch `arg10`), which the kernel carries between points, cover it (whole-buffer stores). -/
theorem scover3_B_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S2048x1.size (by sl_kernel_rfl) y

/-- What case B leaves in the running sum (scratch `arg10`): its pieces read back over junk. -/
def sout3_B_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS3_1.read (Elt F) (VS3_1.writes (Elt F) VS3_1.junk (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case B's pieces for the accumulator (scratch `arg11`), which the kernel carries between points, cover it (whole-buffer stores). -/
theorem scover3_B_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x256.Idx) :
    ∃ pc ∈ (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S2048x256.size (by sl_kernel_rfl) y

/-- What case B leaves in the accumulator (scratch `arg11`): its pieces read back over junk. -/
def sout3_B_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VS3_2.read (Elt F) (VS3_2.writes (Elt F) VS3_2.junk (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- Case C's pieces for output 6 tile its block (one whole-block store), so they cover it. -/
theorem cover3_C_6 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x256.Idx) :
    ∃ pc ∈ (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S2048x256.size (by sl_kernel_rfl) y

/-- What case C leaves in output 6's staging buffer: its pieces read back over junk. -/
def out3_C_6 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VO3_6.read (Elt F) (VO3_6.writes (Elt F) VO3_6.junk (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case C's pieces for the running maximum (scratch `arg9`), which the kernel carries between points, cover it (whole-buffer stores). -/
theorem scover3_C_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S2048x1.size (by sl_kernel_rfl) y

/-- What case C leaves in the running maximum (scratch `arg9`): its pieces read back over junk. -/
def sout3_C_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS3_0.read (Elt F) (VS3_0.writes (Elt F) VS3_0.junk (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case C's pieces for the running sum (scratch `arg10`), which the kernel carries between points, cover it (whole-buffer stores). -/
theorem scover3_C_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x1.Idx) :
    ∃ pc ∈ (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S2048x1.size (by sl_kernel_rfl) y

/-- What case C leaves in the running sum (scratch `arg10`): its pieces read back over junk. -/
def sout3_C_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x1 .f32 :=
  VS3_1.read (Elt F) (VS3_1.writes (Elt F) VS3_1.junk (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case C's pieces for the accumulator (scratch `arg11`), which the kernel carries between points, cover it (whole-buffer stores). -/
theorem scover3_C_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) (y : S2048x256.Idx) :
    ∃ pc ∈ (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S2048x256.size (by sl_kernel_rfl) y

/-- What case C leaves in the accumulator (scratch `arg11`): its pieces read back over junk. -/
def sout3_C_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i)
    (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) : Vec F S2048x256 .f32 :=
  VS3_2.read (Elt F) (VS3_2.writes (Elt F) VS3_2.junk (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-! ## What the output and the scratch hold after each point -/

/-- THE ACCUMULATION. What output 6's staging buffer and the three scratch the kernel carries between points hold after the
    body at position `n` (the output's buffer, then the running maximum, the running sum, the accumulator): the case the
    closed forms select at `n`, run at the point's memrefs and input blocks, the scratch at what this leaves at `n - 1`.
    An assignment of the conditions no point meets is no case. -/
def outsAt3 (c : Dev nD) : (n : ℕ) → n < cfg3.N → Vec F S2048x256 .f32 × Vec F S2048x1 .f32 × Vec F S2048x1 .f32 × Vec F S2048x256 .f32
  | 0, hn => (out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩))
  | n + 1, hn =>
    if h0 : (n + 1) % 16 = 0 then
      if h1 : (n + 1) % 16 = 15 then
        False.elim (by omega)
      else
        (out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩))
    else
      if h1 : (n + 1) % 16 = 15 then
        (out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2, sout3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2)
      else
        (out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2.1 (outsAt3 c n (Nat.lt_of_succ_lt hn)).2.2.2)

/-- `outsAt3` at a point of case A: that case's contents. -/
theorem outsAt3_A (c : Dev nD) (t : Fin cfg3.N) (h0 : t.val % 16 = 0) (h1 : ¬t.val % 16 = 15) :
    outsAt3 V c t.val t.isLt = (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_2 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 16 = 0) (h1 : ¬t.val % 16 = 15) :
    outsAt3 V c t.val t.isLt = (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 16 = 0) (h1 : t.val % 16 = 15) :
    outsAt3 V c t.val t.isLt = (out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_2 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the three carried scratch at what the point before left in them (`outsAt3`'s scratch components), the
    other scoped buffers unopened and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the carried scratch at that point's contents. -/
theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ restBut3 (F := F) c) ∗ (∃ r, prngReg c r)) := rfl

/-- Before a point that is not the first: the carried scratch at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2.1) ∗ owns (c : Thread nD τ) scM3_2 fullShare ((outsAt3 V c (n - 1) (by omega)).2.2.2)) ∗ restBut3 (F := F) c) ∗ (∃ r, prngReg c r)) := by
  cases n with
  | zero => exact absurd rfl hz
  | succ n => rfl

/-! ## The pipeline's proof data -/

/-- The proof data of custom_call 3's pipeline on core `c`: the arrays as the region finds them (`V`); after the body at
    point `t` each input's buffer at its block and the output's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point: the inputs' memrefs hold their blocks; the closed forms say which case the point is in; so that
    case's run applies; the invariant hands the body the three carried scratch at what the point before left (at anything
    at the first point), and takes them back at this point's contents; the output's buffer is handed back untouched where
    the window is idle, and at the stored block at the last kv step; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 16 = 0
  · by_cases h1 : t.val % 16 = 15
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [Dat.leavesExact_idle (dat3 V c) 6 t (idleAt3_6_A t ((hcond3_0 t).mpr h0) (fun h => h1 ((hcond3_1 t).mp h))) (noFlush3_6_A t ((hcond3_0 t).mpr h0) (fun h => h1 ((hcond3_1 t).mp h)))]
      rw [outsAt3_A V c t h0 h1]
      unfold sout3_A_0 sout3_A_1 sout3_A_2; (try dsimp only)
      by_cases hz : t.val = 0
      · rw [PhiS3_castSucc V c t, PhiS3_zero V c _ _ hz, PhiA3_eq]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS3_castSucc V c t, PhiS3_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 16 = 15
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [show (dat3 V c).leavesExact 6 t = owns (c : Thread nD τ) (ms3_6 t) fullShare ((dat3 V c).after 6 t) from by
        unfold Dat.leavesExact; rw [liveAt3_6_C t (fun h => h0 ((hcond3_0 t).mp h)) ((hcond3_1 t).mpr h1)], after3_6]
      rw [outsAt3_C V c t h0 h1]
      unfold out3_C_6 sout3_C_0 sout3_C_1 sout3_C_2; (try dsimp only)
      by_cases hz : t.val = 0
      · exfalso; omega
      · rw [PhiS3_castSucc V c t, PhiS3_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_C c (grid3.coords t) _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_C_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_C_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover3_C_2 c _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover3_C_6 c _ _ _ _ _ _ _ _ _ _ _ _ _ _ _ _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [Dat.leavesExact_idle (dat3 V c) 6 t (idleAt3_6_B t (fun h => h0 ((hcond3_0 t).mp h)) (fun h => h1 ((hcond3_1 t).mp h))) (noFlush3_6_B t (fun h => h0 ((hcond3_0 t).mp h)) (fun h => h1 ((hcond3_1 t).mp h)))]
      rw [outsAt3_B V c t h0 h1]
      unfold sout3_B_0 sout3_B_1 sout3_B_2; (try dsimp only)
      by_cases hz : t.val = 0
      · exfalso; omega
      · rw [PhiS3_castSucc V c t, PhiS3_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_B c (grid3.coords t) _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_B_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_B_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover3_B_2 c _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.KernelIdeal.Hand

end
-- ==== Proof.KI.A4.lean ====
import proofs.«422171_j68341519614500_3_alg».proof.Proof.Gen.KernelIdeal.Launch
import proofs.«422171_j68341519614500_3_alg».proof.Proof.Gen.KernelIdeal.Skeleton
import proofs.«422171_j68341519614500_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 (the MLP + layer-norm call), the frame half

The fifth call has no scratch and no branch: at every point of its grid it loads its seven input windows whole,
computes, and stores its one output window whole. This module states, at the buffer contents `V` the region is
entered with, each window's block at a point, what the body leaves in the output window's buffer as a function of
the input blocks, the body's triple, the pipeline's proof data and the body obligation at every point. -/

-- membership in a rectangle of large extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): unfetched, the block
    index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for ANY proof
    data whose array is `V`'s (`hA`) and whose body leaves the block in place (`hafter`): unfetched, the block
    index has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for ANY proof
    data whose array is `V`'s (`hA`) and whose body leaves the block in place (`hafter`): unfetched, the block
    index has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for ANY proof
    data whose array is `V`'s (`hA`) and whose body leaves the block in place (`hafter`): unfetched, the block
    index has not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for ANY proof
    data whose array is `V`'s (`hA`) and whose body leaves the block in place (`hafter`): unfetched, the block
    index has not moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for ANY proof
    data whose array is `V`'s (`hA`) and whose body leaves the block in place (`hafter`): unfetched, the block
    index has not moved; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for ANY proof
    data whose array is `V`'s (`hA`) and whose body leaves the block in place (`hafter`): unfetched, the block
    index has not moved; the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2048x256 := Rect.unit (s := S2048x256) ![0, 0] S2048x256.size inb_S2048x256_S2048x256_0_0
abbrev r4_1 : Rect S256x128 := Rect.unit (s := S256x128) ![0, 0] S256x128.size inb_S256x128_S256x128_0_0
abbrev r4_2 : Rect S128 := Rect.unit (s := S128) ![0] S128.size inb_S128_S128_0
abbrev r4_3 : Rect S128x256 := Rect.unit (s := S128x256) ![0, 0] S128x256.size inb_S128x256_S128x256_0_0
abbrev r4_4 : Rect S256 := Rect.unit (s := S256) ![0] S256.size inb_S256_S256_0

/-! ## What the body leaves in the output window's buffer -/

/-- Window 7's staging buffer after the body, from the input windows' blocks: its one store as a piece, the payload
    the skeleton's (the normalised rows scaled, then the last bias row added). -/
def out4_7 (x0 : Vec F S2048x256 .f32) (x1 : Vec F S256x128 .f32) (x2 : Vec F S128 .f32) (x3 : Vec F S128x256 .f32)
    (x4 : Vec F S256 .f32) (x5 : Vec F S256 .f32) (x6 : Vec F S256 .f32) : Vec F S2048x256 .f32 :=
  View.canon [⟨r4_0, k4_pay1 (k4_pay2 (View.ld x0 r4_0) (View.ld x1 r4_1) (View.ld x3 r4_3) (View.ld x2 r4_2) (View.ld x4 r4_4) (View.ld x5 r4_4)) (View.ld x6 r4_4)⟩]

/-- Its store tiles the buffer (checked by evaluation), so it covers it. -/
theorem cover4_7 (p0 : Vec F S2048x256 .f32) (y : S2048x256.Idx) :
    ∃ pc ∈ ([⟨r4_0, p0⟩] : List (View.Piece (Elt F) S2048x256 .f32)), y ∈ pc.1.set :=
  View.cover_of_tiled [⟨r4_0, p0⟩] S2048x256.size (by rfl) y

/-! ## The body's triple -/

set_option maxHeartbeats 1000000 in
/-- The kernel body on whole staging memrefs, the inputs' at read contents `xW` and the output's at anything, runs to
    the continuation holding the inputs' as they were and the output's at `out4_7` of the inputs': the printed functions
    are their skeletons, run load by load through the part call and the one store. -/
theorem sound_kernel4 (c : Dev nD) (E : Set ℕ) (i : grid4.Coords) (arg1 : Memref sig .tc .vmem S2048x256 .f32) (harg1 : arg1.IsWhole) (arg2 : Memref sig .tc .vmem S256x128 .f32) (harg2 : arg2.IsWhole) (arg3 : Memref sig .tc .vmem S128 .f32) (harg3 : arg3.IsWhole) (arg4 : Memref sig .tc .vmem S128x256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole)
    (x0 : Vec F S2048x256 .f32) (x1 : Vec F S256x128 .f32) (x2 : Vec F S128 .f32) (x3 : Vec F S128x256 .f32) (x4 : Vec F S256 .f32) (x5 : Vec F S256 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4_mlp_ln_kernel i arg1 harg1 arg2 harg2 arg3 harg3 arg4 harg4 arg5 harg5 arg6 harg6 arg7 harg7 arg8 harg8) K := by
  simp only [cc4_mlp_ln_kernel_eq_skeleton]; unfold cc4_mlp_ln_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them (`V`); after the body at
    point `t` each input's buffer at its block and the output's at `out4_7` of the input blocks; the invariant the
    class's (the scoped rest and the random-number register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ (grid4.coords t) _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«422171_j68341519614500_3_alg».proof.Proof.KI.A0
import proofs.«422171_j68341519614500_3_alg».proof.Proof.KI.F1
import proofs.«422171_j68341519614500_3_alg».proof.Proof.KI.A2
import proofs.«422171_j68341519614500_3_alg».proof.Proof.KI.F3
import proofs.«422171_j68341519614500_3_alg».proof.Proof.KI.A4

/-! THE RUN of @main: five kernel regions in a row, no host operation between them. The buffer contents at each
    boundary are a fold from the launch memory — a region's arrays at what its write-backs leave, every other buffer
    as it was —; every pipeline's proof data are taken at its region's entry contents; each region is a segment over
    the thread state "every unscoped buffer at the boundary's contents, the generator register at some state, nothing
    owed"; the launch theorem for a list of segments then says that every weakly fair execution terminates with
    every unscoped buffer at the last boundary's contents `W5`. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references: region 0's entry contents. -/
abbrev E0 : (c : Dev nD) → (b : Ref sig .tc) → Buf (Elt F) ((c : Thread nD τ).loc b) := fun c b => W0 m ρ c b

/-- At region 0's exit: its arrays at what the pipeline leaves (the inputs as entered, each output's write-backs
    folded), every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: region 0's exit contents, region 1's entry contents. -/
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- At region 1's exit: its arrays at what the pipeline leaves (the inputs as entered, each output's write-backs
    folded), every other buffer as entered. -/
def W2 (c : Dev nD) : Valuation τ sig (Elt F) :=
  Pipeline.withArrays spec1 c (W1 m ρ c) fun w => (dat1 (E1 m ρ) c).arrAt w cfg1.N
theorem W2_arr (c : Dev nD) (w : Fin cfg1.W) :
    W2 m ρ c (Proc.devRef .tc (Pipeline.arrRef spec1 w)) = (dat1 (E1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references: region 1's exit contents, region 2's entry contents. -/
abbrev E2 : (c : Dev nD) → (b : Ref sig .tc) → Buf (Elt F) ((c : Thread nD τ).loc b) := fun c b => W2 m ρ c b
theorem hF1 (c : Dev nD) (w : Fin cfg1.W) : (dat1 (E1 m ρ) c).arrAt w cfg1.N = E2 m ρ c (Pipeline.arrRef spec1 w) :=
  (W2_arr m ρ c w).symm
theorem hrest1 (c : Dev nD) : ∀ b, b ∉ Finset.univ.image (Pipeline.arrRef spec1) → E2 m ρ c b = E1 m ρ c b :=
  fun b hb => W2_of_ne m ρ c b fun w e => hb (Finset.mem_image.mpr ⟨w, Finset.mem_univ _, e⟩)

/-- At region 2's exit: its arrays at what the pipeline leaves (the inputs as entered, each output's write-backs
    folded), every other buffer as entered. -/
def W3 (c : Dev nD) : Valuation τ sig (Elt F) :=
  Pipeline.withArrays spec2 c (W2 m ρ c) fun w => (dat2 (E2 m ρ) c).arrAt w cfg2.N
theorem W3_arr (c : Dev nD) (w : Fin cfg2.W) :
    W3 m ρ c (Proc.devRef .tc (Pipeline.arrRef spec2 w)) = (dat2 (E2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references: region 2's exit contents, region 3's entry contents. -/
abbrev E3 : (c : Dev nD) → (b : Ref sig .tc) → Buf (Elt F) ((c : Thread nD τ).loc b) := fun c b => W3 m ρ c b
theorem hF2 (c : Dev nD) (w : Fin cfg2.W) : (dat2 (E2 m ρ) c).arrAt w cfg2.N = E3 m ρ c (Pipeline.arrRef spec2 w) :=
  (W3_arr m ρ c w).symm
theorem hrest2 (c : Dev nD) : ∀ b, b ∉ Finset.univ.image (Pipeline.arrRef spec2) → E3 m ρ c b = E2 m ρ c b :=
  fun b hb => W3_of_ne m ρ c b fun w e => hb (Finset.mem_image.mpr ⟨w, Finset.mem_univ _, e⟩)

/-- At region 3's exit: its arrays at what the pipeline leaves (the inputs as entered, each output's write-backs
    folded), every other buffer as entered. -/
def W4 (c : Dev nD) : Valuation τ sig (Elt F) :=
  Pipeline.withArrays spec3 c (W3 m ρ c) fun w => (dat3 (E3 m ρ) c).arrAt w cfg3.N
theorem W4_arr (c : Dev nD) (w : Fin cfg3.W) :
    W4 m ρ c (Proc.devRef .tc (Pipeline.arrRef spec3 w)) = (dat3 (E3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references: region 3's exit contents, region 4's entry contents. -/
abbrev E4 : (c : Dev nD) → (b : Ref sig .tc) → Buf (Elt F) ((c : Thread nD τ).loc b) := fun c b => W4 m ρ c b
theorem hF3 (c : Dev nD) (w : Fin cfg3.W) : (dat3 (E3 m ρ) c).arrAt w cfg3.N = E4 m ρ c (Pipeline.arrRef spec3 w) :=
  (W4_arr m ρ c w).symm
theorem hrest3 (c : Dev nD) : ∀ b, b ∉ Finset.univ.image (Pipeline.arrRef spec3) → E4 m ρ c b = E3 m ρ c b :=
  fun b hb => W4_of_ne m ρ c b fun w e => hb (Finset.mem_image.mpr ⟨w, Finset.mem_univ _, e⟩)

/-- At region 4's exit: its arrays at what the pipeline leaves (the inputs as entered, each output's write-backs
    folded), every other buffer as entered. -/
def W5 (c : Dev nD) : Valuation τ sig (Elt F) :=
  Pipeline.withArrays spec4 c (W4 m ρ c) fun w => (dat4 (E4 m ρ) c).arrAt w cfg4.N
theorem W5_arr (c : Dev nD) (w : Fin cfg4.W) :
    W5 m ρ c (Proc.devRef .tc (Pipeline.arrRef spec4 w)) = (dat4 (E4 m ρ) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m ρ c (Proc.devRef .tc b) = W4 m ρ c (Proc.devRef .tc b) := by
  unfold W5; exact Pipeline.withArrays_of_ne spec4 c _ _ b hb
/-- The same read at the TensorCore's references: region 4's exit contents. -/
abbrev E5 : (c : Dev nD) → (b : Ref sig .tc) → Buf (Elt F) ((c : Thread nD τ).loc b) := fun c b => W5 m ρ c b
theorem hF4 (c : Dev nD) (w : Fin cfg4.W) : (dat4 (E4 m ρ) c).arrAt w cfg4.N = E5 m ρ c (Pipeline.arrRef spec4 w) :=
  (W5_arr m ρ c w).symm
theorem hrest4 (c : Dev nD) : ∀ b, b ∉ Finset.univ.image (Pipeline.arrRef spec4) → E5 m ρ c b = E4 m ρ c b :=
  fun b hb => W5_of_ne m ρ c b fun w e => hb (Finset.mem_image.mpr ⟨w, Finset.mem_univ _, e⟩)

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
  | ⟨4, _⟩ => fun c => dat4 (E4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at `W0`, left at `W1`. Its arrays are split
    out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at `W1`, left at `W2`. Its arrays are split
    out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (E1 m ρ) c)
    unfold Pipeline.ΦA
    iintro ⟨Hp, -, Hr⟩
    isplitl [Hr]; · iexact Hr
    iexact Hp
  hout c := by
    refine BIBase.Entails.trans (show (pdats m ρ 1 c).Φ (Fin.last _) ⊢ Pipeline.ΦA spec1 c from hout1 (E1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at `W2`, left at `W3`. Its arrays are split
    out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (E3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 3 over the thread state: entered from every unscoped buffer at `W3`, left at `W4`. Its arrays are split
    out of the unscoped buffers and put back at the exit contents; the generator register goes into the region's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec3 c ⊢ (pdats m ρ 3 c).Φ 0 from hin3 (E3 m ρ) c)
    unfold Pipeline.ΦA
    iintro ⟨Hp, -, Hr⟩
    isplitl [Hr]; · iexact Hr
    iexact Hp
  hout c := by
    refine BIBase.Entails.trans (show (pdats m ρ 3 c).Φ (Fin.last _) ⊢ Pipeline.ΦA spec3 c from hout3 (E3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (E4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 4 over the thread state: entered from every unscoped buffer at `W4`, left at `W5`. Its arrays are split
    out of the unscoped buffers and put back at the exit contents; the generator register goes into the region's
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E4 m ρ c) (E5 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]

/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and every final state holds every unscoped buffer at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Args.lean ====
import proofs.«422171_j68341519614500_3_alg».proof.Proof.KI.Run

/-! What the last boundary's contents are at the buffers the claims speak of: every ARGUMENT array is as launched
    (no region writes one: a region either reads it through an input window, whose array the write-backs leave alone,
    or does not touch it); each region's entry contents at the arrays it reads, traced back to the region that wrote
    them or to the launch memory. -/

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 3).trans (((dat1 (E1 m ρ) c).arrAt_in 3 rfl _).trans (A_eq1 (E1 m ρ) c 3))
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (E0 m ρ) c).arrAt_in 1 rfl _).trans (A_eq0 (E0 m ρ) c 1))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 2).trans (((dat0 (E0 m ρ) c).arrAt_in 2 rfl _).trans (A_eq0 (E0 m ρ) c 2))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := (W4_arr m ρ c 3).trans (((dat3 (E3 m ρ) c).arrAt_in 3 rfl _).trans (A_eq3 (E3 m ρ) c 3))
    _ = W2 m ρ c (Proc.devRef .tc main_arg3) := (W3_arr m ρ c 0).trans (((dat2 (E2 m ρ) c).arrAt_in 0 rfl _).trans (A_eq2 (E2 m ρ) c 0))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := (W3_arr m ρ c 2).trans (((dat2 (E2 m ρ) c).arrAt_in 2 rfl _).trans (A_eq2 (E2 m ρ) c 2))
    _ = W1 m ρ c (Proc.devRef .tc main_arg4) := W2_of_ne m ρ c main_arg4 (by decide)
    _ = W0 m ρ c (Proc.devRef .tc main_arg4) := (W1_arr m ρ c 3).trans (((dat0 (E0 m ρ) c).arrAt_in 3 rfl _).trans (A_eq0 (E0 m ρ) c 3))
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := (W3_arr m ρ c 3).trans (((dat2 (E2 m ρ) c).arrAt_in 3 rfl _).trans (A_eq2 (E2 m ρ) c 3))
    _ = W1 m ρ c (Proc.devRef .tc main_arg5) := W2_of_ne m ρ c main_arg5 (by decide)
    _ = W0 m ρ c (Proc.devRef .tc main_arg5) := (W1_arr m ρ c 4).trans (((dat0 (E0 m ρ) c).arrAt_in 4 rfl _).trans (A_eq0 (E0 m ρ) c 4))
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := (W3_arr m ρ c 4).trans (((dat2 (E2 m ρ) c).arrAt_in 4 rfl _).trans (A_eq2 (E2 m ρ) c 4))
    _ = W1 m ρ c (Proc.devRef .tc main_arg6) := W2_of_ne m ρ c main_arg6 (by decide)
    _ = W0 m ρ c (Proc.devRef .tc main_arg6) := (W1_arr m ρ c 5).trans (((dat0 (E0 m ρ) c).arrAt_in 5 rfl _).trans (A_eq0 (E0 m ρ) c 5))
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := (W3_arr m ρ c 5).trans (((dat2 (E2 m ρ) c).arrAt_in 5 rfl _).trans (A_eq2 (E2 m ρ) c 5))
    _ = W1 m ρ c (Proc.devRef .tc main_arg7) := W2_of_ne m ρ c main_arg7 (by decide)
    _ = W0 m ρ c (Proc.devRef .tc main_arg7) := (W1_arr m ρ c 6).trans (((dat0 (E0 m ρ) c).arrAt_in 6 rfl _).trans (A_eq0 (E0 m ρ) c 6))
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := (W3_arr m ρ c 6).trans (((dat2 (E2 m ρ) c).arrAt_in 6 rfl _).trans (A_eq2 (E2 m ρ) c 6))
    _ = W1 m ρ c (Proc.devRef .tc main_arg8) := W2_of_ne m ρ c main_arg8 (by decide)
    _ = W0 m ρ c (Proc.devRef .tc main_arg8) := (W1_arr m ρ c 7).trans (((dat0 (E0 m ρ) c).arrAt_in 7 rfl _).trans (A_eq0 (E0 m ρ) c 7))
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := (W3_arr m ρ c 7).trans (((dat2 (E2 m ρ) c).arrAt_in 7 rfl _).trans (A_eq2 (E2 m ρ) c 7))
    _ = W1 m ρ c (Proc.devRef .tc main_arg9) := W2_of_ne m ρ c main_arg9 (by decide)
    _ = W0 m ρ c (Proc.devRef .tc main_arg9) := (W1_arr m ρ c 8).trans (((dat0 (E0 m ρ) c).arrAt_in 8 rfl _).trans (A_eq0 (E0 m ρ) c 8))
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := (W5_arr m ρ c 1).trans (((dat4 (E4 m ρ) c).arrAt_in 1 rfl _).trans (A_eq4 (E4 m ρ) c 1))
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := (W5_arr m ρ c 2).trans (((dat4 (E4 m ρ) c).arrAt_in 2 rfl _).trans (A_eq4 (E4 m ρ) c 2))
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl

theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := (W5_arr m ρ c 3).trans (((dat4 (E4 m ρ) c).arrAt_in 3 rfl _).trans (A_eq4 (E4 m ρ) c 3))
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of_ne m ρ c main_arg12 (by decide)
    _ = m ((c : Thread nD τ).loc main_arg12) := rfl

theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := (W5_arr m ρ c 4).trans (((dat4 (E4 m ρ) c).arrAt_in 4 rfl _).trans (A_eq4 (E4 m ρ) c 4))
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := W1_of_ne m ρ c main_arg13 (by decide)
    _ = m ((c : Thread nD τ).loc main_arg13) := rfl

theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := (W5_arr m ρ c 5).trans (((dat4 (E4 m ρ) c).arrAt_in 5 rfl _).trans (A_eq4 (E4 m ρ) c 5))
    _ = W3 m ρ c (Proc.devRef .tc main_arg14) := (W4_arr m ρ c 4).trans (((dat3 (E3 m ρ) c).arrAt_in 4 rfl _).trans (A_eq3 (E3 m ρ) c 4))
    _ = W2 m ρ c (Proc.devRef .tc main_arg14) := W3_of_ne m ρ c main_arg14 (by decide)
    _ = W1 m ρ c (Proc.devRef .tc main_arg14) := (W2_arr m ρ c 4).trans (((dat1 (E1 m ρ) c).arrAt_in 4 rfl _).trans (A_eq1 (E1 m ρ) c 4))
    _ = W0 m ρ c (Proc.devRef .tc main_arg14) := W1_of_ne m ρ c main_arg14 (by decide)
    _ = m ((c : Thread nD τ).loc main_arg14) := rfl

theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := (W5_arr m ρ c 6).trans (((dat4 (E4 m ρ) c).arrAt_in 6 rfl _).trans (A_eq4 (E4 m ρ) c 6))
    _ = W3 m ρ c (Proc.devRef .tc main_arg15) := (W4_arr m ρ c 5).trans (((dat3 (E3 m ρ) c).arrAt_in 5 rfl _).trans (A_eq3 (E3 m ρ) c 5))
    _ = W2 m ρ c (Proc.devRef .tc main_arg15) := W3_of_ne m ρ c main_arg15 (by decide)
    _ = W1 m ρ c (Proc.devRef .tc main_arg15) := (W2_arr m ρ c 5).trans (((dat1 (E1 m ρ) c).arrAt_in 5 rfl _).trans (A_eq1 (E1 m ρ) c 5))
    _ = W0 m ρ c (Proc.devRef .tc main_arg15) := W1_of_ne m ρ c main_arg15 (by decide)
    _ = m ((c : Thread nD τ).loc main_arg15) := rfl

/-! ## Each region's entry contents at the arrays it reads -/

theorem E0_main_arg0 (c : Dev nD) : E0 m ρ c main_arg0 = m ((c : Thread nD τ).loc main_arg0) :=
  calc W0 m ρ c (Proc.devRef .tc main_arg0)
    _ = m ((c : Thread nD τ).loc main_arg0) := rfl

theorem E0_main_arg1 (c : Dev nD) : E0 m ρ c main_arg1 = m ((c : Thread nD τ).loc main_arg1) :=
  calc W0 m ρ c (Proc.devRef .tc main_arg1)
    _ = m ((c : Thread nD τ).loc main_arg1) := rfl

theorem E0_main_arg2 (c : Dev nD) : E0 m ρ c main_arg2 = m ((c : Thread nD τ).loc main_arg2) :=
  calc W0 m ρ c (Proc.devRef .tc main_arg2)
    _ = m ((c : Thread nD τ).loc main_arg2) := rfl

theorem E0_main_arg4 (c : Dev nD) : E0 m ρ c main_arg4 = m ((c : Thread nD τ).loc main_arg4) :=
  calc W0 m ρ c (Proc.devRef .tc main_arg4)
    _ = m ((c : Thread nD τ).loc main_arg4) := rfl

theorem E0_main_arg5 (c : Dev nD) : E0 m ρ c main_arg5 = m ((c : Thread nD τ).loc main_arg5) :=
  calc W0 m ρ c (Proc.devRef .tc main_arg5)
    _ = m ((c : Thread nD τ).loc main_arg5) := rfl

theorem E0_main_arg6 (c : Dev nD) : E0 m ρ c main_arg6 = m ((c : Thread nD τ).loc main_arg6) :=
  calc W0 m ρ c (Proc.devRef .tc main_arg6)
    _ = m ((c : Thread nD τ).loc main_arg6) := rfl

theorem E0_main_arg7 (c : Dev nD) : E0 m ρ c main_arg7 = m ((c : Thread nD τ).loc main_arg7) :=
  calc W0 m ρ c (Proc.devRef .tc main_arg7)
    _ = m ((c : Thread nD τ).loc main_arg7) := rfl

theorem E0_main_arg8 (c : Dev nD) : E0 m ρ c main_arg8 = m ((c : Thread nD τ).loc main_arg8) :=
  calc W0 m ρ c (Proc.devRef .tc main_arg8)
    _ = m ((c : Thread nD τ).loc main_arg8) := rfl

theorem E0_main_arg9 (c : Dev nD) : E0 m ρ c main_arg9 = m ((c : Thread nD τ).loc main_arg9) :=
  calc W0 m ρ c (Proc.devRef .tc main_arg9)
    _ = m ((c : Thread nD τ).loc main_arg9) := rfl

theorem E1_main_v0_0 (c : Dev nD) : E1 m ρ c main_v0_0 = (dat0 (E0 m ρ) c).arrAt 9 cfg0.N :=
  calc W1 m ρ c (Proc.devRef .tc main_v0_0)
    _ = (dat0 (E0 m ρ) c).arrAt 9 cfg0.N := W1_arr m ρ c 9

theorem E1_main_v0_1 (c : Dev nD) : E1 m ρ c main_v0_1 = (dat0 (E0 m ρ) c).arrAt 10 cfg0.N :=
  calc W1 m ρ c (Proc.devRef .tc main_v0_1)
    _ = (dat0 (E0 m ρ) c).arrAt 10 cfg0.N := W1_arr m ρ c 10

theorem E1_main_v0_2 (c : Dev nD) : E1 m ρ c main_v0_2 = (dat0 (E0 m ρ) c).arrAt 11 cfg0.N :=
  calc W1 m ρ c (Proc.devRef .tc main_v0_2)
    _ = (dat0 (E0 m ρ) c).arrAt 11 cfg0.N := W1_arr m ρ c 11

theorem E1_main_arg0 (c : Dev nD) : E1 m ρ c main_arg0 = m ((c : Thread nD τ).loc main_arg0) :=
  calc W1 m ρ c (Proc.devRef .tc main_arg0)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

theorem E1_main_arg14 (c : Dev nD) : E1 m ρ c main_arg14 = m ((c : Thread nD τ).loc main_arg14) :=
  calc W1 m ρ c (Proc.devRef .tc main_arg14)
    _ = W0 m ρ c (Proc.devRef .tc main_arg14) := W1_of_ne m ρ c main_arg14 (by decide)
    _ = m ((c : Thread nD τ).loc main_arg14) := rfl

theorem E1_main_arg15 (c : Dev nD) : E1 m ρ c main_arg15 = m ((c : Thread nD τ).loc main_arg15) :=
  calc W1 m ρ c (Proc.devRef .tc main_arg15)
    _ = W0 m ρ c (Proc.devRef .tc main_arg15) := W1_of_ne m ρ c main_arg15 (by decide)
    _ = m ((c : Thread nD τ).loc main_arg15) := rfl

theorem E2_main_arg3 (c : Dev nD) : E2 m ρ c main_arg3 = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem E2_main_v1 (c : Dev nD) : E2 m ρ c main_v1 = (dat1 (E1 m ρ) c).arrAt 6 cfg1.N :=
  calc W2 m ρ c (Proc.devRef .tc main_v1)
    _ = (dat1 (E1 m ρ) c).arrAt 6 cfg1.N := W2_arr m ρ c 6

theorem E2_main_arg4 (c : Dev nD) : E2 m ρ c main_arg4 = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := (W1_arr m ρ c 3).trans (((dat0 (E0 m ρ) c).arrAt_in 3 rfl _).trans (A_eq0 (E0 m ρ) c 3))
    _ = m ((c : Thread nD τ).loc main_arg4) := rfl

theorem E2_main_arg5 (c : Dev nD) : E2 m ρ c main_arg5 = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := (W1_arr m ρ c 4).trans (((dat0 (E0 m ρ) c).arrAt_in 4 rfl _).trans (A_eq0 (E0 m ρ) c 4))
    _ = m ((c : Thread nD τ).loc main_arg5) := rfl

theorem E2_main_arg6 (c : Dev nD) : E2 m ρ c main_arg6 = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := (W1_arr m ρ c 5).trans (((dat0 (E0 m ρ) c).arrAt_in 5 rfl _).trans (A_eq0 (E0 m ρ) c 5))
    _ = m ((c : Thread nD τ).loc main_arg6) := rfl

theorem E2_main_arg7 (c : Dev nD) : E2 m ρ c main_arg7 = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := (W1_arr m ρ c 6).trans (((dat0 (E0 m ρ) c).arrAt_in 6 rfl _).trans (A_eq0 (E0 m ρ) c 6))
    _ = m ((c : Thread nD τ).loc main_arg7) := rfl

theorem E2_main_arg8 (c : Dev nD) : E2 m ρ c main_arg8 = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := (W1_arr m ρ c 7).trans (((dat0 (E0 m ρ) c).arrAt_in 7 rfl _).trans (A_eq0 (E0 m ρ) c 7))
    _ = m ((c : Thread nD τ).loc main_arg8) := rfl

theorem E2_main_arg9 (c : Dev nD) : E2 m ρ c main_arg9 = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := (W1_arr m ρ c 8).trans (((dat0 (E0 m ρ) c).arrAt_in 8 rfl _).trans (A_eq0 (E0 m ρ) c 8))
    _ = m ((c : Thread nD τ).loc main_arg9) := rfl

theorem E3_main_v2_0 (c : Dev nD) : E3 m ρ c main_v2_0 = (dat2 (E2 m ρ) c).arrAt 8 cfg2.N :=
  calc W3 m ρ c (Proc.devRef .tc main_v2_0)
    _ = (dat2 (E2 m ρ) c).arrAt 8 cfg2.N := W3_arr m ρ c 8

theorem E3_main_v2_1 (c : Dev nD) : E3 m ρ c main_v2_1 = (dat2 (E2 m ρ) c).arrAt 9 cfg2.N :=
  calc W3 m ρ c (Proc.devRef .tc main_v2_1)
    _ = (dat2 (E2 m ρ) c).arrAt 9 cfg2.N := W3_arr m ρ c 9

theorem E3_main_v2_2 (c : Dev nD) : E3 m ρ c main_v2_2 = (dat2 (E2 m ρ) c).arrAt 10 cfg2.N :=
  calc W3 m ρ c (Proc.devRef .tc main_v2_2)
    _ = (dat2 (E2 m ρ) c).arrAt 10 cfg2.N := W3_arr m ρ c 10

theorem E3_main_arg3 (c : Dev nD) : E3 m ρ c main_arg3 = m ((c : Thread nD τ).loc main_arg3) :=
  calc W3 m ρ c (Proc.devRef .tc main_arg3)
    _ = W2 m ρ c (Proc.devRef .tc main_arg3) := (W3_arr m ρ c 0).trans (((dat2 (E2 m ρ) c).arrAt_in 0 rfl _).trans (A_eq2 (E2 m ρ) c 0))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem E3_main_arg14 (c : Dev nD) : E3 m ρ c main_arg14 = m ((c : Thread nD τ).loc main_arg14) :=
  calc W3 m ρ c (Proc.devRef .tc main_arg14)
    _ = W2 m ρ c (Proc.devRef .tc main_arg14) := W3_of_ne m ρ c main_arg14 (by decide)
    _ = W1 m ρ c (Proc.devRef .tc main_arg14) := (W2_arr m ρ c 4).trans (((dat1 (E1 m ρ) c).arrAt_in 4 rfl _).trans (A_eq1 (E1 m ρ) c 4))
    _ = W0 m ρ c (Proc.devRef .tc main_arg14) := W1_of_ne m ρ c main_arg14 (by decide)
    _ = m ((c : Thread nD τ).loc main_arg14) := rfl

theorem E3_main_arg15 (c : Dev nD) : E3 m ρ c main_arg15 = m ((c : Thread nD τ).loc main_arg15) :=
  calc W3 m ρ c (Proc.devRef .tc main_arg15)
    _ = W2 m ρ c (Proc.devRef .tc main_arg15) := W3_of_ne m ρ c main_arg15 (by decide)
    _ = W1 m ρ c (Proc.devRef .tc main_arg15) := (W2_arr m ρ c 5).trans (((dat1 (E1 m ρ) c).arrAt_in 5 rfl _).trans (A_eq1 (E1 m ρ) c 5))
    _ = W0 m ρ c (Proc.devRef .tc main_arg15) := W1_of_ne m ρ c main_arg15 (by decide)
    _ = m ((c : Thread nD τ).loc main_arg15) := rfl

theorem E4_main_v3 (c : Dev nD) : E4 m ρ c main_v3 = (dat3 (E3 m ρ) c).arrAt 6 cfg3.N :=
  calc W4 m ρ c (Proc.devRef .tc main_v3)
    _ = (dat3 (E3 m ρ) c).arrAt 6 cfg3.N := W4_arr m ρ c 6

theorem E4_main_arg10 (c : Dev nD) : E4 m ρ c main_arg10 = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

theorem E4_main_arg11 (c : Dev nD) : E4 m ρ c main_arg11 = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl

theorem E4_main_arg12 (c : Dev nD) : E4 m ρ c main_arg12 = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of_ne m ρ c main_arg12 (by decide)
    _ = m ((c : Thread nD τ).loc main_arg12) := rfl

theorem E4_main_arg13 (c : Dev nD) : E4 m ρ c main_arg13 = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := W1_of_ne m ρ c main_arg13 (by decide)
    _ = m ((c : Thread nD τ).loc main_arg13) := rfl

theorem E4_main_arg14 (c : Dev nD) : E4 m ρ c main_arg14 = m ((c : Thread nD τ).loc main_arg14) :=
  calc W4 m ρ c (Proc.devRef .tc main_arg14)
    _ = W3 m ρ c (Proc.devRef .tc main_arg14) := (W4_arr m ρ c 4).trans (((dat3 (E3 m ρ) c).arrAt_in 4 rfl _).trans (A_eq3 (E3 m ρ) c 4))
    _ = W2 m ρ c (Proc.devRef .tc main_arg14) := W3_of_ne m ρ c main_arg14 (by decide)
    _ = W1 m ρ c (Proc.devRef .tc main_arg14) := (W2_arr m ρ c 4).trans (((dat1 (E1 m ρ) c).arrAt_in 4 rfl _).trans (A_eq1 (E1 m ρ) c 4))
    _ = W0 m ρ c (Proc.devRef .tc main_arg14) := W1_of_ne m ρ c main_arg14 (by decide)
    _ = m ((c : Thread nD τ).loc main_arg14) := rfl

theorem E4_main_arg15 (c : Dev nD) : E4 m ρ c main_arg15 = m ((c : Thread nD τ).loc main_arg15) :=
  calc W4 m ρ c (Proc.devRef .tc main_arg15)
    _ = W3 m ρ c (Proc.devRef .tc main_arg15) := (W4_arr m ρ c 5).trans (((dat3 (E3 m ρ) c).arrAt_in 5 rfl _).trans (A_eq3 (E3 m ρ) c 5))
    _ = W2 m ρ c (Proc.devRef .tc main_arg15) := W3_of_ne m ρ c main_arg15 (by decide)
    _ = W1 m ρ c (Proc.devRef .tc main_arg15) := (W2_arr m ρ c 5).trans (((dat1 (E1 m ρ) c).arrAt_in 5 rfl _).trans (A_eq1 (E1 m ρ) c 5))
    _ = W0 m ρ c (Proc.devRef .tc main_arg15) := W1_of_ne m ρ c main_arg15 (by decide)
    _ = m ((c : Thread nD τ).loc main_arg15) := rfl

theorem E5_main_v4 (c : Dev nD) : E5 m ρ c main_v4 = (dat4 (E4 m ρ) c).arrAt 7 cfg4.N :=
  calc W5 m ρ c (Proc.devRef .tc main_v4)
    _ = (dat4 (E4 m ρ) c).arrAt 7 cfg4.N := W5_arr m ρ c 7

end Cert.KernelIdeal.Hand

end
-- ==== Proof.RefRunA.lean ====
/-
  The reference's @main as one straight line: with the outlined functions' bodies at their calls it is 204 host
  operations, listed here in eight consecutive chunks (three windows), and each window is shown equal to its chunks
  run in order.
-/
import proofs.«422171_j68341519614500_3_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-! ## The operations -/

/-- Operations 1 … 30 of the reference's straight line, in order. -/
abbrev opsA : List (HloOp τ sig (Elt F)) :=
  [
    StableHlo.binary main_arg0 main_arg4 main_v0 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg5 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S8192x256 ![0, 1] bcast_S1x256_S8192x256_0_1 : (⟨S1x256, .f32⟩ : BufTy).Contents (Elt F) → (⟨S8192x256, .f32⟩ : BufTy).Contents (Elt F)),
    StableHlo.binary main_v0 main_v2 main_v3 (addf : (⟨S8192x256, .f32⟩ : BufTy).Contents (Elt F) → (⟨S8192x256, .f32⟩ : BufTy).Contents (Elt F) → (⟨S8192x256, .f32⟩ : BufTy).Contents (Elt F)),
    StableHlo.binary main_arg1 main_arg6 main_v4 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg7 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S8192x256 ![0, 1] bcast_S1x256_S8192x256_0_1 : (⟨S1x256, .f32⟩ : BufTy).Contents (Elt F) → (⟨S8192x256, .f32⟩ : BufTy).Contents (Elt F)),
    StableHlo.binary main_v4 main_v6 main_v7 (addf : (⟨S8192x256, .f32⟩ : BufTy).Contents (Elt F) → (⟨S8192x256, .f32⟩ : BufTy).Contents (Elt F) → (⟨S8192x256, .f32⟩ : BufTy).Contents (Elt F)),
    StableHlo.binary main_arg2 main_arg8 main_v8 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg9 main_v9 (broadcastInDim S1x256 ![1] bcast_S256_S1x256_1 : (⟨S256, .f32⟩ : BufTy).Contents (Elt F) → (⟨S1x256, .f32⟩ : BufTy).Contents (Elt F)),
    StableHlo.unary main_v9 main_v10 (broadcastInDim S8192x256 ![0, 1] bcast_S1x256_S8192x256_0_1 : (⟨S1x256, .f32⟩ : BufTy).Contents (Elt F) → (⟨S8192x256, .f32⟩ : BufTy).Contents (Elt F)),
    StableHlo.binary main_v8 main_v10 main_v11 (addf : (⟨S8192x256, .f32⟩ : BufTy).Contents (Elt F) → (⟨S8192x256, .f32⟩ : BufTy).Contents (Elt F) → (⟨S8192x256, .f32⟩ : BufTy).Contents (Elt F)),
    StableHlo.unary main_v7 main_v12 ((transpose S256x8192 [1, 0] · transposes_S8192x256_S256x8192_1_0) : (⟨S8192x256, .f32⟩ : BufTy).Contents (Elt F) → (⟨S256x8192, .f32⟩ : BufTy).Contents (Elt F)),
    StableHlo.binary main_v3 main_v12 main_v13 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    StableHlo.nullary main_cst (constant S_ .f32 0xFF800000#32),
    StableHlo.binary main_v13 main_cst main_v14 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_0 (constant S_ .f32 0xFF800000#32),
    StableHlo.unary main_cst_0 main_v15 (broadcastInDim S8192 ![] bcast_S_S8192 : (⟨S_, .f32⟩ : BufTy).Contents (Elt F) → (⟨S8192, .f32⟩ : BufTy).Contents (Elt F)),
    StableHlo.binary main_v15 main_v14 main_v16 (maximumf : (⟨S8192, .f32⟩ : BufTy).Contents (Elt F) → (⟨S8192, .f32⟩ : BufTy).Contents (Elt F) → (⟨S8192, .f32⟩ : BufTy).Contents (Elt F)),
    StableHlo.unary main_v16 main_v17 (broadcastInDim S8192x1 ![0] bcast_S8192_S8192x1_0 : (⟨S8192, .f32⟩ : BufTy).Contents (Elt F) → (⟨S8192x1, .f32⟩ : BufTy).Contents (Elt F)),
    StableHlo.unary main_v17 main_v18 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v13 main_v18 main_v19 (subf : (⟨S8192x8192, .f32⟩ : BufTy).Contents (Elt F) → (⟨S8192x8192, .f32⟩ : BufTy).Contents (Elt F) → (⟨S8192x8192, .f32⟩ : BufTy).Contents (Elt F)),
    StableHlo.unary main_v19 main_v20 (Host.exp : (⟨S8192x8192, .f32⟩ : BufTy).Contents (Elt F) → (⟨S8192x8192, .f32⟩ : BufTy).Contents (Elt F)),
    StableHlo.nullary main_cst_1 (constant S_ .f32 0x00000000#32),
    StableHlo.binary main_v20 main_cst_1 main_v21 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v21 main_v22 (broadcastInDim S8192x1 ![0] bcast_S8192_S8192x1_0 : (⟨S8192, .f32⟩ : BufTy).Contents (Elt F) → (⟨S8192x1, .f32⟩ : BufTy).Contents (Elt F)),
    StableHlo.unary main_v22 main_v23 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v20 main_v23 main_v24 (Host.divf : (⟨S8192x8192, .f32⟩ : BufTy).Contents (Elt F) → (⟨S8192x8192, .f32⟩ : BufTy).Contents (Elt F) → (⟨S8192x8192, .f32⟩ : BufTy).Contents (Elt F)),
    StableHlo.binary main_v24 main_v11 main_v25 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    StableHlo.binary main_v25 main_arg0 main_v26 (addf : (⟨S8192x256, .f32⟩ : BufTy).Contents (Elt F) → (⟨S8192x256, .f32⟩ : BufTy).Contents (Elt F) → (⟨S8192x256, .f32⟩ : BufTy).Contents (Elt F)) ]

/-- Operations 31 … 74 of the reference's straight line, in order. -/
abbrev opsB : List (HloOp τ sig (Elt F)) :=
  [
    StableHlo.nullary main_cst_2 (constant S_ .f32 0x00000000#32),
    StableHlo.binary main_v26 main_cst_2 main_v27 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v27 main_v28 (broadcastInDim S8192x1 ![0] bcast_S8192_S8192x1_0 : (⟨S8192, .f32⟩ : BufTy).Contents (Elt F) → (⟨S8192x1, .f32⟩ : BufTy).Contents (Elt F)),
    StableHlo.nullary main_cst_3 (constant S_ .f32 0x43800000#32),
    StableHlo.unary main_cst_3 main_v29 (broadcastInDim S8192x1 ![] bcast_S_S8192x1 : (⟨S_, .f32⟩ : BufTy).Contents (Elt F) → (⟨S8192x1, .f32⟩ : BufTy).Contents (Elt F)),
    StableHlo.binary main_v28 main_v29 main_v30 (Host.divf : (⟨S8192x1, .f32⟩ : BufTy).Contents (Elt F) → (⟨S8192x1, .f32⟩ : BufTy).Contents (Elt F) → (⟨S8192x1, .f32⟩ : BufTy).Contents (Elt F)),
    StableHlo.nullary main_c (constantI S_ 32 0#32),
    StableHlo.TRef.nullary main_call0.cst (constant S_ .f32 0x00000000#32),
    StableHlo.TRef.binary (.of main_v26 : StableHlo.TRef sig ⟨S8192x256, .f32⟩) main_call0.cst main_call0.v0 (fun x v => Host.reduceAdd x v reducesTo_S8192x256_S8192_d1 h_S_),
    StableHlo.TRef.unary main_call0.v0 main_call0.v1 (broadcastInDim S8192x1 ![0] bcast_S8192_S8192x1_0),
    StableHlo.TRef.nullary main_call0.cst_0 (constant S_ .f32 0x43800000#32),
    StableHlo.TRef.unary main_call0.cst_0 main_call0.v2 (broadcastInDim S8192x1 ![] bcast_S_S8192x1),
    StableHlo.TRef.binary main_call0.v1 main_call0.v2 main_call0.v3 Host.divf,
    StableHlo.TRef.unary main_call0.v3 main_call0.v4 (broadcastInDim S8192x256 ![0, 1] bcast_S8192x1_S8192x256_0_1),
    StableHlo.TRef.binary (.of main_v26 : StableHlo.TRef sig ⟨S8192x256, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x43800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x256_S8192_d1 h_S_),
    StableHlo.TRef.unary main_call0.v9 main_call0.v10 (broadcastInDim S8192x1 ![0] bcast_S8192_S8192x1_0),
    StableHlo.TRef.unary main_call0.v8 main_call0.v11 (broadcastInDim S8192x1 ![] bcast_S_S8192x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8192x1 ![] bcast_S_S8192x1),
    StableHlo.TRef.ternary main_call0.v13 main_call0.v12 main_call0.call0.v1 main_call0.call0.v2 (fun p a b => select (broadcastInDim S8192x1 ![] bcast_S_S8192x1 p) a b),
    StableHlo.unary main_v30 main_v32 (broadcastInDim S8192x256 ![0, 1] bcast_S8192x1_S8192x256_0_1 : (⟨S8192x1, .f32⟩ : BufTy).Contents (Elt F) → (⟨S8192x256, .f32⟩ : BufTy).Contents (Elt F)),
    StableHlo.binary main_v26 main_v32 main_v33 (subf : (⟨S8192x256, .f32⟩ : BufTy).Contents (Elt F) → (⟨S8192x256, .f32⟩ : BufTy).Contents (Elt F) → (⟨S8192x256, .f32⟩ : BufTy).Contents (Elt F)),
    StableHlo.nullary main_cst_4 (constant S_ .f32 0x3727C5AC#32),
    StableHlo.unary main_cst_4 main_v34 (broadcastInDim S8192x1 ![] bcast_S_S8192x1 : (⟨S_, .f32⟩ : BufTy).Contents (Elt F) → (⟨S8192x1, .f32⟩ : BufTy).Contents (Elt F)),
    StableHlo.binary main_v31 main_v34 main_v35 (addf : (⟨S8192x1, .f32⟩ : BufTy).Contents (Elt F) → (⟨S8192x1, .f32⟩ : BufTy).Contents (Elt F) → (⟨S8192x1, .f32⟩ : BufTy).Contents (Elt F)),
    StableHlo.unary main_v35 main_v36 (Host.sqrt : (⟨S8192x1, .f32⟩ : BufTy).Contents (Elt F) → (⟨S8192x1, .f32⟩ : BufTy).Contents (Elt F)),
    StableHlo.unary main_v36 main_v37 (broadcastInDim S8192x256 ![0, 1] bcast_S8192x1_S8192x256_0_1 : (⟨S8192x1, .f32⟩ : BufTy).Contents (Elt F) → (⟨S8192x256, .f32⟩ : BufTy).Contents (Elt F)),
    StableHlo.binary main_v33 main_v37 main_v38 (Host.divf : (⟨S8192x256, .f32⟩ : BufTy).Contents (Elt F) → (⟨S8192x256, .f32⟩ : BufTy).Contents (Elt F) → (⟨S8192x256, .f32⟩ : BufTy).Contents (Elt F)),
    StableHlo.unary main_arg14 main_v39 (broadcastInDim S1x256 ![1] bcast_S256_S1x256_1 : (⟨S256, .f32⟩ : BufTy).Contents (Elt F) → (⟨S1x256, .f32⟩ : BufTy).Contents (Elt F)),
    StableHlo.unary main_v39 main_v40 (broadcastInDim S8192x256 ![0, 1] bcast_S1x256_S8192x256_0_1 : (⟨S1x256, .f32⟩ : BufTy).Contents (Elt F) → (⟨S8192x256, .f32⟩ : BufTy).Contents (Elt F)),
    StableHlo.binary main_v38 main_v40 main_v41 (mulf : (⟨S8192x256, .f32⟩ : BufTy).Contents (Elt F) → (⟨S8192x256, .f32⟩ : BufTy).Contents (Elt F) → (⟨S8192x256, .f32⟩ : BufTy).Contents (Elt F)),
    StableHlo.unary main_arg15 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S8192x256 ![0, 1] bcast_S1x256_S8192x256_0_1 : (⟨S1x256, .f32⟩ : BufTy).Contents (Elt F) → (⟨S8192x256, .f32⟩ : BufTy).Contents (Elt F)),
    StableHlo.binary main_v41 main_v43 main_v44 (addf : (⟨S8192x256, .f32⟩ : BufTy).Contents (Elt F) → (⟨S8192x256, .f32⟩ : BufTy).Contents (Elt F) → (⟨S8192x256, .f32⟩ : BufTy).Contents (Elt F)) ]

/-- Operations 75 … 82 of the reference's straight line, in order. -/
abbrev opsC0 : List (HloOp τ sig (Elt F)) :=
  [
    StableHlo.binary main_arg3 main_arg4 main_v45 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg5 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S8192x256 ![0, 1] bcast_S1x256_S8192x256_0_1 : (⟨S1x256, .f32⟩ : BufTy).Contents (Elt F) → (⟨S8192x256, .f32⟩ : BufTy).Contents (Elt F)),
    StableHlo.binary main_v45 main_v47 main_v48 (addf : (⟨S8192x256, .f32⟩ : BufTy).Contents (Elt F) → (⟨S8192x256, .f32⟩ : BufTy).Contents (Elt F) → (⟨S8192x256, .f32⟩ : BufTy).Contents (Elt F)),
    StableHlo.binary main_v44 main_arg6 main_v49 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg7 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S8192x256 ![0, 1] bcast_S1x256_S8192x256_0_1 : (⟨S1x256, .f32⟩ : BufTy).Contents (Elt F) → (⟨S8192x256, .f32⟩ : BufTy).Contents (Elt F)),
    StableHlo.binary main_v49 main_v51 main_v52 (addf : (⟨S8192x256, .f32⟩ : BufTy).Contents (Elt F) → (⟨S8192x256, .f32⟩ : BufTy).Contents (Elt F) → (⟨S8192x256, .f32⟩ : BufTy).Contents (Elt F)) ]

/-- Operations 83 … 104 of the reference's straight line, in order. -/
abbrev opsC1 : List (HloOp τ sig (Elt F)) :=
  [
    StableHlo.binary main_v44 main_arg8 main_v53 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg9 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S8192x256 ![0, 1] bcast_S1x256_S8192x256_0_1 : (⟨S1x256, .f32⟩ : BufTy).Contents (Elt F) → (⟨S8192x256, .f32⟩ : BufTy).Contents (Elt F)),
    StableHlo.binary main_v53 main_v55 main_v56 (addf : (⟨S8192x256, .f32⟩ : BufTy).Contents (Elt F) → (⟨S8192x256, .f32⟩ : BufTy).Contents (Elt F) → (⟨S8192x256, .f32⟩ : BufTy).Contents (Elt F)),
    StableHlo.unary main_v52 main_v57 ((transpose S256x8192 [1, 0] · transposes_S8192x256_S256x8192_1_0) : (⟨S8192x256, .f32⟩ : BufTy).Contents (Elt F) → (⟨S256x8192, .f32⟩ : BufTy).Contents (Elt F)),
    StableHlo.binary main_v48 main_v57 main_v58 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    StableHlo.nullary main_cst_5 (constant S_ .f32 0xFF800000#32),
    StableHlo.binary main_v58 main_cst_5 main_v59 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_6 (constant S_ .f32 0xFF800000#32),
    StableHlo.unary main_cst_6 main_v60 (broadcastInDim S8192 ![] bcast_S_S8192 : (⟨S_, .f32⟩ : BufTy).Contents (Elt F) → (⟨S8192, .f32⟩ : BufTy).Contents (Elt F)),
    StableHlo.binary main_v60 main_v59 main_v61 (maximumf : (⟨S8192, .f32⟩ : BufTy).Contents (Elt F) → (⟨S8192, .f32⟩ : BufTy).Contents (Elt F) → (⟨S8192, .f32⟩ : BufTy).Contents (Elt F)),
    StableHlo.unary main_v61 main_v62 (broadcastInDim S8192x1 ![0] bcast_S8192_S8192x1_0 : (⟨S8192, .f32⟩ : BufTy).Contents (Elt F) → (⟨S8192x1, .f32⟩ : BufTy).Contents (Elt F)),
    StableHlo.unary main_v62 main_v63 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v58 main_v63 main_v64 (subf : (⟨S8192x8192, .f32⟩ : BufTy).Contents (Elt F) → (⟨S8192x8192, .f32⟩ : BufTy).Contents (Elt F) → (⟨S8192x8192, .f32⟩ : BufTy).Contents (Elt F)),
    StableHlo.unary main_v64 main_v65 (Host.exp : (⟨S8192x8192, .f32⟩ : BufTy).Contents (Elt F) → (⟨S8192x8192, .f32⟩ : BufTy).Contents (Elt F)),
    StableHlo.nullary main_cst_7 (constant S_ .f32 0x00000000#32),
    StableHlo.binary main_v65 main_cst_7 main_v66 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v66 main_v67 (broadcastInDim S8192x1 ![0] bcast_S8192_S8192x1_0 : (⟨S8192, .f32⟩ : BufTy).Contents (Elt F) → (⟨S8192x1, .f32⟩ : BufTy).Contents (Elt F)),
    StableHlo.unary main_v67 main_v68 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v65 main_v68 main_v69 (Host.divf : (⟨S8192x8192, .f32⟩ : BufTy).Contents (Elt F) → (⟨S8192x8192, .f32⟩ : BufTy).Contents (Elt F) → (⟨S8192x8192, .f32⟩ : BufTy).Contents (Elt F)),
    StableHlo.binary main_v69 main_v56 main_v70 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    StableHlo.binary main_v70 main_arg3 main_v71 (addf : (⟨S8192x256, .f32⟩ : BufTy).Contents (Elt F) → (⟨S8192x256, .f32⟩ : BufTy).Contents (Elt F) → (⟨S8192x256, .f32⟩ : BufTy).Contents (Elt F)) ]

/-- Operations 105 … 148 of the reference's straight line, in order. -/
abbrev opsD : List (HloOp τ sig (Elt F)) :=
  [
    StableHlo.nullary main_cst_8 (constant S_ .f32 0x00000000#32),
    StableHlo.binary main_v71 main_cst_8 main_v72 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v72 main_v73 (broadcastInDim S8192x1 ![0] bcast_S8192_S8192x1_0 : (⟨S8192, .f32⟩ : BufTy).Contents (Elt F) → (⟨S8192x1, .f32⟩ : BufTy).Contents (Elt F)),
    StableHlo.nullary main_cst_9 (constant S_ .f32 0x43800000#32),
    StableHlo.unary main_cst_9 main_v74 (broadcastInDim S8192x1 ![] bcast_S_S8192x1 : (⟨S_, .f32⟩ : BufTy).Contents (Elt F) → (⟨S8192x1, .f32⟩ : BufTy).Contents (Elt F)),
    StableHlo.binary main_v73 main_v74 main_v75 (Host.divf : (⟨S8192x1, .f32⟩ : BufTy).Contents (Elt F) → (⟨S8192x1, .f32⟩ : BufTy).Contents (Elt F) → (⟨S8192x1, .f32⟩ : BufTy).Contents (Elt F)),
    StableHlo.nullary main_c_10 (constantI S_ 32 0#32),
    StableHlo.TRef.nullary main_call1.cst (constant S_ .f32 0x00000000#32),
    StableHlo.TRef.binary (.of main_v71 : StableHlo.TRef sig ⟨S8192x256, .f32⟩) main_call1.cst main_call1.v0 (fun x v => Host.reduceAdd x v reducesTo_S8192x256_S8192_d1 h_S_),
    StableHlo.TRef.unary main_call1.v0 main_call1.v1 (broadcastInDim S8192x1 ![0] bcast_S8192_S8192x1_0),
    StableHlo.TRef.nullary main_call1.cst_0 (constant S_ .f32 0x43800000#32),
    StableHlo.TRef.unary main_call1.cst_0 main_call1.v2 (broadcastInDim S8192x1 ![] bcast_S_S8192x1),
    StableHlo.TRef.binary main_call1.v1 main_call1.v2 main_call1.v3 Host.divf,
    StableHlo.TRef.unary main_call1.v3 main_call1.v4 (broadcastInDim S8192x256 ![0, 1] bcast_S8192x1_S8192x256_0_1),
    StableHlo.TRef.binary (.of main_v71 : StableHlo.TRef sig ⟨S8192x256, .f32⟩) main_call1.v4 main_call1.v5 subf,
    StableHlo.TRef.binary main_call1.v5 main_call1.v5 main_call1.v6 mulf,
    StableHlo.TRef.unary (.of main_c_10 : StableHlo.TRef sig ⟨S_, .i32⟩) main_call1.v7 (sitofp .f32),
    StableHlo.TRef.nullary main_call1.cst_1 (constant S_ .f32 0x43800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8192x256_S8192_d1 h_S_),
    StableHlo.TRef.unary main_call1.v9 main_call1.v10 (broadcastInDim S8192x1 ![0] bcast_S8192_S8192x1_0),
    StableHlo.TRef.unary main_call1.v8 main_call1.v11 (broadcastInDim S8192x1 ![] bcast_S_S8192x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S8192x1 ![] bcast_S_S8192x1),
    StableHlo.TRef.ternary main_call1.v13 main_call1.v12 main_call1.call0.v1 main_call1.call0.v2 (fun p a b => select (broadcastInDim S8192x1 ![] bcast_S_S8192x1 p) a b),
    StableHlo.unary main_v75 main_v77 (broadcastInDim S8192x256 ![0, 1] bcast_S8192x1_S8192x256_0_1 : (⟨S8192x1, .f32⟩ : BufTy).Contents (Elt F) → (⟨S8192x256, .f32⟩ : BufTy).Contents (Elt F)),
    StableHlo.binary main_v71 main_v77 main_v78 (subf : (⟨S8192x256, .f32⟩ : BufTy).Contents (Elt F) → (⟨S8192x256, .f32⟩ : BufTy).Contents (Elt F) → (⟨S8192x256, .f32⟩ : BufTy).Contents (Elt F)),
    StableHlo.nullary main_cst_11 (constant S_ .f32 0x3727C5AC#32),
    StableHlo.unary main_cst_11 main_v79 (broadcastInDim S8192x1 ![] bcast_S_S8192x1 : (⟨S_, .f32⟩ : BufTy).Contents (Elt F) → (⟨S8192x1, .f32⟩ : BufTy).Contents (Elt F)),
    StableHlo.binary main_v76 main_v79 main_v80 (addf : (⟨S8192x1, .f32⟩ : BufTy).Contents (Elt F) → (⟨S8192x1, .f32⟩ : BufTy).Contents (Elt F) → (⟨S8192x1, .f32⟩ : BufTy).Contents (Elt F)),
    StableHlo.unary main_v80 main_v81 (Host.sqrt : (⟨S8192x1, .f32⟩ : BufTy).Contents (Elt F) → (⟨S8192x1, .f32⟩ : BufTy).Contents (Elt F)),
    StableHlo.unary main_v81 main_v82 (broadcastInDim S8192x256 ![0, 1] bcast_S8192x1_S8192x256_0_1 : (⟨S8192x1, .f32⟩ : BufTy).Contents (Elt F) → (⟨S8192x256, .f32⟩ : BufTy).Contents (Elt F)),
    StableHlo.binary main_v78 main_v82 main_v83 (Host.divf : (⟨S8192x256, .f32⟩ : BufTy).Contents (Elt F) → (⟨S8192x256, .f32⟩ : BufTy).Contents (Elt F) → (⟨S8192x256, .f32⟩ : BufTy).Contents (Elt F)),
    StableHlo.unary main_arg14 main_v84 (broadcastInDim S1x256 ![1] bcast_S256_S1x256_1 : (⟨S256, .f32⟩ : BufTy).Contents (Elt F) → (⟨S1x256, .f32⟩ : BufTy).Contents (Elt F)),
    StableHlo.unary main_v84 main_v85 (broadcastInDim S8192x256 ![0, 1] bcast_S1x256_S8192x256_0_1 : (⟨S1x256, .f32⟩ : BufTy).Contents (Elt F) → (⟨S8192x256, .f32⟩ : BufTy).Contents (Elt F)),
    StableHlo.binary main_v83 main_v85 main_v86 (mulf : (⟨S8192x256, .f32⟩ : BufTy).Contents (Elt F) → (⟨S8192x256, .f32⟩ : BufTy).Contents (Elt F) → (⟨S8192x256, .f32⟩ : BufTy).Contents (Elt F)),
    StableHlo.unary main_arg15 main_v87 (broadcastInDim S1x256 ![1] bcast_S256_S1x256_1 : (⟨S256, .f32⟩ : BufTy).Contents (Elt F) → (⟨S1x256, .f32⟩ : BufTy).Contents (Elt F)),
    StableHlo.unary main_v87 main_v88 (broadcastInDim S8192x256 ![0, 1] bcast_S1x256_S8192x256_0_1 : (⟨S1x256, .f32⟩ : BufTy).Contents (Elt F) → (⟨S8192x256, .f32⟩ : BufTy).Contents (Elt F)),
    StableHlo.binary main_v86 main_v88 main_v89 (addf : (⟨S8192x256, .f32⟩ : BufTy).Contents (Elt F) → (⟨S8192x256, .f32⟩ : BufTy).Contents (Elt F) → (⟨S8192x256, .f32⟩ : BufTy).Contents (Elt F)) ]

/-- Operations 149 … 160 of the reference's straight line, in order. -/
abbrev opsE : List (HloOp τ sig (Elt F)) :=
  [
    StableHlo.binary main_v89 main_arg10 main_v90 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg11 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S8192x128 ![0, 1] bcast_S1x128_S8192x128_0_1 : (⟨S1x128, .f32⟩ : BufTy).Contents (Elt F) → (⟨S8192x128, .f32⟩ : BufTy).Contents (Elt F)),
    StableHlo.binary main_v90 main_v92 main_v93 (addf : (⟨S8192x128, .f32⟩ : BufTy).Contents (Elt F) → (⟨S8192x128, .f32⟩ : BufTy).Contents (Elt F) → (⟨S8192x128, .f32⟩ : BufTy).Contents (Elt F)),
    StableHlo.TRef.nullary main_call2.cst (constant S_ .f32 0x00000000#32),
    StableHlo.TRef.unary main_call2.cst main_call2.v0 (broadcastInDim S8192x128 ![] bcast_S_S8192x128),
    StableHlo.TRef.binary (.of main_v93 : StableHlo.TRef sig ⟨S8192x128, .f32⟩) main_call2.v0 main_call2.v1 maximumf,
    StableHlo.binary main_v94 main_arg12 main_v95 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    StableHlo.unary main_arg13 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S8192x256 ![0, 1] bcast_S1x256_S8192x256_0_1 : (⟨S1x256, .f32⟩ : BufTy).Contents (Elt F) → (⟨S8192x256, .f32⟩ : BufTy).Contents (Elt F)),
    StableHlo.binary main_v95 main_v97 main_v98 (addf : (⟨S8192x256, .f32⟩ : BufTy).Contents (Elt F) → (⟨S8192x256, .f32⟩ : BufTy).Contents (Elt F) → (⟨S8192x256, .f32⟩ : BufTy).Contents (Elt F)),
    StableHlo.binary main_v98 main_v89 main_v99 (addf : (⟨S8192x256, .f32⟩ : BufTy).Contents (Elt F) → (⟨S8192x256, .f32⟩ : BufTy).Contents (Elt F) → (⟨S8192x256, .f32⟩ : BufTy).Contents (Elt F)) ]

/-- Operations 161 … 166 of the reference's straight line, in order. -/
abbrev opsF0 : List (HloOp τ sig (Elt F)) :=
  [
    StableHlo.nullary main_cst_12 (constant S_ .f32 0x00000000#32),
    StableHlo.binary main_v99 main_cst_12 main_v100 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v100 main_v101 (broadcastInDim S8192x1 ![0] bcast_S8192_S8192x1_0 : (⟨S8192, .f32⟩ : BufTy).Contents (Elt F) → (⟨S8192x1, .f32⟩ : BufTy).Contents (Elt F)),
    StableHlo.nullary main_cst_13 (constant S_ .f32 0x43800000#32),
    StableHlo.unary main_cst_13 main_v102 (broadcastInDim S8192x1 ![] bcast_S_S8192x1 : (⟨S_, .f32⟩ : BufTy).Contents (Elt F) → (⟨S8192x1, .f32⟩ : BufTy).Contents (Elt F)),
    StableHlo.binary main_v101 main_v102 main_v103 (Host.divf : (⟨S8192x1, .f32⟩ : BufTy).Contents (Elt F) → (⟨S8192x1, .f32⟩ : BufTy).Contents (Elt F) → (⟨S8192x1, .f32⟩ : BufTy).Contents (Elt F)) ]

/-- Operations 167 … 204 of the reference's straight line, in order. -/
abbrev opsF1 : List (HloOp τ sig (Elt F)) :=
  [
    StableHlo.nullary main_c_14 (constantI S_ 32 0#32),
    StableHlo.TRef.nullary main_call3.cst (constant S_ .f32 0x00000000#32),
    StableHlo.TRef.binary (.of main_v99 : StableHlo.TRef sig ⟨S8192x256, .f32⟩) main_call3.cst main_call3.v0 (fun x v => Host.reduceAdd x v reducesTo_S8192x256_S8192_d1 h_S_),
    StableHlo.TRef.unary main_call3.v0 main_call3.v1 (broadcastInDim S8192x1 ![0] bcast_S8192_S8192x1_0),
    StableHlo.TRef.nullary main_call3.cst_0 (constant S_ .f32 0x43800000#32),
    StableHlo.TRef.unary main_call3.cst_0 main_call3.v2 (broadcastInDim S8192x1 ![] bcast_S_S8192x1),
    StableHlo.TRef.binary main_call3.v1 main_call3.v2 main_call3.v3 Host.divf,
    StableHlo.TRef.unary main_call3.v3 main_call3.v4 (broadcastInDim S8192x256 ![0, 1] bcast_S8192x1_S8192x256_0_1),
    StableHlo.TRef.binary (.of main_v99 : StableHlo.TRef sig ⟨S8192x256, .f32⟩) main_call3.v4 main_call3.v5 subf,
    StableHlo.TRef.binary main_call3.v5 main_call3.v5 main_call3.v6 mulf,
    StableHlo.TRef.unary (.of main_c_14 : StableHlo.TRef sig ⟨S_, .i32⟩) main_call3.v7 (sitofp .f32),
    StableHlo.TRef.nullary main_call3.cst_1 (constant S_ .f32 0x43800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S8192x256_S8192_d1 h_S_),
    StableHlo.TRef.unary main_call3.v9 main_call3.v10 (broadcastInDim S8192x1 ![0] bcast_S8192_S8192x1_0),
    StableHlo.TRef.unary main_call3.v8 main_call3.v11 (broadcastInDim S8192x1 ![] bcast_S_S8192x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S8192x1 ![] bcast_S_S8192x1),
    StableHlo.TRef.ternary main_call3.v13 main_call3.v12 main_call3.call0.v1 main_call3.call0.v2 (fun p a b => select (broadcastInDim S8192x1 ![] bcast_S_S8192x1 p) a b),
    StableHlo.unary main_v103 main_v105 (broadcastInDim S8192x256 ![0, 1] bcast_S8192x1_S8192x256_0_1 : (⟨S8192x1, .f32⟩ : BufTy).Contents (Elt F) → (⟨S8192x256, .f32⟩ : BufTy).Contents (Elt F)),
    StableHlo.binary main_v99 main_v105 main_v106 (subf : (⟨S8192x256, .f32⟩ : BufTy).Contents (Elt F) → (⟨S8192x256, .f32⟩ : BufTy).Contents (Elt F) → (⟨S8192x256, .f32⟩ : BufTy).Contents (Elt F)),
    StableHlo.nullary main_cst_15 (constant S_ .f32 0x3727C5AC#32),
    StableHlo.unary main_cst_15 main_v107 (broadcastInDim S8192x1 ![] bcast_S_S8192x1 : (⟨S_, .f32⟩ : BufTy).Contents (Elt F) → (⟨S8192x1, .f32⟩ : BufTy).Contents (Elt F)),
    StableHlo.binary main_v104 main_v107 main_v108 (addf : (⟨S8192x1, .f32⟩ : BufTy).Contents (Elt F) → (⟨S8192x1, .f32⟩ : BufTy).Contents (Elt F) → (⟨S8192x1, .f32⟩ : BufTy).Contents (Elt F)),
    StableHlo.unary main_v108 main_v109 (Host.sqrt : (⟨S8192x1, .f32⟩ : BufTy).Contents (Elt F) → (⟨S8192x1, .f32⟩ : BufTy).Contents (Elt F)),
    StableHlo.unary main_v109 main_v110 (broadcastInDim S8192x256 ![0, 1] bcast_S8192x1_S8192x256_0_1 : (⟨S8192x1, .f32⟩ : BufTy).Contents (Elt F) → (⟨S8192x256, .f32⟩ : BufTy).Contents (Elt F)),
    StableHlo.binary main_v106 main_v110 main_v111 (Host.divf : (⟨S8192x256, .f32⟩ : BufTy).Contents (Elt F) → (⟨S8192x256, .f32⟩ : BufTy).Contents (Elt F) → (⟨S8192x256, .f32⟩ : BufTy).Contents (Elt F)),
    StableHlo.unary main_arg14 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S8192x256 ![0, 1] bcast_S1x256_S8192x256_0_1 : (⟨S1x256, .f32⟩ : BufTy).Contents (Elt F) → (⟨S8192x256, .f32⟩ : BufTy).Contents (Elt F)),
    StableHlo.binary main_v111 main_v113 main_v114 (mulf : (⟨S8192x256, .f32⟩ : BufTy).Contents (Elt F) → (⟨S8192x256, .f32⟩ : BufTy).Contents (Elt F) → (⟨S8192x256, .f32⟩ : BufTy).Contents (Elt F)),
    StableHlo.unary main_arg15 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S8192x256 ![0, 1] bcast_S1x256_S8192x256_0_1 : (⟨S1x256, .f32⟩ : BufTy).Contents (Elt F) → (⟨S8192x256, .f32⟩ : BufTy).Contents (Elt F)),
    StableHlo.binary main_v114 main_v116 main_v117 (addf : (⟨S8192x256, .f32⟩ : BufTy).Contents (Elt F) → (⟨S8192x256, .f32⟩ : BufTy).Contents (Elt F) → (⟨S8192x256, .f32⟩ : BufTy).Contents (Elt F)) ]

/-- The three windows' operations. -/
abbrev ops0 : List (HloOp τ sig (Elt F)) := opsA ++ opsB ++ opsC0
abbrev ops1 : List (HloOp τ sig (Elt F)) := opsC1 ++ opsD ++ opsE ++ opsF0
abbrev ops2 : List (HloOp τ sig (Elt F)) := opsF1
/-- The reference's 204 operations, in order. -/
abbrev ops : List (HloOp τ sig (Elt F)) := ops0 ++ ops1 ++ ops2

set_option maxRecDepth 8192 in
set_option maxHeartbeats 4000000 in
/-- Window 0 of the reference is its operations in a line, the outlined functions' bodies at their calls. -/
theorem main_part0_eq (c : Dev nD) : main_part0 (F := F) c = seq ops0 := by
  simp only [ops0, main_part0, fn_var.body, fn_where.body, seq, List.cons_append, List.nil_append, bind_assoc, pure_bind]
  all_goals rfl

set_option maxRecDepth 8192 in
set_option maxHeartbeats 4000000 in
/-- Window 1 of the reference is its operations in a line, the outlined functions' bodies at their calls. -/
theorem main_part1_eq (c : Dev nD) : main_part1 (F := F) c = seq ops1 := by
  simp only [ops1, main_part1, fn_var.body, fn_where.body, fn_relu.body, seq, List.cons_append, List.nil_append, bind_assoc, pure_bind]
  all_goals rfl

set_option maxRecDepth 8192 in
set_option maxHeartbeats 4000000 in
/-- Window 2 of the reference is its operations in a line, the outlined functions' bodies at their calls. -/
theorem main_part2_eq (c : Dev nD) : main_part2 (F := F) c = seq ops2 := by
  simp only [ops2, main_part2, fn_var.body, fn_where.body, seq, List.cons_append, List.nil_append, bind_assoc, pure_bind]
  all_goals rfl

/-- The reference is that straight line. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefRunS.lean ====
/-
  The side conditions of the reference's line, chunk by chunk: every buffer an operation touches is a TensorCore
  reference, every operation determines its results, and which buffers each chunk writes (every other buffer keeps
  its contents through it).
-/
import proofs.«422171_j68341519614500_3_alg».proof.Proof.RefRunA

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-! ## Side conditions, chunk by chunk -/

theorem opsA_sub : (opsA : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub ..⟩
theorem opsA_fresh : ∀ op ∈ (opsA : List (HloOp τ sig (Elt F))), op.fresh = ∅ := by
  intro _ h; (repeat (cases h with | head => rfl | tail _ h => ?_)); exact nomatch h
/-- The buffers these operations write. -/
abbrev opsA_W : List (Ref sig .tc) := [main_v0, main_v1, main_v2, main_v3, main_v4, main_v5, main_v6, main_v7, main_v8, main_v9, main_v10, main_v11, main_v12, main_v13, main_cst, main_v14, main_cst_0, main_v15, main_v16, main_v17, main_v18, main_v19, main_v20, main_cst_1, main_v21, main_v22, main_v23, main_v24, main_v25, main_v26]
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem opsA_keep (V : Valuation τ sig (Elt F)) (r : Ref sig .tc) (h : r ∉ opsA_W) :
    after opsA V (Proc.devRef .tc r) = V (Proc.devRef .tc r) :=
  after_of_writes_sub opsA V opsA_writes h

theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem opsB_fresh : ∀ op ∈ (opsB : List (HloOp τ sig (Elt F))), op.fresh = ∅ := by
  intro _ h; (repeat (cases h with | head => rfl | tail _ h => ?_)); exact nomatch h
/-- The buffers these operations write. -/
abbrev opsB_W : List (Ref sig .tc) := [main_cst_2, main_v27, main_v28, main_cst_3, main_v29, main_v30, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v31, main_v32, main_v33, main_cst_4, main_v34, main_v35, main_v36, main_v37, main_v38, main_v39, main_v40, main_v41, main_v42, main_v43, main_v44]
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem opsB_keep (V : Valuation τ sig (Elt F)) (r : Ref sig .tc) (h : r ∉ opsB_W) :
    after opsB V (Proc.devRef .tc r) = V (Proc.devRef .tc r) :=
  after_of_writes_sub opsB V opsB_writes h

theorem opsC0_sub : (opsC0 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
theorem opsC0_fresh : ∀ op ∈ (opsC0 : List (HloOp τ sig (Elt F))), op.fresh = ∅ := by
  intro _ h; (repeat (cases h with | head => rfl | tail _ h => ?_)); exact nomatch h
/-- The buffers these operations write. -/
abbrev opsC0_W : List (Ref sig .tc) := [main_v45, main_v46, main_v47, main_v48, main_v49, main_v50, main_v51, main_v52]
theorem opsC0_writes : (opsC0 : List (HloOp τ sig (Elt F))).Forall fun op => op.writes ⊆ (opsC0_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem opsC0_keep (V : Valuation τ sig (Elt F)) (r : Ref sig .tc) (h : r ∉ opsC0_W) :
    after opsC0 V (Proc.devRef .tc r) = V (Proc.devRef .tc r) :=
  after_of_writes_sub opsC0 V opsC0_writes h

theorem opsC1_sub : (opsC1 : List (HloOp τ sig (Elt F))).Forall fun op => op.bufs ⊆ tcRefs τ sig :=
  ⟨binary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub ..⟩
theorem opsC1_fresh : ∀ op ∈ (opsC1 : List (HloOp τ sig (Elt F))), op.fresh = ∅ := by
  intro _ h; (repeat (cases h with | head => rfl | tail _ h => ?_)); exact nomatch h
/-- The buffers these operations write. -/
abbrev opsC1_W : List (Ref sig .tc) := [main_v53, main_v54, main_v55, main_v56, main_v57, main_v58, main_cst_5, main_v59, main_cst_6, main_v60, main_v61, main_v62, main_v63, main_v64, main_v65, main_cst_7, main_v66, main_v67, main_v68, main_v69, main_v70, main_v71]
theorem opsC1_writes : (opsC1 : List (HloOp τ sig (Elt F))).Forall fun op => op.writes ⊆ (opsC1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem opsC1_keep (V : Valuation τ sig (Elt F)) (r : Ref sig .tc) (h : r ∉ opsC1_W) :
    after opsC1 V (Proc.devRef .tc r) = V (Proc.devRef .tc r) :=
  after_of_writes_sub opsC1 V opsC1_writes h

theorem opsD_sub : (opsD : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem opsD_fresh : ∀ op ∈ (opsD : List (HloOp τ sig (Elt F))), op.fresh = ∅ := by
  intro _ h; (repeat (cases h with | head => rfl | tail _ h => ?_)); exact nomatch h
/-- The buffers these operations write. -/
abbrev opsD_W : List (Ref sig .tc) := [main_cst_8, main_v72, main_v73, main_cst_9, main_v74, main_v75, main_c_10, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v76, main_v77, main_v78, main_cst_11, main_v79, main_v80, main_v81, main_v82, main_v83, main_v84, main_v85, main_v86, main_v87, main_v88, main_v89]
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem opsD_keep (V : Valuation τ sig (Elt F)) (r : Ref sig .tc) (h : r ∉ opsD_W) :
    after opsD V (Proc.devRef .tc r) = V (Proc.devRef .tc r) :=
  after_of_writes_sub opsD V opsD_writes h

theorem opsE_sub : (opsE : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩
theorem opsE_fresh : ∀ op ∈ (opsE : List (HloOp τ sig (Elt F))), op.fresh = ∅ := by
  intro _ h; (repeat (cases h with | head => rfl | tail _ h => ?_)); exact nomatch h
/-- The buffers these operations write. -/
abbrev opsE_W : List (Ref sig .tc) := [main_v90, main_v91, main_v92, main_v93, main_call2_cst, main_call2_v0, main_v94, main_v95, main_v96, main_v97, main_v98, main_v99]
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem opsE_keep (V : Valuation τ sig (Elt F)) (r : Ref sig .tc) (h : r ∉ opsE_W) :
    after opsE V (Proc.devRef .tc r) = V (Proc.devRef .tc r) :=
  after_of_writes_sub opsE V opsE_writes h

theorem opsF0_sub : (opsF0 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem opsF0_fresh : ∀ op ∈ (opsF0 : List (HloOp τ sig (Elt F))), op.fresh = ∅ := by
  intro _ h; (repeat (cases h with | head => rfl | tail _ h => ?_)); exact nomatch h
/-- The buffers these operations write. -/
abbrev opsF0_W : List (Ref sig .tc) := [main_cst_12, main_v100, main_v101, main_cst_13, main_v102, main_v103]
theorem opsF0_writes : (opsF0 : List (HloOp τ sig (Elt F))).Forall fun op => op.writes ⊆ (opsF0_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem opsF0_keep (V : Valuation τ sig (Elt F)) (r : Ref sig .tc) (h : r ∉ opsF0_W) :
    after opsF0 V (Proc.devRef .tc r) = V (Proc.devRef .tc r) :=
  after_of_writes_sub opsF0 V opsF0_writes h

theorem opsF1_sub : (opsF1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem opsF1_fresh : ∀ op ∈ (opsF1 : List (HloOp τ sig (Elt F))), op.fresh = ∅ := by
  intro _ h; (repeat (cases h with | head => rfl | tail _ h => ?_)); exact nomatch h
/-- The buffers these operations write. -/
abbrev opsF1_W : List (Ref sig .tc) := [main_c_14, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v104, main_v105, main_v106, main_cst_15, main_v107, main_v108, main_v109, main_v110, main_v111, main_v112, main_v113, main_v114, main_v115, main_v116, main_v117]
theorem opsF1_writes : (opsF1 : List (HloOp τ sig (Elt F))).Forall fun op => op.writes ⊆ (opsF1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem opsF1_keep (V : Valuation τ sig (Elt F)) (r : Ref sig .tc) (h : r ∉ opsF1_W) :
    after opsF1 V (Proc.devRef .tc r) = V (Proc.devRef .tc r) :=
  after_of_writes_sub opsF1 V opsF1_writes h

theorem ops_sub : (ops : List (HloOp τ sig (Elt F))).Forall fun op => op.bufs ⊆ tcRefs τ sig :=
  List.forall_iff_forall_mem.mpr fun op h => by
    simp only [ops, ops0, ops1, ops2, List.mem_append] at h
    rcases h with (((h | h) | h) | (((h | h) | h) | h)) | h
    exacts [List.forall_iff_forall_mem.mp opsA_sub op h, List.forall_iff_forall_mem.mp opsB_sub op h, List.forall_iff_forall_mem.mp opsC0_sub op h, List.forall_iff_forall_mem.mp opsC1_sub op h, List.forall_iff_forall_mem.mp opsD_sub op h, List.forall_iff_forall_mem.mp opsE_sub op h, List.forall_iff_forall_mem.mp opsF0_sub op h, List.forall_iff_forall_mem.mp opsF1_sub op h]

/-- Every operation determines its results. -/
theorem ops_fresh : ∀ op ∈ (ops : List (HloOp τ sig (Elt F))), op.fresh = ∅ := by
  intro op h
  simp only [ops, ops0, ops1, ops2, List.mem_append] at h
  rcases h with (((h | h) | h) | (((h | h) | h) | h)) | h
  exacts [opsA_fresh op h, opsB_fresh op h, opsC0_fresh op h, opsC1_fresh op h, opsD_fresh op h, opsE_fresh op h, opsF0_fresh op h, opsF1_fresh op h]

end Cert.ReferenceIdeal.Hand

end
-- ==== Proof.RefSpec.lean ====
/-
  The reference program's value, stage by stage, as pure functions of whole arrays (at any float instance):
  the linear projection x·W + b, the row softmax of q·kᵀ, the attention block with its residual and
  layer normalisation, and the MLP block with its residual and layer normalisation. Each function is the
  composition of exactly the host operations the reference's @main applies, in its order, so the reference's run
  ends at `result` of its arguments; the kernel's regions are compared with these stage by stage.
-/
import proofs.«422171_j68341519614500_3_alg».proof.Proof.Gen.ReferenceIdeal

noncomputable section

namespace Cert.ReferenceIdeal.Spec

open Idealize.ShloMosaic Cert.ReferenceIdeal Cert.ReferenceIdeal.Facts₀

variable {F : FTy → Type} [FloatOps F]

/-- A vector of 256 entries laid along the columns of an 8192 × 256 array. -/
def row256 (b : FVec F S256 .f32) : FVec F S8192x256 .f32 :=
  broadcastInDim S8192x256 ![0, 1] bcast_S1x256_S8192x256_0_1 (broadcastInDim S1x256 ![1] bcast_S256_S1x256_1 b)

/-- A vector of 128 entries laid along the columns of an 8192 × 128 array. -/
def row128 (b : FVec F S128 .f32) : FVec F S8192x128 .f32 :=
  broadcastInDim S8192x128 ![0, 1] bcast_S1x128_S8192x128_0_1 (broadcastInDim S1x128 ![1] bcast_S128_S1x128_1 b)

/-- One value per row, repeated along the 256 columns. -/
def col256 (a : FVec F S8192x1 .f32) : FVec F S8192x256 .f32 :=
  broadcastInDim S8192x256 ![0, 1] bcast_S8192x1_S8192x256_0_1 a

/-- One value per row, repeated along 8192 columns. -/
def col8192 (a : FVec F S8192 .f32) : FVec F S8192x8192 .f32 :=
  broadcastInDim S8192x8192 ![0, 1] bcast_S8192x1_S8192x8192_0_1 (broadcastInDim S8192x1 ![0] bcast_S8192_S8192x1_0 a)

/-- A scalar constant repeated down a column of 8192 rows. -/
def splat1 (w : BitVec 32) : FVec F S8192x1 .f32 :=
  broadcastInDim S8192x1 ![] bcast_S_S8192x1 (constant S_ .f32 w)

/-- The projection x·W + b. -/
def lin (x : FVec F S8192x256 .f32) (W : FVec F S256x256 .f32) (b : FVec F S256 .f32) : FVec F S8192x256 .f32 :=
  addf (Host.dotGeneral dot_S8192x256_S256x256_S8192x256_1_0_0_1_n_n none x W) (row256 b)

/-- The scores q·kᵀ. -/
def scores (q k : FVec F S8192x256 .f32) : FVec F S8192x8192 .f32 :=
  Host.dotGeneral dot_S8192x256_S256x8192_S8192x8192_1_0_0_1_n_n none q (transpose S256x8192 [1, 0] k transposes_S8192x256_S256x8192_1_0)

/-- The row maximum of the scores, as jax's softmax takes it (against −∞). -/
def rowmax (s : FVec F S8192x8192 .f32) : FVec F S8192 .f32 :=
  maximumf (broadcastInDim S8192 ![] bcast_S_S8192 (constant S_ .f32 0xFF800000#32))
    (Host.reduce FloatOps.maximumf s (constant S_ .f32 0xFF800000#32) reducesTo_S8192x8192_S8192_d1 h_S_)

/-- The exponentials of the scores less their row maximum. -/
def expo (s : FVec F S8192x8192 .f32) : FVec F S8192x8192 .f32 :=
  Host.exp (subf s (col8192 (rowmax s)))

/-- The row softmax. -/
def softmax (s : FVec F S8192x8192 .f32) : FVec F S8192x8192 .f32 :=
  Host.divf (expo s) (col8192 (Host.reduceAdd (expo s) (constant S_ .f32 0x00000000#32) reducesTo_S8192x8192_S8192_d1 h_S_))

/-- The row mean over the 256 columns, kept as a column. -/
def mean (x : FVec F S8192x256 .f32) : FVec F S8192x1 .f32 :=
  Host.divf (broadcastInDim S8192x1 ![0] bcast_S8192_S8192x1_0 (Host.reduceAdd x (constant S_ .f32 0x00000000#32) reducesTo_S8192x256_S8192_d1 h_S_))
    (splat1 0x43800000#32)

/-- jax's variance over the columns with zero degrees of freedom taken off: the mean of the squared
    deviations, divided by 256 − 0, under jnp.var's guard `256 − 0 > 0` (else NaN). -/
def var (x : FVec F S8192x256 .f32) : FVec F S8192x1 .f32 :=
  let dev := subf x (col256 (mean x))
  let n : FVec F S_ .f32 := subf (constant S_ .f32 0x43800000#32) (sitofp (F := F) .f32 (constantI S_ 32 0#32))
  select (broadcastInDim S8192x1 ![] bcast_S_S8192x1 (cmpf (F := F) .ogt n (constant S_ .f32 0x00000000#32)))
    (Host.divf (broadcastInDim S8192x1 ![0] bcast_S8192_S8192x1_0 (Host.reduceAdd (mulf dev dev) (constant S_ .f32 0x00000000#32) reducesTo_S8192x256_S8192_d1 h_S_))
      (broadcastInDim S8192x1 ![] bcast_S_S8192x1 n))
    (broadcastInDim S8192x1 ![] bcast_S_S8192x1 (id (constant S_ .f32 0x7FC00000#32)))

/-- Layer normalisation over the columns: (x − mean) / sqrt(var + ε) · γ + β. -/
def lnorm (x : FVec F S8192x256 .f32) (γ β : FVec F S256 .f32) : FVec F S8192x256 .f32 :=
  addf (mulf (Host.divf (subf x (col256 (mean x))) (col256 (Host.sqrt (addf (var x) (splat1 0x3727C5AC#32))))) (row256 γ)) (row256 β)

/-- One attention block: softmax(q·kᵀ)·v + residual, layer-normalised. -/
def attnLN (q k v res : FVec F S8192x256 .f32) (γ β : FVec F S256 .f32) : FVec F S8192x256 .f32 :=
  lnorm (addf (Host.dotGeneral dot_S8192x8192_S8192x256_S8192x256_1_0_0_1_n_n none (softmax (scores q k)) v) res) γ β

/-- The rectifier: the maximum with zero. -/
def relu (h : FVec F S8192x128 .f32) : FVec F S8192x128 .f32 :=
  maximumf h (broadcastInDim S8192x128 ![] bcast_S_S8192x128 (constant S_ .f32 0x00000000#32))

/-- The MLP block: relu(x·W1 + b1)·W2 + b2 + x, layer-normalised. -/
def mlpLN (x : FVec F S8192x256 .f32) (W1 : FVec F S256x128 .f32) (b1 : FVec F S128 .f32) (W2 : FVec F S128x256 .f32)
    (b2 γ β : FVec F S256 .f32) : FVec F S8192x256 .f32 :=
  lnorm (addf (addf (Host.dotGeneral dot_S8192x128_S128x256_S8192x256_1_0_0_1_n_n none
      (relu (addf (Host.dotGeneral dot_S8192x256_S256x128_S8192x128_1_0_0_1_n_n none x W1) (row128 b1))) W2) (row256 b2)) x) γ β

/-- The first block's output: query1 attending to key and value. -/
def out1 (query1 key value : FVec F S8192x256 .f32) (Wq : FVec F S256x256 .f32) (bq : FVec F S256 .f32)
    (Wk : FVec F S256x256 .f32) (bk : FVec F S256 .f32) (Wv : FVec F S256x256 .f32) (bv γ β : FVec F S256 .f32) : FVec F S8192x256 .f32 :=
  attnLN (lin query1 Wq bq) (lin key Wk bk) (lin value Wv bv) query1 γ β

/-- The second block's output: query2 attending to the first block's output. -/
def out2 (o1 query2 : FVec F S8192x256 .f32) (Wq : FVec F S256x256 .f32) (bq : FVec F S256 .f32)
    (Wk : FVec F S256x256 .f32) (bk : FVec F S256 .f32) (Wv : FVec F S256x256 .f32) (bv γ β : FVec F S256 .f32) : FVec F S8192x256 .f32 :=
  attnLN (lin query2 Wq bq) (lin o1 Wk bk) (lin o1 Wv bv) query2 γ β

/-- The whole reference as a function of its sixteen arguments. -/
def result (query1 key value query2 : FVec F S8192x256 .f32) (Wq : FVec F S256x256 .f32) (bq : FVec F S256 .f32)
    (Wk : FVec F S256x256 .f32) (bk : FVec F S256 .f32) (Wv : FVec F S256x256 .f32) (bv : FVec F S256 .f32)
    (W1 : FVec F S256x128 .f32) (b1 : FVec F S128 .f32) (W2 : FVec F S128x256 .f32) (b2 γ β : FVec F S256 .f32) : FVec F S8192x256 .f32 :=
  mlpLN (out2 (out1 query1 key value Wq bq Wk bk Wv bv γ β) query2 Wq bq Wk bk Wv bv γ β) W1 b1 W2 b2 γ β

end Cert.ReferenceIdeal.Spec

end
-- ==== Proof.RefRunV.lean ====
/-
  The reference's line read back, stage by stage: the value each stage leaves in the buffer the next stage reads, as
  the stage functions of RefSpec.lean applied to the contents before the stage's chunk.
-/
import proofs.«422171_j68341519614500_3_alg».proof.Proof.RefRunA
import proofs.«422171_j68341519614500_3_alg».proof.Proof.RefSpec

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-! ## The stages' values -/

set_option maxRecDepth 8192 in
set_option maxHeartbeats 2000000 in
/-- The first block before normalisation: softmax(q·kᵀ)·v plus the residual, q, k, v the projections of the first three arguments. -/
theorem opsA_v26 (V : Valuation τ sig (Elt F)) :
    after opsA V (Proc.devRef .tc main_v26)
      = addf (Host.dotGeneral dot_S8192x8192_S8192x256_S8192x256_1_0_0_1_n_n none
          (Spec.softmax (Spec.scores (Spec.lin (V (Proc.devRef .tc main_arg0)) (V (Proc.devRef .tc main_arg4)) (V (Proc.devRef .tc main_arg5))) (Spec.lin (V (Proc.devRef .tc main_arg1)) (V (Proc.devRef .tc main_arg6)) (V (Proc.devRef .tc main_arg7)))))
          (Spec.lin (V (Proc.devRef .tc main_arg2)) (V (Proc.devRef .tc main_arg8)) (V (Proc.devRef .tc main_arg9)))) (V (Proc.devRef .tc main_arg0)) := by
  simp only [opsA]
  after_results_simp
  all_goals (try simp only [TRef.ofBuf, TRef.toBuf, cast_eq])
  all_goals rfl

set_option maxRecDepth 8192 in
set_option maxHeartbeats 2000000 in
/-- The first block's output: the layer normalisation of that sum. -/
theorem opsB_v44 (V : Valuation τ sig (Elt F)) :
    after opsB V (Proc.devRef .tc main_v44)
      = Spec.lnorm (V (Proc.devRef .tc main_v26)) (V (Proc.devRef .tc main_arg14)) (V (Proc.devRef .tc main_arg15)) := by
  simp only [opsB]
  after_results_simp
  all_goals (try simp only [TRef.ofBuf, TRef.toBuf, cast_eq])
  all_goals rfl

set_option maxRecDepth 8192 in
set_option maxHeartbeats 2000000 in
/-- The second block before normalisation: the fourth argument attends to the first block's output. -/
theorem opsC_v71 (V : Valuation τ sig (Elt F)) :
    after opsC1 (after opsC0 V) (Proc.devRef .tc main_v71)
      = addf (Host.dotGeneral dot_S8192x8192_S8192x256_S8192x256_1_0_0_1_n_n none
          (Spec.softmax (Spec.scores (Spec.lin (V (Proc.devRef .tc main_arg3)) (V (Proc.devRef .tc main_arg4)) (V (Proc.devRef .tc main_arg5))) (Spec.lin (V (Proc.devRef .tc main_v44)) (V (Proc.devRef .tc main_arg6)) (V (Proc.devRef .tc main_arg7)))))
          (Spec.lin (V (Proc.devRef .tc main_v44)) (V (Proc.devRef .tc main_arg8)) (V (Proc.devRef .tc main_arg9)))) (V (Proc.devRef .tc main_arg3)) := by
  simp only [opsC0, opsC1]
  after_results_simp
  all_goals (try simp only [TRef.ofBuf, TRef.toBuf, cast_eq])
  all_goals rfl

set_option maxRecDepth 8192 in
set_option maxHeartbeats 2000000 in
/-- The second block's output: the layer normalisation of that sum. -/
theorem opsD_v89 (V : Valuation τ sig (Elt F)) :
    after opsD V (Proc.devRef .tc main_v89)
      = Spec.lnorm (V (Proc.devRef .tc main_v71)) (V (Proc.devRef .tc main_arg14)) (V (Proc.devRef .tc main_arg15)) := by
  simp only [opsD]
  after_results_simp
  all_goals (try simp only [TRef.ofBuf, TRef.toBuf, cast_eq])
  all_goals rfl

set_option maxRecDepth 8192 in
set_option maxHeartbeats 2000000 in
/-- The MLP block before normalisation: relu(x·W1 + b1)·W2 + b2 + x. -/
theorem opsE_v99 (V : Valuation τ sig (Elt F)) :
    after opsE V (Proc.devRef .tc main_v99)
      = addf (addf (Host.dotGeneral dot_S8192x128_S128x256_S8192x256_1_0_0_1_n_n none
          (Spec.relu (addf (Host.dotGeneral dot_S8192x256_S256x128_S8192x128_1_0_0_1_n_n none (V (Proc.devRef .tc main_v89)) (V (Proc.devRef .tc main_arg10))) (Spec.row128 (V (Proc.devRef .tc main_arg11)))))
          (V (Proc.devRef .tc main_arg12))) (Spec.row256 (V (Proc.devRef .tc main_arg13)))) (V (Proc.devRef .tc main_v89)) := by
  simp only [opsE]
  after_results_simp
  all_goals (try simp only [TRef.ofBuf, TRef.toBuf, cast_eq])
  all_goals rfl

set_option maxRecDepth 8192 in
set_option maxHeartbeats 2000000 in
/-- The result: the layer normalisation of that sum. -/
theorem opsF_v117 (V : Valuation τ sig (Elt F)) :
    after opsF1 (after opsF0 V) (Proc.devRef .tc main_v117)
      = Spec.lnorm (V (Proc.devRef .tc main_v99)) (V (Proc.devRef .tc main_arg14)) (V (Proc.devRef .tc main_arg15)) := by
  simp only [opsF0, opsF1]
  after_results_simp
  all_goals (try simp only [TRef.ofBuf, TRef.toBuf, cast_eq])
  all_goals rfl

end Cert.ReferenceIdeal.Hand

end
-- ==== Proof.RefRun.lean ====
/-
  The reference's run: the chunks' values composed are `Spec.result` of the sixteen arguments, no operation writes an
  argument, and so every weakly fair execution of the reference ends with the result buffer at `Spec.result` of the
  arguments' launch contents and the arguments unchanged.
-/
import proofs.«422171_j68341519614500_3_alg».proof.Proof.RefRunS
import proofs.«422171_j68341519614500_3_alg».proof.Proof.RefRunV
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-! ## The whole line -/

/-- The whole line is the chunks run in order. -/
theorem after_ops (V : Valuation τ sig (Elt F)) :
    after ops V = after opsF1 (after opsF0 (after opsE (after opsD (after opsC1 (after opsC0 (after opsB (after opsA V))))))) := by
  simp only [ops, ops0, ops1, ops2, after_append]

theorem keep1 (V : Valuation τ sig (Elt F)) (r : Ref sig .tc) (hA : r ∉ opsA_W) :
    after opsA V (Proc.devRef .tc r) = V (Proc.devRef .tc r) := by
  rw [opsA_keep _ r hA]

theorem keep2 (V : Valuation τ sig (Elt F)) (r : Ref sig .tc) (hA : r ∉ opsA_W) (hB : r ∉ opsB_W) :
    after opsB (after opsA V) (Proc.devRef .tc r) = V (Proc.devRef .tc r) := by
  rw [opsB_keep _ r hB, opsA_keep _ r hA]

theorem keep4 (V : Valuation τ sig (Elt F)) (r : Ref sig .tc) (hA : r ∉ opsA_W) (hB : r ∉ opsB_W) (hC0 : r ∉ opsC0_W) (hC1 : r ∉ opsC1_W) :
    after opsC1 (after opsC0 (after opsB (after opsA V))) (Proc.devRef .tc r) = V (Proc.devRef .tc r) := by
  rw [opsC1_keep _ r hC1, opsC0_keep _ r hC0, opsB_keep _ r hB, opsA_keep _ r hA]

theorem keep5 (V : Valuation τ sig (Elt F)) (r : Ref sig .tc) (hA : r ∉ opsA_W) (hB : r ∉ opsB_W) (hC0 : r ∉ opsC0_W) (hC1 : r ∉ opsC1_W) (hD : r ∉ opsD_W) :
    after opsD (after opsC1 (after opsC0 (after opsB (after opsA V)))) (Proc.devRef .tc r) = V (Proc.devRef .tc r) := by
  rw [opsD_keep _ r hD, opsC1_keep _ r hC1, opsC0_keep _ r hC0, opsB_keep _ r hB, opsA_keep _ r hA]

theorem keep6 (V : Valuation τ sig (Elt F)) (r : Ref sig .tc) (hA : r ∉ opsA_W) (hB : r ∉ opsB_W) (hC0 : r ∉ opsC0_W) (hC1 : r ∉ opsC1_W) (hD : r ∉ opsD_W) (hE : r ∉ opsE_W) :
    after opsE (after opsD (after opsC1 (after opsC0 (after opsB (after opsA V))))) (Proc.devRef .tc r) = V (Proc.devRef .tc r) := by
  rw [opsE_keep _ r hE, opsD_keep _ r hD, opsC1_keep _ r hC1, opsC0_keep _ r hC0, opsB_keep _ r hB, opsA_keep _ r hA]

theorem keep8 (V : Valuation τ sig (Elt F)) (r : Ref sig .tc) (hA : r ∉ opsA_W) (hB : r ∉ opsB_W) (hC0 : r ∉ opsC0_W) (hC1 : r ∉ opsC1_W) (hD : r ∉ opsD_W) (hE : r ∉ opsE_W) (hF0 : r ∉ opsF0_W) (hF1 : r ∉ opsF1_W) :
    after opsF1 (after opsF0 (after opsE (after opsD (after opsC1 (after opsC0 (after opsB (after opsA V))))))) (Proc.devRef .tc r) = V (Proc.devRef .tc r) := by
  rw [opsF1_keep _ r hF1, opsF0_keep _ r hF0, opsE_keep _ r hE, opsD_keep _ r hD, opsC1_keep _ r hC1, opsC0_keep _ r hC0, opsB_keep _ r hB, opsA_keep _ r hA]

set_option maxRecDepth 8192 in
set_option maxHeartbeats 2000000 in
/-- The result buffer ends at the reference's value of the sixteen arguments. -/
theorem after_ops_v117 (V : Valuation τ sig (Elt F)) :
    after ops V (Proc.devRef .tc main_v117) = Spec.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [after_ops, opsF_v117, opsE_v99, opsD_v89, opsC_v71, opsB_v44, opsA_v26]
  rw [keep6 V main_arg14 (by decide) (by decide) (by decide) (by decide) (by decide) (by decide), keep6 V main_arg15 (by decide) (by decide) (by decide) (by decide) (by decide) (by decide),
    keep5 V main_arg10 (by decide) (by decide) (by decide) (by decide) (by decide), keep5 V main_arg11 (by decide) (by decide) (by decide) (by decide) (by decide), keep5 V main_arg12 (by decide) (by decide) (by decide) (by decide) (by decide), keep5 V main_arg13 (by decide) (by decide) (by decide) (by decide) (by decide),
    keep4 V main_arg14 (by decide) (by decide) (by decide) (by decide), keep4 V main_arg15 (by decide) (by decide) (by decide) (by decide),
    keep2 V main_arg3 (by decide) (by decide), keep2 V main_arg4 (by decide) (by decide), keep2 V main_arg5 (by decide) (by decide), keep2 V main_arg6 (by decide) (by decide), keep2 V main_arg7 (by decide) (by decide), keep2 V main_arg8 (by decide) (by decide), keep2 V main_arg9 (by decide) (by decide),
    keep1 V main_arg14 (by decide), keep1 V main_arg15 (by decide)]
  rfl

/-- An argument's buffer is written by no operation. -/
theorem after_ops_arg (V : Valuation τ sig (Elt F)) (r : Ref sig .tc) (hA : r ∉ opsA_W) (hB : r ∉ opsB_W) (hC0 : r ∉ opsC0_W) (hC1 : r ∉ opsC1_W) (hD : r ∉ opsD_W) (hE : r ∉ opsE_W) (hF0 : r ∉ opsF0_W) (hF1 : r ∉ opsF1_W) :
    after ops V (Proc.devRef .tc r) = V (Proc.devRef .tc r) := by
  rw [after_ops]; exact keep8 V r hA hB hC0 hC1 hD hE hF0 hF1

/-- On every device, for any float values, from any memory with zero counters: every weakly fair execution of the
    reference terminates with the result buffer at `Spec.result` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v117)
          = Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_v117).trans (after_ops_v117 _),
      (h c main_arg0).trans (after_ops_arg _ main_arg0 (by decide) (by decide) (by decide) (by decide) (by decide) (by decide) (by decide) (by decide)),
      (h c main_arg1).trans (after_ops_arg _ main_arg1 (by decide) (by decide) (by decide) (by decide) (by decide) (by decide) (by decide) (by decide)),
      (h c main_arg2).trans (after_ops_arg _ main_arg2 (by decide) (by decide) (by decide) (by decide) (by decide) (by decide) (by decide) (by decide)),
      (h c main_arg3).trans (after_ops_arg _ main_arg3 (by decide) (by decide) (by decide) (by decide) (by decide) (by decide) (by decide) (by decide)),
      (h c main_arg4).trans (after_ops_arg _ main_arg4 (by decide) (by decide) (by decide) (by decide) (by decide) (by decide) (by decide) (by decide)),
      (h c main_arg5).trans (after_ops_arg _ main_arg5 (by decide) (by decide) (by decide) (by decide) (by decide) (by decide) (by decide) (by decide)),
      (h c main_arg6).trans (after_ops_arg _ main_arg6 (by decide) (by decide) (by decide) (by decide) (by decide) (by decide) (by decide) (by decide)),
      (h c main_arg7).trans (after_ops_arg _ main_arg7 (by decide) (by decide) (by decide) (by decide) (by decide) (by decide) (by decide) (by decide)),
      (h c main_arg8).trans (after_ops_arg _ main_arg8 (by decide) (by decide) (by decide) (by decide) (by decide) (by decide) (by decide) (by decide)),
      (h c main_arg9).trans (after_ops_arg _ main_arg9 (by decide) (by decide) (by decide) (by decide) (by decide) (by decide) (by decide) (by decide)),
      (h c main_arg10).trans (after_ops_arg _ main_arg10 (by decide) (by decide) (by decide) (by decide) (by decide) (by decide) (by decide) (by decide)),
      (h c main_arg11).trans (after_ops_arg _ main_arg11 (by decide) (by decide) (by decide) (by decide) (by decide) (by decide) (by decide) (by decide)),
      (h c main_arg12).trans (after_ops_arg _ main_arg12 (by decide) (by decide) (by decide) (by decide) (by decide) (by decide) (by decide) (by decide)),
      (h c main_arg13).trans (after_ops_arg _ main_arg13 (by decide) (by decide) (by decide) (by decide) (by decide) (by decide) (by decide) (by decide)),
      (h c main_arg14).trans (after_ops_arg _ main_arg14 (by decide) (by decide) (by decide) (by decide) (by decide) (by decide) (by decide) (by decide)),
      (h c main_arg15).trans (after_ops_arg _ main_arg15 (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.Val.RealSpec.lean ====
/-
  The computation over the REAL numbers that both programs perform on finite inputs: arrays are plain functions
  `Fin a → Fin b → ℝ`, sums are Finset sums. The projection x·W + b; the attention average
  Σⱼ softmax(q·kᵀ)ᵢⱼ · vⱼ, written with no shift of the exponent (a shift by any real cancels between numerator and
  denominator); layer normalisation over the columns, (x − μ)/√(σ² + ε)·γ + β with μ and σ² the row's mean and
  mean squared deviation over N columns; the two blocks built from them. `toE2` / `toE1` read a real array as an
  array of extended reals, the form in which the programs' buffers hold it at the ideal instance.
-/
import Idealize.ShloMosaic.Lib.ValueIdx

noncomputable section

open scoped BigOperators

namespace Cert.RealSpec

open Idealize.ShloMosaic Idealize.ShloMosaic.ValueIdx

/-- A real matrix with `a` rows and `b` columns. -/
abbrev Mat (a b : ℕ) : Type := Fin a → Fin b → ℝ
/-- A real vector of `a` entries. -/
abbrev Vc (a : ℕ) : Type := Fin a → ℝ

/-- A real matrix as an array of extended reals indexed by a rank-2 index. -/
def toE2 {a b : ℕ} (x : Mat a b) : (⟨2, ![a, b]⟩ : Shape).Idx → EReal :=
  fun i => ((x (idxEquiv2 i).1 (idxEquiv2 i).2 : ℝ) : EReal)

/-- A real vector as an array of extended reals indexed by a rank-1 index. -/
def toE1 {a : ℕ} (x : Vc a) : (⟨1, ![a]⟩ : Shape).Idx → EReal :=
  fun i => ((x (i 0) : ℝ) : EReal)

theorem toE2_ix2 {a b : ℕ} (x : Mat a b) (p : Fin a) (q : Fin b) : toE2 x (ix2 p q) = ((x p q : ℝ) : EReal) := rfl

theorem toE1_ix1 {a : ℕ} (x : Vc a) (p : Fin a) : toE1 x (ix1 p) = ((x p : ℝ) : EReal) := rfl

/-- The projection x·W + b. -/
def lin {n k d : ℕ} (x : Mat n k) (W : Mat k d) (b : Vc d) : Mat n d :=
  fun i j => (∑ t, x i t * W t j) + b j

/-- The score of query row `i` against key row `j`. -/
def score {n m k : ℕ} (q : Mat n k) (ky : Mat m k) : Mat n m :=
  fun i j => ∑ t, q i t * ky j t

/-- The attention average: row `i` of softmax(q·kᵀ)·v. -/
def attn {n m k d : ℕ} (q : Mat n k) (ky : Mat m k) (v : Mat m d) : Mat n d :=
  fun i c => ∑ j, (Real.exp (score q ky i j) / ∑ j', Real.exp (score q ky i j')) * v j c

/-- The row mean over `N` columns. -/
def mean {n d : ℕ} (N : ℝ) (x : Mat n d) : Vc n := fun i => (∑ j, x i j) / N

/-- The row's mean squared deviation over `N` columns. -/
def var {n d : ℕ} (N : ℝ) (x : Mat n d) : Vc n :=
  fun i => (∑ j, (x i j - mean N x i) * (x i j - mean N x i)) / N

/-- Layer normalisation over the columns. -/
def lnorm {n d : ℕ} (N ε : ℝ) (x : Mat n d) (γ β : Vc d) : Mat n d :=
  fun i j => (x i j - mean N x i) / Real.sqrt (var N x i + ε) * γ j + β j

/-- One attention block with its residual, layer-normalised. -/
def attnLN {n m k d : ℕ} (N ε : ℝ) (q : Mat n k) (ky : Mat m k) (v : Mat m d) (res : Mat n d) (γ β : Vc d) : Mat n d :=
  lnorm N ε (fun i c => attn q ky v i c + res i c) γ β

/-- The MLP block with its residual, layer-normalised. -/
def mlpLN {n d h : ℕ} (N ε : ℝ) (x : Mat n d) (W1 : Mat d h) (b1 : Vc h) (W2 : Mat h d) (b2 γ β : Vc d) : Mat n d :=
  lnorm N ε (fun i j => ((∑ t, max (lin x W1 b1 i t) 0 * W2 t j) + b2 j) + x i j) γ β

/-- The whole computation on sixteen real arguments. -/
def result {n d h : ℕ} (N ε : ℝ) (query1 key value query2 : Mat n d) (Wq : Mat d d) (bq : Vc d) (Wk : Mat d d) (bk : Vc d)
    (Wv : Mat d d) (bv : Vc d) (W1 : Mat d h) (b1 : Vc h) (W2 : Mat h d) (b2 γ β : Vc d) : Mat n d :=
  let o1 := attnLN N ε (lin query1 Wq bq) (lin key Wk bk) (lin value Wv bv) query1 γ β
  let o2 := attnLN N ε (lin query2 Wq bq) (lin o1 Wk bk) (lin o1 Wv bv) query2 γ β
  mlpLN N ε o2 W1 b1 W2 b2 γ β

/-- The number of columns a row is averaged over. -/
abbrev cN : ℝ := 256
/-- The layer normalisation's ε: the real number the single-precision pattern of 1e-5 denotes. -/
abbrev cEps : ℝ := 10995116 / 1099511627776

theorem cEps_pos : 0 < cEps := by norm_num [cEps]

end Cert.RealSpec

end
-- ==== Proof.Val.V0.lean ====
/-
  THE VALUE OF REGION 0 over the reals. The region computes three projections x·W + b of 8192-row arrays in four row
  blocks of 2048. On real inputs: the block product into a zero accumulator is the real dot product at every row and
  column, the format changes are the identity and the bias row is added to every row, so the payload of real blocks is
  the real projection of the blocks; the block of a row-blocked window at point t is rows 2048·t … 2048·t + 2047 of its
  array, a weight or bias window's block is its whole array; the projection of a row block is the row block of the
  projection; row r is written by point r / 2048. So each output array ends holding the real projection of its inputs.
-/
import proofs.«422171_j68341519614500_3_alg».proof.Proof.KI.A0
import proofs.«422171_j68341519614500_3_alg».proof.Proof.Val.RealSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.RealSpec

/-! ## The payload on real blocks -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The left operand's row is the output's row, -/
theorem lhs_row (j : S2048x256.Idx) (k : dot_S2048x256_S256x256_S2048x256_1_0_0_1_n_n.contr.Idx) :
    (dot_S2048x256_S256x256_S2048x256_1_0_0_1_n_n.lhsIdx j k 0).val = (j 0).val := rfl

/-- its column the contraction position; -/
theorem lhs_contr (j : S2048x256.Idx) (k : dot_S2048x256_S256x256_S2048x256_1_0_0_1_n_n.contr.Idx) :
    (dot_S2048x256_S256x256_S2048x256_1_0_0_1_n_n.lhsIdx j k 1).val = (k ⟨0, by decide⟩).val :=
  DotDims.lhsIdx_val_of_single (d := dot_S2048x256_S256x256_S2048x256_1_0_0_1_n_n) (cl := 1) rfl j k

/-- the right operand's row is the contraction position, -/
theorem rhs_contr (j : S2048x256.Idx) (k : dot_S2048x256_S256x256_S2048x256_1_0_0_1_n_n.contr.Idx) :
    (dot_S2048x256_S256x256_S2048x256_1_0_0_1_n_n.rhsIdx j k 0).val = (k ⟨0, by decide⟩).val :=
  DotDims.rhsIdx_val_of_single (d := dot_S2048x256_S256x256_S2048x256_1_0_0_1_n_n) (cr := 0) rfl j k

/-- its column the output's column. -/
theorem rhs_col (j : S2048x256.Idx) (k : dot_S2048x256_S256x256_S2048x256_1_0_0_1_n_n.contr.Idx) :
    (dot_S2048x256_S256x256_S2048x256_1_0_0_1_n_n.rhsIdx j k 1).val = (j 1).val := rfl

/-- The block product into the zero accumulator, at row p and column q of real blocks, is the real dot product. -/
theorem mm_real (xb : Mat 2048 256) (W : Mat 256 256) (p : Fin 2048) (q : Fin 256) :
    FloatOps.matmul (F := Ideal) (φ₁ := .bf16) (φ₂ := .bf16) dot_S2048x256_S256x256_S2048x256_1_0_0_1_n_n none
        (toE2 xb) (toE2 W) (constant S2048x256 .f32 0x00000000#32) (ix2 p q)
      = ((∑ t, xb p t * W t q : ℝ) : EReal) := by
  rw [Ideal.matmul_constant_zero_apply,
    ← Equiv.sum_comp (contrEquiv1 dot_S2048x256_S256x256_S2048x256_1_0_0_1_n_n 256 rfl rfl).symm, coe_sum]
  refine Finset.sum_congr rfl fun t _ => ?_
  have hl : dot_S2048x256_S256x256_S2048x256_1_0_0_1_n_n.lhsIdx (ix2 p q)
      ((contrEquiv1 dot_S2048x256_S256x256_S2048x256_1_0_0_1_n_n 256 rfl rfl).symm t) = ix2 p t := by
    funext a; apply Fin.ext
    match a with
    | ⟨0, _⟩ => exact lhs_row _ _
    | ⟨1, _⟩ => exact (lhs_contr _ _).trans (contrEquiv1_symm_val dot_S2048x256_S256x256_S2048x256_1_0_0_1_n_n 256 rfl rfl t)
  have hr : dot_S2048x256_S256x256_S2048x256_1_0_0_1_n_n.rhsIdx (ix2 p q)
      ((contrEquiv1 dot_S2048x256_S256x256_S2048x256_1_0_0_1_n_n 256 rfl rfl).symm t) = ix2 t q := by
    funext a; apply Fin.ext
    match a with
    | ⟨0, _⟩ => exact (rhs_contr _ _).trans (contrEquiv1_symm_val dot_S2048x256_S256x256_S2048x256_1_0_0_1_n_n 256 rfl rfl t)
    | ⟨1, _⟩ => exact rhs_col _ _
  rw [hl, hr, toE2_ix2, toE2_ix2, EReal.coe_mul]

/-- The first projection's payload on real blocks is the real projection of the blocks. -/
theorem pay1_real (xb : Mat 2048 256) (W : Mat 256 256) (b : Vc 256) :
    k0_pay1 (F := Ideal) (toE2 xb) (toE2 W) (toE1 b) = toE2 (lin xb W b) := by
  funext j
  obtain ⟨p, q, rfl⟩ : ∃ (p : Fin 2048) (q : Fin 256), j = ix2 p q := ⟨j 0, j 1, eq_ix2 j⟩
  unfold k0_pay1
  rw [truncf_apply, addf_apply, broadcastTo_1b_ab_apply, shapeCast_a_1a_apply, toE1_ix1]
  show FloatOps.matmul (F := Ideal) (φ₁ := .bf16) (φ₂ := .bf16) dot_S2048x256_S256x256_S2048x256_1_0_0_1_n_n none
        (toE2 xb) (toE2 W) (constant S2048x256 .f32 0x00000000#32) (ix2 p q) + ((b q : ℝ) : EReal) = _
  rw [mm_real, toE2_ix2, ← EReal.coe_add]
  rfl

/-- The second projection's payload likewise. -/
theorem pay2_real (xb : Mat 2048 256) (W : Mat 256 256) (b : Vc 256) :
    k0_pay2 (F := Ideal) (toE2 xb) (toE2 W) (toE1 b) = toE2 (lin xb W b) := by
  funext j
  obtain ⟨p, q, rfl⟩ : ∃ (p : Fin 2048) (q : Fin 256), j = ix2 p q := ⟨j 0, j 1, eq_ix2 j⟩
  unfold k0_pay2
  rw [truncf_apply, addf_apply, broadcastTo_1b_ab_apply, shapeCast_a_1a_apply, toE1_ix1]
  show FloatOps.matmul (F := Ideal) (φ₁ := .bf16) (φ₂ := .bf16) dot_S2048x256_S256x256_S2048x256_1_0_0_1_n_n none
        (toE2 xb) (toE2 W) (constant S2048x256 .f32 0x00000000#32) (ix2 p q) + ((b q : ℝ) : EReal) = _
  rw [mm_real, toE2_ix2, ← EReal.coe_add]
  rfl

/-- The third projection's payload likewise. -/
theorem pay3_real (xb : Mat 2048 256) (W : Mat 256 256) (b : Vc 256) :
    k0_pay3 (F := Ideal) (toE2 xb) (toE2 W) (toE1 b) = toE2 (lin xb W b) := by
  funext j
  obtain ⟨p, q, rfl⟩ : ∃ (p : Fin 2048) (q : Fin 256), j = ix2 p q := ⟨j 0, j 1, eq_ix2 j⟩
  unfold k0_pay3
  rw [truncf_apply, addf_apply, broadcastTo_1b_ab_apply, shapeCast_a_1a_apply, toE1_ix1]
  show FloatOps.matmul (F := Ideal) (φ₁ := .bf16) (φ₂ := .bf16) dot_S2048x256_S256x256_S2048x256_1_0_0_1_n_n none
        (toE2 xb) (toE2 W) (constant S2048x256 .f32 0x00000000#32) (ix2 p q) + ((b q : ℝ) : EReal) = _
  rw [mm_real, toE2_ix2, ← EReal.coe_add]
  rfl

/-! ## The windows' blocks as parts of real arrays -/

theorem hz2 : (![0, 0] : Fin 2 → Nat) = fun _ => 0 := funext fun a => by fin_cases a <;> rfl
theorem hz1 : (![0] : Fin 1 → Nat) = fun _ => 0 := funext fun a => by fin_cases a <;> rfl

/-- The grid has four points. -/
theorem hN : cfg0.N = 4 := N_0

/-- The printed index maps, decided over the grid: a row-blocked window's block index is (t, 0), a weight or bias
    window's is zero. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- Row r of block t is row 2048·t + r of the array. -/
theorem row_lt (t : Fin cfg0.N) (p : Fin 2048) : 2048 * t.val + p.val < 8192 := by
  have h1 := t.isLt; have h2 := hN; have h3 := p.isLt; omega

/-- Rows 2048·t … 2048·t + 2047 of an 8192-row array. -/
def rowBlk {d : ℕ} (X : Mat 8192 d) (t : Fin cfg0.N) : Mat 2048 d := fun p q => X ⟨2048 * t.val + p.val, row_lt t p⟩ q

/-- The projection of a row block is the row block of the projection. -/
theorem lin_rowBlk (X : Mat 8192 256) (W : Mat 256 256) (b : Vc 256) (t : Fin cfg0.N) :
    lin (rowBlk X t) W b = rowBlk (lin X W b) t := rfl

variable (V : (c : Dev nD) → (b : Ref sig .tc) → Buf (Elt Ideal) ((c : Thread nD τ).loc b)) (c : Dev nD)

/-- Row-blocked input window 0's block at point t is that row block of its real array. -/
theorem iblk_0 (X : Mat 8192 256) (h : V c main_arg0 = toE2 X) (t : Fin cfg0.N) : iblk0 V c 0 t = toE2 (rowBlk X t) := by
  obtain ⟨⟨a0, a1⟩, ⟨b0, b1⟩, ⟨c0, c1⟩, -⟩ := idx_facts t
  funext j
  obtain ⟨p, q, rfl⟩ : ∃ (p : Fin 2048) (q : Fin 256), j = ix2 p q := ⟨j 0, j 1, eq_ix2 j⟩
  show V c main_arg0 (((cfg0.win 0).blk t).view.emb (ix2 p q)) = _
  rw [h]
  have he : ((cfg0.win 0).blk t).view.emb (ix2 p q) = ix2 (⟨2048 * t.val + p.val, row_lt t p⟩ : Fin 8192) q := by
    funext a; apply Fin.ext
    match a with
    | ⟨0, _⟩ => show win0_0.index t (0 : Fin 2) * 2048 + 1 * p.val = 2048 * t.val + p.val; omega
    | ⟨1, _⟩ => show win0_0.index t (1 : Fin 2) * 256 + 1 * q.val = q.val; omega
  rw [he]
  rfl

/-- Row-blocked input window 1's block at point t is that row block of its real array. -/
theorem iblk_1 (X : Mat 8192 256) (h : V c main_arg1 = toE2 X) (t : Fin cfg0.N) : iblk0 V c 1 t = toE2 (rowBlk X t) := by
  obtain ⟨⟨a0, a1⟩, ⟨b0, b1⟩, ⟨c0, c1⟩, -⟩ := idx_facts t
  funext j
  obtain ⟨p, q, rfl⟩ : ∃ (p : Fin 2048) (q : Fin 256), j = ix2 p q := ⟨j 0, j 1, eq_ix2 j⟩
  show V c main_arg1 (((cfg0.win 1).blk t).view.emb (ix2 p q)) = _
  rw [h]
  have he : ((cfg0.win 1).blk t).view.emb (ix2 p q) = ix2 (⟨2048 * t.val + p.val, row_lt t p⟩ : Fin 8192) q := by
    funext a; apply Fin.ext
    match a with
    | ⟨0, _⟩ => show win0_1.index t (0 : Fin 2) * 2048 + 1 * p.val = 2048 * t.val + p.val; omega
    | ⟨1, _⟩ => show win0_1.index t (1 : Fin 2) * 256 + 1 * q.val = q.val; omega
  rw [he]
  rfl

/-- Row-blocked input window 2's block at point t is that row block of its real array. -/
theorem iblk_2 (X : Mat 8192 256) (h : V c main_arg2 = toE2 X) (t : Fin cfg0.N) : iblk0 V c 2 t = toE2 (rowBlk X t) := by
  obtain ⟨⟨a0, a1⟩, ⟨b0, b1⟩, ⟨c0, c1⟩, -⟩ := idx_facts t
  funext j
  obtain ⟨p, q, rfl⟩ : ∃ (p : Fin 2048) (q : Fin 256), j = ix2 p q := ⟨j 0, j 1, eq_ix2 j⟩
  show V c main_arg2 (((cfg0.win 2).blk t).view.emb (ix2 p q)) = _
  rw [h]
  have he : ((cfg0.win 2).blk t).view.emb (ix2 p q) = ix2 (⟨2048 * t.val + p.val, row_lt t p⟩ : Fin 8192) q := by
    funext a; apply Fin.ext
    match a with
    | ⟨0, _⟩ => show win0_2.index t (0 : Fin 2) * 2048 + 1 * p.val = 2048 * t.val + p.val; omega
    | ⟨1, _⟩ => show win0_2.index t (1 : Fin 2) * 256 + 1 * q.val = q.val; omega
  rw [he]
  rfl

/-- Weight window 3's block is its whole real array. -/
theorem iblk_3 (W : Mat 256 256) (h : V c main_arg4 = toE2 W) (t : Fin cfg0.N) : iblk0 V c 3 t = toE2 W := by
  obtain ⟨-, -, -, ⟨a0, a1⟩, -, ⟨b0, b1⟩, -, ⟨c0, c1⟩, -⟩ := idx_facts t
  funext j
  obtain ⟨p, q, rfl⟩ : ∃ (p : Fin 256) (q : Fin 256), j = ix2 p q := ⟨j 0, j 1, eq_ix2 j⟩
  show V c main_arg4 (((cfg0.win 3).blk t).view.emb (ix2 p q)) = _
  rw [h]
  have he : ((cfg0.win 3).blk t).view.emb (ix2 p q) = ix2 p q := by
    funext a; apply Fin.ext
    match a with
    | ⟨0, _⟩ => show win0_3.index t (0 : Fin 2) * 256 + 1 * p.val = p.val; omega
    | ⟨1, _⟩ => show win0_3.index t (1 : Fin 2) * 256 + 1 * q.val = q.val; omega
  rw [he]

/-- Bias window 4's block is its whole real vector. -/
theorem iblk_4 (b : Vc 256) (h : V c main_arg5 = toE1 b) (t : Fin cfg0.N) : iblk0 V c 4 t = toE1 b := by
  obtain ⟨-, -, -, -, a0, -, b0, -, c0, -⟩ := idx_facts t
  funext j
  obtain ⟨p, rfl⟩ : ∃ (p : Fin 256), j = ix1 p := ⟨j 0, eq_ix1 j⟩
  show V c main_arg5 (((cfg0.win 4).blk t).view.emb (ix1 p)) = _
  rw [h]
  have he : ((cfg0.win 4).blk t).view.emb (ix1 p) = ix1 p := by
    funext a; apply Fin.ext
    match a with
    | ⟨0, _⟩ => show win0_4.index t (0 : Fin 1) * 256 + 1 * p.val = p.val; omega
  rw [he]

/-- Weight window 5's block is its whole real array. -/
theorem iblk_5 (W : Mat 256 256) (h : V c main_arg6 = toE2 W) (t : Fin cfg0.N) : iblk0 V c 5 t = toE2 W := by
  obtain ⟨-, -, -, ⟨a0, a1⟩, -, ⟨b0, b1⟩, -, ⟨c0, c1⟩, -⟩ := idx_facts t
  funext j
  obtain ⟨p, q, rfl⟩ : ∃ (p : Fin 256) (q : Fin 256), j = ix2 p q := ⟨j 0, j 1, eq_ix2 j⟩
  show V c main_arg6 (((cfg0.win 5).blk t).view.emb (ix2 p q)) = _
  rw [h]
  have he : ((cfg0.win 5).blk t).view.emb (ix2 p q) = ix2 p q := by
    funext a; apply Fin.ext
    match a with
    | ⟨0, _⟩ => show win0_5.index t (0 : Fin 2) * 256 + 1 * p.val = p.val; omega
    | ⟨1, _⟩ => show win0_5.index t (1 : Fin 2) * 256 + 1 * q.val = q.val; omega
  rw [he]

/-- Bias window 6's block is its whole real vector. -/
theorem iblk_6 (b : Vc 256) (h : V c main_arg7 = toE1 b) (t : Fin cfg0.N) : iblk0 V c 6 t = toE1 b := by
  obtain ⟨-, -, -, -, a0, -, b0, -, c0, -⟩ := idx_facts t
  funext j
  obtain ⟨p, rfl⟩ : ∃ (p : Fin 256), j = ix1 p := ⟨j 0, eq_ix1 j⟩
  show V c main_arg7 (((cfg0.win 6).blk t).view.emb (ix1 p)) = _
  rw [h]
  have he : ((cfg0.win 6).blk t).view.emb (ix1 p) = ix1 p := by
    funext a; apply Fin.ext
    match a with
    | ⟨0, _⟩ => show win0_6.index t (0 : Fin 1) * 256 + 1 * p.val = p.val; omega
  rw [he]

/-- Weight window 7's block is its whole real array. -/
theorem iblk_7 (W : Mat 256 256) (h : V c main_arg8 = toE2 W) (t : Fin cfg0.N) : iblk0 V c 7 t = toE2 W := by
  obtain ⟨-, -, -, ⟨a0, a1⟩, -, ⟨b0, b1⟩, -, ⟨c0, c1⟩, -⟩ := idx_facts t
  funext j
  obtain ⟨p, q, rfl⟩ : ∃ (p : Fin 256) (q : Fin 256), j = ix2 p q := ⟨j 0, j 1, eq_ix2 j⟩
  show V c main_arg8 (((cfg0.win 7).blk t).view.emb (ix2 p q)) = _
  rw [h]
  have he : ((cfg0.win 7).blk t).view.emb (ix2 p q) = ix2 p q := by
    funext a; apply Fin.ext
    match a with
    | ⟨0, _⟩ => show win0_7.index t (0 : Fin 2) * 256 + 1 * p.val = p.val; omega
    | ⟨1, _⟩ => show win0_7.index t (1 : Fin 2) * 256 + 1 * q.val = q.val; omega
  rw [he]

/-- Bias window 8's block is its whole real vector. -/
theorem iblk_8 (b : Vc 256) (h : V c main_arg9 = toE1 b) (t : Fin cfg0.N) : iblk0 V c 8 t = toE1 b := by
  obtain ⟨-, -, -, -, a0, -, b0, -, c0, -⟩ := idx_facts t
  funext j
  obtain ⟨p, rfl⟩ : ∃ (p : Fin 256), j = ix1 p := ⟨j 0, eq_ix1 j⟩
  show V c main_arg9 (((cfg0.win 8).blk t).view.emb (ix1 p)) = _
  rw [h]
  have he : ((cfg0.win 8).blk t).view.emb (ix1 p) = ix1 p := by
    funext a; apply Fin.ext
    match a with
    | ⟨0, _⟩ => show win0_8.index t (0 : Fin 1) * 256 + 1 * p.val = p.val; omega
  rw [he]

/-! ## From the blocks to the arrays -/

/-- WHAT POINT t WRITES BACK to output window 9 is block t of the real projection. -/
theorem flushed_9 (X : Mat 8192 256) (W : Mat 256 256) (b : Vc 256) (hX : V c main_arg0 = toE2 X)
    (hW : V c main_arg4 = toE2 W) (hb : V c main_arg5 = toE1 b) (t : Fin cfg0.N) :
    (dat0 V c).flushed 9 t = ((cfg0.win 9).blk t).view.read (Elt Ideal) (toE2 (lin X W b)) := by
  show (cfg0.win 9).cut (grid0.coords t) ((dat0 V c).after 9 t) = _
  rw [after0_9]
  unfold out0_9
  rw [View.canon_unit_zero hz2]
  simp only [View.ld_unit_zero (S := S2048x256) hz2, View.ld_unit_zero (S := S256x256) hz2, View.ld_unit_zero (S := S256) hz1]
  rw [iblk_0 V c X hX t, iblk_3 V c W hW t, iblk_4 V c b hb t, pay1_real, lin_rowBlk]
  obtain ⟨-, -, -, -, -, -, -, -, -, ⟨a0, a1⟩, ⟨b0, b1⟩, ⟨c0, c1⟩⟩ := idx_facts t
  funext j
  obtain ⟨p, q, rfl⟩ : ∃ (p : Fin 2048) (q : Fin 256), j = ix2 p q := ⟨j 0, j 1, eq_ix2 j⟩
  show toE2 (rowBlk (lin X W b) t) (ix2 p q) = toE2 (lin X W b) (((cfg0.win 9).blk t).view.emb (ix2 p q))
  have he : ((cfg0.win 9).blk t).view.emb (ix2 p q) = ix2 (⟨2048 * t.val + p.val, row_lt t p⟩ : Fin 8192) q := by
    funext a; apply Fin.ext
    match a with
    | ⟨0, _⟩ => show win0_9.index t (0 : Fin 2) * 2048 + 1 * p.val = 2048 * t.val + p.val; omega
    | ⟨1, _⟩ => show win0_9.index t (1 : Fin 2) * 256 + 1 * q.val = q.val; omega
  rw [he]
  rfl

/-- Row r of output window 9's array is in the block of point r / 2048. -/
theorem cover_9 (i : S8192x256.Idx) :
    ∃ t : Fin cfg0.N, (cfg0.win 9).flush t = true ∧ i ∈ ((cfg0.win 9).blk t).view.set := by
  have hi0 : (i 0).val < 8192 := (i 0).isLt
  have hi1 : (i 1).val < 256 := (i 1).isLt
  obtain ⟨t, ht⟩ : ∃ t : Fin cfg0.N, t.val = (i 0).val / 2048 := ⟨⟨(i 0).val / 2048, by have := hN; omega⟩, rfl⟩
  obtain ⟨-, -, -, -, -, -, -, -, -, ⟨a0, a1⟩, ⟨b0, b1⟩, ⟨c0, c1⟩⟩ := idx_facts t
  refine ⟨t, flush0_9 t, ?_⟩
  show i ∈ ((View.whole main_v0_0).slice (win0_9.rect t)).set
  rw [View.set_slice_whole, Rect.mem_set_unit]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 256 ≤ (i 1).val ∧ (i 1).val < win0_9.index t (1 : Fin 2) * 256 + 256; omega

/-- THE ARRAY of output window 9 after the region: the real projection of its inputs. -/
theorem final0_9 (X : Mat 8192 256) (W : Mat 256 256) (b : Vc 256) (hX : V c main_arg0 = toE2 X)
    (hW : V c main_arg4 = toE2 W) (hb : V c main_arg5 = toE1 b) :
    (dat0 (F := Ideal) V c).arrAt 9 cfg0.N = toE2 (lin X W b) :=
  (dat0 V c).arrAt_eq_of_cover 9 (toE2 (lin X W b)) (fun t _ => flushed_9 V c X W b hX hW hb t) cover_9

/-- WHAT POINT t WRITES BACK to output window 10 is block t of the real projection. -/
theorem flushed_10 (X : Mat 8192 256) (W : Mat 256 256) (b : Vc 256) (hX : V c main_arg1 = toE2 X)
    (hW : V c main_arg6 = toE2 W) (hb : V c main_arg7 = toE1 b) (t : Fin cfg0.N) :
    (dat0 V c).flushed 10 t = ((cfg0.win 10).blk t).view.read (Elt Ideal) (toE2 (lin X W b)) := by
  show (cfg0.win 10).cut (grid0.coords t) ((dat0 V c).after 10 t) = _
  rw [after0_10]
  unfold out0_10
  rw [View.canon_unit_zero hz2]
  simp only [View.ld_unit_zero (S := S2048x256) hz2, View.ld_unit_zero (S := S256x256) hz2, View.ld_unit_zero (S := S256) hz1]
  rw [iblk_1 V c X hX t, iblk_5 V c W hW t, iblk_6 V c b hb t, pay2_real, lin_rowBlk]
  obtain ⟨-, -, -, -, -, -, -, -, -, ⟨a0, a1⟩, ⟨b0, b1⟩, ⟨c0, c1⟩⟩ := idx_facts t
  funext j
  obtain ⟨p, q, rfl⟩ : ∃ (p : Fin 2048) (q : Fin 256), j = ix2 p q := ⟨j 0, j 1, eq_ix2 j⟩
  show toE2 (rowBlk (lin X W b) t) (ix2 p q) = toE2 (lin X W b) (((cfg0.win 10).blk t).view.emb (ix2 p q))
  have he : ((cfg0.win 10).blk t).view.emb (ix2 p q) = ix2 (⟨2048 * t.val + p.val, row_lt t p⟩ : Fin 8192) q := by
    funext a; apply Fin.ext
    match a with
    | ⟨0, _⟩ => show win0_10.index t (0 : Fin 2) * 2048 + 1 * p.val = 2048 * t.val + p.val; omega
    | ⟨1, _⟩ => show win0_10.index t (1 : Fin 2) * 256 + 1 * q.val = q.val; omega
  rw [he]
  rfl

/-- Row r of output window 10's array is in the block of point r / 2048. -/
theorem cover_10 (i : S8192x256.Idx) :
    ∃ t : Fin cfg0.N, (cfg0.win 10).flush t = true ∧ i ∈ ((cfg0.win 10).blk t).view.set := by
  have hi0 : (i 0).val < 8192 := (i 0).isLt
  have hi1 : (i 1).val < 256 := (i 1).isLt
  obtain ⟨t, ht⟩ : ∃ t : Fin cfg0.N, t.val = (i 0).val / 2048 := ⟨⟨(i 0).val / 2048, by have := hN; omega⟩, rfl⟩
  obtain ⟨-, -, -, -, -, -, -, -, -, ⟨a0, a1⟩, ⟨b0, b1⟩, ⟨c0, c1⟩⟩ := idx_facts t
  refine ⟨t, flush0_10 t, ?_⟩
  show i ∈ ((View.whole main_v0_1).slice (win0_10.rect t)).set
  rw [View.set_slice_whole, Rect.mem_set_unit]
  intro a
  match a with
  | ⟨0, _⟩ => show win0_10.index t (0 : Fin 2) * 2048 ≤ (i 0).val ∧ (i 0).val < win0_10.index t (0 : Fin 2) * 2048 + 2048; omega
  | ⟨1, _⟩ => show win0_10.index t (1 : Fin 2) * 256 ≤ (i 1).val ∧ (i 1).val < win0_10.index t (1 : Fin 2) * 256 + 256; omega

/-- THE ARRAY of output window 10 after the region: the real projection of its inputs. -/
theorem final0_10 (X : Mat 8192 256) (W : Mat 256 256) (b : Vc 256) (hX : V c main_arg1 = toE2 X)
    (hW : V c main_arg6 = toE2 W) (hb : V c main_arg7 = toE1 b) :
    (dat0 (F := Ideal) V c).arrAt 10 cfg0.N = toE2 (lin X W b) :=
  (dat0 V c).arrAt_eq_of_cover 10 (toE2 (lin X W b)) (fun t _ => flushed_10 V c X W b hX hW hb t) cover_10

/-- WHAT POINT t WRITES BACK to output window 11 is block t of the real projection. -/
theorem flushed_11 (X : Mat 8192 256) (W : Mat 256 256) (b : Vc 256) (hX : V c main_arg2 = toE2 X)
    (hW : V c main_arg8 = toE2 W) (hb : V c main_arg9 = toE1 b) (t : Fin cfg0.N) :
    (dat0 V c).flushed 11 t = ((cfg0.win 11).blk t).view.read (Elt Ideal) (toE2 (lin X W b)) := by
  show (cfg0.win 11).cut (grid0.coords t) ((dat0 V c).after 11 t) = _
  rw [after0_11]
  unfold out0_11
  rw [View.canon_unit_zero hz2]
  simp only [View.ld_unit_zero (S := S2048x256) hz2, View.ld_unit_zero (S := S256x256) hz2, View.ld_unit_zero (S := S256) hz1]
  rw [iblk_2 V c X hX t, iblk_7 V c W hW t, iblk_8 V c b hb t, pay3_real, lin_rowBlk]
  obtain ⟨-, -, -, -, -, -, -, -, -, ⟨a0, a1⟩, ⟨b0, b1⟩, ⟨c0, c1⟩⟩ := idx_facts t
  funext j
  obtain ⟨p, q, rfl⟩ : ∃ (p : Fin 2048) (q : Fin 256), j = ix2 p q := ⟨j 0, j 1, eq_ix2 j⟩
  show toE2 (rowBlk (lin X W b) t) (ix2 p q) = toE2 (lin X W b) (((cfg0.win 11).blk t).view.emb (ix2 p q))
  have he : ((cfg0.win 11).blk t).view.emb (ix2 p q) = ix2 (⟨2048 * t.val + p.val, row_lt t p⟩ : Fin 8192) q := by
    funext a; apply Fin.ext
    match a with
    | ⟨0, _⟩ => show win0_11.index t (0 : Fin 2) * 2048 + 1 * p.val = 2048 * t.val + p.val; omega
    | ⟨1, _⟩ => show win0_11.index t (1 : Fin 2) * 256 + 1 * q.val = q.val; omega
  rw [he]
  rfl

/-- Row r of output window 11's array is in the block of point r / 2048. -/
theorem cover_11 (i : S8192x256.Idx) :
    ∃ t : Fin cfg0.N, (cfg0.win 11).flush t = true ∧ i ∈ ((cfg0.win 11).blk t).view.set := by
  have hi0 : (i 0).val < 8192 := (i 0).isLt
  have hi1 : (i 1).val < 256 := (i 1).isLt
  obtain ⟨t, ht⟩ : ∃ t : Fin cfg0.N, t.val = (i 0).val / 2048 := ⟨⟨(i 0).val / 2048, by have := hN; omega⟩, rfl⟩
  obtain ⟨-, -, -, -, -, -, -, -, -, ⟨a0, a1⟩, ⟨b0, b1⟩, ⟨c0, c1⟩⟩ := idx_facts t
  refine ⟨t, flush0_11 t, ?_⟩
  show i ∈ ((View.whole main_v0_2).slice (win0_11.rect t)).set
  rw [View.set_slice_whole, Rect.mem_set_unit]
  intro a
  match a with
  | ⟨0, _⟩ => show win0_11.index t (0 : Fin 2) * 2048 ≤ (i 0).val ∧ (i 0).val < win0_11.index t (0 : Fin 2) * 2048 + 2048; omega
  | ⟨1, _⟩ => show win0_11.index t (1 : Fin 2) * 256 ≤ (i 1).val ∧ (i 1).val < win0_11.index t (1 : Fin 2) * 256 + 256; omega

/-- THE ARRAY of output window 11 after the region: the real projection of its inputs. -/
theorem final0_11 (X : Mat 8192 256) (W : Mat 256 256) (b : Vc 256) (hX : V c main_arg2 = toE2 X)
    (hW : V c main_arg8 = toE2 W) (hb : V c main_arg9 = toE1 b) :
    (dat0 (F := Ideal) V c).arrAt 11 cfg0.N = toE2 (lin X W b) :=
  (dat0 V c).arrAt_eq_of_cover 11 (toE2 (lin X W b)) (fun t _ => flushed_11 V c X W b hX hW hb t) cover_11

end Cert.KernelIdeal.Val

end
-- ==== Proof.Val.V1a.lean ====
/-
  Region 1 (the attention kernel with a layer-normalised residual) at any float instance: what each control case
  leaves in the three carried scratch (running maximum, running sum, accumulator) and in the output's buffer is a
  payload of the point's input blocks and of the scratch the point before left; hence the scratch and the output
  point by point.
-/
import proofs.«422171_j68341519614500_3_alg».proof.Proof.KI.F1
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen Cert.KernelIdeal.Hand

variable {F : FTy → Type} [FloatOps F]

theorem hz1_a : (![0, 0] : Fin 2 → Nat) = fun _ => 0 := funext fun a => by fin_cases a <;> rfl
theorem hz1_b : (![0] : Fin 1 → Nat) = fun _ => 0 := funext fun a => by fin_cases a; rfl

/-! ## The pieces each case's run found, as payloads -/

theorem pcs1_A_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i) (x0 : Vec F S2048x256 .bf16) (x1 : Vec F S512x256 .bf16) (x2 : Vec F S512x256 .bf16) (x3 : Vec F S2048x256 .f32) (x4 : Vec F S256 .f32) (x5 : Vec F S256 .f32) :
    View.canon (kernelRun1_A c i arg2 harg2 arg3 harg3 arg4 harg4 arg5 harg5 arg6 harg6 arg7 harg7 arg8 harg8 arg9 harg9 arg10 harg10 arg11 harg11 hc0 hc1 x0 x1 x2 x3 x4 x5).2.1 = k1_pay2 (k1_pay8 x0 x1 k1_pay4) := by
  unfold kernelRun1_A
  dsimp only
  sl_unfold_words
  rw [View.canon_cons_unit_zero (S := S2048x1) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b, View.readCov_unit_zero (S := S2048x1) _ hz1_a, View.readCov_unit_zero (S := S2048x256) _ hz1_a]
theorem pcs1_A_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i) (x0 : Vec F S2048x256 .bf16) (x1 : Vec F S512x256 .bf16) (x2 : Vec F S512x256 .bf16) (x3 : Vec F S2048x256 .f32) (x4 : Vec F S256 .f32) (x5 : Vec F S256 .f32) :
    View.canon (kernelRun1_A c i arg2 harg2 arg3 harg3 arg4 harg4 arg5 harg5 arg6 harg6 arg7 harg7 arg8 harg8 arg9 harg9 arg10 harg10 arg11 harg11 hc0 hc1 x0 x1 x2 x3 x4 x5).2.2.1 = k1_pay11 x0 x1 k1_pay4 k1_pay5 := by
  unfold kernelRun1_A
  dsimp only
  sl_unfold_words
  rw [View.canon_cons_unit_zero (S := S2048x1) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b, View.readCov_unit_zero (S := S2048x1) _ hz1_a, View.readCov_unit_zero (S := S2048x256) _ hz1_a]
theorem pcs1_A_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i) (x0 : Vec F S2048x256 .bf16) (x1 : Vec F S512x256 .bf16) (x2 : Vec F S512x256 .bf16) (x3 : Vec F S2048x256 .f32) (x4 : Vec F S256 .f32) (x5 : Vec F S256 .f32) :
    View.canon (kernelRun1_A c i arg2 harg2 arg3 harg3 arg4 harg4 arg5 harg5 arg6 harg6 arg7 harg7 arg8 harg8 arg9 harg9 arg10 harg10 arg11 harg11 hc0 hc1 x0 x1 x2 x3 x4 x5).2.2.2.1 = k1_pay1 (k1_pay12 x0 x1 x2 k1_pay4 k1_pay6) := by
  unfold kernelRun1_A
  dsimp only
  sl_unfold_words
  rw [View.canon_cons_unit_zero (S := S2048x256) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b, View.readCov_unit_zero (S := S2048x1) _ hz1_a, View.readCov_unit_zero (S := S2048x256) _ hz1_a]
theorem pcs1_B_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 = k1_pay2 (k1_pay8 x0 x1 xs0) := by
  unfold kernelRun1_B
  dsimp only
  sl_unfold_words
  rw [View.canon_unit_zero (S := S2048x1) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b]
theorem pcs1_B_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 = k1_pay11 x0 x1 xs0 xs1 := by
  unfold kernelRun1_B
  dsimp only
  sl_unfold_words
  rw [View.canon_unit_zero (S := S2048x1) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b]
theorem pcs1_B_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun1_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 = k1_pay1 (k1_pay12 x0 x1 x2 xs0 xs2) := by
  unfold kernelRun1_B
  dsimp only
  sl_unfold_words
  rw [View.canon_unit_zero (S := S2048x256) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b]
theorem pcs1_C_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 = k1_pay2 (k1_pay8 x0 x1 xs0) := by
  unfold kernelRun1_C
  dsimp only
  sl_unfold_words
  rw [View.canon_unit_zero (S := S2048x1) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b]
theorem pcs1_C_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 = k1_pay11 x0 x1 xs0 xs1 := by
  unfold kernelRun1_C
  dsimp only
  sl_unfold_words
  rw [View.canon_unit_zero (S := S2048x1) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b]
theorem pcs1_C_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 = k1_pay1 (k1_pay12 x0 x1 x2 xs0 xs2) := by
  unfold kernelRun1_C
  dsimp only
  sl_unfold_words
  rw [View.canon_unit_zero (S := S2048x256) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b]
theorem pcs1_C_6 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun1_C c i arg2 harg2 arg3 harg3 arg4 harg4 arg5 harg5 arg6 harg6 arg7 harg7 arg8 harg8 arg9 harg9 arg10 harg10 arg11 harg11 hc0 hc1 x0 x1 x2 x3 x4 x5 xs0 xs1 xs2).1 = k1_pay3 (k1_pay1 (k1_pay12 x0 x1 x2 xs0 xs2)) (k1_pay11 x0 x1 xs0 xs1) x3 x4 x5 := by
  unfold kernelRun1_C
  dsimp only
  sl_unfold_words
  rw [View.canon_unit_zero (S := S2048x256) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b, View.readCov_unit_zero (S := S2048x1) _ hz1_a, View.readCov_unit_zero (S := S2048x256) _ hz1_a]
/-! ## What each case leaves in each scratch and in the output, as payloads of the blocks and of the scratch found -/

theorem sout1_A_0_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i) (x0 : Vec F S2048x256 .bf16) (x1 : Vec F S512x256 .bf16) (x2 : Vec F S512x256 .bf16) (x3 : Vec F S2048x256 .f32) (x4 : Vec F S256 .f32) (x5 : Vec F S256 .f32) :
    sout1_A_0 c i arg2 harg2 arg3 harg3 arg4 harg4 arg5 harg5 arg6 harg6 arg7 harg7 arg8 harg8 arg9 harg9 arg10 harg10 arg11 harg11 hc0 hc1 x0 x1 x2 x3 x4 x5 = k1_pay2 (k1_pay8 x0 x1 k1_pay4) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4 x5)]
  exact pcs1_A_0 c i arg2 harg2 arg3 harg3 arg4 harg4 arg5 harg5 arg6 harg6 arg7 harg7 arg8 harg8 arg9 harg9 arg10 harg10 arg11 harg11 hc0 hc1 x0 x1 x2 x3 x4 x5

theorem sout1_A_1_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i) (x0 : Vec F S2048x256 .bf16) (x1 : Vec F S512x256 .bf16) (x2 : Vec F S512x256 .bf16) (x3 : Vec F S2048x256 .f32) (x4 : Vec F S256 .f32) (x5 : Vec F S256 .f32) :
    sout1_A_1 c i arg2 harg2 arg3 harg3 arg4 harg4 arg5 harg5 arg6 harg6 arg7 harg7 arg8 harg8 arg9 harg9 arg10 harg10 arg11 harg11 hc0 hc1 x0 x1 x2 x3 x4 x5 = k1_pay11 x0 x1 k1_pay4 k1_pay5 := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 hc0 hc1 x0 x1 x2 x3 x4 x5)]
  exact pcs1_A_1 c i arg2 harg2 arg3 harg3 arg4 harg4 arg5 harg5 arg6 harg6 arg7 harg7 arg8 harg8 arg9 harg9 arg10 harg10 arg11 harg11 hc0 hc1 x0 x1 x2 x3 x4 x5

theorem sout1_A_2_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i) (x0 : Vec F S2048x256 .bf16) (x1 : Vec F S512x256 .bf16) (x2 : Vec F S512x256 .bf16) (x3 : Vec F S2048x256 .f32) (x4 : Vec F S256 .f32) (x5 : Vec F S256 .f32) :
    sout1_A_2 c i arg2 harg2 arg3 harg3 arg4 harg4 arg5 harg5 arg6 harg6 arg7 harg7 arg8 harg8 arg9 harg9 arg10 harg10 arg11 harg11 hc0 hc1 x0 x1 x2 x3 x4 x5 = k1_pay1 (k1_pay12 x0 x1 x2 k1_pay4 k1_pay6) := by
  unfold sout1_A_2
  rw [View.read_writes_eq_canon _ _ _ (scover1_A_2 c i arg2 harg2 arg3 harg3 arg4 harg4 arg5 harg5 arg6 harg6 arg7 harg7 arg8 harg8 arg9 harg9 arg10 harg10 arg11 harg11 hc0 hc1 x0 x1 x2 x3 x4 x5)]
  exact pcs1_A_2 c i arg2 harg2 arg3 harg3 arg4 harg4 arg5 harg5 arg6 harg6 arg7 harg7 arg8 harg8 arg9 harg9 arg10 harg10 arg11 harg11 hc0 hc1 x0 x1 x2 x3 x4 x5

theorem sout1_B_0_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    sout1_B_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay2 (k1_pay8 x0 x1 xs0) := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_B_0 c i arg2 harg2 arg3 harg3 arg4 harg4 arg5 harg5 arg6 harg6 arg7 harg7 arg8 harg8 arg9 harg9 arg10 harg10 arg11 harg11 hc0 hc1 x0 x1 x2 x3 x4 x5 xs0 xs1 xs2

theorem sout1_B_1_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    sout1_B_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay11 x0 x1 xs0 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_B_1 c i arg2 harg2 arg3 harg3 arg4 harg4 arg5 harg5 arg6 harg6 arg7 harg7 arg8 harg8 arg9 harg9 arg10 harg10 arg11 harg11 hc0 hc1 x0 x1 x2 x3 x4 x5 xs0 xs1 xs2

theorem sout1_B_2_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    sout1_B_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay1 (k1_pay12 x0 x1 x2 xs0 xs2) := by
  unfold sout1_B_2
  rw [View.read_writes_eq_canon _ _ _ (scover1_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_B_2 c i arg2 harg2 arg3 harg3 arg4 harg4 arg5 harg5 arg6 harg6 arg7 harg7 arg8 harg8 arg9 harg9 arg10 harg10 arg11 harg11 hc0 hc1 x0 x1 x2 x3 x4 x5 xs0 xs1 xs2

theorem sout1_C_0_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    sout1_C_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay2 (k1_pay8 x0 x1 xs0) := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_C_0 c i arg2 harg2 arg3 harg3 arg4 harg4 arg5 harg5 arg6 harg6 arg7 harg7 arg8 harg8 arg9 harg9 arg10 harg10 arg11 harg11 hc0 hc1 x0 x1 x2 x3 x4 x5 xs0 xs1 xs2

theorem sout1_C_1_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    sout1_C_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay11 x0 x1 xs0 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_C_1 c i arg2 harg2 arg3 harg3 arg4 harg4 arg5 harg5 arg6 harg6 arg7 harg7 arg8 harg8 arg9 harg9 arg10 harg10 arg11 harg11 hc0 hc1 x0 x1 x2 x3 x4 x5 xs0 xs1 xs2

theorem sout1_C_2_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    sout1_C_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay1 (k1_pay12 x0 x1 x2 xs0 xs2) := by
  unfold sout1_C_2
  rw [View.read_writes_eq_canon _ _ _ (scover1_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_C_2 c i arg2 harg2 arg3 harg3 arg4 harg4 arg5 harg5 arg6 harg6 arg7 harg7 arg8 harg8 arg9 harg9 arg10 harg10 arg11 harg11 hc0 hc1 x0 x1 x2 x3 x4 x5 xs0 xs1 xs2

theorem out1_C_6_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    out1_C_6 c i arg2 harg2 arg3 harg3 arg4 harg4 arg5 harg5 arg6 harg6 arg7 harg7 arg8 harg8 arg9 harg9 arg10 harg10 arg11 harg11 hc0 hc1 x0 x1 x2 x3 x4 x5 xs0 xs1 xs2 = k1_pay3 (k1_pay1 (k1_pay12 x0 x1 x2 xs0 xs2)) (k1_pay11 x0 x1 xs0 xs1) x3 x4 x5 := by
  unfold out1_C_6
  rw [View.read_writes_eq_canon _ _ _ (cover1_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_C_6 c i arg2 harg2 arg3 harg3 arg4 harg4 arg5 harg5 arg6 harg6 arg7 harg7 arg8 harg8 arg9 harg9 arg10 harg10 arg11 harg11 hc0 hc1 x0 x1 x2 x3 x4 x5 xs0 xs1 xs2

/-! ## The carried scratch point by point -/

variable (V : (c : Dev nD) → (b : Ref sig .tc) → Buf (Elt F) ((c : Thread nD τ).loc b))

/-- At the first key block of a query block the scratch is reset and then updated. -/
theorem scr1_A (c : Dev nD) (t : Fin cfg1.N) (h0 : t.val % 16 = 0) (h1 : ¬t.val % 16 = 15) :
    (outsAt1 V c t.val t.isLt).2 = (k1_pay2 (k1_pay8 (iblk1 V c 0 t) (iblk1 V c 1 t) k1_pay4), k1_pay11 (iblk1 V c 0 t) (iblk1 V c 1 t) k1_pay4 k1_pay5, k1_pay1 (k1_pay12 (iblk1 V c 0 t) (iblk1 V c 1 t) (iblk1 V c 2 t) k1_pay4 k1_pay6)) := by
  rw [outsAt1_A V c t h0 h1]
  dsimp only
  exact congr (congrArg Prod.mk (sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))) (congr (congrArg Prod.mk (sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))) (sout1_A_2_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)))

/-- At a later key block the scratch is updated from what the point before left. -/
theorem scr1_BC (c : Dev nD) (t : Fin cfg1.N) (h0 : ¬t.val % 16 = 0) :
    (outsAt1 V c t.val t.isLt).2 = (k1_pay2 (k1_pay8 (iblk1 V c 0 t) (iblk1 V c 1 t) (outsAt1 V c (t.val - 1) (Nat.lt_of_le_of_lt (Nat.sub_le _ _) t.isLt)).2.1), k1_pay11 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1, k1_pay1 (k1_pay12 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2)) := by
  by_cases h1 : t.val % 16 = 15
  · rw [outsAt1_C V c t h0 h1]
    dsimp only
    exact congr (congrArg Prod.mk (sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) (congr (congrArg Prod.mk (sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) (sout1_C_2_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2))
  · rw [outsAt1_B V c t h0 h1]
    dsimp only
    exact congr (congrArg Prod.mk (sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) (congr (congrArg Prod.mk (sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) (sout1_B_2_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2))

/-- At the last key block the output's buffer gets the normalised quotient of the updated accumulator by the updated sum, plus the residual. -/
theorem out1_C (c : Dev nD) (t : Fin cfg1.N) (h0 : ¬t.val % 16 = 0) (h1 : t.val % 16 = 15) :
    (outsAt1 V c t.val t.isLt).1 = k1_pay3 (k1_pay1 (k1_pay12 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2)) (k1_pay11 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1) (iblk1 V c 3 t) (iblk1 V c 4 t) (iblk1 V c 5 t) := by
  rw [outsAt1_C V c t h0 h1]
  dsimp only
  exact out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- The same point read at two spellings of its position. -/
theorem outsAt1_congr (c : Dev nD) (n m : ℕ) (h : n = m) (hn : n < cfg1.N) (hm : m < cfg1.N) : outsAt1 V c n hn = outsAt1 V c m hm := by
  subst h; rfl

end Cert.KernelIdeal.Val

end
-- ==== Proof.Val.V1i.lean ====
/-
  A block of rows of a real matrix: query block b of an 8192 × 256 array is its rows 2048·b … 2048·b + 2047.
-/
import proofs.«422171_j68341519614500_3_alg».proof.Proof.Val.RealSpec

noncomputable section

namespace Cert.KernelIdeal.Val

open Cert.RealSpec

/-- Rows 2048·b … 2048·b + 2047 of an 8192 × 256 real array, for a block number b below 4. -/
def rowBlk1 (X : Mat 8192 256) (b : ℕ) (hb : b < 4) : Mat 2048 256 :=
  fun r c => X ⟨2048 * b + r.val, by have := r.isLt; omega⟩ c

end Cert.KernelIdeal.Val

end
-- ==== Proof.Val.V1.lean ====
/-
  Region 1, from blocks to the array. The attention region's output window 6 is written back only at the last key
  step of each query block (points t with t mod 16 = 15), and the block written there is rows
  2048·(t / 16) … 2048·(t / 16) + 2047 of the output array. So when, at every such point, the output's buffer holds
  that block of rows of a real array G, the array after the region holds G: row r lies in the block written at
  point 16·(r / 2048) + 15.
-/
import proofs.«422171_j68341519614500_3_alg».proof.Proof.KI.F1
import proofs.«422171_j68341519614500_3_alg».proof.Proof.Val.V1i
import proofs.«422171_j68341519614500_3_alg».proof.Proof.Val.RealSpec
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.RealSpec

variable (V : (c : Dev nD) → (b : Ref sig .tc) → Buf (Elt Ideal) ((c : Thread nD τ).loc b)) (c : Dev nD)

/-- The grid has sixty-four points: four query blocks times sixteen key blocks. -/
theorem N1' : cfg1.N = 64 := N_1

/-- A point's query block number is below four. -/
theorem blk1_lt (t : Fin cfg1.N) : t.val / 16 < 4 := by
  have := t.isLt; have h := N1'; omega

/-- A matrix of 8192 rows read where block b's index lands is the block of rows read at the index. -/
theorem toE2_rowBlk1_apply (G : Mat 8192 256) (b : ℕ) (hb : b < 4) (y : S2048x256.Idx) (k : S8192x256.Idx)
    (hk0 : (k 0).val = 2048 * b + (y 0).val) (hk1 : (k 1).val = (y 1).val) :
    toE2 G k = toE2 (rowBlk1 G b hb) y := by
  show ((G (k 0) (k 1) : ℝ) : EReal) = ((G ⟨2048 * b + (y 0).val, _⟩ (y 1) : ℝ) : EReal)
  exact congrArg (fun r : ℝ => (r : EReal)) (congrArg₂ G (Fin.ext hk0) (Fin.ext hk1))

/-- Window 6's block index at point t is the query block t / 16 along the rows and 0 along the columns. -/
theorem idx1_6 : ∀ t : Fin cfg1.N, win1_6.index t (0 : Fin 2) = t.val / 16 ∧ win1_6.index t (1 : Fin 2) = 0 :=
  (by decide +kernel : ∀ t : Fin grid1.N, _)

/-- Window 6's block at point t of a real matrix is its block of rows number t / 16. -/
theorem read_blk1_6 (G : Mat 8192 256) (t : Fin cfg1.N) :
    ((cfg1.win 6).blk t).view.read (Elt Ideal) (toE2 G : S8192x256.Idx → Elt Ideal .f32)
      = (toE2 (rowBlk1 G (t.val / 16) (blk1_lt t)) : S2048x256.Idx → Elt Ideal .f32) := by
  obtain ⟨e0, e1⟩ := idx1_6 t
  funext y
  rw [View.read_apply]
  refine toE2_rowBlk1_apply G (t.val / 16) (blk1_lt t) y _ ?_ ?_
  · show win1_6.index t (0 : Fin 2) * 2048 + 1 * (y 0).val = 2048 * (t.val / 16) + (y 0).val
    rw [e0]; omega
  · show win1_6.index t (1 : Fin 2) * 256 + 1 * (y 1).val = (y 1).val
    rw [e1]; omega

/-! ## What a writing point writes back, the cover, the array after the region -/

/-- What a point t that writes back writes through window 6 is block t / 16 of G, when the output's buffer holds it there. -/
theorem flushed1_6 (G : Mat 8192 256)
    (hfl : ∀ (t : Fin cfg1.N) (h15 : t.val % 16 = 15),
      (outsAt1 (F := Ideal) V c t.val t.isLt).1 = (toE2 (rowBlk1 G (t.val / 16) (blk1_lt t)) : S2048x256.Idx → Elt Ideal .f32))
    (t : Fin cfg1.N) (hf : (cfg1.win 6).flush t = true) :
    (dat1 (F := Ideal) V c).flushed 6 t = ((cfg1.win 6).blk t).view.read (Elt Ideal) (toE2 G : S8192x256.Idx → Elt Ideal .f32) := by
  have h15 : t.val % 16 = 15 := (flush1_6 t).mp hf
  show (cfg1.win 6).cut (grid1.coords t) ((dat1 (F := Ideal) V c).after 6 t) = _
  rw [after1_6, read_blk1_6 G t]
  exact hfl t h15

/-- An index of the array is in point t's block iff each coordinate is in the block's range on its axis. -/
theorem mem_blk1_6 (t : Fin cfg1.N) (i : S8192x256.Idx) :
    i ∈ ((cfg1.win 6).blk t).view.set ↔ ∀ a : Fin 2, win1_6.index t a * S2048x256.size a ≤ (i a).val ∧ (i a).val < win1_6.index t a * S2048x256.size a + S2048x256.size a := by
  show i ∈ ((View.whole main_v1).slice (win1_6.rect t)).set ↔ _
  rw [View.set_slice_whole, Rect.mem_set_unit]
  exact Iff.rfl

/-- Row r of the array is in the block of point 16·(r / 2048) + 15, which writes back. -/
theorem covered1_6 (i : S8192x256.Idx) :
    ∃ t : Fin cfg1.N, (cfg1.win 6).flush t = true ∧ i ∈ ((cfg1.win 6).blk t).view.set := by
  have hi0 : (i 0).val < 8192 := (i 0).isLt
  have hi1 : (i 1).val < 256 := (i 1).isLt
  obtain ⟨t, ht⟩ : ∃ t : Fin cfg1.N, t.val = 16 * ((i 0).val / 2048) + 15 :=
    ⟨⟨16 * ((i 0).val / 2048) + 15, by have h := N1'; omega⟩, rfl⟩
  obtain ⟨e0, e1⟩ := idx1_6 t
  refine ⟨t, (flush1_6 t).mpr (by omega), ?_⟩
  rw [mem_blk1_6]
  intro a
  match a with
  | ⟨0, _⟩ => show win1_6.index t (0 : Fin 2) * 2048 ≤ (i 0).val ∧ (i 0).val < win1_6.index t (0 : Fin 2) * 2048 + 2048; rw [e0, ht]; omega
  | ⟨1, _⟩ => show win1_6.index t (1 : Fin 2) * 256 ≤ (i 1).val ∧ (i 1).val < win1_6.index t (1 : Fin 2) * 256 + 256; rw [e1]; omega

/-- The array of window 6 after the region holds G, when at every writing point the output's buffer holds its block of G. -/
theorem final1_6_of_flushed (G : Mat 8192 256)
    (hfl : ∀ (t : Fin cfg1.N) (h15 : t.val % 16 = 15),
      (outsAt1 (F := Ideal) V c t.val t.isLt).1 = (toE2 (rowBlk1 G (t.val / 16) (blk1_lt t)) : S2048x256.Idx → Elt Ideal .f32)) :
    (dat1 (F := Ideal) V c).arrAt 6 cfg1.N = (toE2 G : S8192x256.Idx → Elt Ideal .f32) :=
  (dat1 (F := Ideal) V c).arrAt_eq_of_cover 6 (toE2 G : S8192x256.Idx → Elt Ideal .f32)
    (fun t hf => flushed1_6 V c G hfl t hf) covered1_6

end Cert.KernelIdeal.Val

end
-- ==== Proof.Val.Online.lean ====
/-
  The running ("online") evaluation of a softmax average over the reals. The keys come in nb blocks of bs; after each
  block the accumulated denominator l and numerator a are rescaled from the previous reference point m b to the next
  one m (b+1) and the block's terms, taken relative to m (b+1), are added. Whatever reals the reference points are,
  after k blocks l and a are the sums over the first k blocks taken relative to m k (`fold`); a common shift of the
  exponents cancels in the quotient (`ratio`); and the double sum over blocks is the single sum over the keys numbered
  b·bs + j (`sum_flat`, `sum_blocks`). Together: a nb / l nb is the plain softmax average (`attn_row` for 16 blocks
  of 512 keys).
-/
import Idealize.ShloMosaic.Lib.ValueIdx
import proofs.«422171_j68341519614500_3_alg».proof.Proof.Val.RealSpec

noncomputable section

open scoped BigOperators

namespace Cert.Online

/-- Adding block k to the sum over the blocks below k gives the sum over the blocks below k + 1. -/
theorem step {nb : ℕ} (f : Fin nb → ℝ) (k : ℕ) (hk : k < nb) :
    ∑ b : Fin nb, (if b.val < k + 1 then f b else 0)
      = (∑ b : Fin nb, (if b.val < k then f b else 0)) + f ⟨k, hk⟩ := by
  have h : ∀ b : Fin nb, (if b.val < k + 1 then f b else 0)
      = (if b.val < k then f b else 0) + (if b = ⟨k, hk⟩ then f b else 0) := by
    intro b
    by_cases h1 : b.val < k
    · have h2 : b ≠ ⟨k, hk⟩ := by
        intro h; rw [h] at h1; exact lt_irrefl _ h1
      have h3 : b.val < k + 1 := Nat.lt_succ_of_lt h1
      simp [h1, h2, h3]
    · by_cases h2 : b = ⟨k, hk⟩
      · subst h2; simp
      · have h3 : ¬ b.val < k + 1 := by
          intro h; apply h2; apply Fin.ext; simp only; omega
        simp [h1, h2, h3]
  rw [Finset.sum_congr rfl (fun b _ => h b), Finset.sum_add_distrib]
  congr 1
  simp

/-- Moving the reference point from p to q multiplies every term by exp (p − q). -/
theorem shift_sum {nb bs : ℕ} (s w : Fin nb → Fin bs → ℝ) (k : ℕ) (p q : ℝ) :
    Real.exp (p - q) * ∑ b : Fin nb, (if b.val < k then ∑ j, Real.exp (s b j - p) * w b j else 0)
      = ∑ b : Fin nb, (if b.val < k then ∑ j, Real.exp (s b j - q) * w b j else 0) := by
  rw [Finset.mul_sum]
  refine Finset.sum_congr rfl fun b _ => ?_
  by_cases hb : b.val < k
  · rw [if_pos hb, if_pos hb, Finset.mul_sum]
    refine Finset.sum_congr rfl fun j _ => ?_
    rw [← mul_assoc, ← Real.exp_add]
    congr 2
    ring
  · rw [if_neg hb, if_neg hb, mul_zero]

/-- The same with all weights 1. -/
theorem shift_sum_one {nb bs : ℕ} (s : Fin nb → Fin bs → ℝ) (k : ℕ) (p q : ℝ) :
    Real.exp (p - q) * ∑ b : Fin nb, (if b.val < k then ∑ j, Real.exp (s b j - p) else 0)
      = ∑ b : Fin nb, (if b.val < k then ∑ j, Real.exp (s b j - q) else 0) := by
  simpa using shift_sum s (fun _ _ => (1 : ℝ)) k p q

/-- After k blocks the running denominator and numerator are the sums over the first k blocks, relative to m k. The
reference points m are arbitrary reals. -/
theorem fold {nb bs : ℕ} (s : Fin nb → Fin bs → ℝ) (v : Fin nb → Fin bs → ℝ) (m l a : ℕ → ℝ)
    (hl0 : l 0 = 0) (ha0 : a 0 = 0)
    (hl : ∀ b (hb : b < nb), l (b + 1)
      = Real.exp (m b - m (b + 1)) * l b + ∑ j, Real.exp (s ⟨b, hb⟩ j - m (b + 1)))
    (ha : ∀ b (hb : b < nb), a (b + 1)
      = Real.exp (m b - m (b + 1)) * a b + ∑ j, Real.exp (s ⟨b, hb⟩ j - m (b + 1)) * v ⟨b, hb⟩ j) :
    ∀ k, k ≤ nb → l k = ∑ b : Fin nb, (if b.val < k then ∑ j, Real.exp (s b j - m k) else 0)
      ∧ a k = ∑ b : Fin nb, (if b.val < k then ∑ j, Real.exp (s b j - m k) * v b j else 0) := by
  intro k
  induction k with
  | zero => intro _; simp [hl0, ha0]
  | succ k ih =>
    intro hk
    have hk' : k < nb := hk
    obtain ⟨ihl, iha⟩ := ih (Nat.le_of_lt hk')
    constructor
    · rw [hl k hk', ihl, shift_sum_one s k (m k) (m (k + 1)),
        step (fun b => ∑ j, Real.exp (s b j - m (k + 1))) k hk']
    · rw [ha k hk', iha, shift_sum s v k (m k) (m (k + 1)),
        step (fun b => ∑ j, Real.exp (s b j - m (k + 1)) * v b j) k hk']

/-- At k = nb every block is counted. -/
theorem fold_all {nb bs : ℕ} (s : Fin nb → Fin bs → ℝ) (v : Fin nb → Fin bs → ℝ) (m l a : ℕ → ℝ)
    (hl0 : l 0 = 0) (ha0 : a 0 = 0)
    (hl : ∀ b (hb : b < nb), l (b + 1)
      = Real.exp (m b - m (b + 1)) * l b + ∑ j, Real.exp (s ⟨b, hb⟩ j - m (b + 1)))
    (ha : ∀ b (hb : b < nb), a (b + 1)
      = Real.exp (m b - m (b + 1)) * a b + ∑ j, Real.exp (s ⟨b, hb⟩ j - m (b + 1)) * v ⟨b, hb⟩ j) :
    l nb = ∑ b : Fin nb, ∑ j, Real.exp (s b j - m nb)
      ∧ a nb = ∑ b : Fin nb, ∑ j, Real.exp (s b j - m nb) * v b j := by
  obtain ⟨h1, h2⟩ := fold s v m l a hl0 ha0 hl ha nb le_rfl
  rw [h1, h2]
  exact ⟨Finset.sum_congr rfl fun b _ => if_pos b.isLt, Finset.sum_congr rfl fun b _ => if_pos b.isLt⟩

/-- The denominator is positive as soon as there is one key. -/
theorem den_pos {nb bs : ℕ} (hnb : 0 < nb) (hbs : 0 < bs) (s : Fin nb → Fin bs → ℝ) (M : ℝ) :
    0 < ∑ b : Fin nb, ∑ j, Real.exp (s b j - M) := by
  haveI : Nonempty (Fin nb) := ⟨⟨0, hnb⟩⟩
  haveI : Nonempty (Fin bs) := ⟨⟨0, hbs⟩⟩
  exact Finset.sum_pos (fun b _ => Finset.sum_pos (fun j _ => Real.exp_pos _) Finset.univ_nonempty)
    Finset.univ_nonempty

/-- A common shift M of the exponents cancels between numerator and denominator. -/
theorem ratio {nb bs : ℕ} (s v : Fin nb → Fin bs → ℝ) (M : ℝ) :
    (∑ b : Fin nb, ∑ j, Real.exp (s b j - M) * v b j) / (∑ b : Fin nb, ∑ j, Real.exp (s b j - M))
      = ∑ b : Fin nb, ∑ j, (Real.exp (s b j) / ∑ b' : Fin nb, ∑ j', Real.exp (s b' j')) * v b j := by
  have hn : ∑ b : Fin nb, ∑ j, Real.exp (s b j - M) * v b j
      = Real.exp (-M) * ∑ b : Fin nb, ∑ j, Real.exp (s b j) * v b j := by
    rw [Finset.mul_sum]
    refine Finset.sum_congr rfl fun b _ => ?_
    rw [Finset.mul_sum]
    refine Finset.sum_congr rfl fun j _ => ?_
    rw [sub_eq_add_neg, Real.exp_add]; ring
  have hd : ∑ b : Fin nb, ∑ j, Real.exp (s b j - M)
      = Real.exp (-M) * ∑ b : Fin nb, ∑ j, Real.exp (s b j) := by
    rw [Finset.mul_sum]
    refine Finset.sum_congr rfl fun b _ => ?_
    rw [Finset.mul_sum]
    refine Finset.sum_congr rfl fun j _ => ?_
    rw [sub_eq_add_neg, Real.exp_add]; ring
  rw [hn, hd, mul_div_mul_left _ _ (Real.exp_ne_zero _), Finset.sum_div]
  refine Finset.sum_congr rfl fun b _ => ?_
  rw [Finset.sum_div]
  refine Finset.sum_congr rfl fun j _ => ?_
  rw [div_mul_eq_mul_div]

/-- The double sum over blocks is the single sum over the keys, key (b, j) being numbered j + bs·b. -/
theorem sum_flat {nb bs : ℕ} (g : Fin (nb * bs) → ℝ) :
    ∑ b : Fin nb, ∑ j : Fin bs, g (finProdFinEquiv (b, j)) = ∑ x, g x :=
  calc ∑ b : Fin nb, ∑ j : Fin bs, g (finProdFinEquiv (b, j))
      = ∑ p : Fin nb × Fin bs, g (finProdFinEquiv p) :=
        (Fintype.sum_prod_type (fun p : Fin nb × Fin bs => g (finProdFinEquiv p))).symm
    _ = ∑ x, g x := Equiv.sum_comp finProdFinEquiv g

/-- The same with the key (b, j) written as the explicit index b·bs + j below N = nb·bs. -/
theorem sum_blocks {nb bs N : ℕ} (hN : nb * bs = N) (g : Fin N → ℝ)
    (hlt : ∀ (b : Fin nb) (j : Fin bs), b.val * bs + j.val < N) :
    ∑ b : Fin nb, ∑ j : Fin bs, g ⟨b.val * bs + j.val, hlt b j⟩ = ∑ x, g x := by
  subst hN
  rw [← sum_flat g]
  refine Finset.sum_congr rfl fun b _ => Finset.sum_congr rfl fun j _ => ?_
  congr 1
  apply Fin.ext
  rw [finProdFinEquiv_apply_val]
  ring

/-- The quotient of the shifted block sums is the softmax average over the keys in their flat numbering. -/
theorem ratio_flat {nb bs : ℕ} (S : Fin (nb * bs) → ℝ) (Vv : Fin (nb * bs) → ℝ) (M : ℝ) :
    (∑ b : Fin nb, ∑ j : Fin bs, Real.exp (S (finProdFinEquiv (b, j)) - M) * Vv (finProdFinEquiv (b, j)))
        / (∑ b : Fin nb, ∑ j : Fin bs, Real.exp (S (finProdFinEquiv (b, j)) - M))
      = ∑ x : Fin (nb * bs), (Real.exp (S x) / ∑ x', Real.exp (S x')) * Vv x := by
  rw [ratio (fun b j => S (finProdFinEquiv (b, j))) (fun b j => Vv (finProdFinEquiv (b, j))) M,
    sum_flat (fun x => Real.exp (S x)),
    sum_flat (fun x => (Real.exp (S x) / ∑ x', Real.exp (S x')) * Vv x)]

/-- The same with explicit indices b·bs + j below N = nb·bs. -/
theorem ratio_blocks {nb bs N : ℕ} (hN : nb * bs = N) (S : Fin N → ℝ) (Vv : Fin N → ℝ) (M : ℝ)
    (hlt : ∀ (b : Fin nb) (j : Fin bs), b.val * bs + j.val < N) :
    (∑ b : Fin nb, ∑ j : Fin bs, Real.exp (S ⟨b.val * bs + j.val, hlt b j⟩ - M) * Vv ⟨b.val * bs + j.val, hlt b j⟩)
        / (∑ b : Fin nb, ∑ j : Fin bs, Real.exp (S ⟨b.val * bs + j.val, hlt b j⟩ - M))
      = ∑ x : Fin N, (Real.exp (S x) / ∑ x', Real.exp (S x')) * Vv x := by
  rw [ratio (fun b j => S ⟨b.val * bs + j.val, hlt b j⟩) (fun b j => Vv ⟨b.val * bs + j.val, hlt b j⟩) M,
    sum_blocks hN (fun x => Real.exp (S x)) hlt,
    sum_blocks hN (fun x => (Real.exp (S x) / ∑ x', Real.exp (S x')) * Vv x) hlt]

/-- Key j of block b, for 16 blocks of 512 keys, is below 8192. -/
theorem key_lt {b : ℕ} (hb : b < 16) (j : Fin 512) : b * 512 + j.val < 8192 := by
  have := j.isLt; omega

open Cert.RealSpec in
/-- One query row against 8192 keys taken in 16 blocks of 512: the running numerator over the running denominator
is the attention average, whatever the reference points m were. -/
theorem attn_row {n k d : ℕ} (q : Mat n k) (ky : Mat 8192 k) (vmat : Mat 8192 d) (i : Fin n) (c : Fin d)
    (m l a : ℕ → ℝ) (hl0 : l 0 = 0) (ha0 : a 0 = 0)
    (hl : ∀ b (hb : b < 16), l (b + 1) = Real.exp (m b - m (b + 1)) * l b
      + ∑ j : Fin 512, Real.exp (score q ky i ⟨b * 512 + j.val, key_lt hb j⟩ - m (b + 1)))
    (ha : ∀ b (hb : b < 16), a (b + 1) = Real.exp (m b - m (b + 1)) * a b
      + ∑ j : Fin 512, Real.exp (score q ky i ⟨b * 512 + j.val, key_lt hb j⟩ - m (b + 1))
          * vmat ⟨b * 512 + j.val, key_lt hb j⟩ c) :
    a 16 / l 16 = attn q ky vmat i c := by
  obtain ⟨h1, h2⟩ := fold_all (nb := 16) (bs := 512)
    (fun b j => score q ky i ⟨b.val * 512 + j.val, key_lt b.isLt j⟩)
    (fun b j => vmat ⟨b.val * 512 + j.val, key_lt b.isLt j⟩ c) m l a hl0 ha0 hl ha
  rw [h1, h2]
  exact ratio_blocks (nb := 16) (bs := 512) (N := 8192) (by norm_num) (fun x => score q ky i x)
    (fun x => vmat x c) (m 16) (fun b j => key_lt b.isLt j)

end Cert.Online

end
-- ==== Proof.Val.Consts.lean ====
/-
  The float constants the two programs spell, as the extended reals their patterns denote at the ideal instance.
-/
import Idealize.ShloMosaic.PureOps.Ideal
import proofs.«422171_j68341519614500_3_alg».proof.Proof.Val.RealSpec

noncomputable section

namespace Cert.Consts

open Idealize.ShloMosaic Cert.RealSpec

/-- `+0.0` denotes 0. -/
theorem ofBits_zero : Ideal.ofBits .f32 0x00000000#32 = 0 := by
  simp [Ideal.ofBits, Ideal.ieee]

/-- `256.0` denotes the real 256. -/
theorem ofBits_256 : Ideal.ofBits .f32 0x43800000#32 = ((cN : ℝ) : EReal) := by
  simp [Ideal.ofBits, Ideal.ieee, -EReal.coe_mul]; norm_num

/-- The single-precision pattern of 1e-5 denotes 10995116 / 2^40. -/
theorem ofBits_eps : Ideal.ofBits .f32 0x3727C5AC#32 = ((cEps : ℝ) : EReal) := by
  simp [Ideal.ofBits, Ideal.ieee, -EReal.coe_mul]; norm_num

/-- The finite stand-in the kernel starts its running maximum from denotes some real number. -/
theorem ofBits_negbig' : Ideal.ofBits .f32 0xFF333332#32 = ((-(11744050 * 2 ^ 104) : ℝ) : EReal) := by
  simp [Ideal.ofBits, Ideal.ieee, -EReal.coe_mul]

theorem ofBits_negbig : ∃ r : ℝ, Ideal.ofBits .f32 0xFF333332#32 = (r : EReal) := ⟨_, ofBits_negbig'⟩

/-- The pattern of −∞ denotes the bottom element. -/
theorem ofBits_neginf : Ideal.ofBits .f32 0xFF800000#32 = ⊥ := by
  simp [Ideal.ofBits, Ideal.ieee]

end Cert.Consts

end
-- ==== Proof.Val.FlashLib.lean ====
/-
  Readings shared by the value statements of the two attention regions: the coercion ℝ → EReal through a finite sum;
  the column forms of a shape cast [a] → [a, 1] and of a broadcast [a, 1] → [a, b]; a sum and a maximum over the second
  axis of a matrix, read at a row; a fold of `max` over finitely many extended reals below ⊤; the two matrix products of
  the attention step read at an index of real operands.
-/
import proofs.«422171_j68341519614500_3_alg».proof.Proof.Gen.KernelIdeal.Skeleton
import proofs.«422171_j68341519614500_3_alg».proof.Proof.Val.RealSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.FlashLib

open Idealize.ShloMosaic Idealize.ShloMosaic.ValueIdx
open Cert.KernelIdeal Cert.KernelIdeal.Gen Cert.RealSpec

/-! ## The coercion through a finite sum -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## Pointwise readings -/

/-- Two rank-2 arrays are equal when they agree at every pair of coordinates. -/
theorem ext2 {α : Type} {a b : ℕ} {f g : (⟨2, ![a, b]⟩ : Shape).Idx → α} (h : ∀ p q, f (ix2 p q) = g (ix2 p q)) : f = g :=
  funext fun j => by rw [eq_ix2 j]; exact h _ _

/-- An exponential at an index is the exponential of the element … -/
theorem exp_apply {s : Shape} {φ : FTy} (a : FVec Ideal s φ) (i : s.Idx) : exp a i = Ideal.exp (a i) := rfl
/-- … and a reciprocal square root that of the element. -/
theorem rsqrt_apply {s : Shape} {φ : FTy} (a : FVec Ideal s φ) (i : s.Idx) : rsqrt a i = Ideal.rsqrt (a i) := rfl
/-- A scalar constant is the extended real its word encodes. -/
theorem scalar_ofBits (φ : FTy) (b : BitVec φ.bits) : Scalar.ofBits (F := Ideal) φ b = Ideal.ofBits φ b := rfl

/-! ## Column forms of the layout operations -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction over the second axis of a matrix, read at a row -/

/-- The source index over row `r` with coordinate `k` on the dropped second axis is `(r, k)`. -/
theorem lift_row {a b : ℕ} (h : (⟨2, ![a, b]⟩ : Shape).Reduces [1] ⟨1, ![a]⟩) (r : Fin a) (k : Fin b) :
    h.lift (ix1 r) k = ix2 r k :=
  funext fun d => match d with | ⟨0, _⟩ => rfl | ⟨1, _⟩ => rfl

/-- A sum over the second axis, read at row `r`, is the sum of the row's entries. -/
theorem rowsum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

/-- A maximum over the second axis from the pattern of −∞, read at row `r`, is the fold of `max` from ⊥ over the row's
    entries. -/
theorem rowmax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction .maximumf [1] ⟨1, ![a]⟩ src 0xFF800000#32 h hφ hacc (ix1 r)
      = (Finset.univ : Finset (Fin b)).fold max ⊥ (fun k => src (ix2 r k)) := by
  refine (Ideal.multiReduction_maximumf_single src 0xFF800000#32 h hφ hacc (ix1 r)).trans ?_
  rw [show FloatOps.ofBits (F := Ideal) .f32 0xFF800000#32 = (⊥ : EReal) from by simp [Ideal.ofBits, Ideal.ieee]]
  exact congrArg (fun g => (Finset.univ : Finset (Fin b)).fold max ⊥ g) (funext fun k => congrArg src (lift_row h r k))

/-- A fold of `max` from a start below ⊤ over entries below ⊤ is below ⊤. -/
theorem fold_max_ne_top {ι : Type*} (s : Finset ι) (g : ι → EReal) (b : EReal) (hb : b ≠ ⊤) (hg : ∀ i, g i ≠ ⊤) :
    s.fold max b g ≠ ⊤ := by
  classical
  induction s using Finset.induction_on with
  | empty => simpa using hb
  | insert a s ha ih =>
    rw [Finset.fold_insert ha]
    rcases max_choice (g a) (s.fold max b g) with e | e <;> rw [e]
    · exact hg a
    · exact ih

/-- The maximum of a real and an extended real below ⊤ is a real. -/
theorem max_coe_real (x : ℝ) (y : EReal) (hy : y ≠ ⊤) : ∃ z : ℝ, max (x : EReal) y = (z : EReal) := by
  have h1 : max (x : EReal) y ≠ ⊤ := by
    rcases max_choice (x : EReal) y with e | e <;> rw [e]
    · exact EReal.coe_ne_top x
    · exact hy
  have h2 : max (x : EReal) y ≠ ⊥ := ne_of_gt (lt_of_lt_of_le (EReal.bot_lt_coe x) (le_max_left _ _))
  exact ⟨(max (x : EReal) y).toReal, (EReal.coe_toReal h1 h2).symm⟩

/-! ## The two matrix products of the attention step, read at an index -/

theorem lhs_qk_0 (j : S2048x512.Idx) (κ : dot_S2048x256_S256x512_S2048x512_1_0_0_1_n_n.contr.Idx) :
    (dot_S2048x256_S256x512_S2048x512_1_0_0_1_n_n.lhsIdx j κ 0).val = (j 0).val := rfl
theorem lhs_qk_1 (j : S2048x512.Idx) (κ : dot_S2048x256_S256x512_S2048x512_1_0_0_1_n_n.contr.Idx) :
    (dot_S2048x256_S256x512_S2048x512_1_0_0_1_n_n.lhsIdx j κ 1).val = (κ ⟨0, by decide⟩).val := rfl
theorem rhs_qk_0 (j : S2048x512.Idx) (κ : dot_S2048x256_S256x512_S2048x512_1_0_0_1_n_n.contr.Idx) :
    (dot_S2048x256_S256x512_S2048x512_1_0_0_1_n_n.rhsIdx j κ 0).val = (κ ⟨0, by decide⟩).val := rfl
theorem rhs_qk_1 (j : S2048x512.Idx) (κ : dot_S2048x256_S256x512_S2048x512_1_0_0_1_n_n.contr.Idx) :
    (dot_S2048x256_S256x512_S2048x512_1_0_0_1_n_n.rhsIdx j κ 1).val = (j 1).val := rfl

/-- The product of a block of queries with the transposed block of keys, into the zero splat, read at `(r, j)`: the score
    of query row `r` against key row `j`. -/
theorem qk_apply (q : Mat 2048 256) (k : Mat 512 256) (h : S512x256.Transposes [1, 0] S256x512) (r : Fin 2048) (j : Fin 512) :
    matmul (F := Ideal) (φ₁ := .bf16) (φ₂ := .bf16) dot_S2048x256_S256x512_S2048x512_1_0_0_1_n_n none (toE2 q)
        (transpose (α := Ideal .bf16) S256x512 [1, 0] (toE2 k) h) (constant S2048x512 .f32 0x00000000#32) (ix2 r j)
      = ((score q k r j : ℝ) : EReal) := by
  refine (Ideal.matmul_constant_zero_apply (φ₁ := .bf16) (φ₂ := .bf16) _ none _ _ (ix2 r j)).trans ?_
  refine (Equiv.sum_comp (contrEquiv1 dot_S2048x256_S256x512_S2048x512_1_0_0_1_n_n 256 rfl rfl).symm _).symm.trans ?_
  unfold score
  rw [coe_sum]
  refine Finset.sum_congr rfl fun t _ => ?_
  have hl : dot_S2048x256_S256x512_S2048x512_1_0_0_1_n_n.lhsIdx (ix2 r j) ((contrEquiv1 dot_S2048x256_S256x512_S2048x512_1_0_0_1_n_n 256 rfl rfl).symm t) = ix2 r t :=
    Shape.idx_ext₂ (lhs_qk_0 _ _) ((lhs_qk_1 _ _).trans (contrEquiv1_symm_val dot_S2048x256_S256x512_S2048x512_1_0_0_1_n_n 256 rfl rfl t))
  have hr : dot_S2048x256_S256x512_S2048x512_1_0_0_1_n_n.rhsIdx (ix2 r j) ((contrEquiv1 dot_S2048x256_S256x512_S2048x512_1_0_0_1_n_n 256 rfl rfl).symm t) = ix2 t j :=
    Shape.idx_ext₂ ((rhs_qk_0 _ _).trans (contrEquiv1_symm_val dot_S2048x256_S256x512_S2048x512_1_0_0_1_n_n 256 rfl rfl t)) (rhs_qk_1 _ _)
  rw [hl, hr, transpose_ix2_apply, toE2_ix2, toE2_ix2, EReal.coe_mul]

theorem lhs_pv_0 (j : S2048x256.Idx) (κ : dot_S2048x512_S512x256_S2048x256_1_0_0_1_n_n.contr.Idx) :
    (dot_S2048x512_S512x256_S2048x256_1_0_0_1_n_n.lhsIdx j κ 0).val = (j 0).val := rfl
theorem lhs_pv_1 (j : S2048x256.Idx) (κ : dot_S2048x512_S512x256_S2048x256_1_0_0_1_n_n.contr.Idx) :
    (dot_S2048x512_S512x256_S2048x256_1_0_0_1_n_n.lhsIdx j κ 1).val = (κ ⟨0, by decide⟩).val := rfl
theorem rhs_pv_0 (j : S2048x256.Idx) (κ : dot_S2048x512_S512x256_S2048x256_1_0_0_1_n_n.contr.Idx) :
    (dot_S2048x512_S512x256_S2048x256_1_0_0_1_n_n.rhsIdx j κ 0).val = (κ ⟨0, by decide⟩).val := rfl
theorem rhs_pv_1 (j : S2048x256.Idx) (κ : dot_S2048x512_S512x256_S2048x256_1_0_0_1_n_n.contr.Idx) :
    (dot_S2048x512_S512x256_S2048x256_1_0_0_1_n_n.rhsIdx j κ 1).val = (j 1).val := rfl

/-- The product of a block of weights with a block of values, into the zero splat, read at `(r, c)`: the sum over the
    keys of the weight times the value. -/
theorem pv_apply (P : FVec Ideal S2048x512 .bf16) (v : Mat 512 256) (r : Fin 2048) (c : Fin 256) :
    matmul (F := Ideal) (φ₁ := .bf16) (φ₂ := .bf16) dot_S2048x512_S512x256_S2048x256_1_0_0_1_n_n none P (toE2 v) (constant S2048x256 .f32 0x00000000#32) (ix2 r c)
      = ∑ j : Fin 512, P (ix2 r j) * ((v j c : ℝ) : EReal) := by
  refine (Ideal.matmul_constant_zero_apply (φ₁ := .bf16) (φ₂ := .bf16) _ none _ _ (ix2 r c)).trans ?_
  refine (Equiv.sum_comp (contrEquiv1 dot_S2048x512_S512x256_S2048x256_1_0_0_1_n_n 512 rfl rfl).symm _).symm.trans ?_
  refine Finset.sum_congr rfl fun t _ => ?_
  have hl : dot_S2048x512_S512x256_S2048x256_1_0_0_1_n_n.lhsIdx (ix2 r c) ((contrEquiv1 dot_S2048x512_S512x256_S2048x256_1_0_0_1_n_n 512 rfl rfl).symm t) = ix2 r t :=
    Shape.idx_ext₂ (lhs_pv_0 _ _) ((lhs_pv_1 _ _).trans (contrEquiv1_symm_val dot_S2048x512_S512x256_S2048x256_1_0_0_1_n_n 512 rfl rfl t))
  have hr : dot_S2048x512_S512x256_S2048x256_1_0_0_1_n_n.rhsIdx (ix2 r c) ((contrEquiv1 dot_S2048x512_S512x256_S2048x256_1_0_0_1_n_n 512 rfl rfl).symm t) = ix2 t c :=
    Shape.idx_ext₂ ((rhs_pv_0 _ _).trans (contrEquiv1_symm_val dot_S2048x512_S512x256_S2048x256_1_0_0_1_n_n 512 rfl rfl t)) (rhs_pv_1 _ _)
  rw [hl, hr, toE2_ix2]

end Cert.KernelIdeal.FlashLib
-- ==== Proof.Val.FlashPay.lean ====
/-
  The arithmetic of one step of the running softmax, and of its reset and stored values, on REAL arrays: for a block of
  queries q, a block of keys k and of values v, the running maximum mm, the running sum l and the accumulator acc, each
  value the step computes is the reading of a real array — the reset values (one real number, 0, 0); the new maximum
  (some real array m'; which one never matters: the ratio of accumulator to sum does not depend on it); the new sum
  exp(mm − m')·l + Σⱼ exp(sᵢⱼ − m'); the new accumulator exp(mm − m')·acc + Σⱼ exp(sᵢⱼ − m')·vⱼ, with s the scores q·kᵀ.
-/
import proofs.«422171_j68341519614500_3_alg».proof.Proof.Gen.KernelIdeal.Skeleton
import proofs.«422171_j68341519614500_3_alg».proof.Proof.Val.RealSpec
import proofs.«422171_j68341519614500_3_alg».proof.Proof.Val.Consts
import proofs.«422171_j68341519614500_3_alg».proof.Proof.Val.FlashLib

noncomputable section

open scoped BigOperators

namespace Cert.KernelIdeal.Val

open Idealize.ShloMosaic Idealize.ShloMosaic.ValueIdx
open Cert.KernelIdeal Cert.KernelIdeal.Gen Cert.RealSpec Cert.KernelIdeal.FlashLib

/-! ## The reset values -/

/-- The running maximum starts from one real number everywhere. -/
theorem k1_pay4_coe : ∃ r : ℝ, k1_pay4 (F := Ideal) = toE2 (fun _ _ => r) := by
  obtain ⟨r, hr⟩ := Cert.Consts.ofBits_negbig
  refine ⟨r, ext2 fun p q => ?_⟩
  unfold k1_pay4
  simp only [shapeCast_self, broadcast_apply, toE2_ix2, scalar_ofBits]
  exact hr

/-- The running sum starts from zero. -/
theorem k1_pay5_coe : k1_pay5 (F := Ideal) = toE2 (fun _ _ => (0 : ℝ)) := by
  refine ext2 fun p q => ?_
  unfold k1_pay5
  simp only [shapeCast_self, broadcast_apply, toE2_ix2, scalar_ofBits]
  exact Cert.Consts.ofBits_zero

/-- The accumulator starts from zero. -/
theorem k1_pay6_coe : k1_pay6 (F := Ideal) = toE2 (fun _ _ => (0 : ℝ)) := by
  refine ext2 fun p q => ?_
  unfold k1_pay6
  simp only [shapeCast_self, broadcast_apply, toE2_ix2, scalar_ofBits]
  exact Cert.Consts.ofBits_zero

/-! ## The values as stored: casts to the same shape -/

theorem k1_pay1_coe (x : Mat 2048 256) : k1_pay1 (F := Ideal) (toE2 x) = toE2 x := by
  unfold k1_pay1
  exact shapeCast_self _ _

theorem k1_pay2_coe (x : Mat 2048 1) : k1_pay2 (F := Ideal) (toE2 x) = toE2 x := by
  unfold k1_pay2
  exact shapeCast_self _ _

/-! ## One step of the running softmax -/

variable (q : Mat 2048 256) (k v : Mat 512 256) (mm l : Mat 2048 1) (acc res : Mat 2048 256) (γ β : Vc 256)

/-- The score block at `(r, j)`. -/
theorem k1_pay7_apply (r : Fin 2048) (j : Fin 512) :
    k1_pay7 (F := Ideal) (toE2 q) (toE2 k) (ix2 r j) = ((score q k r j : ℝ) : EReal) := by
  unfold k1_pay7
  simp only [shapeCast_self]
  exact qk_apply q k _ r j

/-- The new running maximum at row `r`: the old one against the fold of `max` from ⊥ over the row's scores. -/
theorem k1_pay8_apply (r : Fin 2048) (c : Fin 1) :
    k1_pay8 (F := Ideal) (toE2 q) (toE2 k) (toE2 mm) (ix2 r c)
      = max ((mm r c : ℝ) : EReal) ((Finset.univ : Finset (Fin 512)).fold max ⊥ (fun j => ((score q k r j : ℝ) : EReal))) := by
  unfold k1_pay8
  refine (maximumf_apply _ _ _).trans (congrArg₂ max (toE2_ix2 mm r c) ?_)
  refine (shapeCast_a_a1_apply _ _ r c).trans ((rowmax_apply _ _ _ _ r).trans ?_)
  exact congrArg (fun g => (Finset.univ : Finset (Fin 512)).fold max ⊥ g) (funext fun j => k1_pay7_apply q k r j)

/-- The new running maximum is a real array. -/
theorem k1_pay8_coe : ∃ m' : Mat 2048 1, k1_pay8 (F := Ideal) (toE2 q) (toE2 k) (toE2 mm) = toE2 m' := by
  have h : ∀ (r : Fin 2048) (c : Fin 1), ∃ z : ℝ, k1_pay8 (F := Ideal) (toE2 q) (toE2 k) (toE2 mm) (ix2 r c) = (z : EReal) :=
    fun r c => by
      rw [k1_pay8_apply]
      exact max_coe_real _ _ (fold_max_ne_top _ _ _ (by simp) (fun j => EReal.coe_ne_top _))
  choose m' hm' using h
  exact ⟨m', ext2 fun p c => (hm' p c).trans (toE2_ix2 m' p c).symm⟩

variable (m' : Mat 2048 1) (h8 : k1_pay8 (F := Ideal) (toE2 q) (toE2 k) (toE2 mm) = toE2 m')
include h8

/-- The rescaling factor of the old sum and accumulator at row `r`. -/
theorem k1_pay9_apply (r : Fin 2048) (c : Fin 1) :
    k1_pay9 (F := Ideal) (toE2 q) (toE2 k) (toE2 mm) (ix2 r c) = ((Real.exp (mm r c - m' r c) : ℝ) : EReal) := by
  unfold k1_pay9
  rw [h8]
  refine (exp_apply _ _).trans ((congrArg Ideal.exp ((subf_apply _ _ _).trans
    (congrArg₂ (· - ·) (toE2_ix2 mm r c) (toE2_ix2 m' r c)))).trans ?_)
  rw [← EReal.coe_sub, Ideal.exp_coe]

/-- The weight of key `j` for query row `r`. -/
theorem k1_pay10_apply (r : Fin 2048) (j : Fin 512) :
    k1_pay10 (F := Ideal) (toE2 q) (toE2 k) (toE2 mm) (ix2 r j) = ((Real.exp (score q k r j - m' r 0) : ℝ) : EReal) := by
  unfold k1_pay10
  rw [h8]
  refine (exp_apply _ _).trans ((congrArg Ideal.exp ((subf_apply _ _ _).trans
    (congrArg₂ (· - ·) (k1_pay7_apply q k r j) ((broadcastTo_a1_ab_apply _ _ r j).trans (toE2_ix2 m' r 0))))).trans ?_)
  rw [← EReal.coe_sub, Ideal.exp_coe]

/-- The new running sum. -/
theorem k1_pay11_coe :
    k1_pay11 (F := Ideal) (toE2 q) (toE2 k) (toE2 mm) (toE2 l)
      = toE2 (fun r _ => Real.exp (mm r 0 - m' r 0) * l r 0 + ∑ j, Real.exp (score q k r j - m' r 0)) := by
  refine ext2 fun r c => ?_
  obtain rfl : c = 0 := Subsingleton.elim _ _
  unfold k1_pay11
  refine (congrFun (shapeCast_self _ _) _).trans ((addf_apply _ _ _).trans ((congrArg₂ (· + ·)
    ((mulf_apply _ _ _).trans (congrArg₂ (· * ·) (k1_pay9_apply q k mm m' h8 r 0) (toE2_ix2 l r 0)))
    ((shapeCast_a_a1_apply _ _ r 0).trans ((rowsum_apply _ _ _ _ r).trans
      (Finset.sum_congr rfl fun j _ => k1_pay10_apply q k mm m' h8 r j)))).trans ?_))
  rw [toE2_ix2, EReal.coe_add, EReal.coe_mul, coe_sum]

/-- The new accumulator. -/
theorem k1_pay12_coe :
    k1_pay12 (F := Ideal) (toE2 q) (toE2 k) (toE2 v) (toE2 mm) (toE2 acc)
      = toE2 (fun r c => Real.exp (mm r 0 - m' r 0) * acc r c + ∑ j, Real.exp (score q k r j - m' r 0) * v j c) := by
  refine ext2 fun r c => ?_
  have hmat : ∀ (P : FVec Ideal S2048x512 .bf16) (_ : ∀ j, P (ix2 r j) = ((Real.exp (score q k r j - m' r 0) : ℝ) : EReal))
      (W : FVec Ideal S512x256 .bf16) (_ : W = toE2 v),
      matmul (F := Ideal) (φ₁ := .bf16) (φ₂ := .bf16) dot_S2048x512_S512x256_S2048x256_1_0_0_1_n_n none P W (constant S2048x256 .f32 0x00000000#32) (ix2 r c)
        = ∑ j : Fin 512, ((Real.exp (score q k r j - m' r 0) : ℝ) : EReal) * ((v j c : ℝ) : EReal) := by
    intro P hP W hW
    subst hW
    exact (pv_apply P v r c).trans (Finset.sum_congr rfl fun j _ => by rw [hP j])
  unfold k1_pay12
  refine (addf_apply _ _ _).trans ((congrArg₂ (· + ·)
    ((mulf_apply _ _ _).trans (congrArg₂ (· * ·)
      ((broadcastTo_a1_ab_apply _ _ r c).trans (k1_pay9_apply q k mm m' h8 r 0)) (toE2_ix2 acc r c)))
    (hmat _ ?_ _ ?_)).trans ?_)
  · intro j
    exact (truncf_apply (φ := .f32) (ψ := .bf16) (k1_pay10 (F := Ideal) (toE2 q) (toE2 k) (toE2 mm)) _ (ix2 r j)).trans
      (k1_pay10_apply q k mm m' h8 r j)
  · exact shapeCast_self _ _
  · rw [toE2_ix2, EReal.coe_add, EReal.coe_mul, coe_sum]
    simp only [EReal.coe_mul]

end Cert.KernelIdeal.Val

end
-- ==== Proof.Val.V4.lean ====
import proofs.«422171_j68341519614500_3_alg».proof.Proof.KI.A4
import proofs.«422171_j68341519614500_3_alg».proof.Proof.Val.RealSpec
import proofs.«422171_j68341519614500_3_alg».proof.Proof.Val.Consts
import Idealize.ShloMosaic.Lib.Pipeline.Value
import Idealize.ShloMosaic.Lib.ValueLayout
import Idealize.ShloMosaic.Lib.ValueIdx
import Idealize.ShloMosaic.PureOps.Ideal.Laws

/-! # Region 4 (the MLP + layer-norm call): its value at the ideal instance

On real input arrays the fifth call's output array is the real function `RealSpec.mlpLN` of them: first the body's
payload on real blocks, operation by operation (every buffer holds real numbers, so each operation of extended reals
is the same operation of reals, the coercion pushed outward); then, rows being independent, each grid point's block of
the output is the same rows of the function of the whole arrays, and the blocks cover the array. -/

noncomputable section

open scoped BigOperators

namespace Cert.KernelIdeal.Val

open Idealize.ShloMosaic Idealize.ShloMosaic.TcCoe Idealize.ShloMosaic.ValueIdx
open Cert.RealSpec Cert.KernelIdeal Cert.KernelIdeal.Gen

open Cert.KernelIdeal.Hand

/-! ## Real arrays read as arrays of extended reals -/

/-- A real vector read as a one-column array. -/
def toEc {a : ℕ} (x : Vc a) : (⟨2, ![a, 1]⟩ : Shape).Idx → EReal := fun i => ((x (i 0) : ℝ) : EReal)

/-- The coercion of a finite sum of reals is the sum of the coercions. -/
theorem coe_sum4 {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The pointwise operations on real arrays -/

theorem addf_toE2 {a b : ℕ} (x y : Mat a b) :
    addf (F := Ideal) (φ := .f32) (toE2 x) (toE2 y) = toE2 fun i j => x i j + y i j :=
  funext fun _ => (EReal.coe_add _ _).symm

theorem subf_toE2 {a b : ℕ} (x y : Mat a b) :
    subf (F := Ideal) (φ := .f32) (toE2 x) (toE2 y) = toE2 fun i j => x i j - y i j :=
  funext fun _ => (EReal.coe_sub _ _).symm

theorem mulf_toE2 {a b : ℕ} (x y : Mat a b) :
    mulf (F := Ideal) (φ := .f32) (toE2 x) (toE2 y) = toE2 fun i j => x i j * y i j :=
  funext fun _ => (EReal.coe_mul _ _).symm

/-- The rectifier: the maximum with the zero word. -/
theorem relu_toE2 {a b : ℕ} (x : Mat a b) :
    maximumf (F := Ideal) (φ := .f32) (toE2 x) (broadcast ⟨2, ![a, b]⟩ (Scalar.ofBits (F := Ideal) .f32 0x00000000#32))
      = toE2 fun i j => max (x i j) 0 :=
  funext fun i => by
    show max ((x (i 0) (i 1) : ℝ) : EReal) (Ideal.ofBits .f32 0x00000000#32) = ((max (x (i 0) (i 1)) 0 : ℝ) : EReal)
    rw [Consts.ofBits_zero, ← EReal.coe_zero]
    exact (EReal.coe_strictMono.monotone.map_max).symm

/-- A column divided by the word of 256. -/
theorem divN_toEc {a : ℕ} (x : Vc a) :
    divf (F := Ideal) (φ := .f32) (toEc x) (broadcast ⟨2, ![a, 1]⟩ (Scalar.ofBits (F := Ideal) .f32 0x43800000#32))
      = toEc fun i => x i / cN :=
  funext fun i => by
    show Ideal.div ((x (i 0) : ℝ) : EReal) (Ideal.ofBits .f32 0x43800000#32) = ((x (i 0) / cN : ℝ) : EReal)
    rw [Consts.ofBits_256, Ideal.div_coe (by norm_num : (cN : ℝ) ≠ 0), ← EReal.coe_mul, mul_one_div]

/-- A column plus the word of ε. -/
theorem addEps_toEc {a : ℕ} (x : Vc a) :
    addf (F := Ideal) (φ := .f32) (toEc x) (broadcast ⟨2, ![a, 1]⟩ (Scalar.ofBits (F := Ideal) .f32 0x3727C5AC#32))
      = toEc fun i => x i + cEps :=
  funext fun i => by
    show ((x (i 0) : ℝ) : EReal) + Ideal.ofBits .f32 0x3727C5AC#32 = ((x (i 0) + cEps : ℝ) : EReal)
    rw [Consts.ofBits_eps, ← EReal.coe_add]

/-- The reciprocal square root of a column of positive reals. -/
theorem rsqrt_toEc {a : ℕ} (x : Vc a) (hx : ∀ i, 0 < x i) :
    rsqrt (F := Ideal) (φ := .f32) (toEc x) = toEc fun i => (Real.sqrt (x i))⁻¹ :=
  funext fun i => by
    show Ideal.rsqrt ((x (i 0) : ℝ) : EReal) = (((Real.sqrt (x (i 0)))⁻¹ : ℝ) : EReal)
    rw [Ideal.rsqrt_coe, if_neg (not_lt.mpr (hx (i 0)).le), if_neg (hx (i 0)).ne']

/-! ## The layout operations on real arrays -/

/-- A shape cast to the same shape. -/
theorem cast_self_toE2 {a b : ℕ} (x : Mat a b) (h : (⟨2, ![a, b]⟩ : Shape).ShapeCasts ⟨2, ![a, b]⟩) :
    shapeCast ⟨2, ![a, b]⟩ (toE2 x) h = toE2 x := shapeCast_self _ _

/-- A vector cast to one row and broadcast over the rows: every row is the vector. -/
theorem rowBias_eq {a b : ℕ} (v : Vc b) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ (toE1 v) h1) h2 = toE2 fun (_ : Fin a) j => v j := by
  funext i
  obtain ⟨p, q, rfl⟩ : ∃ (p : Fin a) (q : Fin b), i = ix2 p q := ⟨i 0, i 1, eq_ix2 i⟩
  rw [broadcastTo_1b_ab_apply, shapeCast_a_1a_apply]
  rfl

/-- A vector cast to one column. -/
theorem castCol_eq {a : ℕ} (v : Vc a) (h : (⟨1, ![a]⟩ : Shape).ShapeCasts ⟨2, ![a, 1]⟩) :
    shapeCast ⟨2, ![a, 1]⟩ (toE1 v) h = toEc v := by
  funext i
  obtain ⟨p, u, rfl⟩ : ∃ (p : Fin a) (u : Fin 1), i = ix2 p u := ⟨i 0, i 1, eq_ix2 i⟩
  refine shapeCast_apply (toE1 v) h (ix2 p u) (ix1 p) ?_
  rw [Shape.rowMajor_val_two, Shape.rowMajor_val_one]
  show p.val = p.val * 1 + u.val
  have hu : u.val = 0 := by omega
  omega

/-- A column broadcast over the columns: every column is the vector. -/
theorem bcastCol_eq {a b : ℕ} (v : Vc a) (h : (⟨2, ![a, 1]⟩ : Shape).Broadcasts ⟨2, ![a, b]⟩) :
    broadcastTo ⟨2, ![a, b]⟩ (toEc v) h = toE2 fun i (_ : Fin b) => v i := by
  funext i
  obtain ⟨p, q, rfl⟩ : ∃ (p : Fin a) (q : Fin b), i = ix2 p q := ⟨i 0, i 1, eq_ix2 i⟩
  refine broadcastTo_apply (toEc v) h (ix2 p q) (ix2 p (0 : Fin 1)) fun ax => ?_
  match ax with
  | ⟨0, _⟩ =>
    show p.val = if a = 1 then 0 else p.val
    split
    · have := p.isLt; omega
    · rfl
  | ⟨1, _⟩ => rfl

/-- The sum along the rows: one real sum per row. -/
theorem rowSum_eq {a b : ℕ} (A : Mat a b) (h : (⟨2, ![a, b]⟩ : Shape).Reduces [(1 : Fin 2)] ⟨1, ![a]⟩)
    (hφ : FKind.Formats .f32) (hacc : (0x00000000#32 : BitVec 32) = 0x00000000#32) :
    multiReduction (F := Ideal) .add [(1 : Fin 2)] ⟨1, ![a]⟩ (toE2 A) 0x00000000#32 h hφ hacc = toE1 fun i => ∑ j, A i j := by
  funext r
  obtain ⟨p, rfl⟩ : ∃ p : Fin a, r = ix1 p := ⟨r 0, eq_ix1 r⟩
  refine (Ideal.multiReduction_add_single (toE2 A) 0x00000000#32 h hφ hacc (ix1 p)).trans ?_
  rw [toE1_ix1, coe_sum4]
  refine Finset.sum_congr rfl fun k _ => ?_
  have hl : h.lift (ix1 p) k = ix2 p k := funext fun c => Fin.ext (by
    match c with
    | ⟨0, _⟩ => rfl
    | ⟨1, _⟩ => rfl)
  rw [hl]
  rfl

/-! ## The two matrix products -/

/-! ### The product [2048,256] · [256,128] -/

theorem lhs_mmA_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl

theorem lhs_mmA_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q

theorem rhs_mmA_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q

theorem rhs_mmA_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The matrix unit's product of two real arrays (the narrowing to the 16-bit format changes nothing at the ideal
    values), into the zero accumulator: the real matrix product. -/
theorem mmA_eq (x : Mat 2048 256) (W : Mat 256 128) :
    matmul (F := Ideal) dot_S2048x256_S256x128_S2048x128_1_0_0_1_n_n none
        (truncf .bf16 (toE2 x : FVec Ideal S2048x256 .f32) bitsLt_bf16_f32)
        (truncf .bf16 (toE2 W : FVec Ideal S256x128 .f32) bitsLt_bf16_f32)
        (constant (F := Ideal) S2048x128 .f32 0x00000000#32)
      = toE2 fun i j => ∑ t, x i t * W t j := by
  funext i
  obtain ⟨p, q, rfl⟩ : ∃ (p : Fin 2048) (q : Fin 128), i = ix2 p q := ⟨i 0, i 1, eq_ix2 i⟩
  refine (Ideal.matmul_constant_zero_apply dot_S2048x256_S256x128_S2048x128_1_0_0_1_n_n none _ _ (ix2 p q)).trans ?_
  rw [← Equiv.sum_comp (contrEquiv1 dot_S2048x256_S256x128_S2048x128_1_0_0_1_n_n 256 rfl rfl).symm, toE2_ix2, coe_sum4]
  refine Finset.sum_congr rfl fun t _ => ?_
  have hk := contrEquiv1_symm_val dot_S2048x256_S256x128_S2048x128_1_0_0_1_n_n 256 rfl rfl t
  have el : dot_S2048x256_S256x128_S2048x128_1_0_0_1_n_n.lhsIdx (ix2 p q) ((contrEquiv1 dot_S2048x256_S256x128_S2048x128_1_0_0_1_n_n 256 rfl rfl).symm t) = ix2 p t := funext fun a => Fin.ext (by
    match a with
    | ⟨0, _⟩ => exact lhs_mmA_0 _ _
    | ⟨1, _⟩ => exact (lhs_mmA_1 _ _).trans hk)
  have er : dot_S2048x256_S256x128_S2048x128_1_0_0_1_n_n.rhsIdx (ix2 p q) ((contrEquiv1 dot_S2048x256_S256x128_S2048x128_1_0_0_1_n_n 256 rfl rfl).symm t) = ix2 t q := funext fun a => Fin.ext (by
    match a with
    | ⟨0, _⟩ => exact (rhs_mmA_0 _ _).trans hk
    | ⟨1, _⟩ => exact rhs_mmA_1 _ _)
  rw [el, er]
  exact (EReal.coe_mul _ _).symm

/-! ### The product [2048,128] · [128,256] -/

theorem lhs_mmB_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl

theorem lhs_mmB_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q

theorem rhs_mmB_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q

theorem rhs_mmB_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- The matrix unit's product of two real arrays (the narrowing to the 16-bit format changes nothing at the ideal
    values), into the zero accumulator: the real matrix product. -/
theorem mmB_eq (x : Mat 2048 128) (W : Mat 128 256) :
    matmul (F := Ideal) dot_S2048x128_S128x256_S2048x256_1_0_0_1_n_n none
        (truncf .bf16 (toE2 x : FVec Ideal S2048x128 .f32) bitsLt_bf16_f32)
        (truncf .bf16 (toE2 W : FVec Ideal S128x256 .f32) bitsLt_bf16_f32)
        (constant (F := Ideal) S2048x256 .f32 0x00000000#32)
      = toE2 fun i j => ∑ t, x i t * W t j := by
  funext i
  obtain ⟨p, q, rfl⟩ : ∃ (p : Fin 2048) (q : Fin 256), i = ix2 p q := ⟨i 0, i 1, eq_ix2 i⟩
  refine (Ideal.matmul_constant_zero_apply dot_S2048x128_S128x256_S2048x256_1_0_0_1_n_n none _ _ (ix2 p q)).trans ?_
  rw [← Equiv.sum_comp (contrEquiv1 dot_S2048x128_S128x256_S2048x256_1_0_0_1_n_n 128 rfl rfl).symm, toE2_ix2, coe_sum4]
  refine Finset.sum_congr rfl fun t _ => ?_
  have hk := contrEquiv1_symm_val dot_S2048x128_S128x256_S2048x256_1_0_0_1_n_n 128 rfl rfl t
  have el : dot_S2048x128_S128x256_S2048x256_1_0_0_1_n_n.lhsIdx (ix2 p q) ((contrEquiv1 dot_S2048x128_S128x256_S2048x256_1_0_0_1_n_n 128 rfl rfl).symm t) = ix2 p t := funext fun a => Fin.ext (by
    match a with
    | ⟨0, _⟩ => exact lhs_mmB_0 _ _
    | ⟨1, _⟩ => exact (lhs_mmB_1 _ _).trans hk)
  have er : dot_S2048x128_S128x256_S2048x256_1_0_0_1_n_n.rhsIdx (ix2 p q) ((contrEquiv1 dot_S2048x128_S128x256_S2048x256_1_0_0_1_n_n 128 rfl rfl).symm t) = ix2 t q := funext fun a => Fin.ext (by
    match a with
    | ⟨0, _⟩ => exact (rhs_mmB_0 _ _).trans hk
    | ⟨1, _⟩ => exact rhs_mmB_1 _ _)
  rw [el, er]
  exact (EReal.coe_mul _ _).symm

/-! ## The payload on real blocks -/

/-- The body's stored value on real blocks is the real MLP block with its residual, layer-normalised. -/
theorem k4_pay_eq (xb : Mat 2048 256) (W1 : Mat 256 128) (b1 : Vc 128) (W2 : Mat 128 256) (b2 γ β : Vc 256) :
    k4_pay1 (F := Ideal) (k4_pay2 (F := Ideal) (toE2 xb) (toE2 W1) (toE2 W2) (toE1 b1) (toE1 b2) (toE1 γ)) (toE1 β)
      = toE2 (mlpLN cN cEps xb W1 b1 W2 b2 γ β) := by
  unfold k4_pay1 k4_pay2
  simp only [cast_self_toE2, mmA_eq, rowBias_eq, addf_toE2, relu_toE2, mmB_eq]
  rw [rowSum_eq]
  simp only [castCol_eq, divN_toEc, bcastCol_eq, subf_toE2, mulf_toE2]
  rw [rowSum_eq]
  simp only [castCol_eq, divN_toEc, addEps_toEc]
  rw [rsqrt_toEc]
  · simp only [bcastCol_eq, mulf_toE2, addf_toE2]
    congr 1
  · intro i
    exact add_pos_of_nonneg_of_pos (div_nonneg (Finset.sum_nonneg fun j _ => mul_self_nonneg _) (by norm_num)) cEps_pos

/-! ## From blocks to the array -/

section Array

variable (V : (c : Dev nD) → (b : Ref sig .tc) → Buf (Elt Ideal) ((c : Thread nD τ).loc b))

theorem hz4_2 : (![0, 0] : Fin 2 → Nat) = fun _ => 0 := funext fun a => by fin_cases a <;> rfl
theorem hz4_1 : (![0] : Fin 1 → Nat) = fun _ => 0 := funext fun a => by fin_cases a; rfl

/-- The printed index maps, decided over the grid: the activations' window and the output's move one block of rows
    per point, every other window stays on its whole array. -/
theorem idx_facts4 : ∀ t : Fin cfg4.N,
    win4_0.index t (0 : Fin 2) = t.val ∧ win4_0.index t (1 : Fin 2) = 0
    ∧ win4_7.index t (0 : Fin 2) = t.val ∧ win4_7.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0 ∧ win4_5.index t (0 : Fin 1) = 0 ∧ win4_6.index t (0 : Fin 1) = 0 :=
  (by decide +kernel : ∀ t : Fin grid4.N, _)

theorem lt4 (t : Fin cfg4.N) : t.val < 4 := lt_of_lt_of_eq t.isLt N_4

/-- The grid point of a number below four. -/
def ptOf4 (r : ℕ) (h : r < 4) : Fin cfg4.N := ⟨r, lt_of_lt_of_eq h N_4.symm⟩

/-- The rows of a real array that grid point `t` works on. -/
def rowBlk4 (X : Mat 8192 256) (t : Fin cfg4.N) : Mat 2048 256 :=
  fun i j => X ⟨2048 * t.val + i.val, by have := lt4 t; have := i.isLt; omega⟩ j

/-- Rows are independent: the function of a block of rows is the same rows of the function of the array. -/
theorem mlpLN_rows4 (X : Mat 8192 256) (t : Fin cfg4.N) (W1 : Mat 256 128) (b1 : Vc 128) (W2 : Mat 128 256) (b2 γ β : Vc 256)
    (p : Fin 2048) (q : Fin 256) :
    mlpLN cN cEps (rowBlk4 X t) W1 b1 W2 b2 γ β p q
      = mlpLN cN cEps X W1 b1 W2 b2 γ β ⟨2048 * t.val + p.val, by have := lt4 t; have := p.isLt; omega⟩ q := rfl

/-- The activations' block at point `t` is its rows of the array. -/
theorem iblk4_0_eq (c : Dev nD) (t : Fin cfg4.N) (X : Mat 8192 256)
    (hX : (V c main_v3 : S8192x256.Idx → Elt Ideal .f32) = toE2 X) :
    (iblk4 V c 0 t : Vec Ideal S2048x256 .f32) = toE2 (rowBlk4 X t) := by
  obtain ⟨e0, e1, -⟩ := idx_facts4 t
  funext y
  obtain ⟨p, q, rfl⟩ : ∃ (p : Fin 2048) (q : Fin 256), y = ix2 p q := ⟨y 0, y 1, eq_ix2 y⟩
  unfold iblk4
  rw [View.read_apply]
  show (V c main_v3 : S8192x256.Idx → Elt Ideal .f32) (((cfg4.win 0).blk t).view.emb (ix2 p q)) = toE2 (rowBlk4 X t) (ix2 p q)
  rw [hX]
  have e : ((cfg4.win 0).blk t).view.emb (ix2 p q)
      = ix2 (⟨2048 * t.val + p.val, by have := lt4 t; have := p.isLt; omega⟩ : Fin 8192) q := funext fun a => Fin.ext (by
    match a with
    | ⟨0, _⟩ => show win4_0.index t (0 : Fin 2) * 2048 + 1 * p.val = 2048 * t.val + p.val; omega
    | ⟨1, _⟩ => show win4_0.index t (1 : Fin 2) * 256 + 1 * q.val = q.val; omega)
  rw [e]
  rfl

/-- Window 1's block at every point is its whole array. -/
theorem iblk4_1_eq (c : Dev nD) (t : Fin cfg4.N) :
    (iblk4 V c 1 t : Vec Ideal S256x128 .f32) = (V c main_arg10 : S256x128.Idx → Elt Ideal .f32) := by
  obtain ⟨-, -, -, -, e0, e1, -⟩ := idx_facts4 t
  funext y
  unfold iblk4
  rw [View.read_apply]
  show (V c main_arg10 : S256x128.Idx → Elt Ideal .f32) (((cfg4.win 1).blk t).view.emb y) = (V c main_arg10 : S256x128.Idx → Elt Ideal .f32) y
  congr 1
  funext a
  apply Fin.ext
  match a with
    | ⟨0, _⟩ => show win4_1.index t (0 : Fin 2) * 256 + 1 * (y 0).val = (y 0).val; omega
    | ⟨1, _⟩ => show win4_1.index t (1 : Fin 2) * 128 + 1 * (y 1).val = (y 1).val; omega

/-- Window 2's block at every point is its whole array. -/
theorem iblk4_2_eq (c : Dev nD) (t : Fin cfg4.N) :
    (iblk4 V c 2 t : Vec Ideal S128 .f32) = (V c main_arg11 : S128.Idx → Elt Ideal .f32) := by
  obtain ⟨-, -, -, -, -, -, e0, -⟩ := idx_facts4 t
  funext y
  unfold iblk4
  rw [View.read_apply]
  show (V c main_arg11 : S128.Idx → Elt Ideal .f32) (((cfg4.win 2).blk t).view.emb y) = (V c main_arg11 : S128.Idx → Elt Ideal .f32) y
  congr 1
  funext a
  apply Fin.ext
  match a with
    | ⟨0, _⟩ => show win4_2.index t (0 : Fin 1) * 128 + 1 * (y 0).val = (y 0).val; omega

/-- Window 3's block at every point is its whole array. -/
theorem iblk4_3_eq (c : Dev nD) (t : Fin cfg4.N) :
    (iblk4 V c 3 t : Vec Ideal S128x256 .f32) = (V c main_arg12 : S128x256.Idx → Elt Ideal .f32) := by
  obtain ⟨-, -, -, -, -, -, -, e0, e1, -⟩ := idx_facts4 t
  funext y
  unfold iblk4
  rw [View.read_apply]
  show (V c main_arg12 : S128x256.Idx → Elt Ideal .f32) (((cfg4.win 3).blk t).view.emb y) = (V c main_arg12 : S128x256.Idx → Elt Ideal .f32) y
  congr 1
  funext a
  apply Fin.ext
  match a with
    | ⟨0, _⟩ => show win4_3.index t (0 : Fin 2) * 128 + 1 * (y 0).val = (y 0).val; omega
    | ⟨1, _⟩ => show win4_3.index t (1 : Fin 2) * 256 + 1 * (y 1).val = (y 1).val; omega

/-- Window 4's block at every point is its whole array. -/
theorem iblk4_4_eq (c : Dev nD) (t : Fin cfg4.N) :
    (iblk4 V c 4 t : Vec Ideal S256 .f32) = (V c main_arg13 : S256.Idx → Elt Ideal .f32) := by
  obtain ⟨-, -, -, -, -, -, -, -, -, e0, -⟩ := idx_facts4 t
  funext y
  unfold iblk4
  rw [View.read_apply]
  show (V c main_arg13 : S256.Idx → Elt Ideal .f32) (((cfg4.win 4).blk t).view.emb y) = (V c main_arg13 : S256.Idx → Elt Ideal .f32) y
  congr 1
  funext a
  apply Fin.ext
  match a with
    | ⟨0, _⟩ => show win4_4.index t (0 : Fin 1) * 256 + 1 * (y 0).val = (y 0).val; omega

/-- Window 5's block at every point is its whole array. -/
theorem iblk4_5_eq (c : Dev nD) (t : Fin cfg4.N) :
    (iblk4 V c 5 t : Vec Ideal S256 .f32) = (V c main_arg14 : S256.Idx → Elt Ideal .f32) := by
  obtain ⟨-, -, -, -, -, -, -, -, -, -, e0, -⟩ := idx_facts4 t
  funext y
  unfold iblk4
  rw [View.read_apply]
  show (V c main_arg14 : S256.Idx → Elt Ideal .f32) (((cfg4.win 5).blk t).view.emb y) = (V c main_arg14 : S256.Idx → Elt Ideal .f32) y
  congr 1
  funext a
  apply Fin.ext
  match a with
    | ⟨0, _⟩ => show win4_5.index t (0 : Fin 1) * 256 + 1 * (y 0).val = (y 0).val; omega

/-- Window 6's block at every point is its whole array. -/
theorem iblk4_6_eq (c : Dev nD) (t : Fin cfg4.N) :
    (iblk4 V c 6 t : Vec Ideal S256 .f32) = (V c main_arg15 : S256.Idx → Elt Ideal .f32) := by
  obtain ⟨-, -, -, -, -, -, -, -, -, -, -, e0⟩ := idx_facts4 t
  funext y
  unfold iblk4
  rw [View.read_apply]
  show (V c main_arg15 : S256.Idx → Elt Ideal .f32) (((cfg4.win 6).blk t).view.emb y) = (V c main_arg15 : S256.Idx → Elt Ideal .f32) y
  congr 1
  funext a
  apply Fin.ext
  match a with
    | ⟨0, _⟩ => show win4_6.index t (0 : Fin 1) * 256 + 1 * (y 0).val = (y 0).val; omega

/-- WHAT POINT `t` WRITES BACK is block `t` of the real function of the whole arrays. -/
theorem flushed4_7_eq (c : Dev nD) (t : Fin cfg4.N) (X : Mat 8192 256) (W1 : Mat 256 128) (b1 : Vc 128) (W2 : Mat 128 256) (b2 γ β : Vc 256)
    (hX : (V c main_v3 : S8192x256.Idx → Elt Ideal .f32) = toE2 X)
    (hW1 : (V c main_arg10 : S256x128.Idx → Elt Ideal .f32) = toE2 W1)
    (hb1 : (V c main_arg11 : S128.Idx → Elt Ideal .f32) = toE1 b1)
    (hW2 : (V c main_arg12 : S128x256.Idx → Elt Ideal .f32) = toE2 W2)
    (hb2 : (V c main_arg13 : S256.Idx → Elt Ideal .f32) = toE1 b2)
    (hγ : (V c main_arg14 : S256.Idx → Elt Ideal .f32) = toE1 γ)
    (hβ : (V c main_arg15 : S256.Idx → Elt Ideal .f32) = toE1 β) :
    (dat4 (F := Ideal) V c).flushed 7 t
      = ((cfg4.win 7).blk t).view.read (Elt Ideal) (toE2 (mlpLN cN cEps X W1 b1 W2 b2 γ β)) := by
  show (cfg4.win 7).cut (grid4.coords t) ((dat4 (F := Ideal) V c).after 7 t) = _
  rw [after4_7]
  unfold out4_7
  rw [View.canon_unit_zero hz4_2]
  simp only [View.ld_unit_zero (S := S2048x256) hz4_2, View.ld_unit_zero (S := S256x128) hz4_2, View.ld_unit_zero (S := S128x256) hz4_2,
    View.ld_unit_zero (S := S128) hz4_1, View.ld_unit_zero (S := S256) hz4_1]
  rw [iblk4_0_eq V c t X hX, iblk4_1_eq, iblk4_2_eq, iblk4_3_eq, iblk4_4_eq, iblk4_5_eq, iblk4_6_eq, hW1, hb1, hW2, hb2, hγ, hβ, k4_pay_eq]
  obtain ⟨-, -, e0, e1, -⟩ := idx_facts4 t
  funext y
  obtain ⟨p, q, rfl⟩ : ∃ (p : Fin 2048) (q : Fin 256), y = ix2 p q := ⟨y 0, y 1, eq_ix2 y⟩
  rw [View.read_apply]
  show toE2 (mlpLN cN cEps (rowBlk4 X t) W1 b1 W2 b2 γ β) (ix2 p q)
    = toE2 (mlpLN cN cEps X W1 b1 W2 b2 γ β) (((cfg4.win 7).blk t).view.emb (ix2 p q))
  have e : ((cfg4.win 7).blk t).view.emb (ix2 p q)
      = ix2 (⟨2048 * t.val + p.val, by have := lt4 t; have := p.isLt; omega⟩ : Fin 8192) q := funext fun a => Fin.ext (by
    match a with
    | ⟨0, _⟩ => show win4_7.index t (0 : Fin 2) * 2048 + 1 * p.val = 2048 * t.val + p.val; omega
    | ⟨1, _⟩ => show win4_7.index t (1 : Fin 2) * 256 + 1 * q.val = q.val; omega)
  rw [e, toE2_ix2, toE2_ix2, mlpLN_rows4]

/-- An index of the array is in point `t`'s block iff each coordinate is in the block's range on its axis. -/
theorem mem_blk4_7 (t : Fin cfg4.N) (i : S8192x256.Idx) :
    i ∈ ((cfg4.win 7).blk t).view.set ↔ ∀ a : Fin 2, win4_7.index t a * S2048x256.size a ≤ (i a).val ∧ (i a).val < win4_7.index t a * S2048x256.size a + S2048x256.size a := by
  show i ∈ ((View.whole main_v4).slice (win4_7.rect t)).set ↔ _
  rw [View.set_slice_whole, Rect.mem_set_unit]
  exact Iff.rfl

/-- Every row of the array is in the block of the point its number divided by 2048 names. -/
theorem covered4_7 (i : S8192x256.Idx) : ∃ t : Fin cfg4.N, (cfg4.win 7).flush t = true ∧ i ∈ ((cfg4.win 7).blk t).view.set := by
  have hi0 : (i 0).val < 8192 := (i 0).isLt
  have hi1 : (i 1).val < 256 := (i 1).isLt
  have hq : (i 0).val / 2048 < 4 := by omega
  refine ⟨ptOf4 ((i 0).val / 2048) hq, flush4_7 _, ?_⟩
  obtain ⟨-, -, e0, e1, -⟩ := idx_facts4 (ptOf4 ((i 0).val / 2048) hq)
  have e0' : win4_7.index (ptOf4 ((i 0).val / 2048) hq) (0 : Fin 2) = (i 0).val / 2048 := e0
  rw [mem_blk4_7]
  intro a
  match a with
  | ⟨0, _⟩ =>
    show win4_7.index (ptOf4 ((i 0).val / 2048) hq) (0 : Fin 2) * 2048 ≤ (i 0).val ∧ (i 0).val < win4_7.index (ptOf4 ((i 0).val / 2048) hq) (0 : Fin 2) * 2048 + 2048
    rw [e0']; omega
  | ⟨1, _⟩ =>
    show win4_7.index (ptOf4 ((i 0).val / 2048) hq) (1 : Fin 2) * 256 ≤ (i 1).val ∧ (i 1).val < win4_7.index (ptOf4 ((i 0).val / 2048) hq) (1 : Fin 2) * 256 + 256
    rw [e1]; omega

/-- THE OUTPUT ARRAY after the region: the real MLP block with its residual, layer-normalised, of the whole arrays. -/
theorem final4_7 (c : Dev nD) (X : Mat 8192 256) (W1 : Mat 256 128) (b1 : Vc 128) (W2 : Mat 128 256) (b2 γ β : Vc 256)
    (hX : (V c main_v3 : S8192x256.Idx → Elt Ideal .f32) = toE2 X)
    (hW1 : (V c main_arg10 : S256x128.Idx → Elt Ideal .f32) = toE2 W1)
    (hb1 : (V c main_arg11 : S128.Idx → Elt Ideal .f32) = toE1 b1)
    (hW2 : (V c main_arg12 : S128x256.Idx → Elt Ideal .f32) = toE2 W2)
    (hb2 : (V c main_arg13 : S256.Idx → Elt Ideal .f32) = toE1 b2)
    (hγ : (V c main_arg14 : S256.Idx → Elt Ideal .f32) = toE1 γ)
    (hβ : (V c main_arg15 : S256.Idx → Elt Ideal .f32) = toE1 β) :
    (dat4 (F := Ideal) V c).arrAt 7 cfg4.N = toE2 (mlpLN cN cEps X W1 b1 W2 b2 γ β) :=
  (dat4 (F := Ideal) V c).arrAt_eq_of_cover 7 (toE2 (mlpLN cN cEps X W1 b1 W2 b2 γ β))
    (fun t _ => flushed4_7_eq V c t X W1 b1 W2 b2 γ β hX hW1 hb1 hW2 hb2 hγ hβ) covered4_7

end Array

end Cert.KernelIdeal.Val

end
-- ==== Proof.Val.FlashEpi.lean ====
import proofs.«422171_j68341519614500_3_alg».proof.Proof.Val.V4
import proofs.«422171_j68341519614500_3_alg».proof.Proof.Gen.KernelIdeal.Skeleton
import proofs.«422171_j68341519614500_3_alg».proof.Proof.Val.RealSpec
import proofs.«422171_j68341519614500_3_alg».proof.Proof.Val.Consts

/-! # The attention kernel's closing step on real arrays

When the last block of keys has been folded in, the kernel divides the accumulated numerator by the accumulated
denominator (one real per row, never zero), adds the residual rows, and layer-normalises the result over its 256
columns. On real arrays every operation of extended reals is the same operation of reals, so the stored value is the
real layer normalisation of `acc / l + res`. -/

noncomputable section

open scoped BigOperators

namespace Cert.KernelIdeal.Val

open Idealize.ShloMosaic Idealize.ShloMosaic.TcCoe Idealize.ShloMosaic.ValueIdx
open Cert.RealSpec Cert.KernelIdeal Cert.KernelIdeal.Gen

/-- A real array of one column is the column of its entries. -/
theorem k1_toE2_col {a : ℕ} (l : Mat a 1) : toE2 l = toEc fun r => l r 0 := by
  funext i
  obtain ⟨p, u, rfl⟩ : ∃ (p : Fin a) (u : Fin 1), i = ix2 p u := ⟨i 0, i 1, eq_ix2 i⟩
  show ((l p u : ℝ) : EReal) = ((l p 0 : ℝ) : EReal)
  rw [Subsingleton.elim u 0]

/-- The quotient of two real arrays, the divisor nowhere zero. -/
theorem k1_divf_toE2 {a b : ℕ} (x y : Mat a b) (hy : ∀ i j, y i j ≠ 0) :
    divf (F := Ideal) (φ := .f32) (toE2 x) (toE2 y) = toE2 fun i j => x i j / y i j := by
  funext i
  obtain ⟨p, q, rfl⟩ : ∃ (p : Fin a) (q : Fin b), i = ix2 p q := ⟨i 0, i 1, eq_ix2 i⟩
  show Ideal.div ((x p q : ℝ) : EReal) ((y p q : ℝ) : EReal) = ((x p q / y p q : ℝ) : EReal)
  rw [Ideal.div_coe (hy p q), ← EReal.coe_mul, mul_one_div]

/-- The closing step's stored value on real arrays: the layer normalisation of numerator over denominator plus the
    residual. -/
theorem k1_pay3_coe (acc res : Mat 2048 256) (l : Mat 2048 1) (γ β : Vc 256) (hl : ∀ r, l r 0 ≠ 0) :
    k1_pay3 (F := Ideal) (toE2 acc) (toE2 l) (toE2 res) (toE1 γ) (toE1 β)
      = toE2 (lnorm cN cEps (fun r c => acc r c / l r 0 + res r c) γ β) := by
  unfold k1_pay3
  simp only [k1_toE2_col, bcastCol_eq, rowBias_eq]
  rw [k1_divf_toE2]
  rotate_left
  · exact fun i _ => hl i
  simp only [addf_toE2]
  rw [rowSum_eq]
  simp only [castCol_eq, divN_toEc, bcastCol_eq, subf_toE2, mulf_toE2]
  rw [rowSum_eq]
  simp only [castCol_eq, divN_toEc, addEps_toEc]
  rw [rsqrt_toEc]
  · simp only [bcastCol_eq, mulf_toE2, addf_toE2]
    congr 1
  · intro i
    exact add_pos_of_nonneg_of_pos (div_nonneg (Finset.sum_nonneg fun j _ => mul_self_nonneg _) (by norm_num)) cEps_pos

end Cert.KernelIdeal.Val

end
-- ==== Proof.Val.V1b.lean ====
/-
  Region 1 at the ideal instance, on real arrays: the input windows' blocks as blocks of rows of their arrays; the
  three carried scratch after each grid point — the running maximum some reals, the running sum and the accumulator
  the softmax denominator and numerator over the key blocks done, relative to those reals — by induction over the
  points; what the last key block of a query block stores into the output's buffer: the rows of the attention
  block with its residual, layer-normalised (a common shift of the exponents cancels in the quotient); and the
  output array after the region.
-/
import proofs.«422171_j68341519614500_3_alg».proof.Proof.Val.V1a
import proofs.«422171_j68341519614500_3_alg».proof.Proof.Val.V1
import proofs.«422171_j68341519614500_3_alg».proof.Proof.Val.V1i
import proofs.«422171_j68341519614500_3_alg».proof.Proof.Val.RealSpec
import proofs.«422171_j68341519614500_3_alg».proof.Proof.Val.Online
import proofs.«422171_j68341519614500_3_alg».proof.Proof.Val.FlashPay
import proofs.«422171_j68341519614500_3_alg».proof.Proof.Val.FlashEpi
import Idealize.ShloMosaic.Lib.ValueIdx
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.RealSpec

/-! ## Blocks of rows, and the partial sums over the key blocks done -/

/-- The grid has 64 points: 4 query blocks by 16 key blocks. -/
theorem N1q : cfg1.N = 64 := N_1

/-- The query block of point `t`. -/
def qi1 (t : Fin cfg1.N) : Fin 4 := ⟨t.val / 16, by have := t.isLt; have h := N1q; omega⟩
/-- The key block of point `t`. -/
def ki1 (t : Fin cfg1.N) : Fin 16 := ⟨t.val % 16, Nat.mod_lt _ (by decide)⟩

/-- Rows 2048·qi … 2048·qi + 2047 of a matrix of 8192 rows. -/
def qrows1 (G : Mat 8192 256) (qi : Fin 4) : Mat 2048 256 :=
  fun r k => G ⟨qi.val * 2048 + r.val, by have := qi.isLt; have := r.isLt; omega⟩ k
/-- Rows 512·ki … 512·ki + 511 of a matrix of 8192 rows. -/
def krows1 (G : Mat 8192 256) (ki : Fin 16) : Mat 512 256 :=
  fun r k => G ⟨ki.val * 512 + r.val, Cert.Online.key_lt ki.isLt r⟩ k

/-- The denominator over the first `kb` key blocks, relative to the reference points `M`. -/
def den1 (q : Mat 2048 256) (K : Mat 8192 256) (kb : ℕ) (M : Mat 2048 1) : Mat 2048 1 :=
  fun r _ => ∑ b : Fin 16, (if b.val < kb then ∑ j : Fin 512, Real.exp (score q K r ⟨b.val * 512 + j.val, Cert.Online.key_lt b.isLt j⟩ - M r 0) else 0)
/-- The numerator over the first `kb` key blocks, relative to the reference points `M`. -/
def num1 (q : Mat 2048 256) (K Vv : Mat 8192 256) (kb : ℕ) (M : Mat 2048 1) : Mat 2048 256 :=
  fun r c => ∑ b : Fin 16, (if b.val < kb then ∑ j : Fin 512, Real.exp (score q K r ⟨b.val * 512 + j.val, Cert.Online.key_lt b.isLt j⟩ - M r 0) * Vv ⟨b.val * 512 + j.val, Cert.Online.key_lt b.isLt j⟩ c else 0)

theorem den1_zero (q : Mat 2048 256) (K : Mat 8192 256) (M : Mat 2048 1) : den1 q K 0 M = fun _ _ => 0 := by
  funext r c; unfold den1; simp
theorem num1_zero (q : Mat 2048 256) (K Vv : Mat 8192 256) (M : Mat 2048 1) : num1 q K Vv 0 M = fun _ _ => 0 := by
  funext r c; unfold num1; simp

/-- The scores against a block of keys are the scores against those keys. -/
theorem score_krows1 (q : Mat 2048 256) (K : Mat 8192 256) (kb : Fin 16) (r : Fin 2048) (j : Fin 512) :
    score q (krows1 K kb) r j = score q K r ⟨kb.val * 512 + j.val, Cert.Online.key_lt kb.isLt j⟩ := rfl

/-- One more key block: the denominator rescaled to the new reference points plus the block's terms. -/
theorem den1_step (q : Mat 2048 256) (K : Mat 8192 256) (kb : Fin 16) (M m' : Mat 2048 1) :
    (fun (r : Fin 2048) (_ : Fin 1) => Real.exp (M r 0 - m' r 0) * den1 q K kb.val M r 0 + ∑ j : Fin 512, Real.exp (score q (krows1 K kb) r j - m' r 0))
      = den1 q K (kb.val + 1) m' := by
  funext r c
  unfold den1
  rw [Cert.Online.shift_sum_one (fun (b : Fin 16) (j : Fin 512) => score q K r ⟨b.val * 512 + j.val, Cert.Online.key_lt b.isLt j⟩) kb.val (M r 0) (m' r 0),
    Cert.Online.step (fun b : Fin 16 => ∑ j : Fin 512, Real.exp (score q K r ⟨b.val * 512 + j.val, Cert.Online.key_lt b.isLt j⟩ - m' r 0)) kb.val kb.isLt]
  rfl

/-- One more key block: the numerator likewise. -/
theorem num1_step (q : Mat 2048 256) (K Vv : Mat 8192 256) (kb : Fin 16) (M m' : Mat 2048 1) :
    (fun (r : Fin 2048) (c : Fin 256) => Real.exp (M r 0 - m' r 0) * num1 q K Vv kb.val M r c + ∑ j : Fin 512, Real.exp (score q (krows1 K kb) r j - m' r 0) * krows1 Vv kb j c)
      = num1 q K Vv (kb.val + 1) m' := by
  funext r c
  unfold num1
  rw [Cert.Online.shift_sum (fun (b : Fin 16) (j : Fin 512) => score q K r ⟨b.val * 512 + j.val, Cert.Online.key_lt b.isLt j⟩) (fun (b : Fin 16) (j : Fin 512) => Vv ⟨b.val * 512 + j.val, Cert.Online.key_lt b.isLt j⟩ c) kb.val (M r 0) (m' r 0),
    Cert.Online.step (fun b : Fin 16 => ∑ j : Fin 512, Real.exp (score q K r ⟨b.val * 512 + j.val, Cert.Online.key_lt b.isLt j⟩ - m' r 0) * Vv ⟨b.val * 512 + j.val, Cert.Online.key_lt b.isLt j⟩ c) kb.val kb.isLt]
  rfl

/-- After all 16 key blocks the denominator is positive. -/
theorem den1_all_pos (q : Mat 2048 256) (K : Mat 8192 256) (M : Mat 2048 1) (r : Fin 2048) : 0 < den1 q K 16 M r 0 := by
  unfold den1
  have e : ∀ b : Fin 16, (if b.val < 16 then ∑ j : Fin 512, Real.exp (score q K r ⟨b.val * 512 + j.val, Cert.Online.key_lt b.isLt j⟩ - M r 0) else 0)
      = ∑ j : Fin 512, Real.exp (score q K r ⟨b.val * 512 + j.val, Cert.Online.key_lt b.isLt j⟩ - M r 0) := fun b => if_pos b.isLt
  simp only [e]
  exact Cert.Online.den_pos (by decide) (by decide) (fun (b : Fin 16) (j : Fin 512) => score q K r ⟨b.val * 512 + j.val, Cert.Online.key_lt b.isLt j⟩) (M r 0)

/-- After all 16 key blocks numerator over denominator is the attention average, whatever the reference points. -/
theorem ratio1_all (q : Mat 2048 256) (K Vv : Mat 8192 256) (M : Mat 2048 1) (r : Fin 2048) (c : Fin 256) :
    num1 q K Vv 16 M r c / den1 q K 16 M r 0 = attn q K Vv r c := by
  unfold num1 den1
  have e1 : ∀ b : Fin 16, (if b.val < 16 then ∑ j : Fin 512, Real.exp (score q K r ⟨b.val * 512 + j.val, Cert.Online.key_lt b.isLt j⟩ - M r 0) else 0)
      = ∑ j : Fin 512, Real.exp (score q K r ⟨b.val * 512 + j.val, Cert.Online.key_lt b.isLt j⟩ - M r 0) := fun b => if_pos b.isLt
  have e2 : ∀ b : Fin 16, (if b.val < 16 then ∑ j : Fin 512, Real.exp (score q K r ⟨b.val * 512 + j.val, Cert.Online.key_lt b.isLt j⟩ - M r 0) * Vv ⟨b.val * 512 + j.val, Cert.Online.key_lt b.isLt j⟩ c else 0)
      = ∑ j : Fin 512, Real.exp (score q K r ⟨b.val * 512 + j.val, Cert.Online.key_lt b.isLt j⟩ - M r 0) * Vv ⟨b.val * 512 + j.val, Cert.Online.key_lt b.isLt j⟩ c := fun b => if_pos b.isLt
  simp only [e1, e2]
  exact Cert.Online.ratio_blocks (nb := 16) (bs := 512) (N := 8192) (by norm_num) (fun x => score q K r x) (fun x => Vv x c) (M r 0) (fun b j => Cert.Online.key_lt b.isLt j)

/-- The attention block of a block of query rows is the block of rows of the whole attention block: rows are independent. -/
theorem attnLN_qrows1 (Q K Vv Res : Mat 8192 256) (γ β : Vc 256) (qi : Fin 4) :
    lnorm cN cEps (fun r c => attn (qrows1 Q qi) K Vv r c + qrows1 Res qi r c) γ β = qrows1 (attnLN cN cEps Q K Vv Res γ β) qi := rfl

/-- A query block of rows in its two spellings. -/
theorem qrows1_eq_rowBlk1 (G : Mat 8192 256) (t : Fin cfg1.N) (h : t.val / 16 < 4) : qrows1 G (qi1 t) = rowBlk1 G (t.val / 16) h := by
  funext r k
  show G ⟨t.val / 16 * 2048 + r.val, _⟩ k = G ⟨2048 * (t.val / 16) + r.val, _⟩ k
  exact congrArg (fun i => G i k) (Fin.ext (by show t.val / 16 * 2048 + r.val = 2048 * (t.val / 16) + r.val; omega))

/-! ## The input windows' blocks read off their arrays -/

variable (V : (c : Dev nD) → (b : Ref sig .tc) → Buf (Elt Ideal) ((c : Thread nD τ).loc b)) (c : Dev nD)

/-- A matrix of 8192 rows read where a query block's index lands is the block of rows read at the index. -/
theorem toE2_qrows1_apply (G : Mat 8192 256) (qi : Fin 4) (y : S2048x256.Idx) (k : S8192x256.Idx)
    (hk0 : (k 0).val = qi.val * 2048 + (y 0).val) (hk1 : (k 1).val = (y 1).val) :
    toE2 G k = toE2 (qrows1 G qi) y := by
  show ((G (k 0) (k 1) : ℝ) : EReal) = ((G ⟨qi.val * 2048 + (y 0).val, _⟩ (y 1) : ℝ) : EReal)
  exact congrArg (fun r : ℝ => (r : EReal)) (congrArg₂ G (Fin.ext hk0) (Fin.ext hk1))

/-- The same for a key block of 512 rows. -/
theorem toE2_krows1_apply (G : Mat 8192 256) (ki : Fin 16) (y : S512x256.Idx) (k : S8192x256.Idx)
    (hk0 : (k 0).val = ki.val * 512 + (y 0).val) (hk1 : (k 1).val = (y 1).val) :
    toE2 G k = toE2 (krows1 G ki) y := by
  show ((G (k 0) (k 1) : ℝ) : EReal) = ((G ⟨ki.val * 512 + (y 0).val, _⟩ (y 1) : ℝ) : EReal)
  exact congrArg (fun r : ℝ => (r : EReal)) (congrArg₂ G (Fin.ext hk0) (Fin.ext hk1))

/-- Window 0's block index at point `t` is the query block `t / 16` along the rows and 0 along the columns. -/
theorem bidx1_0 : ∀ t : Fin cfg1.N, win1_0.index t (0 : Fin 2) = t.val / 16 ∧ win1_0.index t (1 : Fin 2) = 0 :=
  (by decide +kernel : ∀ t : Fin grid1.N, _)

theorem bread1_0 (G : Mat 8192 256) (t : Fin cfg1.N) :
    ((cfg1.win 0).blk t).view.read (Elt Ideal) (toE2 G : S8192x256.Idx → Elt Ideal .bf16) = (toE2 (qrows1 G (qi1 t)) : S2048x256.Idx → Elt Ideal .bf16) := by
  obtain ⟨e0, e1⟩ := bidx1_0 t
  funext y
  rw [View.read_apply]
  refine toE2_qrows1_apply G (qi1 t) y _ ?_ ?_
  · show win1_0.index t (0 : Fin 2) * 2048 + 1 * (y 0).val = t.val / 16 * 2048 + (y 0).val
    rw [e0]; omega
  · show win1_0.index t (1 : Fin 2) * 256 + 1 * (y 1).val = (y 1).val
    rw [e1]; omega

theorem biblk1_0 (G : Mat 8192 256) (hG : (V c main_v0_0 : S8192x256.Idx → Elt Ideal .bf16) = toE2 G) (t : Fin cfg1.N) :
    (iblk1 V c 0 t : Vec Ideal S2048x256 .bf16) = toE2 (qrows1 G (qi1 t)) :=
  (congrArg (((cfg1.win 0).blk t).view.read (Elt Ideal)) hG).trans (bread1_0 G t)

/-- Window 3's block index at point `t` is the query block `t / 16` along the rows and 0 along the columns. -/
theorem bidx1_3 : ∀ t : Fin cfg1.N, win1_3.index t (0 : Fin 2) = t.val / 16 ∧ win1_3.index t (1 : Fin 2) = 0 :=
  (by decide +kernel : ∀ t : Fin grid1.N, _)

theorem bread1_3 (G : Mat 8192 256) (t : Fin cfg1.N) :
    ((cfg1.win 3).blk t).view.read (Elt Ideal) (toE2 G : S8192x256.Idx → Elt Ideal .f32) = (toE2 (qrows1 G (qi1 t)) : S2048x256.Idx → Elt Ideal .f32) := by
  obtain ⟨e0, e1⟩ := bidx1_3 t
  funext y
  rw [View.read_apply]
  refine toE2_qrows1_apply G (qi1 t) y _ ?_ ?_
  · show win1_3.index t (0 : Fin 2) * 2048 + 1 * (y 0).val = t.val / 16 * 2048 + (y 0).val
    rw [e0]; omega
  · show win1_3.index t (1 : Fin 2) * 256 + 1 * (y 1).val = (y 1).val
    rw [e1]; omega

theorem biblk1_3 (G : Mat 8192 256) (hG : (V c main_arg0 : S8192x256.Idx → Elt Ideal .f32) = toE2 G) (t : Fin cfg1.N) :
    (iblk1 V c 3 t : Vec Ideal S2048x256 .f32) = toE2 (qrows1 G (qi1 t)) :=
  (congrArg (((cfg1.win 3).blk t).view.read (Elt Ideal)) hG).trans (bread1_3 G t)

/-- Window 1's block index at point `t` is the key block `t % 16` along the rows and 0 along the columns. -/
theorem bidx1_1 : ∀ t : Fin cfg1.N, win1_1.index t (0 : Fin 2) = t.val % 16 ∧ win1_1.index t (1 : Fin 2) = 0 :=
  (by decide +kernel : ∀ t : Fin grid1.N, _)

theorem bread1_1 (G : Mat 8192 256) (t : Fin cfg1.N) :
    ((cfg1.win 1).blk t).view.read (Elt Ideal) (toE2 G : S8192x256.Idx → Elt Ideal .bf16) = (toE2 (krows1 G (ki1 t)) : S512x256.Idx → Elt Ideal .bf16) := by
  obtain ⟨e0, e1⟩ := bidx1_1 t
  funext y
  rw [View.read_apply]
  refine toE2_krows1_apply G (ki1 t) y _ ?_ ?_
  · show win1_1.index t (0 : Fin 2) * 512 + 1 * (y 0).val = t.val % 16 * 512 + (y 0).val
    rw [e0]; omega
  · show win1_1.index t (1 : Fin 2) * 256 + 1 * (y 1).val = (y 1).val
    rw [e1]; omega

theorem biblk1_1 (G : Mat 8192 256) (hG : (V c main_v0_1 : S8192x256.Idx → Elt Ideal .bf16) = toE2 G) (t : Fin cfg1.N) :
    (iblk1 V c 1 t : Vec Ideal S512x256 .bf16) = toE2 (krows1 G (ki1 t)) :=
  (congrArg (((cfg1.win 1).blk t).view.read (Elt Ideal)) hG).trans (bread1_1 G t)

/-- Window 2's block index at point `t` is the key block `t % 16` along the rows and 0 along the columns. -/
theorem bidx1_2 : ∀ t : Fin cfg1.N, win1_2.index t (0 : Fin 2) = t.val % 16 ∧ win1_2.index t (1 : Fin 2) = 0 :=
  (by decide +kernel : ∀ t : Fin grid1.N, _)

theorem bread1_2 (G : Mat 8192 256) (t : Fin cfg1.N) :
    ((cfg1.win 2).blk t).view.read (Elt Ideal) (toE2 G : S8192x256.Idx → Elt Ideal .bf16) = (toE2 (krows1 G (ki1 t)) : S512x256.Idx → Elt Ideal .bf16) := by
  obtain ⟨e0, e1⟩ := bidx1_2 t
  funext y
  rw [View.read_apply]
  refine toE2_krows1_apply G (ki1 t) y _ ?_ ?_
  · show win1_2.index t (0 : Fin 2) * 512 + 1 * (y 0).val = t.val % 16 * 512 + (y 0).val
    rw [e0]; omega
  · show win1_2.index t (1 : Fin 2) * 256 + 1 * (y 1).val = (y 1).val
    rw [e1]; omega

theorem biblk1_2 (G : Mat 8192 256) (hG : (V c main_v0_2 : S8192x256.Idx → Elt Ideal .bf16) = toE2 G) (t : Fin cfg1.N) :
    (iblk1 V c 2 t : Vec Ideal S512x256 .bf16) = toE2 (krows1 G (ki1 t)) :=
  (congrArg (((cfg1.win 2).blk t).view.read (Elt Ideal)) hG).trans (bread1_2 G t)

/-- Window 4 is its whole array at every point. -/
theorem bidx1_4 : ∀ t : Fin cfg1.N, win1_4.index t (0 : Fin 1) = 0 :=
  (by decide +kernel : ∀ t : Fin grid1.N, _)

theorem bread1_4 (G : S256.Idx → Elt Ideal .f32) (t : Fin cfg1.N) :
    ((cfg1.win 4).blk t).view.read (Elt Ideal) G = G := by
  have e0 := bidx1_4 t
  funext y
  rw [View.read_apply]
  exact congrArg G (funext fun a => Fin.ext (by
    match a with
    | ⟨0, _⟩ => show win1_4.index t (0 : Fin 1) * 256 + 1 * (y 0).val = (y 0).val; rw [e0]; omega))

theorem biblk1_4 (b : Vc 256) (hb : (V c main_arg14 : S256.Idx → Elt Ideal .f32) = toE1 b) (t : Fin cfg1.N) :
    (iblk1 V c 4 t : Vec Ideal S256 .f32) = toE1 b :=
  (congrArg (((cfg1.win 4).blk t).view.read (Elt Ideal)) hb).trans (bread1_4 (toE1 b) t)

/-- Window 5 is its whole array at every point. -/
theorem bidx1_5 : ∀ t : Fin cfg1.N, win1_5.index t (0 : Fin 1) = 0 :=
  (by decide +kernel : ∀ t : Fin grid1.N, _)

theorem bread1_5 (G : S256.Idx → Elt Ideal .f32) (t : Fin cfg1.N) :
    ((cfg1.win 5).blk t).view.read (Elt Ideal) G = G := by
  have e0 := bidx1_5 t
  funext y
  rw [View.read_apply]
  exact congrArg G (funext fun a => Fin.ext (by
    match a with
    | ⟨0, _⟩ => show win1_5.index t (0 : Fin 1) * 256 + 1 * (y 0).val = (y 0).val; rw [e0]; omega))

theorem biblk1_5 (b : Vc 256) (hb : (V c main_arg15 : S256.Idx → Elt Ideal .f32) = toE1 b) (t : Fin cfg1.N) :
    (iblk1 V c 5 t : Vec Ideal S256 .f32) = toE1 b :=
  (congrArg (((cfg1.win 5).blk t).view.read (Elt Ideal)) hb).trans (bread1_5 (toE1 b) t)

/-! ## One key block more: the payloads on the partial sums -/

/-- The update of the three scratch by one key block, on real arrays: the new reference points are some reals, and
    the denominator and numerator over `kb` blocks become those over `kb + 1` blocks relative to them. -/
theorem flash_step1 (q : Mat 2048 256) (K Vv : Mat 8192 256) (kb : Fin 16) (M : Mat 2048 1) :
    ∃ m' : Mat 2048 1,
      k1_pay2 (F := Ideal) (k1_pay8 (toE2 q) (toE2 (krows1 K kb)) (toE2 M)) = toE2 m'
      ∧ k1_pay11 (F := Ideal) (toE2 q) (toE2 (krows1 K kb)) (toE2 M) (toE2 (den1 q K kb.val M)) = toE2 (den1 q K (kb.val + 1) m')
      ∧ k1_pay1 (F := Ideal) (k1_pay12 (toE2 q) (toE2 (krows1 K kb)) (toE2 (krows1 Vv kb)) (toE2 M) (toE2 (num1 q K Vv kb.val M))) = toE2 (num1 q K Vv (kb.val + 1) m') := by
  obtain ⟨m', h8⟩ := k1_pay8_coe (q := q) (k := krows1 K kb) (mm := M)
  refine ⟨m', ?_, ?_, ?_⟩
  · exact (congrArg (k1_pay2 (F := Ideal)) h8).trans (k1_pay2_coe m')
  · exact (k1_pay11_coe (q := q) (k := krows1 K kb) (mm := M) (l := den1 q K kb.val M) m' h8).trans (congrArg toE2 (den1_step q K kb M m'))
  · exact (congrArg (k1_pay1 (F := Ideal)) (k1_pay12_coe (q := q) (k := krows1 K kb) (v := krows1 Vv kb) (mm := M) (acc := num1 q K Vv kb.val M) m' h8)).trans
      ((k1_pay1_coe _).trans (congrArg toE2 (num1_step q K Vv kb M m')))

/-! ## The invariant of the carried scratch -/

/-- The query block of position `n`. -/
def qiN1 (n : ℕ) (hn : n < cfg1.N) : Fin 4 := ⟨n / 16, by have h := N1q; omega⟩
/-- The key block of position `n`. -/
def kiN1 (n : ℕ) : Fin 16 := ⟨n % 16, Nat.mod_lt _ (by decide)⟩

theorem qi1_eq (t : Fin cfg1.N) : qi1 t = qiN1 t.val t.isLt := rfl
theorem ki1_eq (t : Fin cfg1.N) : ki1 t = kiN1 t.val := rfl

section Ind1

variable (Q K Vv : Mat 8192 256)

/-- After position `n` (query block `n / 16`, key blocks `0 … n % 16` done) the running maximum holds some reals and
    the running sum and the accumulator hold the denominator and the numerator over those key blocks relative to them. -/
def Inv1 (n : ℕ) (hn : n < cfg1.N) : Prop :=
  ∃ M : Mat 2048 1, (outsAt1 (F := Ideal) V c n hn).2.1 = toE2 M
    ∧ (outsAt1 (F := Ideal) V c n hn).2.2.1 = toE2 (den1 (qrows1 Q (qiN1 n hn)) K (n % 16 + 1) M)
    ∧ (outsAt1 (F := Ideal) V c n hn).2.2.2 = toE2 (num1 (qrows1 Q (qiN1 n hn)) K Vv (n % 16 + 1) M)

variable (hQ : (V c main_v0_0 : S8192x256.Idx → Elt Ideal .bf16) = toE2 Q) (hK : (V c main_v0_1 : S8192x256.Idx → Elt Ideal .bf16) = toE2 K)
  (hV : (V c main_v0_2 : S8192x256.Idx → Elt Ideal .bf16) = toE2 Vv)
include hQ hK hV

/-- The invariant at the first key block of a query block: the scratch is reset (some real, 0, 0), then updated. -/
theorem inv1_A (t : Fin cfg1.N) (h0 : t.val % 16 = 0) : Inv1 V c Q K Vv t.val t.isLt := by
  have h1 : ¬t.val % 16 = 15 := by omega
  have e := scr1_A (F := Ideal) V c t h0 h1
  obtain ⟨r0, e4⟩ := k1_pay4_coe
  have hk0 : (ki1 t).val = 0 := h0
  obtain ⟨m', s0, s1, s2⟩ := flash_step1 (qrows1 Q (qi1 t)) K Vv (ki1 t) (fun _ _ => r0)
  rw [hk0, den1_zero] at s1
  rw [hk0, num1_zero] at s2
  rw [biblk1_0 V c Q hQ t, biblk1_1 V c K hK t, biblk1_2 V c Vv hV t, e4, k1_pay5_coe, k1_pay6_coe] at e
  unfold Inv1
  refine ⟨m', ?_, ?_, ?_⟩
  · exact (congrArg (fun p => p.1) e).trans s0
  · have := (congrArg (fun p => p.2.1) e).trans s1
    rw [show t.val % 16 + 1 = 0 + 1 from by omega]; exact this
  · have := (congrArg (fun p => p.2.2) e).trans s2
    rw [show t.val % 16 + 1 = 0 + 1 from by omega]; exact this

/-- The invariant at a later key block, from the invariant at the position before. -/
theorem inv1_BC (t : Fin cfg1.N) (h0 : ¬t.val % 16 = 0) (p : ℕ) (hp : p + 1 = t.val) (hp' : p < cfg1.N)
    (hI : Inv1 V c Q K Vv p hp') : Inv1 V c Q K Vv t.val t.isLt := by
  obtain ⟨M, i0, i1, i2⟩ := hI
  have hq : qiN1 p hp' = qi1 t := Fin.ext (by show p / 16 = t.val / 16; omega)
  have hk : p % 16 + 1 = (ki1 t).val := by show p % 16 + 1 = t.val % 16; omega
  rw [hq, hk] at i1 i2
  have ep : outsAt1 (F := Ideal) V c (t.val - 1) (Nat.lt_of_le_of_lt (Nat.sub_le _ _) t.isLt) = outsAt1 (F := Ideal) V c p hp' :=
    outsAt1_congr V c _ _ (by omega) _ _
  have e := scr1_BC (F := Ideal) V c t h0
  rw [ep, i0, i1, i2, biblk1_0 V c Q hQ t, biblk1_1 V c K hK t, biblk1_2 V c Vv hV t] at e
  obtain ⟨m', s0, s1, s2⟩ := flash_step1 (qrows1 Q (qi1 t)) K Vv (ki1 t) M
  unfold Inv1
  refine ⟨m', ?_, ?_, ?_⟩
  · exact (congrArg (fun p => p.1) e).trans s0
  · exact (congrArg (fun p => p.2.1) e).trans s1
  · exact (congrArg (fun p => p.2.2) e).trans s2

/-- The invariant at every position. -/
theorem inv1_all : ∀ (n : ℕ) (hn : n < cfg1.N), Inv1 V c Q K Vv n hn := by
  intro n
  induction n with
  | zero => intro hn; exact inv1_A V c Q K Vv hQ hK hV ⟨0, hn⟩ (Nat.zero_mod _)
  | succ n ih =>
    intro hn
    by_cases h0 : (n + 1) % 16 = 0
    · exact inv1_A V c Q K Vv hQ hK hV ⟨n + 1, hn⟩ h0
    · exact inv1_BC V c Q K Vv hQ hK hV ⟨n + 1, hn⟩ h0 n rfl (Nat.lt_of_succ_lt hn) (ih _)

/-! ## What the last key block of a query block stores into the output's buffer -/

variable (Res : Mat 8192 256) (γ β : Vc 256)
variable (hR : (V c main_arg0 : S8192x256.Idx → Elt Ideal .f32) = toE2 Res) (hγ : (V c main_arg14 : S256.Idx → Elt Ideal .f32) = toE1 γ)
  (hβ : (V c main_arg15 : S256.Idx → Elt Ideal .f32) = toE1 β)
include hR hγ hβ

/-- At the last key block of query block `t / 16` the output's buffer gets rows 2048·(t/16) … of the attention block
    with its residual, layer-normalised. -/
theorem hfl1_6 (t : Fin cfg1.N) (h15 : t.val % 16 = 15) (h : t.val / 16 < 4) :
    (outsAt1 (F := Ideal) V c t.val t.isLt).1 = (toE2 (rowBlk1 (attnLN cN cEps Q K Vv Res γ β) (t.val / 16) h) : S2048x256.Idx → Elt Ideal .f32) := by
  have h0 : ¬t.val % 16 = 0 := by omega
  have hp' : t.val - 1 < cfg1.N := Nat.lt_of_le_of_lt (Nat.sub_le _ _) t.isLt
  obtain ⟨M, i0, i1, i2⟩ := inv1_all V c Q K Vv hQ hK hV (t.val - 1) hp'
  have hq : qiN1 (t.val - 1) hp' = qi1 t := Fin.ext (by show (t.val - 1) / 16 = t.val / 16; omega)
  have hk : (t.val - 1) % 16 + 1 = (ki1 t).val := by show (t.val - 1) % 16 + 1 = t.val % 16; omega
  rw [hq, hk] at i1 i2
  have e := out1_C (F := Ideal) V c t h0 h15
  rw [i0, i1, i2, biblk1_0 V c Q hQ t, biblk1_1 V c K hK t, biblk1_2 V c Vv hV t, biblk1_3 V c Res hR t, biblk1_4 V c γ hγ t, biblk1_5 V c β hβ t] at e
  obtain ⟨m', s0, s1, s2⟩ := flash_step1 (qrows1 Q (qi1 t)) K Vv (ki1 t) M
  have h16 : (ki1 t).val + 1 = 16 := by show t.val % 16 + 1 = 16; omega
  rw [h16] at s1 s2
  rw [s1, s2] at e
  rw [e, k1_pay3_coe (acc := num1 (qrows1 Q (qi1 t)) K Vv 16 m') (l := den1 (qrows1 Q (qi1 t)) K 16 m') (res := qrows1 Res (qi1 t)) (γ := γ) (β := β)
    (fun r => ne_of_gt (den1_all_pos (qrows1 Q (qi1 t)) K m' r))]
  have hr : (fun (r : Fin 2048) (c' : Fin 256) => num1 (qrows1 Q (qi1 t)) K Vv 16 m' r c' / den1 (qrows1 Q (qi1 t)) K 16 m' r 0 + qrows1 Res (qi1 t) r c')
      = fun r c' => attn (qrows1 Q (qi1 t)) K Vv r c' + qrows1 Res (qi1 t) r c' := by
    funext r c'; rw [ratio1_all]
  rw [hr, attnLN_qrows1, qrows1_eq_rowBlk1 _ t h]

end Ind1

/-! ## The array after the region -/

/-- The output array of region 1 after the region: the attention block of the whole arrays with its residual,
    layer-normalised. -/
theorem final1_6 (Q K Vv Res : Mat 8192 256) (γ β : Vc 256)
    (hQ : (V c main_v0_0 : S8192x256.Idx → Elt Ideal .bf16) = toE2 Q) (hK : (V c main_v0_1 : S8192x256.Idx → Elt Ideal .bf16) = toE2 K)
    (hV : (V c main_v0_2 : S8192x256.Idx → Elt Ideal .bf16) = toE2 Vv) (hR : (V c main_arg0 : S8192x256.Idx → Elt Ideal .f32) = toE2 Res)
    (hγ : (V c main_arg14 : S256.Idx → Elt Ideal .f32) = toE1 γ) (hβ : (V c main_arg15 : S256.Idx → Elt Ideal .f32) = toE1 β) :
    (dat1 (F := Ideal) V c).arrAt 6 cfg1.N = (toE2 (attnLN cN cEps Q K Vv Res γ β) : S8192x256.Idx → Elt Ideal .f32) :=
  final1_6_of_flushed V c (attnLN cN cEps Q K Vv Res γ β)
    (fun t h15 => hfl1_6 V c Q K Vv hQ hK hV Res γ β hR hγ hβ t h15 (blk1_lt t))

end Cert.KernelIdeal.Val

end
-- ==== Proof.Val.V2.lean ====
/-
  The value of region 2 (the shared projections) at the ideal instance: each of its three output arrays ends
  holding the projection x·W + b of real arrays, read as extended reals, when the arrays it reads hold real arrays.
  The payload of each store at an index (a matrix product into a zero accumulator plus a broadcast bias, the
  format changes the identity); each input window's block at a grid point as rows 2048·t … 2048·t + 2047 of its
  array; what each point writes back as the block of ONE whole-array function; the blocks cover the array.
-/
import proofs.«422171_j68341519614500_3_alg».proof.Proof.KI.A2
import proofs.«422171_j68341519614500_3_alg».proof.Proof.Val.RealSpec
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.RealSpec

/-! ## The matrix product at an index -/

theorem lhs_proj_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_proj_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_proj_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_proj_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The product of a [2048,256] by a [256,256] matrix into a zero accumulator, at row `r` and column `j`. -/
theorem matmul_at (a : FVec Ideal S2048x256 .bf16) (w : FVec Ideal S256x256 .bf16) (r : Fin 2048) (j : Fin 256) :
    matmul dot_S2048x256_S256x256_S2048x256_1_0_0_1_n_n none a w (constant (F := Ideal) S2048x256 .f32 0x00000000#32) (ix2 r j)
      = ∑ k : Fin 256, a (ix2 r k) * w (ix2 k j) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r j) ((contrEquiv1 dot_S2048x256_S256x256_S2048x256_1_0_0_1_n_n 256 rfl rfl).symm k) = ix2 r k := funext fun a => Fin.ext (by
    match a with
    | ⟨0, _⟩ => exact lhs_proj_0 _ _
    | ⟨1, _⟩ => exact (lhs_proj_1 _ _).trans hk)
  have er : dot_S2048x256_S256x256_S2048x256_1_0_0_1_n_n.rhsIdx (ix2 r j) ((contrEquiv1 dot_S2048x256_S256x256_S2048x256_1_0_0_1_n_n 256 rfl rfl).symm k) = ix2 k j := funext fun a => Fin.ext (by
    match a with
    | ⟨0, _⟩ => exact (rhs_proj_0 _ _).trans hk
    | ⟨1, _⟩ => exact rhs_proj_1 _ _)
  rw [el, er]

/-- The coercion of a finite real sum is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The bias, reshaped to one row and broadcast down the rows, at row `r` and column `j`. -/
theorem bias_at (b : Vc 256) (h : S256.ShapeCasts S1x256) (hb : S1x256.Broadcasts S2048x256) (r : Fin 2048) (j : Fin 256) :
    broadcastTo S2048x256 (shapeCast S1x256 (toE1 b : FVec Ideal S256 .f32) h) hb (ix2 r j) = ((b j : ℝ) : EReal) := by
  rw [broadcastTo_apply _ _ _ (ix2 (0 : Fin 1) j) (fun a => by match a with | ⟨0, _⟩ => rfl | ⟨1, _⟩ => rfl)]
  exact (shapeCast_addUnit_apply ![256] (toE1 b) h (ix2 (0 : Fin 1) j)).trans rfl

/-- The projection of real arrays, read as extended reals, from the product and the bias at an index. -/
theorem lin_at (x : Mat 2048 256) (W : Mat 256 256) (b : Vc 256) (r : Fin 2048) (j : Fin 256) :
    (∑ k : Fin 256, toE2 x (ix2 r k) * toE2 W (ix2 k j)) + ((b j : ℝ) : EReal) = ((lin x W b r j : ℝ) : EReal) := by
  unfold lin
  rw [EReal.coe_add, coe_sum]
  simp only [toE2_ix2, EReal.coe_mul]

/-! ## The payloads at an index -/

/-- The store into the first output window: x·W + b of the blocks loaded. -/
theorem pay2_eq (x : Mat 2048 256) (W : Mat 256 256) (b : Vc 256) :
    k2_pay2 (F := Ideal) (toE2 x) (toE2 W) (toE1 b) = toE2 (lin x W b) := by
  funext y
  obtain ⟨r, j, rfl⟩ : ∃ (r : Fin 2048) (j : Fin 256), y = ix2 r j := ⟨y 0, y 1, eq_ix2 y⟩
  unfold k2_pay2
  try dsimp only
  rw [truncf_apply, addf_apply, matmul_at, bias_at]
  simp only [truncf_apply]
  exact lin_at x W b r j

/-- The store into the second output window: the same projection of the second activation. -/
theorem pay3_eq (x : Mat 2048 256) (W : Mat 256 256) (b : Vc 256) :
    k2_pay3 (F := Ideal) (toE2 x) (toE2 W) (toE1 b) = toE2 (lin x W b) := by
  funext y
  obtain ⟨r, j, rfl⟩ : ∃ (r : Fin 2048) (j : Fin 256), y = ix2 r j := ⟨y 0, y 1, eq_ix2 y⟩
  unfold k2_pay3 k2_pay1
  try dsimp only
  rw [truncf_apply, addf_apply, matmul_at, bias_at]
  simp only [truncf_apply, shapeCast_self]
  exact lin_at x W b r j

/-- The store into the third output window. -/
theorem pay4_eq (x : Mat 2048 256) (W : Mat 256 256) (b : Vc 256) :
    k2_pay4 (F := Ideal) (toE2 x) (toE2 W) (toE1 b) = toE2 (lin x W b) := by
  funext y
  obtain ⟨r, j, rfl⟩ : ∃ (r : Fin 2048) (j : Fin 256), y = ix2 r j := ⟨y 0, y 1, eq_ix2 y⟩
  unfold k2_pay4 k2_pay1
  try dsimp only
  rw [truncf_apply, addf_apply, matmul_at, bias_at]
  simp only [truncf_apply, shapeCast_self]
  exact lin_at x W b r j

/-! ## The blocks of the windows -/

variable (V : (c : Dev nD) → (b : Ref sig .tc) → Buf (Elt Ideal) ((c : Thread nD τ).loc b)) (c : Dev nD)

theorem hz2 : (![0, 0] : Fin 2 → Nat) = fun _ => 0 := funext fun a => by fin_cases a <;> rfl
theorem hz1 : (![0] : Fin 1 → Nat) = fun _ => 0 := funext fun a => by fin_cases a; rfl

/-- The grid has four points. -/
theorem N2' : cfg2.N = 4 := N_2

/-- Rows 2048·t … 2048·t + 2047 of a matrix of 8192 rows: the block of grid point `t`. -/
def rows (G : Mat 8192 256) (t : Fin cfg2.N) : Mat 2048 256 :=
  fun r k => G ⟨2048 * t.val + r.val, by have := t.isLt; have h4 := N2'; have := r.isLt; omega⟩ k

/-- The projection of a block of rows is the block of rows of the projection. -/
theorem lin_rows (X : Mat 8192 256) (W : Mat 256 256) (b : Vc 256) (t : Fin cfg2.N) :
    lin (rows X t) W b = rows (lin X W b) t := rfl

/-- A matrix of 8192 rows read where a block's index lands is the block of rows read at the index. -/
theorem toE2_rows_apply (G : Mat 8192 256) (t : Fin cfg2.N) (y : S2048x256.Idx) (k : S8192x256.Idx)
    (hk0 : (k 0).val = 2048 * t.val + (y 0).val) (hk1 : (k 1).val = (y 1).val) :
    toE2 G k = toE2 (rows G t) y := by
  show ((G (k 0) (k 1) : ℝ) : EReal) = ((G ⟨2048 * t.val + (y 0).val, _⟩ (y 1) : ℝ) : EReal)
  exact congrArg (fun r : ℝ => (r : EReal)) (congrArg₂ G (Fin.ext hk0) (Fin.ext hk1))

/-- Window 0's block index at point `t` is `t` along the rows and 0 along the columns. -/
theorem idx2_0 : ∀ t : Fin cfg2.N, win2_0.index t (0 : Fin 2) = t.val ∧ win2_0.index t (1 : Fin 2) = 0 :=
  (by decide +kernel : ∀ t : Fin grid2.N, _)

/-- Window 0's block at point `t` of a real matrix is its block of rows. -/
theorem read_blk2_0 (G : Mat 8192 256) (t : Fin cfg2.N) :
    ((cfg2.win 0).blk t).view.read (Elt Ideal) (toE2 G : S8192x256.Idx → Elt Ideal .f32) = (toE2 (rows G t) : S2048x256.Idx → Elt Ideal .f32) := by
  obtain ⟨e0, e1⟩ := idx2_0 t
  funext y
  rw [View.read_apply]
  refine toE2_rows_apply G t y _ ?_ ?_
  · show win2_0.index t (0 : Fin 2) * 2048 + 1 * (y 0).val = 2048 * t.val + (y 0).val
    rw [e0]; omega
  · show win2_0.index t (1 : Fin 2) * 256 + 1 * (y 1).val = (y 1).val
    rw [e1]; omega

/-- Window 1's block index at point `t` is `t` along the rows and 0 along the columns. -/
theorem idx2_1 : ∀ t : Fin cfg2.N, win2_1.index t (0 : Fin 2) = t.val ∧ win2_1.index t (1 : Fin 2) = 0 :=
  (by decide +kernel : ∀ t : Fin grid2.N, _)

/-- Window 1's block at point `t` of a real matrix is its block of rows. -/
theorem read_blk2_1 (G : Mat 8192 256) (t : Fin cfg2.N) :
    ((cfg2.win 1).blk t).view.read (Elt Ideal) (toE2 G : S8192x256.Idx → Elt Ideal .f32) = (toE2 (rows G t) : S2048x256.Idx → Elt Ideal .f32) := by
  obtain ⟨e0, e1⟩ := idx2_1 t
  funext y
  rw [View.read_apply]
  refine toE2_rows_apply G t y _ ?_ ?_
  · show win2_1.index t (0 : Fin 2) * 2048 + 1 * (y 0).val = 2048 * t.val + (y 0).val
    rw [e0]; omega
  · show win2_1.index t (1 : Fin 2) * 256 + 1 * (y 1).val = (y 1).val
    rw [e1]; omega

/-- Window 8's block index at point `t` is `t` along the rows and 0 along the columns. -/
theorem idx2_8 : ∀ t : Fin cfg2.N, win2_8.index t (0 : Fin 2) = t.val ∧ win2_8.index t (1 : Fin 2) = 0 :=
  (by decide +kernel : ∀ t : Fin grid2.N, _)

/-- Window 8's block at point `t` of a real matrix is its block of rows. -/
theorem read_blk2_8 (G : Mat 8192 256) (t : Fin cfg2.N) :
    ((cfg2.win 8).blk t).view.read (Elt Ideal) (toE2 G : S8192x256.Idx → Elt Ideal .bf16) = (toE2 (rows G t) : S2048x256.Idx → Elt Ideal .bf16) := by
  obtain ⟨e0, e1⟩ := idx2_8 t
  funext y
  rw [View.read_apply]
  refine toE2_rows_apply G t y _ ?_ ?_
  · show win2_8.index t (0 : Fin 2) * 2048 + 1 * (y 0).val = 2048 * t.val + (y 0).val
    rw [e0]; omega
  · show win2_8.index t (1 : Fin 2) * 256 + 1 * (y 1).val = (y 1).val
    rw [e1]; omega

/-- Window 9's block index at point `t` is `t` along the rows and 0 along the columns. -/
theorem idx2_9 : ∀ t : Fin cfg2.N, win2_9.index t (0 : Fin 2) = t.val ∧ win2_9.index t (1 : Fin 2) = 0 :=
  (by decide +kernel : ∀ t : Fin grid2.N, _)

/-- Window 9's block at point `t` of a real matrix is its block of rows. -/
theorem read_blk2_9 (G : Mat 8192 256) (t : Fin cfg2.N) :
    ((cfg2.win 9).blk t).view.read (Elt Ideal) (toE2 G : S8192x256.Idx → Elt Ideal .bf16) = (toE2 (rows G t) : S2048x256.Idx → Elt Ideal .bf16) := by
  obtain ⟨e0, e1⟩ := idx2_9 t
  funext y
  rw [View.read_apply]
  refine toE2_rows_apply G t y _ ?_ ?_
  · show win2_9.index t (0 : Fin 2) * 2048 + 1 * (y 0).val = 2048 * t.val + (y 0).val
    rw [e0]; omega
  · show win2_9.index t (1 : Fin 2) * 256 + 1 * (y 1).val = (y 1).val
    rw [e1]; omega

/-- Window 10's block index at point `t` is `t` along the rows and 0 along the columns. -/
theorem idx2_10 : ∀ t : Fin cfg2.N, win2_10.index t (0 : Fin 2) = t.val ∧ win2_10.index t (1 : Fin 2) = 0 :=
  (by decide +kernel : ∀ t : Fin grid2.N, _)

/-- Window 10's block at point `t` of a real matrix is its block of rows. -/
theorem read_blk2_10 (G : Mat 8192 256) (t : Fin cfg2.N) :
    ((cfg2.win 10).blk t).view.read (Elt Ideal) (toE2 G : S8192x256.Idx → Elt Ideal .bf16) = (toE2 (rows G t) : S2048x256.Idx → Elt Ideal .bf16) := by
  obtain ⟨e0, e1⟩ := idx2_10 t
  funext y
  rw [View.read_apply]
  refine toE2_rows_apply G t y _ ?_ ?_
  · show win2_10.index t (0 : Fin 2) * 2048 + 1 * (y 0).val = 2048 * t.val + (y 0).val
    rw [e0]; omega
  · show win2_10.index t (1 : Fin 2) * 256 + 1 * (y 1).val = (y 1).val
    rw [e1]; omega

/-- Window 2 is its whole array at every point. -/
theorem idx2_2 : ∀ t : Fin cfg2.N, win2_2.index t (0 : Fin 2) = 0 ∧ win2_2.index t (1 : Fin 2) = 0 :=
  (by decide +kernel : ∀ t : Fin grid2.N, _)

theorem read_blk2_2 (G : S256x256.Idx → Elt Ideal .f32) (t : Fin cfg2.N) :
    ((cfg2.win 2).blk t).view.read (Elt Ideal) G = G := by
  obtain ⟨e0, e1⟩ := idx2_2 t
  funext y
  rw [View.read_apply]
  exact congrArg G (funext fun a => Fin.ext (by
    match a with
    | ⟨0, _⟩ => show win2_2.index t (0 : Fin 2) * 256 + 1 * (y 0).val = (y 0).val; rw [e0]; omega
    | ⟨1, _⟩ => show win2_2.index t (1 : Fin 2) * 256 + 1 * (y 1).val = (y 1).val; rw [e1]; omega))

/-- Window 4 is its whole array at every point. -/
theorem idx2_4 : ∀ t : Fin cfg2.N, win2_4.index t (0 : Fin 2) = 0 ∧ win2_4.index t (1 : Fin 2) = 0 :=
  (by decide +kernel : ∀ t : Fin grid2.N, _)

theorem read_blk2_4 (G : S256x256.Idx → Elt Ideal .f32) (t : Fin cfg2.N) :
    ((cfg2.win 4).blk t).view.read (Elt Ideal) G = G := by
  obtain ⟨e0, e1⟩ := idx2_4 t
  funext y
  rw [View.read_apply]
  exact congrArg G (funext fun a => Fin.ext (by
    match a with
    | ⟨0, _⟩ => show win2_4.index t (0 : Fin 2) * 256 + 1 * (y 0).val = (y 0).val; rw [e0]; omega
    | ⟨1, _⟩ => show win2_4.index t (1 : Fin 2) * 256 + 1 * (y 1).val = (y 1).val; rw [e1]; omega))

/-- Window 6 is its whole array at every point. -/
theorem idx2_6 : ∀ t : Fin cfg2.N, win2_6.index t (0 : Fin 2) = 0 ∧ win2_6.index t (1 : Fin 2) = 0 :=
  (by decide +kernel : ∀ t : Fin grid2.N, _)

theorem read_blk2_6 (G : S256x256.Idx → Elt Ideal .f32) (t : Fin cfg2.N) :
    ((cfg2.win 6).blk t).view.read (Elt Ideal) G = G := by
  obtain ⟨e0, e1⟩ := idx2_6 t
  funext y
  rw [View.read_apply]
  exact congrArg G (funext fun a => Fin.ext (by
    match a with
    | ⟨0, _⟩ => show win2_6.index t (0 : Fin 2) * 256 + 1 * (y 0).val = (y 0).val; rw [e0]; omega
    | ⟨1, _⟩ => show win2_6.index t (1 : Fin 2) * 256 + 1 * (y 1).val = (y 1).val; rw [e1]; omega))

/-- Window 3 is its whole array at every point. -/
theorem idx2_3 : ∀ t : Fin cfg2.N, win2_3.index t (0 : Fin 1) = 0 :=
  (by decide +kernel : ∀ t : Fin grid2.N, _)

theorem read_blk2_3 (G : S256.Idx → Elt Ideal .f32) (t : Fin cfg2.N) :
    ((cfg2.win 3).blk t).view.read (Elt Ideal) G = G := by
  have e0 := idx2_3 t
  funext y
  rw [View.read_apply]
  exact congrArg G (funext fun a => Fin.ext (by
    match a with
    | ⟨0, _⟩ => show win2_3.index t (0 : Fin 1) * 256 + 1 * (y 0).val = (y 0).val; rw [e0]; omega))

/-- Window 5 is its whole array at every point. -/
theorem idx2_5 : ∀ t : Fin cfg2.N, win2_5.index t (0 : Fin 1) = 0 :=
  (by decide +kernel : ∀ t : Fin grid2.N, _)

theorem read_blk2_5 (G : S256.Idx → Elt Ideal .f32) (t : Fin cfg2.N) :
    ((cfg2.win 5).blk t).view.read (Elt Ideal) G = G := by
  have e0 := idx2_5 t
  funext y
  rw [View.read_apply]
  exact congrArg G (funext fun a => Fin.ext (by
    match a with
    | ⟨0, _⟩ => show win2_5.index t (0 : Fin 1) * 256 + 1 * (y 0).val = (y 0).val; rw [e0]; omega))

/-- Window 7 is its whole array at every point. -/
theorem idx2_7 : ∀ t : Fin cfg2.N, win2_7.index t (0 : Fin 1) = 0 :=
  (by decide +kernel : ∀ t : Fin grid2.N, _)

theorem read_blk2_7 (G : S256.Idx → Elt Ideal .f32) (t : Fin cfg2.N) :
    ((cfg2.win 7).blk t).view.read (Elt Ideal) G = G := by
  have e0 := idx2_7 t
  funext y
  rw [View.read_apply]
  exact congrArg G (funext fun a => Fin.ext (by
    match a with
    | ⟨0, _⟩ => show win2_7.index t (0 : Fin 1) * 256 + 1 * (y 0).val = (y 0).val; rw [e0]; omega))

/-! ## The input windows' blocks, when their arrays hold real arrays -/

theorem iblk2_0_eq (X : Mat 8192 256) (hX : (V c main_arg3 : S8192x256.Idx → Elt Ideal .f32) = toE2 X) (t : Fin cfg2.N) :
    (iblk2 V c 0 t : Vec Ideal S2048x256 .f32) = toE2 (rows X t) :=
  (congrArg (((cfg2.win 0).blk t).view.read (Elt Ideal)) hX).trans (read_blk2_0 X t)

theorem iblk2_1_eq (X : Mat 8192 256) (hX : (V c main_v1 : S8192x256.Idx → Elt Ideal .f32) = toE2 X) (t : Fin cfg2.N) :
    (iblk2 V c 1 t : Vec Ideal S2048x256 .f32) = toE2 (rows X t) :=
  (congrArg (((cfg2.win 1).blk t).view.read (Elt Ideal)) hX).trans (read_blk2_1 X t)

theorem iblk2_2_eq (W : Mat 256 256) (hW : (V c main_arg4 : S256x256.Idx → Elt Ideal .f32) = toE2 W) (t : Fin cfg2.N) :
    (iblk2 V c 2 t : Vec Ideal S256x256 .f32) = toE2 W :=
  (congrArg (((cfg2.win 2).blk t).view.read (Elt Ideal)) hW).trans (read_blk2_2 (toE2 W) t)

theorem iblk2_4_eq (W : Mat 256 256) (hW : (V c main_arg6 : S256x256.Idx → Elt Ideal .f32) = toE2 W) (t : Fin cfg2.N) :
    (iblk2 V c 4 t : Vec Ideal S256x256 .f32) = toE2 W :=
  (congrArg (((cfg2.win 4).blk t).view.read (Elt Ideal)) hW).trans (read_blk2_4 (toE2 W) t)

theorem iblk2_6_eq (W : Mat 256 256) (hW : (V c main_arg8 : S256x256.Idx → Elt Ideal .f32) = toE2 W) (t : Fin cfg2.N) :
    (iblk2 V c 6 t : Vec Ideal S256x256 .f32) = toE2 W :=
  (congrArg (((cfg2.win 6).blk t).view.read (Elt Ideal)) hW).trans (read_blk2_6 (toE2 W) t)

theorem iblk2_3_eq (b : Vc 256) (hb : (V c main_arg5 : S256.Idx → Elt Ideal .f32) = toE1 b) (t : Fin cfg2.N) :
    (iblk2 V c 3 t : Vec Ideal S256 .f32) = toE1 b :=
  (congrArg (((cfg2.win 3).blk t).view.read (Elt Ideal)) hb).trans (read_blk2_3 (toE1 b) t)

theorem iblk2_5_eq (b : Vc 256) (hb : (V c main_arg7 : S256.Idx → Elt Ideal .f32) = toE1 b) (t : Fin cfg2.N) :
    (iblk2 V c 5 t : Vec Ideal S256 .f32) = toE1 b :=
  (congrArg (((cfg2.win 5).blk t).view.read (Elt Ideal)) hb).trans (read_blk2_5 (toE1 b) t)

theorem iblk2_7_eq (b : Vc 256) (hb : (V c main_arg9 : S256.Idx → Elt Ideal .f32) = toE1 b) (t : Fin cfg2.N) :
    (iblk2 V c 7 t : Vec Ideal S256 .f32) = toE1 b :=
  (congrArg (((cfg2.win 7).blk t).view.read (Elt Ideal)) hb).trans (read_blk2_7 (toE1 b) t)

/-! ## What each point writes back, the cover, the arrays after the region -/

/-- What point `t` writes back through window 8 is block `t` of the projection of the whole arrays. -/
theorem flushed2_8 (X : Mat 8192 256) (W : Mat 256 256) (b : Vc 256)
    (hX : (V c main_arg3 : S8192x256.Idx → Elt Ideal .f32) = toE2 X) (hW : (V c main_arg4 : S256x256.Idx → Elt Ideal .f32) = toE2 W)
    (hb : (V c main_arg5 : S256.Idx → Elt Ideal .f32) = toE1 b) (t : Fin cfg2.N) :
    (dat2 (F := Ideal) V c).flushed 8 t = ((cfg2.win 8).blk t).view.read (Elt Ideal) (toE2 (lin X W b) : S8192x256.Idx → Elt Ideal .bf16) := by
  show (cfg2.win 8).cut (grid2.coords t) ((dat2 (F := Ideal) V c).after 8 t) = _
  rw [after2_8]
  unfold out2_8
  rw [View.canon_unit_zero hz2]
  simp only [View.ld_unit_zero (S := S2048x256) hz2, View.ld_unit_zero (S := S256x256) hz2, View.ld_unit_zero (S := S256) hz1]
  rw [read_blk2_8 (lin X W b) t, ← lin_rows]
  have e0 := iblk2_0_eq V c X hX t
  have e2 := iblk2_2_eq V c W hW t
  have e3 := iblk2_3_eq V c b hb t
  show (k2_pay2 (F := Ideal) (iblk2 V c 0 t) (iblk2 V c 2 t) (iblk2 V c 3 t) : S2048x256.Idx → Elt Ideal .bf16) = toE2 (lin (rows X t) W b)
  rw [e0, e2, e3]
  exact pay2_eq (rows X t) W b

/-- An index of the array is in point `t`'s block iff each coordinate is in the block's range on its axis. -/
theorem mem_blk2_8 (t : Fin cfg2.N) (i : S8192x256.Idx) :
    i ∈ ((cfg2.win 8).blk t).view.set ↔ ∀ a : Fin 2, win2_8.index t a * S2048x256.size a ≤ (i a).val ∧ (i a).val < win2_8.index t a * S2048x256.size a + S2048x256.size a := by
  show i ∈ ((View.whole main_v2_0).slice (win2_8.rect t)).set ↔ _
  rw [View.set_slice_whole, Rect.mem_set_unit]
  exact Iff.rfl

/-- Row `r` of the array is in the block of point `r / 2048`, which is written back. -/
theorem covered2_8 (i : S8192x256.Idx) :
    ∃ t : Fin cfg2.N, (cfg2.win 8).flush t = true ∧ i ∈ ((cfg2.win 8).blk t).view.set := by
  have hi0 : (i 0).val < 8192 := (i 0).isLt
  have hi1 : (i 1).val < 256 := (i 1).isLt
  obtain ⟨t, ht⟩ : ∃ t : Fin cfg2.N, t.val = (i 0).val / 2048 := ⟨⟨(i 0).val / 2048, by have h4 := N2'; omega⟩, rfl⟩
  obtain ⟨e0, e1⟩ := idx2_8 t
  refine ⟨t, flush2_8 t, ?_⟩
  rw [mem_blk2_8]
  intro a
  match a with
  | ⟨0, _⟩ => show win2_8.index t (0 : Fin 2) * 2048 ≤ (i 0).val ∧ (i 0).val < win2_8.index t (0 : Fin 2) * 2048 + 2048; rw [e0, ht]; omega
  | ⟨1, _⟩ => show win2_8.index t (1 : Fin 2) * 256 ≤ (i 1).val ∧ (i 1).val < win2_8.index t (1 : Fin 2) * 256 + 256; rw [e1]; omega

/-- The array of window 8 after the region: the projection of the whole arrays. -/
theorem final2_8 (X : Mat 8192 256) (W : Mat 256 256) (b : Vc 256)
    (hX : (V c main_arg3 : S8192x256.Idx → Elt Ideal .f32) = toE2 X) (hW : (V c main_arg4 : S256x256.Idx → Elt Ideal .f32) = toE2 W)
    (hb : (V c main_arg5 : S256.Idx → Elt Ideal .f32) = toE1 b) :
    (dat2 (F := Ideal) V c).arrAt 8 cfg2.N = (toE2 (lin X W b) : S8192x256.Idx → Elt Ideal .bf16) :=
  (dat2 (F := Ideal) V c).arrAt_eq_of_cover 8 (toE2 (lin X W b) : S8192x256.Idx → Elt Ideal .bf16) (fun t _ => flushed2_8 V c X W b hX hW hb t) covered2_8

/-- What point `t` writes back through window 9 is block `t` of the projection of the whole arrays. -/
theorem flushed2_9 (X : Mat 8192 256) (W : Mat 256 256) (b : Vc 256)
    (hX : (V c main_v1 : S8192x256.Idx → Elt Ideal .f32) = toE2 X) (hW : (V c main_arg6 : S256x256.Idx → Elt Ideal .f32) = toE2 W)
    (hb : (V c main_arg7 : S256.Idx → Elt Ideal .f32) = toE1 b) (t : Fin cfg2.N) :
    (dat2 (F := Ideal) V c).flushed 9 t = ((cfg2.win 9).blk t).view.read (Elt Ideal) (toE2 (lin X W b) : S8192x256.Idx → Elt Ideal .bf16) := by
  show (cfg2.win 9).cut (grid2.coords t) ((dat2 (F := Ideal) V c).after 9 t) = _
  rw [after2_9]
  unfold out2_9
  rw [View.canon_unit_zero hz2]
  simp only [View.ld_unit_zero (S := S2048x256) hz2, View.ld_unit_zero (S := S256x256) hz2, View.ld_unit_zero (S := S256) hz1]
  rw [read_blk2_9 (lin X W b) t, ← lin_rows]
  have e0 := iblk2_1_eq V c X hX t
  have e2 := iblk2_4_eq V c W hW t
  have e3 := iblk2_5_eq V c b hb t
  show (k2_pay3 (F := Ideal) (iblk2 V c 1 t) (iblk2 V c 4 t) (iblk2 V c 5 t) : S2048x256.Idx → Elt Ideal .bf16) = toE2 (lin (rows X t) W b)
  rw [e0, e2, e3]
  exact pay3_eq (rows X t) W b

/-- An index of the array is in point `t`'s block iff each coordinate is in the block's range on its axis. -/
theorem mem_blk2_9 (t : Fin cfg2.N) (i : S8192x256.Idx) :
    i ∈ ((cfg2.win 9).blk t).view.set ↔ ∀ a : Fin 2, win2_9.index t a * S2048x256.size a ≤ (i a).val ∧ (i a).val < win2_9.index t a * S2048x256.size a + S2048x256.size a := by
  show i ∈ ((View.whole main_v2_1).slice (win2_9.rect t)).set ↔ _
  rw [View.set_slice_whole, Rect.mem_set_unit]
  exact Iff.rfl

/-- Row `r` of the array is in the block of point `r / 2048`, which is written back. -/
theorem covered2_9 (i : S8192x256.Idx) :
    ∃ t : Fin cfg2.N, (cfg2.win 9).flush t = true ∧ i ∈ ((cfg2.win 9).blk t).view.set := by
  have hi0 : (i 0).val < 8192 := (i 0).isLt
  have hi1 : (i 1).val < 256 := (i 1).isLt
  obtain ⟨t, ht⟩ : ∃ t : Fin cfg2.N, t.val = (i 0).val / 2048 := ⟨⟨(i 0).val / 2048, by have h4 := N2'; omega⟩, rfl⟩
  obtain ⟨e0, e1⟩ := idx2_9 t
  refine ⟨t, flush2_9 t, ?_⟩
  rw [mem_blk2_9]
  intro a
  match a with
  | ⟨0, _⟩ => show win2_9.index t (0 : Fin 2) * 2048 ≤ (i 0).val ∧ (i 0).val < win2_9.index t (0 : Fin 2) * 2048 + 2048; rw [e0, ht]; omega
  | ⟨1, _⟩ => show win2_9.index t (1 : Fin 2) * 256 ≤ (i 1).val ∧ (i 1).val < win2_9.index t (1 : Fin 2) * 256 + 256; rw [e1]; omega

/-- The array of window 9 after the region: the projection of the whole arrays. -/
theorem final2_9 (X : Mat 8192 256) (W : Mat 256 256) (b : Vc 256)
    (hX : (V c main_v1 : S8192x256.Idx → Elt Ideal .f32) = toE2 X) (hW : (V c main_arg6 : S256x256.Idx → Elt Ideal .f32) = toE2 W)
    (hb : (V c main_arg7 : S256.Idx → Elt Ideal .f32) = toE1 b) :
    (dat2 (F := Ideal) V c).arrAt 9 cfg2.N = (toE2 (lin X W b) : S8192x256.Idx → Elt Ideal .bf16) :=
  (dat2 (F := Ideal) V c).arrAt_eq_of_cover 9 (toE2 (lin X W b) : S8192x256.Idx → Elt Ideal .bf16) (fun t _ => flushed2_9 V c X W b hX hW hb t) covered2_9

/-- What point `t` writes back through window 10 is block `t` of the projection of the whole arrays. -/
theorem flushed2_10 (X : Mat 8192 256) (W : Mat 256 256) (b : Vc 256)
    (hX : (V c main_v1 : S8192x256.Idx → Elt Ideal .f32) = toE2 X) (hW : (V c main_arg8 : S256x256.Idx → Elt Ideal .f32) = toE2 W)
    (hb : (V c main_arg9 : S256.Idx → Elt Ideal .f32) = toE1 b) (t : Fin cfg2.N) :
    (dat2 (F := Ideal) V c).flushed 10 t = ((cfg2.win 10).blk t).view.read (Elt Ideal) (toE2 (lin X W b) : S8192x256.Idx → Elt Ideal .bf16) := by
  show (cfg2.win 10).cut (grid2.coords t) ((dat2 (F := Ideal) V c).after 10 t) = _
  rw [after2_10]
  unfold out2_10
  rw [View.canon_unit_zero hz2]
  simp only [View.ld_unit_zero (S := S2048x256) hz2, View.ld_unit_zero (S := S256x256) hz2, View.ld_unit_zero (S := S256) hz1]
  rw [read_blk2_10 (lin X W b) t, ← lin_rows]
  have e0 := iblk2_1_eq V c X hX t
  have e2 := iblk2_6_eq V c W hW t
  have e3 := iblk2_7_eq V c b hb t
  show (k2_pay4 (F := Ideal) (iblk2 V c 1 t) (iblk2 V c 6 t) (iblk2 V c 7 t) : S2048x256.Idx → Elt Ideal .bf16) = toE2 (lin (rows X t) W b)
  rw [e0, e2, e3]
  exact pay4_eq (rows X t) W b

/-- An index of the array is in point `t`'s block iff each coordinate is in the block's range on its axis. -/
theorem mem_blk2_10 (t : Fin cfg2.N) (i : S8192x256.Idx) :
    i ∈ ((cfg2.win 10).blk t).view.set ↔ ∀ a : Fin 2, win2_10.index t a * S2048x256.size a ≤ (i a).val ∧ (i a).val < win2_10.index t a * S2048x256.size a + S2048x256.size a := by
  show i ∈ ((View.whole main_v2_2).slice (win2_10.rect t)).set ↔ _
  rw [View.set_slice_whole, Rect.mem_set_unit]
  exact Iff.rfl

/-- Row `r` of the array is in the block of point `r / 2048`, which is written back. -/
theorem covered2_10 (i : S8192x256.Idx) :
    ∃ t : Fin cfg2.N, (cfg2.win 10).flush t = true ∧ i ∈ ((cfg2.win 10).blk t).view.set := by
  have hi0 : (i 0).val < 8192 := (i 0).isLt
  have hi1 : (i 1).val < 256 := (i 1).isLt
  obtain ⟨t, ht⟩ : ∃ t : Fin cfg2.N, t.val = (i 0).val / 2048 := ⟨⟨(i 0).val / 2048, by have h4 := N2'; omega⟩, rfl⟩
  obtain ⟨e0, e1⟩ := idx2_10 t
  refine ⟨t, flush2_10 t, ?_⟩
  rw [mem_blk2_10]
  intro a
  match a with
  | ⟨0, _⟩ => show win2_10.index t (0 : Fin 2) * 2048 ≤ (i 0).val ∧ (i 0).val < win2_10.index t (0 : Fin 2) * 2048 + 2048; rw [e0, ht]; omega
  | ⟨1, _⟩ => show win2_10.index t (1 : Fin 2) * 256 ≤ (i 1).val ∧ (i 1).val < win2_10.index t (1 : Fin 2) * 256 + 256; rw [e1]; omega

/-- The array of window 10 after the region: the projection of the whole arrays. -/
theorem final2_10 (X : Mat 8192 256) (W : Mat 256 256) (b : Vc 256)
    (hX : (V c main_v1 : S8192x256.Idx → Elt Ideal .f32) = toE2 X) (hW : (V c main_arg8 : S256x256.Idx → Elt Ideal .f32) = toE2 W)
    (hb : (V c main_arg9 : S256.Idx → Elt Ideal .f32) = toE1 b) :
    (dat2 (F := Ideal) V c).arrAt 10 cfg2.N = (toE2 (lin X W b) : S8192x256.Idx → Elt Ideal .bf16) :=
  (dat2 (F := Ideal) V c).arrAt_eq_of_cover 10 (toE2 (lin X W b) : S8192x256.Idx → Elt Ideal .bf16) (fun t _ => flushed2_10 V c X W b hX hW hb t) covered2_10

end Cert.KernelIdeal.Val

end
-- ==== Proof.Val.V3a.lean ====
/-
  Region 3 (the attention kernel with a layer-normalised residual) at any float instance: what each control case
  leaves in the three carried scratch (running maximum, running sum, accumulator) and in the output's buffer is a
  payload of the point's input blocks and of the scratch the point before left; hence the scratch and the output
  point by point.
-/
import proofs.«422171_j68341519614500_3_alg».proof.Proof.KI.F3
import Idealize.ShloMosaic.Lib.Pipeline.Value
import Idealize.ShloMosaic.Lib.Tactic

set_option maxRecDepth 16384

noncomputable section

namespace Cert.KernelIdeal.Val
end Cert.KernelIdeal.Val
namespace Cert.KernelIdeal.Val3
open Cert.KernelIdeal.Val

open Idealize.ShloMosaic Idealize.ShloMosaic.TcCoe Idealize.ShloMosaic.Tactic Idealize.SL.Sem
open Cert.KernelIdeal Cert.KernelIdeal.Gen Cert.KernelIdeal.Hand

variable {F : FTy → Type} [FloatOps F]

theorem hz1_a : (![0, 0] : Fin 2 → Nat) = fun _ => 0 := funext fun a => by fin_cases a <;> rfl
theorem hz1_b : (![0] : Fin 1 → Nat) = fun _ => 0 := funext fun a => by fin_cases a; rfl

/-! ## The pieces each case's run found, as payloads -/

theorem pcs1_A_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i) (x0 : Vec F S2048x256 .bf16) (x1 : Vec F S512x256 .bf16) (x2 : Vec F S512x256 .bf16) (x3 : Vec F S2048x256 .f32) (x4 : Vec F S256 .f32) (x5 : Vec F S256 .f32) :
    View.canon (kernelRun3_A c i arg2 harg2 arg3 harg3 arg4 harg4 arg5 harg5 arg6 harg6 arg7 harg7 arg8 harg8 arg9 harg9 arg10 harg10 arg11 harg11 hc0 hc1 x0 x1 x2 x3 x4 x5).2.1 = k3_pay2 (k3_pay8 x0 x1 k3_pay4) := by
  unfold kernelRun3_A
  dsimp only
  sl_unfold_words
  rw [View.canon_cons_unit_zero (S := S2048x1) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b, View.readCov_unit_zero (S := S2048x1) _ hz1_a, View.readCov_unit_zero (S := S2048x256) _ hz1_a]
theorem pcs1_A_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i) (x0 : Vec F S2048x256 .bf16) (x1 : Vec F S512x256 .bf16) (x2 : Vec F S512x256 .bf16) (x3 : Vec F S2048x256 .f32) (x4 : Vec F S256 .f32) (x5 : Vec F S256 .f32) :
    View.canon (kernelRun3_A c i arg2 harg2 arg3 harg3 arg4 harg4 arg5 harg5 arg6 harg6 arg7 harg7 arg8 harg8 arg9 harg9 arg10 harg10 arg11 harg11 hc0 hc1 x0 x1 x2 x3 x4 x5).2.2.1 = k3_pay11 x0 x1 k3_pay4 k3_pay5 := by
  unfold kernelRun3_A
  dsimp only
  sl_unfold_words
  rw [View.canon_cons_unit_zero (S := S2048x1) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b, View.readCov_unit_zero (S := S2048x1) _ hz1_a, View.readCov_unit_zero (S := S2048x256) _ hz1_a]
theorem pcs1_A_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i) (x0 : Vec F S2048x256 .bf16) (x1 : Vec F S512x256 .bf16) (x2 : Vec F S512x256 .bf16) (x3 : Vec F S2048x256 .f32) (x4 : Vec F S256 .f32) (x5 : Vec F S256 .f32) :
    View.canon (kernelRun3_A c i arg2 harg2 arg3 harg3 arg4 harg4 arg5 harg5 arg6 harg6 arg7 harg7 arg8 harg8 arg9 harg9 arg10 harg10 arg11 harg11 hc0 hc1 x0 x1 x2 x3 x4 x5).2.2.2.1 = k3_pay1 (k3_pay12 x0 x1 x2 k3_pay4 k3_pay6) := by
  unfold kernelRun3_A
  dsimp only
  sl_unfold_words
  rw [View.canon_cons_unit_zero (S := S2048x256) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b, View.readCov_unit_zero (S := S2048x1) _ hz1_a, View.readCov_unit_zero (S := S2048x256) _ hz1_a]
theorem pcs1_B_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 = k3_pay2 (k3_pay8 x0 x1 xs0) := by
  unfold kernelRun3_B
  dsimp only
  sl_unfold_words
  rw [View.canon_unit_zero (S := S2048x1) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b]
theorem pcs1_B_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 = k3_pay11 x0 x1 xs0 xs1 := by
  unfold kernelRun3_B
  dsimp only
  sl_unfold_words
  rw [View.canon_unit_zero (S := S2048x1) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b]
theorem pcs1_B_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun3_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 = k3_pay1 (k3_pay12 x0 x1 x2 xs0 xs2) := by
  unfold kernelRun3_B
  dsimp only
  sl_unfold_words
  rw [View.canon_unit_zero (S := S2048x256) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b]
theorem pcs1_C_0 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 = k3_pay2 (k3_pay8 x0 x1 xs0) := by
  unfold kernelRun3_C
  dsimp only
  sl_unfold_words
  rw [View.canon_unit_zero (S := S2048x1) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b]
theorem pcs1_C_1 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 = k3_pay11 x0 x1 xs0 xs1 := by
  unfold kernelRun3_C
  dsimp only
  sl_unfold_words
  rw [View.canon_unit_zero (S := S2048x1) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b]
theorem pcs1_C_2 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 = k3_pay1 (k3_pay12 x0 x1 x2 xs0 xs2) := by
  unfold kernelRun3_C
  dsimp only
  sl_unfold_words
  rw [View.canon_unit_zero (S := S2048x256) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b]
theorem pcs1_C_6 (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    View.canon (kernelRun3_C c i arg2 harg2 arg3 harg3 arg4 harg4 arg5 harg5 arg6 harg6 arg7 harg7 arg8 harg8 arg9 harg9 arg10 harg10 arg11 harg11 hc0 hc1 x0 x1 x2 x3 x4 x5 xs0 xs1 xs2).1 = k3_pay3 (k3_pay1 (k3_pay12 x0 x1 x2 xs0 xs2)) (k3_pay11 x0 x1 xs0 xs1) x3 x4 x5 := by
  unfold kernelRun3_C
  dsimp only
  sl_unfold_words
  rw [View.canon_unit_zero (S := S2048x256) hz1_a]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x256) hz1_a, View.ld_unit_zero (S := S512x256) hz1_a, View.ld_unit_zero (S := S2048x1) hz1_a, View.ld_unit_zero (S := S256) hz1_b, View.readCov_unit_zero (S := S2048x1) _ hz1_a, View.readCov_unit_zero (S := S2048x256) _ hz1_a]
/-! ## What each case leaves in each scratch and in the output, as payloads of the blocks and of the scratch found -/

theorem sout3_A_0_eq (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i) (x0 : Vec F S2048x256 .bf16) (x1 : Vec F S512x256 .bf16) (x2 : Vec F S512x256 .bf16) (x3 : Vec F S2048x256 .f32) (x4 : Vec F S256 .f32) (x5 : Vec F S256 .f32) :
    sout3_A_0 c i arg2 harg2 arg3 harg3 arg4 harg4 arg5 harg5 arg6 harg6 arg7 harg7 arg8 harg8 arg9 harg9 arg10 harg10 arg11 harg11 hc0 hc1 x0 x1 x2 x3 x4 x5 = k3_pay2 (k3_pay8 x0 x1 k3_pay4) := by
  unfold sout3_A_0
  rw [View.read_writes_eq_canon _ _ _ (scover3_A_0 c i arg2 harg2 arg3 harg3 arg4 harg4 arg5 harg5 arg6 harg6 arg7 harg7 arg8 harg8 arg9 harg9 arg10 harg10 arg11 harg11 hc0 hc1 x0 x1 x2 x3 x4 x5)]
  exact pcs1_A_0 c i arg2 harg2 arg3 harg3 arg4 harg4 arg5 harg5 arg6 harg6 arg7 harg7 arg8 harg8 arg9 harg9 arg10 harg10 arg11 harg11 hc0 hc1 x0 x1 x2 x3 x4 x5

theorem sout3_A_1_eq (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i) (x0 : Vec F S2048x256 .bf16) (x1 : Vec F S512x256 .bf16) (x2 : Vec F S512x256 .bf16) (x3 : Vec F S2048x256 .f32) (x4 : Vec F S256 .f32) (x5 : Vec F S256 .f32) :
    sout3_A_1 c i arg2 harg2 arg3 harg3 arg4 harg4 arg5 harg5 arg6 harg6 arg7 harg7 arg8 harg8 arg9 harg9 arg10 harg10 arg11 harg11 hc0 hc1 x0 x1 x2 x3 x4 x5 = k3_pay11 x0 x1 k3_pay4 k3_pay5 := by
  unfold sout3_A_1
  rw [View.read_writes_eq_canon _ _ _ (scover3_A_1 c i arg2 harg2 arg3 harg3 arg4 harg4 arg5 harg5 arg6 harg6 arg7 harg7 arg8 harg8 arg9 harg9 arg10 harg10 arg11 harg11 hc0 hc1 x0 x1 x2 x3 x4 x5)]
  exact pcs1_A_1 c i arg2 harg2 arg3 harg3 arg4 harg4 arg5 harg5 arg6 harg6 arg7 harg7 arg8 harg8 arg9 harg9 arg10 harg10 arg11 harg11 hc0 hc1 x0 x1 x2 x3 x4 x5

theorem sout3_A_2_eq (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond3_0 i) (hc1 : ¬cond3_1 i) (x0 : Vec F S2048x256 .bf16) (x1 : Vec F S512x256 .bf16) (x2 : Vec F S512x256 .bf16) (x3 : Vec F S2048x256 .f32) (x4 : Vec F S256 .f32) (x5 : Vec F S256 .f32) :
    sout3_A_2 c i arg2 harg2 arg3 harg3 arg4 harg4 arg5 harg5 arg6 harg6 arg7 harg7 arg8 harg8 arg9 harg9 arg10 harg10 arg11 harg11 hc0 hc1 x0 x1 x2 x3 x4 x5 = k3_pay1 (k3_pay12 x0 x1 x2 k3_pay4 k3_pay6) := by
  unfold sout3_A_2
  rw [View.read_writes_eq_canon _ _ _ (scover3_A_2 c i arg2 harg2 arg3 harg3 arg4 harg4 arg5 harg5 arg6 harg6 arg7 harg7 arg8 harg8 arg9 harg9 arg10 harg10 arg11 harg11 hc0 hc1 x0 x1 x2 x3 x4 x5)]
  exact pcs1_A_2 c i arg2 harg2 arg3 harg3 arg4 harg4 arg5 harg5 arg6 harg6 arg7 harg7 arg8 harg8 arg9 harg9 arg10 harg10 arg11 harg11 hc0 hc1 x0 x1 x2 x3 x4 x5

theorem sout3_B_0_eq (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    sout3_B_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k3_pay2 (k3_pay8 x0 x1 xs0) := by
  unfold sout3_B_0
  rw [View.read_writes_eq_canon _ _ _ (scover3_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_B_0 c i arg2 harg2 arg3 harg3 arg4 harg4 arg5 harg5 arg6 harg6 arg7 harg7 arg8 harg8 arg9 harg9 arg10 harg10 arg11 harg11 hc0 hc1 x0 x1 x2 x3 x4 x5 xs0 xs1 xs2

theorem sout3_B_1_eq (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    sout3_B_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k3_pay11 x0 x1 xs0 xs1 := by
  unfold sout3_B_1
  rw [View.read_writes_eq_canon _ _ _ (scover3_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_B_1 c i arg2 harg2 arg3 harg3 arg4 harg4 arg5 harg5 arg6 harg6 arg7 harg7 arg8 harg8 arg9 harg9 arg10 harg10 arg11 harg11 hc0 hc1 x0 x1 x2 x3 x4 x5 xs0 xs1 xs2

theorem sout3_B_2_eq (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : ¬cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    sout3_B_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k3_pay1 (k3_pay12 x0 x1 x2 xs0 xs2) := by
  unfold sout3_B_2
  rw [View.read_writes_eq_canon _ _ _ (scover3_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_B_2 c i arg2 harg2 arg3 harg3 arg4 harg4 arg5 harg5 arg6 harg6 arg7 harg7 arg8 harg8 arg9 harg9 arg10 harg10 arg11 harg11 hc0 hc1 x0 x1 x2 x3 x4 x5 xs0 xs1 xs2

theorem sout3_C_0_eq (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    sout3_C_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k3_pay2 (k3_pay8 x0 x1 xs0) := by
  unfold sout3_C_0
  rw [View.read_writes_eq_canon _ _ _ (scover3_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_C_0 c i arg2 harg2 arg3 harg3 arg4 harg4 arg5 harg5 arg6 harg6 arg7 harg7 arg8 harg8 arg9 harg9 arg10 harg10 arg11 harg11 hc0 hc1 x0 x1 x2 x3 x4 x5 xs0 xs1 xs2

theorem sout3_C_1_eq (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    sout3_C_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k3_pay11 x0 x1 xs0 xs1 := by
  unfold sout3_C_1
  rw [View.read_writes_eq_canon _ _ _ (scover3_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_C_1 c i arg2 harg2 arg3 harg3 arg4 harg4 arg5 harg5 arg6 harg6 arg7 harg7 arg8 harg8 arg9 harg9 arg10 harg10 arg11 harg11 hc0 hc1 x0 x1 x2 x3 x4 x5 xs0 xs1 xs2

theorem sout3_C_2_eq (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    sout3_C_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k3_pay1 (k3_pay12 x0 x1 x2 xs0 xs2) := by
  unfold sout3_C_2
  rw [View.read_writes_eq_canon _ _ _ (scover3_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_C_2 c i arg2 harg2 arg3 harg3 arg4 harg4 arg5 harg5 arg6 harg6 arg7 harg7 arg8 harg8 arg9 harg9 arg10 harg10 arg11 harg11 hc0 hc1 x0 x1 x2 x3 x4 x5 xs0 xs1 xs2

theorem out3_C_6_eq (c : Dev nD) (i : grid3.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond3_0 i) (hc1 : cond3_1 i) (x0 : Vec F S2048x256 .bf16) (x1 : Vec F S512x256 .bf16) (x2 : Vec F S512x256 .bf16) (x3 : Vec F S2048x256 .f32) (x4 : Vec F S256 .f32) (x5 : Vec F S256 .f32) (xs0 : Vec F S2048x1 .f32) (xs1 : Vec F S2048x1 .f32) (xs2 : Vec F S2048x256 .f32) :
    out3_C_6 c i arg2 harg2 arg3 harg3 arg4 harg4 arg5 harg5 arg6 harg6 arg7 harg7 arg8 harg8 arg9 harg9 arg10 harg10 arg11 harg11 hc0 hc1 x0 x1 x2 x3 x4 x5 xs0 xs1 xs2 = k3_pay3 (k3_pay1 (k3_pay12 x0 x1 x2 xs0 xs2)) (k3_pay11 x0 x1 xs0 xs1) x3 x4 x5 := by
  unfold out3_C_6
  rw [View.read_writes_eq_canon _ _ _ (cover3_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  exact pcs1_C_6 c i arg2 harg2 arg3 harg3 arg4 harg4 arg5 harg5 arg6 harg6 arg7 harg7 arg8 harg8 arg9 harg9 arg10 harg10 arg11 harg11 hc0 hc1 x0 x1 x2 x3 x4 x5 xs0 xs1 xs2

/-! ## The carried scratch point by point -/

variable (V : (c : Dev nD) → (b : Ref sig .tc) → Buf (Elt F) ((c : Thread nD τ).loc b))

/-- At the first key block of a query block the scratch is reset and then updated. -/
theorem scr1_A (c : Dev nD) (t : Fin cfg3.N) (h0 : t.val % 16 = 0) (h1 : ¬t.val % 16 = 15) :
    (outsAt3 V c t.val t.isLt).2 = (k3_pay2 (k3_pay8 (iblk3 V c 0 t) (iblk3 V c 1 t) k3_pay4), k3_pay11 (iblk3 V c 0 t) (iblk3 V c 1 t) k3_pay4 k3_pay5, k3_pay1 (k3_pay12 (iblk3 V c 0 t) (iblk3 V c 1 t) (iblk3 V c 2 t) k3_pay4 k3_pay6)) := by
  rw [outsAt3_A V c t h0 h1]
  dsimp only
  exact congr (congrArg Prod.mk (sout3_A_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t))) (congr (congrArg Prod.mk (sout3_A_1_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t))) (sout3_A_2_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)))

/-- At a later key block the scratch is updated from what the point before left. -/
theorem scr1_BC (c : Dev nD) (t : Fin cfg3.N) (h0 : ¬t.val % 16 = 0) :
    (outsAt3 V c t.val t.isLt).2 = (k3_pay2 (k3_pay8 (iblk3 V c 0 t) (iblk3 V c 1 t) (outsAt3 V c (t.val - 1) (Nat.lt_of_le_of_lt (Nat.sub_le _ _) t.isLt)).2.1), k3_pay11 (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2.1, k3_pay1 (k3_pay12 (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.2)) := by
  by_cases h1 : t.val % 16 = 15
  · rw [outsAt3_C V c t h0 h1]
    dsimp only
    exact congr (congrArg Prod.mk (sout3_C_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2)) (congr (congrArg Prod.mk (sout3_C_1_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2)) (sout3_C_2_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2))
  · rw [outsAt3_B V c t h0 h1]
    dsimp only
    exact congr (congrArg Prod.mk (sout3_B_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2)) (congr (congrArg Prod.mk (sout3_B_1_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2)) (sout3_B_2_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2))

/-- At the last key block the output's buffer gets the normalised quotient of the updated accumulator by the updated sum, plus the residual. -/
theorem out3_C (c : Dev nD) (t : Fin cfg3.N) (h0 : ¬t.val % 16 = 0) (h1 : t.val % 16 = 15) :
    (outsAt3 V c t.val t.isLt).1 = k3_pay3 (k3_pay1 (k3_pay12 (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.2)) (k3_pay11 (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2.1) (iblk3 V c 3 t) (iblk3 V c 4 t) (iblk3 V c 5 t) := by
  rw [outsAt3_C V c t h0 h1]
  dsimp only
  exact out3_C_6_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2

/-- The same point read at two spellings of its position. -/
theorem outsAt3_congr (c : Dev nD) (n m : ℕ) (h : n = m) (hn : n < cfg3.N) (hm : m < cfg3.N) : outsAt3 V c n hn = outsAt3 V c m hm := by
  subst h; rfl

end Cert.KernelIdeal.Val3

end
-- ==== Proof.Val.V3.lean ====
/-
  Region 3, from blocks to the array. The attention region's output window 6 is written back only at the last key
  step of each query block (points t with t mod 16 = 15), and the block written there is rows
  2048·(t / 16) … 2048·(t / 16) + 2047 of the output array. So when, at every such point, the output's buffer holds
  that block of rows of a real array G, the array after the region holds G: row r lies in the block written at
  point 16·(r / 2048) + 15.
-/
import proofs.«422171_j68341519614500_3_alg».proof.Proof.KI.F3
import proofs.«422171_j68341519614500_3_alg».proof.Proof.Val.V1i
import proofs.«422171_j68341519614500_3_alg».proof.Proof.Val.RealSpec
import Idealize.ShloMosaic.Lib.ValueIdx
import Idealize.ShloMosaic.Lib.Pipeline.Value

set_option maxRecDepth 16384

noncomputable section

namespace Cert.KernelIdeal.Val
end Cert.KernelIdeal.Val
namespace Cert.KernelIdeal.Val3
open Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.RealSpec

variable (V : (c : Dev nD) → (b : Ref sig .tc) → Buf (Elt Ideal) ((c : Thread nD τ).loc b)) (c : Dev nD)

/-- The grid has sixty-four points: four query blocks times sixteen key blocks. -/
theorem N1' : cfg3.N = 64 := N_3

/-- A point's query block number is below four. -/
theorem blk1_lt (t : Fin cfg3.N) : t.val / 16 < 4 := by
  have := t.isLt; have h := N1'; omega

/-- A matrix of 8192 rows read where block b's index lands is the block of rows read at the index. -/
theorem toE2_rowBlk1_apply (G : Mat 8192 256) (b : ℕ) (hb : b < 4) (y : S2048x256.Idx) (k : S8192x256.Idx)
    (hk0 : (k 0).val = 2048 * b + (y 0).val) (hk1 : (k 1).val = (y 1).val) :
    toE2 G k = toE2 (rowBlk1 G b hb) y := by
  show ((G (k 0) (k 1) : ℝ) : EReal) = ((G ⟨2048 * b + (y 0).val, _⟩ (y 1) : ℝ) : EReal)
  exact congrArg (fun r : ℝ => (r : EReal)) (congrArg₂ G (Fin.ext hk0) (Fin.ext hk1))

/-- Window 6's block index at point t is the query block t / 16 along the rows and 0 along the columns. -/
theorem idx1_6 : ∀ t : Fin cfg3.N, win3_6.index t (0 : Fin 2) = t.val / 16 ∧ win3_6.index t (1 : Fin 2) = 0 :=
  (by decide +kernel : ∀ t : Fin grid3.N, _)

/-- Window 6's block at point t of a real matrix is its block of rows number t / 16. -/
theorem read_blk1_6 (G : Mat 8192 256) (t : Fin cfg3.N) :
    ((cfg3.win 6).blk t).view.read (Elt Ideal) (toE2 G : S8192x256.Idx → Elt Ideal .f32)
      = (toE2 (rowBlk1 G (t.val / 16) (blk1_lt t)) : S2048x256.Idx → Elt Ideal .f32) := by
  obtain ⟨e0, e1⟩ := idx1_6 t
  funext y
  rw [View.read_apply]
  refine toE2_rowBlk1_apply G (t.val / 16) (blk1_lt t) y _ ?_ ?_
  · show win3_6.index t (0 : Fin 2) * 2048 + 1 * (y 0).val = 2048 * (t.val / 16) + (y 0).val
    rw [e0]; omega
  · show win3_6.index t (1 : Fin 2) * 256 + 1 * (y 1).val = (y 1).val
    rw [e1]; omega

/-! ## What a writing point writes back, the cover, the array after the region -/

/-- What a point t that writes back writes through window 6 is block t / 16 of G, when the output's buffer holds it there. -/
theorem flushed1_6 (G : Mat 8192 256)
    (hfl : ∀ (t : Fin cfg3.N) (h15 : t.val % 16 = 15),
      (outsAt3 (F := Ideal) V c t.val t.isLt).1 = (toE2 (rowBlk1 G (t.val / 16) (blk1_lt t)) : S2048x256.Idx → Elt Ideal .f32))
    (t : Fin cfg3.N) (hf : (cfg3.win 6).flush t = true) :
    (dat3 (F := Ideal) V c).flushed 6 t = ((cfg3.win 6).blk t).view.read (Elt Ideal) (toE2 G : S8192x256.Idx → Elt Ideal .f32) := by
  have h15 : t.val % 16 = 15 := (flush3_6 t).mp hf
  show (cfg3.win 6).cut (grid3.coords t) ((dat3 (F := Ideal) V c).after 6 t) = _
  rw [after3_6, read_blk1_6 G t]
  exact hfl t h15

/-- An index of the array is in point t's block iff each coordinate is in the block's range on its axis. -/
theorem mem_blk1_6 (t : Fin cfg3.N) (i : S8192x256.Idx) :
    i ∈ ((cfg3.win 6).blk t).view.set ↔ ∀ a : Fin 2, win3_6.index t a * S2048x256.size a ≤ (i a).val ∧ (i a).val < win3_6.index t a * S2048x256.size a + S2048x256.size a := by
  show i ∈ ((View.whole main_v3).slice (win3_6.rect t)).set ↔ _
  rw [View.set_slice_whole, Rect.mem_set_unit]
  exact Iff.rfl

/-- Row r of the array is in the block of point 16·(r / 2048) + 15, which writes back. -/
theorem covered1_6 (i : S8192x256.Idx) :
    ∃ t : Fin cfg3.N, (cfg3.win 6).flush t = true ∧ i ∈ ((cfg3.win 6).blk t).view.set := by
  have hi0 : (i 0).val < 8192 := (i 0).isLt
  have hi1 : (i 1).val < 256 := (i 1).isLt
  obtain ⟨t, ht⟩ : ∃ t : Fin cfg3.N, t.val = 16 * ((i 0).val / 2048) + 15 :=
    ⟨⟨16 * ((i 0).val / 2048) + 15, by have h := N1'; omega⟩, rfl⟩
  obtain ⟨e0, e1⟩ := idx1_6 t
  refine ⟨t, (flush3_6 t).mpr (by omega), ?_⟩
  rw [mem_blk1_6]
  intro a
  match a with
  | ⟨0, _⟩ => show win3_6.index t (0 : Fin 2) * 2048 ≤ (i 0).val ∧ (i 0).val < win3_6.index t (0 : Fin 2) * 2048 + 2048; rw [e0, ht]; omega
  | ⟨1, _⟩ => show win3_6.index t (1 : Fin 2) * 256 ≤ (i 1).val ∧ (i 1).val < win3_6.index t (1 : Fin 2) * 256 + 256; rw [e1]; omega

/-- The array of window 6 after the region holds G, when at every writing point the output's buffer holds its block of G. -/
theorem final1_6_of_flushed (G : Mat 8192 256)
    (hfl : ∀ (t : Fin cfg3.N) (h15 : t.val % 16 = 15),
      (outsAt3 (F := Ideal) V c t.val t.isLt).1 = (toE2 (rowBlk1 G (t.val / 16) (blk1_lt t)) : S2048x256.Idx → Elt Ideal .f32)) :
    (dat3 (F := Ideal) V c).arrAt 6 cfg3.N = (toE2 G : S8192x256.Idx → Elt Ideal .f32) :=
  (dat3 (F := Ideal) V c).arrAt_eq_of_cover 6 (toE2 G : S8192x256.Idx → Elt Ideal .f32)
    (fun t hf => flushed1_6 V c G hfl t hf) covered1_6

end Cert.KernelIdeal.Val3

end
-- ==== Proof.Val.FlashPay3.lean ====
/-
  The arithmetic of one step of the running softmax, and of its reset and stored values, on REAL arrays: for a block of
  queries q, a block of keys k and of values v, the running maximum mm, the running sum l and the accumulator acc, each
  value the step computes is the reading of a real array — the reset values (one real number, 0, 0); the new maximum
  (some real array m'; which one never matters: the ratio of accumulator to sum does not depend on it); the new sum
  exp(mm − m')·l + Σⱼ exp(sᵢⱼ − m'); the new accumulator exp(mm − m')·acc + Σⱼ exp(sᵢⱼ − m')·vⱼ, with s the scores q·kᵀ.
-/
import proofs.«422171_j68341519614500_3_alg».proof.Proof.Gen.KernelIdeal.Skeleton
import proofs.«422171_j68341519614500_3_alg».proof.Proof.Val.RealSpec
import proofs.«422171_j68341519614500_3_alg».proof.Proof.Val.Consts
import proofs.«422171_j68341519614500_3_alg».proof.Proof.Val.FlashLib

noncomputable section

open scoped BigOperators

namespace Cert.KernelIdeal.Val

open Idealize.ShloMosaic Idealize.ShloMosaic.ValueIdx
open Cert.KernelIdeal Cert.KernelIdeal.Gen Cert.RealSpec Cert.KernelIdeal.FlashLib

/-! ## The reset values -/

/-- The running maximum starts from one real number everywhere. -/
theorem k3_pay4_coe : ∃ r : ℝ, k3_pay4 (F := Ideal) = toE2 (fun _ _ => r) := by
  obtain ⟨r, hr⟩ := Cert.Consts.ofBits_negbig
  refine ⟨r, ext2 fun p q => ?_⟩
  unfold k3_pay4
  simp only [shapeCast_self, broadcast_apply, toE2_ix2, scalar_ofBits]
  exact hr

/-- The running sum starts from zero. -/
theorem k3_pay5_coe : k3_pay5 (F := Ideal) = toE2 (fun _ _ => (0 : ℝ)) := by
  refine ext2 fun p q => ?_
  unfold k3_pay5
  simp only [shapeCast_self, broadcast_apply, toE2_ix2, scalar_ofBits]
  exact Cert.Consts.ofBits_zero

/-- The accumulator starts from zero. -/
theorem k3_pay6_coe : k3_pay6 (F := Ideal) = toE2 (fun _ _ => (0 : ℝ)) := by
  refine ext2 fun p q => ?_
  unfold k3_pay6
  simp only [shapeCast_self, broadcast_apply, toE2_ix2, scalar_ofBits]
  exact Cert.Consts.ofBits_zero

/-! ## The values as stored: casts to the same shape -/

theorem k3_pay1_coe (x : Mat 2048 256) : k3_pay1 (F := Ideal) (toE2 x) = toE2 x := by
  unfold k3_pay1
  exact shapeCast_self _ _

theorem k3_pay2_coe (x : Mat 2048 1) : k3_pay2 (F := Ideal) (toE2 x) = toE2 x := by
  unfold k3_pay2
  exact shapeCast_self _ _

/-! ## One step of the running softmax -/

variable (q : Mat 2048 256) (k v : Mat 512 256) (mm l : Mat 2048 1) (acc res : Mat 2048 256) (γ β : Vc 256)

/-- The score block at `(r, j)`. -/
theorem k3_pay7_apply (r : Fin 2048) (j : Fin 512) :
    k3_pay7 (F := Ideal) (toE2 q) (toE2 k) (ix2 r j) = ((score q k r j : ℝ) : EReal) := by
  unfold k3_pay7
  simp only [shapeCast_self]
  exact qk_apply q k _ r j

/-- The new running maximum at row `r`: the old one against the fold of `max` from ⊥ over the row's scores. -/
theorem k3_pay8_apply (r : Fin 2048) (c : Fin 1) :
    k3_pay8 (F := Ideal) (toE2 q) (toE2 k) (toE2 mm) (ix2 r c)
      = max ((mm r c : ℝ) : EReal) ((Finset.univ : Finset (Fin 512)).fold max ⊥ (fun j => ((score q k r j : ℝ) : EReal))) := by
  unfold k3_pay8
  refine (maximumf_apply _ _ _).trans (congrArg₂ max (toE2_ix2 mm r c) ?_)
  refine (shapeCast_a_a1_apply _ _ r c).trans ((rowmax_apply _ _ _ _ r).trans ?_)
  exact congrArg (fun g => (Finset.univ : Finset (Fin 512)).fold max ⊥ g) (funext fun j => k3_pay7_apply q k r j)

/-- The new running maximum is a real array. -/
theorem k3_pay8_coe : ∃ m' : Mat 2048 1, k3_pay8 (F := Ideal) (toE2 q) (toE2 k) (toE2 mm) = toE2 m' := by
  have h : ∀ (r : Fin 2048) (c : Fin 1), ∃ z : ℝ, k3_pay8 (F := Ideal) (toE2 q) (toE2 k) (toE2 mm) (ix2 r c) = (z : EReal) :=
    fun r c => by
      rw [k3_pay8_apply]
      exact max_coe_real _ _ (fold_max_ne_top _ _ _ (by simp) (fun j => EReal.coe_ne_top _))
  choose m' hm' using h
  exact ⟨m', ext2 fun p c => (hm' p c).trans (toE2_ix2 m' p c).symm⟩

variable (m' : Mat 2048 1) (h8 : k3_pay8 (F := Ideal) (toE2 q) (toE2 k) (toE2 mm) = toE2 m')
include h8

/-- The rescaling factor of the old sum and accumulator at row `r`. -/
theorem k3_pay9_apply (r : Fin 2048) (c : Fin 1) :
    k3_pay9 (F := Ideal) (toE2 q) (toE2 k) (toE2 mm) (ix2 r c) = ((Real.exp (mm r c - m' r c) : ℝ) : EReal) := by
  unfold k3_pay9
  rw [h8]
  refine (exp_apply _ _).trans ((congrArg Ideal.exp ((subf_apply _ _ _).trans
    (congrArg₂ (· - ·) (toE2_ix2 mm r c) (toE2_ix2 m' r c)))).trans ?_)
  rw [← EReal.coe_sub, Ideal.exp_coe]

/-- The weight of key `j` for query row `r`. -/
theorem k3_pay10_apply (r : Fin 2048) (j : Fin 512) :
    k3_pay10 (F := Ideal) (toE2 q) (toE2 k) (toE2 mm) (ix2 r j) = ((Real.exp (score q k r j - m' r 0) : ℝ) : EReal) := by
  unfold k3_pay10
  rw [h8]
  refine (exp_apply _ _).trans ((congrArg Ideal.exp ((subf_apply _ _ _).trans
    (congrArg₂ (· - ·) (k3_pay7_apply q k r j) ((broadcastTo_a1_ab_apply _ _ r j).trans (toE2_ix2 m' r 0))))).trans ?_)
  rw [← EReal.coe_sub, Ideal.exp_coe]

/-- The new running sum. -/
theorem k3_pay11_coe :
    k3_pay11 (F := Ideal) (toE2 q) (toE2 k) (toE2 mm) (toE2 l)
      = toE2 (fun r _ => Real.exp (mm r 0 - m' r 0) * l r 0 + ∑ j, Real.exp (score q k r j - m' r 0)) := by
  refine ext2 fun r c => ?_
  obtain rfl : c = 0 := Subsingleton.elim _ _
  unfold k3_pay11
  refine (congrFun (shapeCast_self _ _) _).trans ((addf_apply _ _ _).trans ((congrArg₂ (· + ·)
    ((mulf_apply _ _ _).trans (congrArg₂ (· * ·) (k3_pay9_apply q k mm m' h8 r 0) (toE2_ix2 l r 0)))
    ((shapeCast_a_a1_apply _ _ r 0).trans ((rowsum_apply _ _ _ _ r).trans
      (Finset.sum_congr rfl fun j _ => k3_pay10_apply q k mm m' h8 r j)))).trans ?_))
  rw [toE2_ix2, EReal.coe_add, EReal.coe_mul, coe_sum]

/-- The new accumulator. -/
theorem k3_pay12_coe :
    k3_pay12 (F := Ideal) (toE2 q) (toE2 k) (toE2 v) (toE2 mm) (toE2 acc)
      = toE2 (fun r c => Real.exp (mm r 0 - m' r 0) * acc r c + ∑ j, Real.exp (score q k r j - m' r 0) * v j c) := by
  refine ext2 fun r c => ?_
  have hmat : ∀ (P : FVec Ideal S2048x512 .bf16) (_ : ∀ j, P (ix2 r j) = ((Real.exp (score q k r j - m' r 0) : ℝ) : EReal))
      (W : FVec Ideal S512x256 .bf16) (_ : W = toE2 v),
      matmul (F := Ideal) (φ₁ := .bf16) (φ₂ := .bf16) dot_S2048x512_S512x256_S2048x256_1_0_0_1_n_n none P W (constant S2048x256 .f32 0x00000000#32) (ix2 r c)
        = ∑ j : Fin 512, ((Real.exp (score q k r j - m' r 0) : ℝ) : EReal) * ((v j c : ℝ) : EReal) := by
    intro P hP W hW
    subst hW
    exact (pv_apply P v r c).trans (Finset.sum_congr rfl fun j _ => by rw [hP j])
  unfold k3_pay12
  refine (addf_apply _ _ _).trans ((congrArg₂ (· + ·)
    ((mulf_apply _ _ _).trans (congrArg₂ (· * ·)
      ((broadcastTo_a1_ab_apply _ _ r c).trans (k3_pay9_apply q k mm m' h8 r 0)) (toE2_ix2 acc r c)))
    (hmat _ ?_ _ ?_)).trans ?_)
  · intro j
    exact (truncf_apply (φ := .f32) (ψ := .bf16) (k3_pay10 (F := Ideal) (toE2 q) (toE2 k) (toE2 mm)) _ (ix2 r j)).trans
      (k3_pay10_apply q k mm m' h8 r j)
  · exact shapeCast_self _ _
  · rw [toE2_ix2, EReal.coe_add, EReal.coe_mul, coe_sum]
    simp only [EReal.coe_mul]

end Cert.KernelIdeal.Val

end
-- ==== Proof.Val.FlashEpi3.lean ====
import proofs.«422171_j68341519614500_3_alg».proof.Proof.Val.V4
import proofs.«422171_j68341519614500_3_alg».proof.Proof.Gen.KernelIdeal.Skeleton
import proofs.«422171_j68341519614500_3_alg».proof.Proof.Val.RealSpec
import proofs.«422171_j68341519614500_3_alg».proof.Proof.Val.Consts

/-! # The attention kernel's closing step on real arrays

When the last block of keys has been folded in, the kernel divides the accumulated numerator by the accumulated
denominator (one real per row, never zero), adds the residual rows, and layer-normalises the result over its 256
columns. On real arrays every operation of extended reals is the same operation of reals, so the stored value is the
real layer normalisation of `acc / l + res`. -/

noncomputable section

open scoped BigOperators

namespace Cert.KernelIdeal.Val

open Idealize.ShloMosaic Idealize.ShloMosaic.TcCoe Idealize.ShloMosaic.ValueIdx
open Cert.RealSpec Cert.KernelIdeal Cert.KernelIdeal.Gen

/-- A real array of one column is the column of its entries. -/
theorem k3_toE2_col {a : ℕ} (l : Mat a 1) : toE2 l = toEc fun r => l r 0 := by
  funext i
  obtain ⟨p, u, rfl⟩ : ∃ (p : Fin a) (u : Fin 1), i = ix2 p u := ⟨i 0, i 1, eq_ix2 i⟩
  show ((l p u : ℝ) : EReal) = ((l p 0 : ℝ) : EReal)
  rw [Subsingleton.elim u 0]

/-- The quotient of two real arrays, the divisor nowhere zero. -/
theorem k3_divf_toE2 {a b : ℕ} (x y : Mat a b) (hy : ∀ i j, y i j ≠ 0) :
    divf (F := Ideal) (φ := .f32) (toE2 x) (toE2 y) = toE2 fun i j => x i j / y i j := by
  funext i
  obtain ⟨p, q, rfl⟩ : ∃ (p : Fin a) (q : Fin b), i = ix2 p q := ⟨i 0, i 1, eq_ix2 i⟩
  show Ideal.div ((x p q : ℝ) : EReal) ((y p q : ℝ) : EReal) = ((x p q / y p q : ℝ) : EReal)
  rw [Ideal.div_coe (hy p q), ← EReal.coe_mul, mul_one_div]

/-- The closing step's stored value on real arrays: the layer normalisation of numerator over denominator plus the
    residual. -/
theorem k3_pay3_coe (acc res : Mat 2048 256) (l : Mat 2048 1) (γ β : Vc 256) (hl : ∀ r, l r 0 ≠ 0) :
    k3_pay3 (F := Ideal) (toE2 acc) (toE2 l) (toE2 res) (toE1 γ) (toE1 β)
      = toE2 (lnorm cN cEps (fun r c => acc r c / l r 0 + res r c) γ β) := by
  unfold k3_pay3
  simp only [k3_toE2_col, bcastCol_eq, rowBias_eq]
  rw [k3_divf_toE2]
  rotate_left
  · exact fun i _ => hl i
  simp only [addf_toE2]
  rw [rowSum_eq]
  simp only [castCol_eq, divN_toEc, bcastCol_eq, subf_toE2, mulf_toE2]
  rw [rowSum_eq]
  simp only [castCol_eq, divN_toEc, addEps_toEc]
  rw [rsqrt_toEc]
  · simp only [bcastCol_eq, mulf_toE2, addf_toE2]
    congr 1
  · intro i
    exact add_pos_of_nonneg_of_pos (div_nonneg (Finset.sum_nonneg fun j _ => mul_self_nonneg _) (by norm_num)) cEps_pos

end Cert.KernelIdeal.Val

end
-- ==== Proof.Val.V3b.lean ====
/-
  Region 3 at the ideal instance, on real arrays: the input windows' blocks as blocks of rows of their arrays; the
  three carried scratch after each grid point — the running maximum some reals, the running sum and the accumulator
  the softmax denominator and numerator over the key blocks done, relative to those reals — by induction over the
  points; what the last key block of a query block stores into the output's buffer: the rows of the attention
  block with its residual, layer-normalised (a common shift of the exponents cancels in the quotient); and the
  output array after the region.
-/
import proofs.«422171_j68341519614500_3_alg».proof.Proof.Val.V3a
import proofs.«422171_j68341519614500_3_alg».proof.Proof.Val.V3
import proofs.«422171_j68341519614500_3_alg».proof.Proof.Val.V1i
import proofs.«422171_j68341519614500_3_alg».proof.Proof.Val.RealSpec
import proofs.«422171_j68341519614500_3_alg».proof.Proof.Val.Online
import proofs.«422171_j68341519614500_3_alg».proof.Proof.Val.FlashPay3
import proofs.«422171_j68341519614500_3_alg».proof.Proof.Val.FlashEpi3
import Idealize.ShloMosaic.Lib.ValueIdx
import Idealize.ShloMosaic.Lib.Pipeline.Value

set_option maxRecDepth 16384

noncomputable section

open scoped BigOperators

namespace Cert.KernelIdeal.Val
end Cert.KernelIdeal.Val
namespace Cert.KernelIdeal.Val3
open Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.RealSpec

/-! ## Blocks of rows, and the partial sums over the key blocks done -/

/-- The grid has 64 points: 4 query blocks by 16 key blocks. -/
theorem N1q : cfg3.N = 64 := N_3

/-- The query block of point `t`. -/
def qi1 (t : Fin cfg3.N) : Fin 4 := ⟨t.val / 16, by have := t.isLt; have h := N1q; omega⟩
/-- The key block of point `t`. -/
def ki1 (t : Fin cfg3.N) : Fin 16 := ⟨t.val % 16, Nat.mod_lt _ (by decide)⟩

/-- Rows 2048·qi … 2048·qi + 2047 of a matrix of 8192 rows. -/
def qrows1 (G : Mat 8192 256) (qi : Fin 4) : Mat 2048 256 :=
  fun r k => G ⟨qi.val * 2048 + r.val, by have := qi.isLt; have := r.isLt; omega⟩ k
/-- Rows 512·ki … 512·ki + 511 of a matrix of 8192 rows. -/
def krows1 (G : Mat 8192 256) (ki : Fin 16) : Mat 512 256 :=
  fun r k => G ⟨ki.val * 512 + r.val, Cert.Online.key_lt ki.isLt r⟩ k

/-- The denominator over the first `kb` key blocks, relative to the reference points `M`. -/
def den1 (q : Mat 2048 256) (K : Mat 8192 256) (kb : ℕ) (M : Mat 2048 1) : Mat 2048 1 :=
  fun r _ => ∑ b : Fin 16, (if b.val < kb then ∑ j : Fin 512, Real.exp (score q K r ⟨b.val * 512 + j.val, Cert.Online.key_lt b.isLt j⟩ - M r 0) else 0)
/-- The numerator over the first `kb` key blocks, relative to the reference points `M`. -/
def num1 (q : Mat 2048 256) (K Vv : Mat 8192 256) (kb : ℕ) (M : Mat 2048 1) : Mat 2048 256 :=
  fun r c => ∑ b : Fin 16, (if b.val < kb then ∑ j : Fin 512, Real.exp (score q K r ⟨b.val * 512 + j.val, Cert.Online.key_lt b.isLt j⟩ - M r 0) * Vv ⟨b.val * 512 + j.val, Cert.Online.key_lt b.isLt j⟩ c else 0)

theorem den1_zero (q : Mat 2048 256) (K : Mat 8192 256) (M : Mat 2048 1) : den1 q K 0 M = fun _ _ => 0 := by
  funext r c; unfold den1; simp
theorem num1_zero (q : Mat 2048 256) (K Vv : Mat 8192 256) (M : Mat 2048 1) : num1 q K Vv 0 M = fun _ _ => 0 := by
  funext r c; unfold num1; simp

/-- The scores against a block of keys are the scores against those keys. -/
theorem score_krows1 (q : Mat 2048 256) (K : Mat 8192 256) (kb : Fin 16) (r : Fin 2048) (j : Fin 512) :
    score q (krows1 K kb) r j = score q K r ⟨kb.val * 512 + j.val, Cert.Online.key_lt kb.isLt j⟩ := rfl

/-- One more key block: the denominator rescaled to the new reference points plus the block's terms. -/
theorem den1_step (q : Mat 2048 256) (K : Mat 8192 256) (kb : Fin 16) (M m' : Mat 2048 1) :
    (fun (r : Fin 2048) (_ : Fin 1) => Real.exp (M r 0 - m' r 0) * den1 q K kb.val M r 0 + ∑ j : Fin 512, Real.exp (score q (krows1 K kb) r j - m' r 0))
      = den1 q K (kb.val + 1) m' := by
  funext r c
  unfold den1
  rw [Cert.Online.shift_sum_one (fun (b : Fin 16) (j : Fin 512) => score q K r ⟨b.val * 512 + j.val, Cert.Online.key_lt b.isLt j⟩) kb.val (M r 0) (m' r 0),
    Cert.Online.step (fun b : Fin 16 => ∑ j : Fin 512, Real.exp (score q K r ⟨b.val * 512 + j.val, Cert.Online.key_lt b.isLt j⟩ - m' r 0)) kb.val kb.isLt]
  rfl

/-- One more key block: the numerator likewise. -/
theorem num1_step (q : Mat 2048 256) (K Vv : Mat 8192 256) (kb : Fin 16) (M m' : Mat 2048 1) :
    (fun (r : Fin 2048) (c : Fin 256) => Real.exp (M r 0 - m' r 0) * num1 q K Vv kb.val M r c + ∑ j : Fin 512, Real.exp (score q (krows1 K kb) r j - m' r 0) * krows1 Vv kb j c)
      = num1 q K Vv (kb.val + 1) m' := by
  funext r c
  unfold num1
  rw [Cert.Online.shift_sum (fun (b : Fin 16) (j : Fin 512) => score q K r ⟨b.val * 512 + j.val, Cert.Online.key_lt b.isLt j⟩) (fun (b : Fin 16) (j : Fin 512) => Vv ⟨b.val * 512 + j.val, Cert.Online.key_lt b.isLt j⟩ c) kb.val (M r 0) (m' r 0),
    Cert.Online.step (fun b : Fin 16 => ∑ j : Fin 512, Real.exp (score q K r ⟨b.val * 512 + j.val, Cert.Online.key_lt b.isLt j⟩ - m' r 0) * Vv ⟨b.val * 512 + j.val, Cert.Online.key_lt b.isLt j⟩ c) kb.val kb.isLt]
  rfl

/-- After all 16 key blocks the denominator is positive. -/
theorem den1_all_pos (q : Mat 2048 256) (K : Mat 8192 256) (M : Mat 2048 1) (r : Fin 2048) : 0 < den1 q K 16 M r 0 := by
  unfold den1
  have e : ∀ b : Fin 16, (if b.val < 16 then ∑ j : Fin 512, Real.exp (score q K r ⟨b.val * 512 + j.val, Cert.Online.key_lt b.isLt j⟩ - M r 0) else 0)
      = ∑ j : Fin 512, Real.exp (score q K r ⟨b.val * 512 + j.val, Cert.Online.key_lt b.isLt j⟩ - M r 0) := fun b => if_pos b.isLt
  simp only [e]
  exact Cert.Online.den_pos (by decide) (by decide) (fun (b : Fin 16) (j : Fin 512) => score q K r ⟨b.val * 512 + j.val, Cert.Online.key_lt b.isLt j⟩) (M r 0)

/-- After all 16 key blocks numerator over denominator is the attention average, whatever the reference points. -/
theorem ratio1_all (q : Mat 2048 256) (K Vv : Mat 8192 256) (M : Mat 2048 1) (r : Fin 2048) (c : Fin 256) :
    num1 q K Vv 16 M r c / den1 q K 16 M r 0 = attn q K Vv r c := by
  unfold num1 den1
  have e1 : ∀ b : Fin 16, (if b.val < 16 then ∑ j : Fin 512, Real.exp (score q K r ⟨b.val * 512 + j.val, Cert.Online.key_lt b.isLt j⟩ - M r 0) else 0)
      = ∑ j : Fin 512, Real.exp (score q K r ⟨b.val * 512 + j.val, Cert.Online.key_lt b.isLt j⟩ - M r 0) := fun b => if_pos b.isLt
  have e2 : ∀ b : Fin 16, (if b.val < 16 then ∑ j : Fin 512, Real.exp (score q K r ⟨b.val * 512 + j.val, Cert.Online.key_lt b.isLt j⟩ - M r 0) * Vv ⟨b.val * 512 + j.val, Cert.Online.key_lt b.isLt j⟩ c else 0)
      = ∑ j : Fin 512, Real.exp (score q K r ⟨b.val * 512 + j.val, Cert.Online.key_lt b.isLt j⟩ - M r 0) * Vv ⟨b.val * 512 + j.val, Cert.Online.key_lt b.isLt j⟩ c := fun b => if_pos b.isLt
  simp only [e1, e2]
  exact Cert.Online.ratio_blocks (nb := 16) (bs := 512) (N := 8192) (by norm_num) (fun x => score q K r x) (fun x => Vv x c) (M r 0) (fun b j => Cert.Online.key_lt b.isLt j)

/-- The attention block of a block of query rows is the block of rows of the whole attention block: rows are independent. -/
theorem attnLN_qrows1 (Q K Vv Res : Mat 8192 256) (γ β : Vc 256) (qi : Fin 4) :
    lnorm cN cEps (fun r c => attn (qrows1 Q qi) K Vv r c + qrows1 Res qi r c) γ β = qrows1 (attnLN cN cEps Q K Vv Res γ β) qi := rfl

/-- A query block of rows in its two spellings. -/
theorem qrows1_eq_rowBlk1 (G : Mat 8192 256) (t : Fin cfg3.N) (h : t.val / 16 < 4) : qrows1 G (qi1 t) = rowBlk1 G (t.val / 16) h := by
  funext r k
  show G ⟨t.val / 16 * 2048 + r.val, _⟩ k = G ⟨2048 * (t.val / 16) + r.val, _⟩ k
  exact congrArg (fun i => G i k) (Fin.ext (by show t.val / 16 * 2048 + r.val = 2048 * (t.val / 16) + r.val; omega))

/-! ## The input windows' blocks read off their arrays -/

variable (V : (c : Dev nD) → (b : Ref sig .tc) → Buf (Elt Ideal) ((c : Thread nD τ).loc b)) (c : Dev nD)

/-- A matrix of 8192 rows read where a query block's index lands is the block of rows read at the index. -/
theorem toE2_qrows1_apply (G : Mat 8192 256) (qi : Fin 4) (y : S2048x256.Idx) (k : S8192x256.Idx)
    (hk0 : (k 0).val = qi.val * 2048 + (y 0).val) (hk1 : (k 1).val = (y 1).val) :
    toE2 G k = toE2 (qrows1 G qi) y := by
  show ((G (k 0) (k 1) : ℝ) : EReal) = ((G ⟨qi.val * 2048 + (y 0).val, _⟩ (y 1) : ℝ) : EReal)
  exact congrArg (fun r : ℝ => (r : EReal)) (congrArg₂ G (Fin.ext hk0) (Fin.ext hk1))

/-- The same for a key block of 512 rows. -/
theorem toE2_krows1_apply (G : Mat 8192 256) (ki : Fin 16) (y : S512x256.Idx) (k : S8192x256.Idx)
    (hk0 : (k 0).val = ki.val * 512 + (y 0).val) (hk1 : (k 1).val = (y 1).val) :
    toE2 G k = toE2 (krows1 G ki) y := by
  show ((G (k 0) (k 1) : ℝ) : EReal) = ((G ⟨ki.val * 512 + (y 0).val, _⟩ (y 1) : ℝ) : EReal)
  exact congrArg (fun r : ℝ => (r : EReal)) (congrArg₂ G (Fin.ext hk0) (Fin.ext hk1))

/-- Window 0's block index at point `t` is the query block `t / 16` along the rows and 0 along the columns. -/
theorem bidx1_0 : ∀ t : Fin cfg3.N, win3_0.index t (0 : Fin 2) = t.val / 16 ∧ win3_0.index t (1 : Fin 2) = 0 :=
  (by decide +kernel : ∀ t : Fin grid3.N, _)

theorem bread1_0 (G : Mat 8192 256) (t : Fin cfg3.N) :
    ((cfg3.win 0).blk t).view.read (Elt Ideal) (toE2 G : S8192x256.Idx → Elt Ideal .bf16) = (toE2 (qrows1 G (qi1 t)) : S2048x256.Idx → Elt Ideal .bf16) := by
  obtain ⟨e0, e1⟩ := bidx1_0 t
  funext y
  rw [View.read_apply]
  refine toE2_qrows1_apply G (qi1 t) y _ ?_ ?_
  · show win3_0.index t (0 : Fin 2) * 2048 + 1 * (y 0).val = t.val / 16 * 2048 + (y 0).val
    rw [e0]; omega
  · show win3_0.index t (1 : Fin 2) * 256 + 1 * (y 1).val = (y 1).val
    rw [e1]; omega

theorem biblk1_0 (G : Mat 8192 256) (hG : (V c main_v2_0 : S8192x256.Idx → Elt Ideal .bf16) = toE2 G) (t : Fin cfg3.N) :
    (iblk3 V c 0 t : Vec Ideal S2048x256 .bf16) = toE2 (qrows1 G (qi1 t)) :=
  (congrArg (((cfg3.win 0).blk t).view.read (Elt Ideal)) hG).trans (bread1_0 G t)

/-- Window 3's block index at point `t` is the query block `t / 16` along the rows and 0 along the columns. -/
theorem bidx1_3 : ∀ t : Fin cfg3.N, win3_3.index t (0 : Fin 2) = t.val / 16 ∧ win3_3.index t (1 : Fin 2) = 0 :=
  (by decide +kernel : ∀ t : Fin grid3.N, _)

theorem bread1_3 (G : Mat 8192 256) (t : Fin cfg3.N) :
    ((cfg3.win 3).blk t).view.read (Elt Ideal) (toE2 G : S8192x256.Idx → Elt Ideal .f32) = (toE2 (qrows1 G (qi1 t)) : S2048x256.Idx → Elt Ideal .f32) := by
  obtain ⟨e0, e1⟩ := bidx1_3 t
  funext y
  rw [View.read_apply]
  refine toE2_qrows1_apply G (qi1 t) y _ ?_ ?_
  · show win3_3.index t (0 : Fin 2) * 2048 + 1 * (y 0).val = t.val / 16 * 2048 + (y 0).val
    rw [e0]; omega
  · show win3_3.index t (1 : Fin 2) * 256 + 1 * (y 1).val = (y 1).val
    rw [e1]; omega

theorem biblk1_3 (G : Mat 8192 256) (hG : (V c main_arg3 : S8192x256.Idx → Elt Ideal .f32) = toE2 G) (t : Fin cfg3.N) :
    (iblk3 V c 3 t : Vec Ideal S2048x256 .f32) = toE2 (qrows1 G (qi1 t)) :=
  (congrArg (((cfg3.win 3).blk t).view.read (Elt Ideal)) hG).trans (bread1_3 G t)

/-- Window 1's block index at point `t` is the key block `t % 16` along the rows and 0 along the columns. -/
theorem bidx1_1 : ∀ t : Fin cfg3.N, win3_1.index t (0 : Fin 2) = t.val % 16 ∧ win3_1.index t (1 : Fin 2) = 0 :=
  (by decide +kernel : ∀ t : Fin grid3.N, _)

theorem bread1_1 (G : Mat 8192 256) (t : Fin cfg3.N) :
    ((cfg3.win 1).blk t).view.read (Elt Ideal) (toE2 G : S8192x256.Idx → Elt Ideal .bf16) = (toE2 (krows1 G (ki1 t)) : S512x256.Idx → Elt Ideal .bf16) := by
  obtain ⟨e0, e1⟩ := bidx1_1 t
  funext y
  rw [View.read_apply]
  refine toE2_krows1_apply G (ki1 t) y _ ?_ ?_
  · show win3_1.index t (0 : Fin 2) * 512 + 1 * (y 0).val = t.val % 16 * 512 + (y 0).val
    rw [e0]; omega
  · show win3_1.index t (1 : Fin 2) * 256 + 1 * (y 1).val = (y 1).val
    rw [e1]; omega

theorem biblk1_1 (G : Mat 8192 256) (hG : (V c main_v2_1 : S8192x256.Idx → Elt Ideal .bf16) = toE2 G) (t : Fin cfg3.N) :
    (iblk3 V c 1 t : Vec Ideal S512x256 .bf16) = toE2 (krows1 G (ki1 t)) :=
  (congrArg (((cfg3.win 1).blk t).view.read (Elt Ideal)) hG).trans (bread1_1 G t)

/-- Window 2's block index at point `t` is the key block `t % 16` along the rows and 0 along the columns. -/
theorem bidx1_2 : ∀ t : Fin cfg3.N, win3_2.index t (0 : Fin 2) = t.val % 16 ∧ win3_2.index t (1 : Fin 2) = 0 :=
  (by decide +kernel : ∀ t : Fin grid3.N, _)

theorem bread1_2 (G : Mat 8192 256) (t : Fin cfg3.N) :
    ((cfg3.win 2).blk t).view.read (Elt Ideal) (toE2 G : S8192x256.Idx → Elt Ideal .bf16) = (toE2 (krows1 G (ki1 t)) : S512x256.Idx → Elt Ideal .bf16) := by
  obtain ⟨e0, e1⟩ := bidx1_2 t
  funext y
  rw [View.read_apply]
  refine toE2_krows1_apply G (ki1 t) y _ ?_ ?_
  · show win3_2.index t (0 : Fin 2) * 512 + 1 * (y 0).val = t.val % 16 * 512 + (y 0).val
    rw [e0]; omega
  · show win3_2.index t (1 : Fin 2) * 256 + 1 * (y 1).val = (y 1).val
    rw [e1]; omega

theorem biblk1_2 (G : Mat 8192 256) (hG : (V c main_v2_2 : S8192x256.Idx → Elt Ideal .bf16) = toE2 G) (t : Fin cfg3.N) :
    (iblk3 V c 2 t : Vec Ideal S512x256 .bf16) = toE2 (krows1 G (ki1 t)) :=
  (congrArg (((cfg3.win 2).blk t).view.read (Elt Ideal)) hG).trans (bread1_2 G t)

/-- Window 4 is its whole array at every point. -/
theorem bidx1_4 : ∀ t : Fin cfg3.N, win3_4.index t (0 : Fin 1) = 0 :=
  (by decide +kernel : ∀ t : Fin grid3.N, _)

theorem bread1_4 (G : S256.Idx → Elt Ideal .f32) (t : Fin cfg3.N) :
    ((cfg3.win 4).blk t).view.read (Elt Ideal) G = G := by
  have e0 := bidx1_4 t
  funext y
  rw [View.read_apply]
  exact congrArg G (funext fun a => Fin.ext (by
    match a with
    | ⟨0, _⟩ => show win3_4.index t (0 : Fin 1) * 256 + 1 * (y 0).val = (y 0).val; rw [e0]; omega))

theorem biblk1_4 (b : Vc 256) (hb : (V c main_arg14 : S256.Idx → Elt Ideal .f32) = toE1 b) (t : Fin cfg3.N) :
    (iblk3 V c 4 t : Vec Ideal S256 .f32) = toE1 b :=
  (congrArg (((cfg3.win 4).blk t).view.read (Elt Ideal)) hb).trans (bread1_4 (toE1 b) t)

/-- Window 5 is its whole array at every point. -/
theorem bidx1_5 : ∀ t : Fin cfg3.N, win3_5.index t (0 : Fin 1) = 0 :=
  (by decide +kernel : ∀ t : Fin grid3.N, _)

theorem bread1_5 (G : S256.Idx → Elt Ideal .f32) (t : Fin cfg3.N) :
    ((cfg3.win 5).blk t).view.read (Elt Ideal) G = G := by
  have e0 := bidx1_5 t
  funext y
  rw [View.read_apply]
  exact congrArg G (funext fun a => Fin.ext (by
    match a with
    | ⟨0, _⟩ => show win3_5.index t (0 : Fin 1) * 256 + 1 * (y 0).val = (y 0).val; rw [e0]; omega))

theorem biblk1_5 (b : Vc 256) (hb : (V c main_arg15 : S256.Idx → Elt Ideal .f32) = toE1 b) (t : Fin cfg3.N) :
    (iblk3 V c 5 t : Vec Ideal S256 .f32) = toE1 b :=
  (congrArg (((cfg3.win 5).blk t).view.read (Elt Ideal)) hb).trans (bread1_5 (toE1 b) t)

/-! ## One key block more: the payloads on the partial sums -/

/-- The update of the three scratch by one key block, on real arrays: the new reference points are some reals, and
    the denominator and numerator over `kb` blocks become those over `kb + 1` blocks relative to them. -/
theorem flash_step1 (q : Mat 2048 256) (K Vv : Mat 8192 256) (kb : Fin 16) (M : Mat 2048 1) :
    ∃ m' : Mat 2048 1,
      k3_pay2 (F := Ideal) (k3_pay8 (toE2 q) (toE2 (krows1 K kb)) (toE2 M)) = toE2 m'
      ∧ k3_pay11 (F := Ideal) (toE2 q) (toE2 (krows1 K kb)) (toE2 M) (toE2 (den1 q K kb.val M)) = toE2 (den1 q K (kb.val + 1) m')
      ∧ k3_pay1 (F := Ideal) (k3_pay12 (toE2 q) (toE2 (krows1 K kb)) (toE2 (krows1 Vv kb)) (toE2 M) (toE2 (num1 q K Vv kb.val M))) = toE2 (num1 q K Vv (kb.val + 1) m') := by
  obtain ⟨m', h8⟩ := k3_pay8_coe (q := q) (k := krows1 K kb) (mm := M)
  refine ⟨m', ?_, ?_, ?_⟩
  · exact (congrArg (k3_pay2 (F := Ideal)) h8).trans (k3_pay2_coe m')
  · exact (k3_pay11_coe (q := q) (k := krows1 K kb) (mm := M) (l := den1 q K kb.val M) m' h8).trans (congrArg toE2 (den1_step q K kb M m'))
  · exact (congrArg (k3_pay1 (F := Ideal)) (k3_pay12_coe (q := q) (k := krows1 K kb) (v := krows1 Vv kb) (mm := M) (acc := num1 q K Vv kb.val M) m' h8)).trans
      ((k3_pay1_coe _).trans (congrArg toE2 (num1_step q K Vv kb M m')))

/-! ## The invariant of the carried scratch -/

/-- The query block of position `n`. -/
def qiN1 (n : ℕ) (hn : n < cfg3.N) : Fin 4 := ⟨n / 16, by have h := N1q; omega⟩
/-- The key block of position `n`. -/
def kiN1 (n : ℕ) : Fin 16 := ⟨n % 16, Nat.mod_lt _ (by decide)⟩

theorem qi1_eq (t : Fin cfg3.N) : qi1 t = qiN1 t.val t.isLt := rfl
theorem ki1_eq (t : Fin cfg3.N) : ki1 t = kiN1 t.val := rfl

section Ind1

variable (Q K Vv : Mat 8192 256)

/-- After position `n` (query block `n / 16`, key blocks `0 … n % 16` done) the running maximum holds some reals and
    the running sum and the accumulator hold the denominator and the numerator over those key blocks relative to them. -/
def Inv1 (n : ℕ) (hn : n < cfg3.N) : Prop :=
  ∃ M : Mat 2048 1, (outsAt3 (F := Ideal) V c n hn).2.1 = toE2 M
    ∧ (outsAt3 (F := Ideal) V c n hn).2.2.1 = toE2 (den1 (qrows1 Q (qiN1 n hn)) K (n % 16 + 1) M)
    ∧ (outsAt3 (F := Ideal) V c n hn).2.2.2 = toE2 (num1 (qrows1 Q (qiN1 n hn)) K Vv (n % 16 + 1) M)

variable (hQ : (V c main_v2_0 : S8192x256.Idx → Elt Ideal .bf16) = toE2 Q) (hK : (V c main_v2_1 : S8192x256.Idx → Elt Ideal .bf16) = toE2 K)
  (hV : (V c main_v2_2 : S8192x256.Idx → Elt Ideal .bf16) = toE2 Vv)
include hQ hK hV

/-- The invariant at the first key block of a query block: the scratch is reset (some real, 0, 0), then updated. -/
theorem inv1_A (t : Fin cfg3.N) (h0 : t.val % 16 = 0) : Inv1 V c Q K Vv t.val t.isLt := by
  have h1 : ¬t.val % 16 = 15 := by omega
  have e := scr1_A (F := Ideal) V c t h0 h1
  obtain ⟨r0, e4⟩ := k3_pay4_coe
  have hk0 : (ki1 t).val = 0 := h0
  obtain ⟨m', s0, s1, s2⟩ := flash_step1 (qrows1 Q (qi1 t)) K Vv (ki1 t) (fun _ _ => r0)
  rw [hk0, den1_zero] at s1
  rw [hk0, num1_zero] at s2
  rw [biblk1_0 V c Q hQ t, biblk1_1 V c K hK t, biblk1_2 V c Vv hV t, e4, k3_pay5_coe, k3_pay6_coe] at e
  unfold Inv1
  refine ⟨m', ?_, ?_, ?_⟩
  · exact (congrArg (fun p => p.1) e).trans s0
  · have := (congrArg (fun p => p.2.1) e).trans s1
    rw [show t.val % 16 + 1 = 0 + 1 from by omega]; exact this
  · have := (congrArg (fun p => p.2.2) e).trans s2
    rw [show t.val % 16 + 1 = 0 + 1 from by omega]; exact this

/-- The invariant at a later key block, from the invariant at the position before. -/
theorem inv1_BC (t : Fin cfg3.N) (h0 : ¬t.val % 16 = 0) (p : ℕ) (hp : p + 1 = t.val) (hp' : p < cfg3.N)
    (hI : Inv1 V c Q K Vv p hp') : Inv1 V c Q K Vv t.val t.isLt := by
  obtain ⟨M, i0, i1, i2⟩ := hI
  have hq : qiN1 p hp' = qi1 t := Fin.ext (by show p / 16 = t.val / 16; omega)
  have hk : p % 16 + 1 = (ki1 t).val := by show p % 16 + 1 = t.val % 16; omega
  rw [hq, hk] at i1 i2
  have ep : outsAt3 (F := Ideal) V c (t.val - 1) (Nat.lt_of_le_of_lt (Nat.sub_le _ _) t.isLt) = outsAt3 (F := Ideal) V c p hp' :=
    outsAt3_congr V c _ _ (by omega) _ _
  have e := scr1_BC (F := Ideal) V c t h0
  rw [ep, i0, i1, i2, biblk1_0 V c Q hQ t, biblk1_1 V c K hK t, biblk1_2 V c Vv hV t] at e
  obtain ⟨m', s0, s1, s2⟩ := flash_step1 (qrows1 Q (qi1 t)) K Vv (ki1 t) M
  unfold Inv1
  refine ⟨m', ?_, ?_, ?_⟩
  · exact (congrArg (fun p => p.1) e).trans s0
  · exact (congrArg (fun p => p.2.1) e).trans s1
  · exact (congrArg (fun p => p.2.2) e).trans s2

/-- The invariant at every position. -/
theorem inv1_all : ∀ (n : ℕ) (hn : n < cfg3.N), Inv1 V c Q K Vv n hn := by
  intro n
  induction n with
  | zero => intro hn; exact inv1_A V c Q K Vv hQ hK hV ⟨0, hn⟩ (Nat.zero_mod _)
  | succ n ih =>
    intro hn
    by_cases h0 : (n + 1) % 16 = 0
    · exact inv1_A V c Q K Vv hQ hK hV ⟨n + 1, hn⟩ h0
    · exact inv1_BC V c Q K Vv hQ hK hV ⟨n + 1, hn⟩ h0 n rfl (Nat.lt_of_succ_lt hn) (ih _)

/-! ## What the last key block of a query block stores into the output's buffer -/

variable (Res : Mat 8192 256) (γ β : Vc 256)
variable (hR : (V c main_arg3 : S8192x256.Idx → Elt Ideal .f32) = toE2 Res) (hγ : (V c main_arg14 : S256.Idx → Elt Ideal .f32) = toE1 γ)
  (hβ : (V c main_arg15 : S256.Idx → Elt Ideal .f32) = toE1 β)
include hR hγ hβ

/-- At the last key block of query block `t / 16` the output's buffer gets rows 2048·(t/16) … of the attention block
    with its residual, layer-normalised. -/
theorem hfl1_6 (t : Fin cfg3.N) (h15 : t.val % 16 = 15) (h : t.val / 16 < 4) :
    (outsAt3 (F := Ideal) V c t.val t.isLt).1 = (toE2 (rowBlk1 (attnLN cN cEps Q K Vv Res γ β) (t.val / 16) h) : S2048x256.Idx → Elt Ideal .f32) := by
  have h0 : ¬t.val % 16 = 0 := by omega
  have hp' : t.val - 1 < cfg3.N := Nat.lt_of_le_of_lt (Nat.sub_le _ _) t.isLt
  obtain ⟨M, i0, i1, i2⟩ := inv1_all V c Q K Vv hQ hK hV (t.val - 1) hp'
  have hq : qiN1 (t.val - 1) hp' = qi1 t := Fin.ext (by show (t.val - 1) / 16 = t.val / 16; omega)
  have hk : (t.val - 1) % 16 + 1 = (ki1 t).val := by show (t.val - 1) % 16 + 1 = t.val % 16; omega
  rw [hq, hk] at i1 i2
  have e := out3_C (F := Ideal) V c t h0 h15
  rw [i0, i1, i2, biblk1_0 V c Q hQ t, biblk1_1 V c K hK t, biblk1_2 V c Vv hV t, biblk1_3 V c Res hR t, biblk1_4 V c γ hγ t, biblk1_5 V c β hβ t] at e
  obtain ⟨m', s0, s1, s2⟩ := flash_step1 (qrows1 Q (qi1 t)) K Vv (ki1 t) M
  have h16 : (ki1 t).val + 1 = 16 := by show t.val % 16 + 1 = 16; omega
  rw [h16] at s1 s2
  rw [s1, s2] at e
  rw [e, k3_pay3_coe (acc := num1 (qrows1 Q (qi1 t)) K Vv 16 m') (l := den1 (qrows1 Q (qi1 t)) K 16 m') (res := qrows1 Res (qi1 t)) (γ := γ) (β := β)
    (fun r => ne_of_gt (den1_all_pos (qrows1 Q (qi1 t)) K m' r))]
  have hr : (fun (r : Fin 2048) (c' : Fin 256) => num1 (qrows1 Q (qi1 t)) K Vv 16 m' r c' / den1 (qrows1 Q (qi1 t)) K 16 m' r 0 + qrows1 Res (qi1 t) r c')
      = fun r c' => attn (qrows1 Q (qi1 t)) K Vv r c' + qrows1 Res (qi1 t) r c' := by
    funext r c'; rw [ratio1_all]
  rw [hr, attnLN_qrows1, qrows1_eq_rowBlk1 _ t h]

end Ind1

/-! ## The array after the region -/

/-- The output array of region 3 after the region: the attention block of the whole arrays with its residual,
    layer-normalised. -/
theorem final3_6 (Q K Vv Res : Mat 8192 256) (γ β : Vc 256)
    (hQ : (V c main_v2_0 : S8192x256.Idx → Elt Ideal .bf16) = toE2 Q) (hK : (V c main_v2_1 : S8192x256.Idx → Elt Ideal .bf16) = toE2 K)
    (hV : (V c main_v2_2 : S8192x256.Idx → Elt Ideal .bf16) = toE2 Vv) (hR : (V c main_arg3 : S8192x256.Idx → Elt Ideal .f32) = toE2 Res)
    (hγ : (V c main_arg14 : S256.Idx → Elt Ideal .f32) = toE1 γ) (hβ : (V c main_arg15 : S256.Idx → Elt Ideal .f32) = toE1 β) :
    (dat3 (F := Ideal) V c).arrAt 6 cfg3.N = (toE2 (attnLN cN cEps Q K Vv Res γ β) : S8192x256.Idx → Elt Ideal .f32) :=
  final1_6_of_flushed V c (attnLN cN cEps Q K Vv Res γ β)
    (fun t h15 => hfl1_6 V c Q K Vv hQ hK hV Res γ β hR hγ hβ t h15 (blk1_lt t))

end Cert.KernelIdeal.Val3

end
-- ==== Proof.Val.Finite.lean ====
/-
  Finiteness from the precondition. The precondition says, of each of the sixteen float arguments, that every entry
  has absolute value below +∞ (an all-axes conjunction of the comparisons), and conjoins the sixteen. At the ideal
  instance an entry is an extended real, |x| is max x (−x), and the pattern of +∞ denotes ⊤: an extended real whose
  absolute value is below ⊤ is neither ⊤ nor ⊥, that is, a real. So each argument array is the image of a real
  array: a real matrix for the rank-2 arguments, a real vector for the rank-1 arguments.
-/
import proofs.«422171_j68341519614500_3_alg».proof.Proof.Gen.Pre_finite_inputs
import proofs.«422171_j68341519614500_3_alg».proof.Defs
import proofs.«422171_j68341519614500_3_alg».proof.Proof.Gen.KernelIdeal
import proofs.«422171_j68341519614500_3_alg».proof.Proof.Val.RealSpec
import Idealize.ShloMosaic.Lib.ReduceAll
import Idealize.ShloMosaic.Lib.ValueIdx

noncomputable section

namespace Cert.KernelIdeal.Val

open Idealize.ShloMosaic Idealize.ShloMosaic.ValueIdx Idealize.SL.Sem
open Cert.RealSpec

/-- The scalar shape has one index. -/
instance : Subsingleton Cert.Pre_finite_inputs.S_.Idx := ⟨fun a b => funext fun d => d.elim0⟩

/-- The single-precision pattern of +∞ denotes the top element. -/
theorem ofBits_inf : Ideal.ofBits .f32 0x7F800000#32 = ⊤ := by
  simp [Ideal.ofBits, Ideal.ieee]

/-- An extended real whose absolute value is strictly below +∞ is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One argument's conjunct: if the all-axes conjunction of |x| < +∞ over the array is 1, every entry is a real. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1)
    (i : s.Idx) : ∃ r : ℝ, x i = (r : EReal) :=
  real_of_abs_lt (x i) (Host.reduce_andi_all _ _ hr hu ix0 e i)

/-- A rank-2 array of extended reals all of whose entries are reals is the image of a real matrix. -/
theorem exists_mat {a b : ℕ} (v : (⟨2, ![a, b]⟩ : Shape).Idx → EReal) (h : ∀ i, ∃ r : ℝ, v i = (r : EReal)) :
    ∃ x : Mat a b, v = toE2 x := by
  choose f hf using h
  refine ⟨fun p q => f (ix2 p q), funext fun i => ?_⟩
  rw [hf i]
  exact congrArg (fun j => ((f j : ℝ) : EReal)) (eq_ix2 i)

/-- A rank-1 array of extended reals all of whose entries are reals is the image of a real vector. -/
theorem exists_vc {a : ℕ} (v : (⟨1, ![a]⟩ : Shape).Idx → EReal) (h : ∀ i, ∃ r : ℝ, v i = (r : EReal)) :
    ∃ x : Vc a, v = toE1 x := by
  choose f hf using h
  refine ⟨fun p => f (ix1 p), funext fun i => ?_⟩
  rw [hf i]
  exact congrArg (fun j => ((f j : ℝ) : EReal)) (eq_ix1 i)

/-- The precondition decoded: if the precondition's predicate is 1 on sixteen arrays, every entry of every array is a real. -/
theorem pre_real (a0 : FVec Ideal Cert.Pre_finite_inputs.S8192x256 .f32) (a1 : FVec Ideal Cert.Pre_finite_inputs.S8192x256 .f32) (a2 : FVec Ideal Cert.Pre_finite_inputs.S8192x256 .f32) (a3 : FVec Ideal Cert.Pre_finite_inputs.S8192x256 .f32) (a4 : FVec Ideal Cert.Pre_finite_inputs.S256x256 .f32) (a5 : FVec Ideal Cert.Pre_finite_inputs.S256 .f32) (a6 : FVec Ideal Cert.Pre_finite_inputs.S256x256 .f32) (a7 : FVec Ideal Cert.Pre_finite_inputs.S256 .f32) (a8 : FVec Ideal Cert.Pre_finite_inputs.S256x256 .f32) (a9 : FVec Ideal Cert.Pre_finite_inputs.S256 .f32) (a10 : FVec Ideal Cert.Pre_finite_inputs.S256x128 .f32) (a11 : FVec Ideal Cert.Pre_finite_inputs.S128 .f32) (a12 : FVec Ideal Cert.Pre_finite_inputs.S128x256 .f32) (a13 : FVec Ideal Cert.Pre_finite_inputs.S256 .f32) (a14 : FVec Ideal Cert.Pre_finite_inputs.S256 .f32) (a15 : FVec Ideal Cert.Pre_finite_inputs.S256 .f32)
    (e : Cert.Pre_finite_inputs.fn (F := Ideal) a0 a1 a2 a3 a4 a5 a6 a7 a8 a9 a10 a11 a12 a13 a14 a15 ix0 = 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal)) := by
  dsimp only [Cert.Pre_finite_inputs.fn, Cert.Pre_finite_inputs.fn_part1, Cert.Pre_finite_inputs.fn_part2, Cert.Pre_finite_inputs.fn_part3, Cert.Pre_finite_inputs.fn_part4, andi] at e
  simp only [IntOp.andi_eq_one] at e
  obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := e
  exact ⟨all_real _ _ _ a0 h0,
    all_real _ _ _ a1 h1,
    all_real _ _ _ a2 h2,
    all_real _ _ _ a3 h3,
    all_real _ _ _ a4 h4,
    all_real _ _ _ a5 h5,
    all_real _ _ _ a6 h6,
    all_real _ _ _ a7 h7,
    all_real _ _ _ a8 h8,
    all_real _ _ _ a9 h9,
    all_real _ _ _ a10 h10,
    all_real _ _ _ a11 h11,
    all_real _ _ _ a12 h12,
    all_real _ _ _ a13 h13,
    all_real _ _ _ a14 h14,
    all_real _ _ _ a15 h15⟩

/-- Under the precondition, on every core, every entry of every argument array is a real. -/
theorem pre_all (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ (∀ i, ∃ r : ℝ, m ((c.tc : Thread Cert.KernelIdeal.nD Cert.KernelIdeal.τ).loc Cert.KernelIdeal.main_arg12) i = (r : EReal))
      ∧ (∀ i, ∃ r : ℝ, m ((c.tc : Thread Cert.KernelIdeal.nD Cert.KernelIdeal.τ).loc Cert.KernelIdeal.main_arg13) i = (r : EReal))
      ∧ (∀ i, ∃ r : ℝ, m ((c.tc : Thread Cert.KernelIdeal.nD Cert.KernelIdeal.τ).loc Cert.KernelIdeal.main_arg14) i = (r : EReal))
      ∧ (∀ i, ∃ r : ℝ, m ((c.tc : Thread Cert.KernelIdeal.nD Cert.KernelIdeal.τ).loc Cert.KernelIdeal.main_arg15) i = (r : EReal)) :=
  pre_real _ _ _ _ _ _ _ _ _ _ _ _ _ _ _ _ (congrFun (h c) ix0)

/-- Argument 0 is the image of a real 8192 × 256 matrix. -/
theorem fin_arg0 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Mat 8192 256, m ((c.tc : Thread Cert.KernelIdeal.nD Cert.KernelIdeal.τ).loc Cert.KernelIdeal.main_arg0) = toE2 x :=
  exists_mat _ (pre_all m h c).1

/-- Argument 1 is the image of a real 8192 × 256 matrix. -/
theorem fin_arg1 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Mat 8192 256, m ((c.tc : Thread Cert.KernelIdeal.nD Cert.KernelIdeal.τ).loc Cert.KernelIdeal.main_arg1) = toE2 x :=
  exists_mat _ (pre_all m h c).2.1

/-- Argument 2 is the image of a real 8192 × 256 matrix. -/
theorem fin_arg2 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Mat 8192 256, m ((c.tc : Thread Cert.KernelIdeal.nD Cert.KernelIdeal.τ).loc Cert.KernelIdeal.main_arg2) = toE2 x :=
  exists_mat _ (pre_all m h c).2.2.1

/-- Argument 3 is the image of a real 8192 × 256 matrix. -/
theorem fin_arg3 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Mat 8192 256, m ((c.tc : Thread Cert.KernelIdeal.nD Cert.KernelIdeal.τ).loc Cert.KernelIdeal.main_arg3) = toE2 x :=
  exists_mat _ (pre_all m h c).2.2.2.1

/-- Argument 4 is the image of a real 256 × 256 matrix. -/
theorem fin_arg4 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Mat 256 256, m ((c.tc : Thread Cert.KernelIdeal.nD Cert.KernelIdeal.τ).loc Cert.KernelIdeal.main_arg4) = toE2 x :=
  exists_mat _ (pre_all m h c).2.2.2.2.1

/-- Argument 5 is the image of a real vector of 256 entries. -/
theorem fin_arg5 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Vc 256, m ((c.tc : Thread Cert.KernelIdeal.nD Cert.KernelIdeal.τ).loc Cert.KernelIdeal.main_arg5) = toE1 x :=
  exists_vc _ (pre_all m h c).2.2.2.2.2.1

/-- Argument 6 is the image of a real 256 × 256 matrix. -/
theorem fin_arg6 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Mat 256 256, m ((c.tc : Thread Cert.KernelIdeal.nD Cert.KernelIdeal.τ).loc Cert.KernelIdeal.main_arg6) = toE2 x :=
  exists_mat _ (pre_all m h c).2.2.2.2.2.2.1

/-- Argument 7 is the image of a real vector of 256 entries. -/
theorem fin_arg7 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Vc 256, m ((c.tc : Thread Cert.KernelIdeal.nD Cert.KernelIdeal.τ).loc Cert.KernelIdeal.main_arg7) = toE1 x :=
  exists_vc _ (pre_all m h c).2.2.2.2.2.2.2.1

/-- Argument 8 is the image of a real 256 × 256 matrix. -/
theorem fin_arg8 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Mat 256 256, m ((c.tc : Thread Cert.KernelIdeal.nD Cert.KernelIdeal.τ).loc Cert.KernelIdeal.main_arg8) = toE2 x :=
  exists_mat _ (pre_all m h c).2.2.2.2.2.2.2.2.1

/-- Argument 9 is the image of a real vector of 256 entries. -/
theorem fin_arg9 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Vc 256, m ((c.tc : Thread Cert.KernelIdeal.nD Cert.KernelIdeal.τ).loc Cert.KernelIdeal.main_arg9) = toE1 x :=
  exists_vc _ (pre_all m h c).2.2.2.2.2.2.2.2.2.1

/-- Argument 10 is the image of a real 256 × 128 matrix. -/
theorem fin_arg10 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Mat 256 128, m ((c.tc : Thread Cert.KernelIdeal.nD Cert.KernelIdeal.τ).loc Cert.KernelIdeal.main_arg10) = toE2 x :=
  exists_mat _ (pre_all m h c).2.2.2.2.2.2.2.2.2.2.1

/-- Argument 11 is the image of a real vector of 128 entries. -/
theorem fin_arg11 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Vc 128, m ((c.tc : Thread Cert.KernelIdeal.nD Cert.KernelIdeal.τ).loc Cert.KernelIdeal.main_arg11) = toE1 x :=
  exists_vc _ (pre_all m h c).2.2.2.2.2.2.2.2.2.2.2.1

/-- Argument 12 is the image of a real 128 × 256 matrix. -/
theorem fin_arg12 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Mat 128 256, m ((c.tc : Thread Cert.KernelIdeal.nD Cert.KernelIdeal.τ).loc Cert.KernelIdeal.main_arg12) = toE2 x :=
  exists_mat _ (pre_all m h c).2.2.2.2.2.2.2.2.2.2.2.2.1

/-- Argument 13 is the image of a real vector of 256 entries. -/
theorem fin_arg13 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Vc 256, m ((c.tc : Thread Cert.KernelIdeal.nD Cert.KernelIdeal.τ).loc Cert.KernelIdeal.main_arg13) = toE1 x :=
  exists_vc _ (pre_all m h c).2.2.2.2.2.2.2.2.2.2.2.2.2.1

/-- Argument 14 is the image of a real vector of 256 entries. -/
theorem fin_arg14 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Vc 256, m ((c.tc : Thread Cert.KernelIdeal.nD Cert.KernelIdeal.τ).loc Cert.KernelIdeal.main_arg14) = toE1 x :=
  exists_vc _ (pre_all m h c).2.2.2.2.2.2.2.2.2.2.2.2.2.2.1

/-- Argument 15 is the image of a real vector of 256 entries. -/
theorem fin_arg15 (m : (ℓ : Loc Cert.KernelIdeal.nD Cert.KernelIdeal.τ Cert.KernelIdeal.sig) → Buf (Elt Ideal) ℓ) (h : Cert.Pre_KernelIdeal m) (c : Dev Cert.KernelIdeal.nD) :
    ∃ x : Vc 256, m ((c.tc : Thread Cert.KernelIdeal.nD Cert.KernelIdeal.τ).loc Cert.KernelIdeal.main_arg15) = toE1 x :=
  exists_vc _ (pre_all m h c).2.2.2.2.2.2.2.2.2.2.2.2.2.2.2

end Cert.KernelIdeal.Val

end
-- ==== Proof.Val.Bridge.lean ====
/-
  The kernel program's value, assembled. The launch memory holds, at each of the sixteen arguments, the reading of a
  real array (the precondition makes every entry finite). Region by region the program leaves the reading of the real
  computation's next stage: the three projections of the first block, its attention output with residual and
  normalisation, the three projections of the second block (two of them of the first block's output), its attention
  output, and the MLP block. Each region's entry contents are traced to the launch memory or to the array the
  producing region left; the composition of the stages is the whole real computation on the sixteen real arrays.
  So every weakly fair execution ends with the result buffer at the reading of that real result, and the arguments
  as launched.
-/
import proofs.«422171_j68341519614500_3_alg».proof.Proof.KI.Args
import proofs.«422171_j68341519614500_3_alg».proof.Proof.Val.V0
import proofs.«422171_j68341519614500_3_alg».proof.Proof.Val.V1b
import proofs.«422171_j68341519614500_3_alg».proof.Proof.Val.V2
import proofs.«422171_j68341519614500_3_alg».proof.Proof.Val.V3b
import proofs.«422171_j68341519614500_3_alg».proof.Proof.Val.V4
import proofs.«422171_j68341519614500_3_alg».proof.Proof.Val.Finite
import proofs.«422171_j68341519614500_3_alg».proof.Proof.Val.RealSpec

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.RealSpec

/-! ## The real arrays behind the launch memory -/

section Bridge

variable (m : (ℓ : Loc nD τ sig) → Buf (Elt Ideal) ℓ) (ρ : Dev nD → PrngReg) (hpre : Cert.Pre_KernelIdeal m) (c : Dev nD)

/-- The real array the launch memory holds at argument 0 (the first query). -/
def x0 : Mat 8192 256 := Classical.choose (fin_arg0 m hpre c)
theorem x0_spec : m ((c : Thread nD τ).loc main_arg0) = toE2 (x0 m hpre c) := Classical.choose_spec (fin_arg0 m hpre c)
/-- The real array the launch memory holds at argument 1 (the key). -/
def x1 : Mat 8192 256 := Classical.choose (fin_arg1 m hpre c)
theorem x1_spec : m ((c : Thread nD τ).loc main_arg1) = toE2 (x1 m hpre c) := Classical.choose_spec (fin_arg1 m hpre c)
/-- The real array the launch memory holds at argument 2 (the value). -/
def x2 : Mat 8192 256 := Classical.choose (fin_arg2 m hpre c)
theorem x2_spec : m ((c : Thread nD τ).loc main_arg2) = toE2 (x2 m hpre c) := Classical.choose_spec (fin_arg2 m hpre c)
/-- The real array the launch memory holds at argument 3 (the second query). -/
def x3 : Mat 8192 256 := Classical.choose (fin_arg3 m hpre c)
theorem x3_spec : m ((c : Thread nD τ).loc main_arg3) = toE2 (x3 m hpre c) := Classical.choose_spec (fin_arg3 m hpre c)
/-- The real array the launch memory holds at argument 4 (the query weight). -/
def x4 : Mat 256 256 := Classical.choose (fin_arg4 m hpre c)
theorem x4_spec : m ((c : Thread nD τ).loc main_arg4) = toE2 (x4 m hpre c) := Classical.choose_spec (fin_arg4 m hpre c)
/-- The real array the launch memory holds at argument 5 (the query bias). -/
def x5 : Vc 256 := Classical.choose (fin_arg5 m hpre c)
theorem x5_spec : m ((c : Thread nD τ).loc main_arg5) = toE1 (x5 m hpre c) := Classical.choose_spec (fin_arg5 m hpre c)
/-- The real array the launch memory holds at argument 6 (the key weight). -/
def x6 : Mat 256 256 := Classical.choose (fin_arg6 m hpre c)
theorem x6_spec : m ((c : Thread nD τ).loc main_arg6) = toE2 (x6 m hpre c) := Classical.choose_spec (fin_arg6 m hpre c)
/-- The real array the launch memory holds at argument 7 (the key bias). -/
def x7 : Vc 256 := Classical.choose (fin_arg7 m hpre c)
theorem x7_spec : m ((c : Thread nD τ).loc main_arg7) = toE1 (x7 m hpre c) := Classical.choose_spec (fin_arg7 m hpre c)
/-- The real array the launch memory holds at argument 8 (the value weight). -/
def x8 : Mat 256 256 := Classical.choose (fin_arg8 m hpre c)
theorem x8_spec : m ((c : Thread nD τ).loc main_arg8) = toE2 (x8 m hpre c) := Classical.choose_spec (fin_arg8 m hpre c)
/-- The real array the launch memory holds at argument 9 (the value bias). -/
def x9 : Vc 256 := Classical.choose (fin_arg9 m hpre c)
theorem x9_spec : m ((c : Thread nD τ).loc main_arg9) = toE1 (x9 m hpre c) := Classical.choose_spec (fin_arg9 m hpre c)
/-- The real array the launch memory holds at argument 10 (the MLP's first weight). -/
def x10 : Mat 256 128 := Classical.choose (fin_arg10 m hpre c)
theorem x10_spec : m ((c : Thread nD τ).loc main_arg10) = toE2 (x10 m hpre c) := Classical.choose_spec (fin_arg10 m hpre c)
/-- The real array the launch memory holds at argument 11 (the MLP's first bias). -/
def x11 : Vc 128 := Classical.choose (fin_arg11 m hpre c)
theorem x11_spec : m ((c : Thread nD τ).loc main_arg11) = toE1 (x11 m hpre c) := Classical.choose_spec (fin_arg11 m hpre c)
/-- The real array the launch memory holds at argument 12 (the MLP's second weight). -/
def x12 : Mat 128 256 := Classical.choose (fin_arg12 m hpre c)
theorem x12_spec : m ((c : Thread nD τ).loc main_arg12) = toE2 (x12 m hpre c) := Classical.choose_spec (fin_arg12 m hpre c)
/-- The real array the launch memory holds at argument 13 (the MLP's second bias). -/
def x13 : Vc 256 := Classical.choose (fin_arg13 m hpre c)
theorem x13_spec : m ((c : Thread nD τ).loc main_arg13) = toE1 (x13 m hpre c) := Classical.choose_spec (fin_arg13 m hpre c)
/-- The real array the launch memory holds at argument 14 (the normalisation's scale). -/
def x14 : Vc 256 := Classical.choose (fin_arg14 m hpre c)
theorem x14_spec : m ((c : Thread nD τ).loc main_arg14) = toE1 (x14 m hpre c) := Classical.choose_spec (fin_arg14 m hpre c)
/-- The real array the launch memory holds at argument 15 (the normalisation's shift). -/
def x15 : Vc 256 := Classical.choose (fin_arg15 m hpre c)
theorem x15_spec : m ((c : Thread nD τ).loc main_arg15) = toE1 (x15 m hpre c) := Classical.choose_spec (fin_arg15 m hpre c)

/-! ## The real arrays between the regions -/

/-- The first block's projected query. -/
def q1 : Mat 8192 256 := lin (x0 m hpre c) (x4 m hpre c) (x5 m hpre c)
/-- The first block's projected key. -/
def k1 : Mat 8192 256 := lin (x1 m hpre c) (x6 m hpre c) (x7 m hpre c)
/-- The first block's projected value. -/
def v1 : Mat 8192 256 := lin (x2 m hpre c) (x8 m hpre c) (x9 m hpre c)
/-- The first block's output. -/
def o1 : Mat 8192 256 := attnLN cN cEps (q1 m hpre c) (k1 m hpre c) (v1 m hpre c) (x0 m hpre c) (x14 m hpre c) (x15 m hpre c)
/-- The second block's projected query. -/
def q2 : Mat 8192 256 := lin (x3 m hpre c) (x4 m hpre c) (x5 m hpre c)
/-- The second block's projected key: of the first block's output. -/
def k2 : Mat 8192 256 := lin (o1 m hpre c) (x6 m hpre c) (x7 m hpre c)
/-- The second block's projected value: of the first block's output. -/
def v2 : Mat 8192 256 := lin (o1 m hpre c) (x8 m hpre c) (x9 m hpre c)
/-- The second block's output. -/
def o2 : Mat 8192 256 := attnLN cN cEps (q2 m hpre c) (k2 m hpre c) (v2 m hpre c) (x3 m hpre c) (x14 m hpre c) (x15 m hpre c)

/-- The real array the program ends with: the whole computation on the sixteen real arguments. -/
def vout : Mat 8192 256 :=
  RealSpec.result cN cEps (x0 m hpre c) (x1 m hpre c) (x2 m hpre c) (x3 m hpre c) (x4 m hpre c) (x5 m hpre c) (x6 m hpre c) (x7 m hpre c)
    (x8 m hpre c) (x9 m hpre c) (x10 m hpre c) (x11 m hpre c) (x12 m hpre c) (x13 m hpre c) (x14 m hpre c) (x15 m hpre c)

/-- The whole computation is the MLP block of the second attention block's output. -/
theorem vout_eq : vout m hpre c
    = mlpLN cN cEps (o2 m hpre c) (x10 m hpre c) (x11 m hpre c) (x12 m hpre c) (x13 m hpre c) (x14 m hpre c) (x15 m hpre c) := rfl

/-! ## Region by region: what each region leaves, from what it finds -/

/-- Region 0 leaves the first block's projected query in its first output array. -/
theorem left0_q : (dat0 (F := Ideal) (E0 m ρ) c).arrAt 9 cfg0.N = toE2 (q1 m hpre c) :=
  final0_9 (E0 m ρ) c _ _ _ ((E0_main_arg0 m ρ c).trans (x0_spec m hpre c)) ((E0_main_arg4 m ρ c).trans (x4_spec m hpre c))
    ((E0_main_arg5 m ρ c).trans (x5_spec m hpre c))
/-- Region 0 leaves the first block's projected key in its second output array. -/
theorem left0_k : (dat0 (F := Ideal) (E0 m ρ) c).arrAt 10 cfg0.N = toE2 (k1 m hpre c) :=
  final0_10 (E0 m ρ) c _ _ _ ((E0_main_arg1 m ρ c).trans (x1_spec m hpre c)) ((E0_main_arg6 m ρ c).trans (x6_spec m hpre c))
    ((E0_main_arg7 m ρ c).trans (x7_spec m hpre c))
/-- Region 0 leaves the first block's projected value in its third output array. -/
theorem left0_v : (dat0 (F := Ideal) (E0 m ρ) c).arrAt 11 cfg0.N = toE2 (v1 m hpre c) :=
  final0_11 (E0 m ρ) c _ _ _ ((E0_main_arg2 m ρ c).trans (x2_spec m hpre c)) ((E0_main_arg8 m ρ c).trans (x8_spec m hpre c))
    ((E0_main_arg9 m ρ c).trans (x9_spec m hpre c))

/-- Region 1 leaves the first block's output. -/
theorem left1 : (dat1 (F := Ideal) (E1 m ρ) c).arrAt 6 cfg1.N = toE2 (o1 m hpre c) :=
  final1_6 (E1 m ρ) c _ _ _ _ _ _ ((E1_main_v0_0 m ρ c).trans (left0_q m ρ hpre c)) ((E1_main_v0_1 m ρ c).trans (left0_k m ρ hpre c))
    ((E1_main_v0_2 m ρ c).trans (left0_v m ρ hpre c)) ((E1_main_arg0 m ρ c).trans (x0_spec m hpre c))
    ((E1_main_arg14 m ρ c).trans (x14_spec m hpre c)) ((E1_main_arg15 m ρ c).trans (x15_spec m hpre c))

/-- Region 2 finds the first block's output in its shared input. -/
theorem found2 : E2 m ρ c main_v1 = toE2 (o1 m hpre c) := (E2_main_v1 m ρ c).trans (left1 m ρ hpre c)

/-- Region 2 leaves the second block's projected query in its first output array. -/
theorem left2_q : (dat2 (F := Ideal) (E2 m ρ) c).arrAt 8 cfg2.N = toE2 (q2 m hpre c) :=
  final2_8 (E2 m ρ) c _ _ _ ((E2_main_arg3 m ρ c).trans (x3_spec m hpre c)) ((E2_main_arg4 m ρ c).trans (x4_spec m hpre c))
    ((E2_main_arg5 m ρ c).trans (x5_spec m hpre c))
/-- Region 2 leaves the second block's projected key in its second output array. -/
theorem left2_k : (dat2 (F := Ideal) (E2 m ρ) c).arrAt 9 cfg2.N = toE2 (k2 m hpre c) :=
  final2_9 (E2 m ρ) c _ _ _ (found2 m ρ hpre c) ((E2_main_arg6 m ρ c).trans (x6_spec m hpre c))
    ((E2_main_arg7 m ρ c).trans (x7_spec m hpre c))
/-- Region 2 leaves the second block's projected value in its third output array. -/
theorem left2_v : (dat2 (F := Ideal) (E2 m ρ) c).arrAt 10 cfg2.N = toE2 (v2 m hpre c) :=
  final2_10 (E2 m ρ) c _ _ _ (found2 m ρ hpre c) ((E2_main_arg8 m ρ c).trans (x8_spec m hpre c))
    ((E2_main_arg9 m ρ c).trans (x9_spec m hpre c))

/-- Region 3 leaves the second block's output. -/
theorem left3 : (dat3 (F := Ideal) (E3 m ρ) c).arrAt 6 cfg3.N = toE2 (o2 m hpre c) :=
  Cert.KernelIdeal.Val3.final3_6 (E3 m ρ) c _ _ _ _ _ _ ((E3_main_v2_0 m ρ c).trans (left2_q m ρ hpre c)) ((E3_main_v2_1 m ρ c).trans (left2_k m ρ hpre c))
    ((E3_main_v2_2 m ρ c).trans (left2_v m ρ hpre c)) ((E3_main_arg3 m ρ c).trans (x3_spec m hpre c))
    ((E3_main_arg14 m ρ c).trans (x14_spec m hpre c)) ((E3_main_arg15 m ρ c).trans (x15_spec m hpre c))

/-- Region 4 leaves the whole computation's result. -/
theorem left4 : (dat4 (F := Ideal) (E4 m ρ) c).arrAt 7 cfg4.N = toE2 (vout m hpre c) := by
  rw [vout_eq]
  exact final4_7 (E4 m ρ) c _ _ _ _ _ _ _ ((E4_main_v3 m ρ c).trans (left3 m ρ hpre c)) ((E4_main_arg10 m ρ c).trans (x10_spec m hpre c))
    ((E4_main_arg11 m ρ c).trans (x11_spec m hpre c)) ((E4_main_arg12 m ρ c).trans (x12_spec m hpre c))
    ((E4_main_arg13 m ρ c).trans (x13_spec m hpre c)) ((E4_main_arg14 m ρ c).trans (x14_spec m hpre c))
    ((E4_main_arg15 m ρ c).trans (x15_spec m hpre c))

/-- The last boundary's contents at the result buffer: the whole computation's result. -/
theorem last_v4 : W5 m ρ c (Proc.devRef .tc main_v4) = toE2 (vout m hpre c) :=
  (E5_main_v4 m ρ c).trans (left4 m ρ hpre c)

end Bridge

/-! ## The kernel program's run -/

/-- THE KERNEL PROGRAM'S VALUE: under the precondition every weakly fair execution ends with the result buffer at the
    reading of the real computation's result on the real arrays behind the arguments, and the arguments as launched. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v4) = toE2 (vout m hpre c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) :=
  (θ_run _ _ _).mono (fun r h c =>
    ⟨(h c _ (mem_uc main_v4 (by decide))).trans (last_v4 m ρ hpre c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c),
      (h c _ (mem_uc main_arg14 (by decide))).trans (W5_main_arg14 m ρ c),
      (h c _ (mem_uc main_arg15 (by decide))).trans (W5_main_arg15 m ρ c)⟩)
    (run_all (F := Ideal) m ρ)

end Cert.KernelIdeal.Val

end
-- ==== Proof.Val.RefLin.lean ====
/-
  The reference's linear projection and its scores on REAL arrays, at the ideal instance: when every operand holds a
  real array (read as extended reals), x·W + b holds the real array Σₜ x(i,t)·W(t,c) + b(c), and q·kᵀ holds the real
  scores Σₜ q(i,t)·k(j,t). With them the small vocabulary both need: the coercion of a finite sum, a plain host product
  read at an index, and the row and column broadcasts read at an index.
-/
import Idealize.ShloMosaic.PureOps.Ideal.Laws
import Idealize.ShloMosaic.Lib.ValueIdx
import Idealize.ShloMosaic.Lib.Pipeline.Value
import proofs.«422171_j68341519614500_3_alg».proof.Proof.RefSpec
import proofs.«422171_j68341519614500_3_alg».proof.Proof.Val.RealSpec

noncomputable section

open scoped BigOperators

namespace Cert.ReferenceIdeal.RefVal

open Idealize.ShloMosaic Idealize.ShloMosaic.ValueIdx Cert.ReferenceIdeal Cert.ReferenceIdeal.Facts₀ Cert.RealSpec

/-! ## Sums of reals read as extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## A plain product rows × contraction by contraction × columns, read at an index -/

/-- For dimension numbers contracting the left operand's columns with the right operand's rows, with no batch axis,
    the host product at (i, j) is the sum over the contraction coordinate t of left (i, t) times right (t, j). -/
theorem dot_plain_apply (m k n : ℕ) {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![m, k]⟩ φ₁) (rhs : FVec Ideal ⟨2, ![k, n]⟩ φ₂) (i : Fin m) (j : Fin n) :
    FloatOps.dotGeneral d prec sched lhs rhs (ix2 i j) = ∑ t : Fin k, lhs (ix2 i t) * rhs (ix2 t j) := by
  obtain ⟨lc, rc, ln, rn, lb, rb, wf⟩ := d
  simp only at hlc hrc hln hrn hlb hrb
  subst hlc hrc hln hrn hlb hrb
  rw [Ideal.dotGeneral_apply, ← Equiv.sum_comp (contrEquiv1 _ k rfl rfl).symm]
  refine Finset.sum_congr rfl fun t _ => ?_
  have hk := contrEquiv1_symm_val (DotDims.mk [1] [0] [0] [1] [] [] wf) k rfl rfl t
  congr 2
  · funext a; refine Fin.ext ?_
    match a with
    | ⟨0, _⟩ => rfl
    | ⟨1, _⟩ => exact (DotDims.lhsIdx_val_of_single _ rfl _ _).trans hk
  · funext a; refine Fin.ext ?_
    match a with
    | ⟨0, _⟩ => exact (DotDims.rhsIdx_val_of_single _ rfl _ _).trans hk
    | ⟨1, _⟩ => rfl

/-! ## Broadcasts read at an index -/

section AnyInstance
variable {F : FTy → Type} [FloatOps F]

/-- A vector of 256 entries laid along the columns reads, at (i, c), its entry c. -/
theorem row256_apply (b : FVec F S256 .f32) (i : Fin 8192) (c : Fin 256) : Spec.row256 b (ix2 i c) = b (ix1 c) := by
  unfold Spec.row256
  rw [broadcastInDim_apply _ _ _ (ix2 i c) (ix2 (0 : Fin 1) c) (fun a => by match a with | ⟨0, _⟩ => rfl | ⟨1, _⟩ => rfl)]
  exact broadcastInDim_apply _ _ _ _ (ix1 c) (fun a => by match a with | ⟨0, _⟩ => rfl)

/-- One value per row repeated along 8192 columns reads, at (i, j), the value of row i. -/
theorem col8192_apply (a : FVec F S8192 .f32) (i j : Fin 8192) : Spec.col8192 a (ix2 i j) = a (ix1 i) := by
  unfold Spec.col8192
  rw [broadcastInDim_apply _ _ _ (ix2 i j) (ix2 i (0 : Fin 1)) (fun a => by match a with | ⟨0, _⟩ => rfl | ⟨1, _⟩ => rfl)]
  exact broadcastInDim_apply _ _ _ _ (ix1 i) (fun a => by match a with | ⟨0, _⟩ => rfl)

end AnyInstance

/-! ## The projection -/

/-- On real arrays the projection x·W + b holds the real array Σₜ x(i,t)·W(t,c) + b(c). -/
theorem lin_coe (x : Mat 8192 256) (W : Mat 256 256) (b : Vc 256) :
    Spec.lin (F := Ideal) (toE2 x) (toE2 W) (toE1 b) = toE2 (RealSpec.lin x W b) := by
  funext idx
  obtain ⟨i, c, rfl⟩ : ∃ (i : Fin 8192) (c : Fin 256), idx = ix2 i c := ⟨idx 0, idx 1, eq_ix2 idx⟩
  unfold Spec.lin
  rw [addf_apply, row256_apply]
  simp only [Host.dotGeneral]
  rw [dot_plain_apply 8192 256 256 _ rfl rfl rfl rfl rfl rfl]
  simp only [toE2_ix2, toE1_ix1]
  unfold RealSpec.lin
  rw [EReal.coe_add, coe_sum]
  simp only [EReal.coe_mul]

/-! ## The scores -/

/-- On real arrays q·kᵀ holds the real scores Σₜ q(i,t)·k(j,t). -/
theorem scores_coe (q ky : Mat 8192 256) : Spec.scores (F := Ideal) (toE2 q) (toE2 ky) = toE2 (score q ky) := by
  funext idx
  obtain ⟨i, j, rfl⟩ : ∃ (i : Fin 8192) (j : Fin 8192), idx = ix2 i j := ⟨idx 0, idx 1, eq_ix2 idx⟩
  unfold Spec.scores
  simp only [Host.dotGeneral]
  rw [dot_plain_apply 8192 256 8192 _ rfl rfl rfl rfl rfl rfl, toE2_ix2]
  unfold score
  rw [coe_sum]
  refine Finset.sum_congr rfl fun t _ => ?_
  rw [transpose_apply [1, 0] (toE2 ky) _ (ix2 t j) (ix2 j t) (fun b => by match b with | ⟨0, _⟩ => rfl | ⟨1, _⟩ => rfl),
    toE2_ix2, toE2_ix2, EReal.coe_mul]

end Cert.ReferenceIdeal.RefVal

end
-- ==== Proof.Val.RefLinAttn.lean ====
/-
  The reference's attention average on REAL arrays, at the ideal instance: when q, k and v hold real arrays (read as
  extended reals), softmax(q·kᵀ)·v holds the real attention average Σⱼ (exp s(i,j) / Σⱼ' exp s(i,j')) · v(j,c). The row
  maximum the softmax subtracts is some real number in every row (a maximum of finitely many reals against −∞), so
  every exponential and every row sum is a positive real, and the shift cancels between numerator and denominator.
-/
import proofs.«422171_j68341519614500_3_alg».proof.Proof.Val.RefLin
import proofs.«422171_j68341519614500_3_alg».proof.Proof.Val.Consts

noncomputable section

open scoped BigOperators

namespace Cert.ReferenceIdeal.RefVal

open Idealize.ShloMosaic Idealize.ShloMosaic.ValueIdx Cert.ReferenceIdeal Cert.ReferenceIdeal.Facts₀ Cert.RealSpec

/-! ## The row maximum is some real number -/

/-- The maximum of a nonempty finite family of reals, started from a value below ⊤, is a real number. -/
theorem fold_max_coe {n : ℕ} (hn : 0 < n) (f : Fin n → EReal) (hf : ∀ k, ∃ r : ℝ, f k = (r : EReal)) (b : EReal)
    (hb : b ≠ ⊤) : ∃ r : ℝ, (Finset.univ : Finset (Fin n)).fold max b f = (r : EReal) := by
  have h1 : (Finset.univ : Finset (Fin n)).fold max b f < ⊤ :=
    (Finset.fold_max_lt _).2 ⟨lt_top_iff_ne_top.2 hb, fun k _ => by
      obtain ⟨r, hr⟩ := hf k; rw [hr]; exact EReal.coe_lt_top r⟩
  have h2 : ⊥ < (Finset.univ : Finset (Fin n)).fold max b f :=
    (Finset.lt_fold_max _).2 (Or.inr ⟨⟨0, hn⟩, Finset.mem_univ _, by
      obtain ⟨r, hr⟩ := hf ⟨0, hn⟩; rw [hr]; exact EReal.bot_lt_coe r⟩)
  exact ⟨_, (EReal.coe_toReal h1.ne h2.ne').symm⟩

/-- The row maximum of a real array of scores, taken against −∞, is a real number in every row. -/
theorem rowmax_coe (S : Mat 8192 8192) :
    ∃ M : Fin 8192 → ℝ, ∀ i, Spec.rowmax (F := Ideal) (toE2 S) (ix1 i) = ((M i : ℝ) : EReal) := by
  have key : ∀ i : Fin 8192, ∃ r : ℝ, Spec.rowmax (F := Ideal) (toE2 S) (ix1 i) = (r : EReal) := by
    intro i
    unfold Spec.rowmax
    rw [maximumf_apply, broadcastInDim_apply _ _ _ (ix1 i) ix0 (fun a => a.elim0), constant_apply, Consts.ofBits_neginf, max_bot_left]
    have hfold := Host.reduce_eq_fold_single (FloatOps.maximumf (F := Ideal) (φ := FTy.f32)) (toE2 S : FVec Ideal S8192x8192 .f32)
      (constant (F := Ideal) S_ .f32 0xFF800000#32) reducesTo_S8192x8192_S8192_d1 (by decide) h_S_ (ix1 i)
    rw [hfold]
    exact fold_max_coe (n := 8192) (by norm_num) _ (fun k => ⟨_, rfl⟩) _ (by
      rw [constant_apply, Consts.ofBits_neginf]; exact bot_ne_top)
  exact ⟨fun i => Classical.choose (key i), fun i => Classical.choose_spec (key i)⟩

/-! ## The exponentials, their row sums, the softmax -/

/-- The host's exponential at an index, at the ideal instance. -/
theorem hostExp_apply {s : Shape} {φ : FTy} (x : FVec Ideal s φ) (i : s.Idx) : Host.exp x i = Ideal.exp (x i) := rfl

/-- The host's quotient at an index, at the ideal instance. -/
theorem hostDivf_apply {s : Shape} {φ : FTy} (x y : FVec Ideal s φ) (i : s.Idx) : Host.divf x y i = Ideal.div (x i) (y i) := rfl

/-- The exponentials of real scores less their row maximum M. -/
theorem expo_apply (S : Mat 8192 8192) (M : Fin 8192 → ℝ)
    (hM : ∀ i, Spec.rowmax (F := Ideal) (toE2 S) (ix1 i) = ((M i : ℝ) : EReal)) (i j : Fin 8192) :
    Spec.expo (F := Ideal) (toE2 S) (ix2 i j) = ((Real.exp (S i j - M i) : ℝ) : EReal) := by
  unfold Spec.expo
  rw [hostExp_apply, subf_apply, col8192_apply, hM, toE2_ix2, ← EReal.coe_sub, Ideal.exp_coe]

/-- Their sum along a row. -/
theorem rowsum_apply (S : Mat 8192 8192) (M : Fin 8192 → ℝ)
    (hM : ∀ i, Spec.rowmax (F := Ideal) (toE2 S) (ix1 i) = ((M i : ℝ) : EReal)) (i : Fin 8192) :
    Host.reduceAdd (F := Ideal) (Spec.expo (toE2 S)) (constant (F := Ideal) S_ .f32 0x00000000#32) reducesTo_S8192x8192_S8192_d1 h_S_ (ix1 i)
      = ((∑ j, Real.exp (S i j - M i) : ℝ) : EReal) := by
  unfold Host.reduceAdd
  rw [Ideal.hostReduceAdd_def, Ideal.hostReduceAdd_single reducesTo_S8192x8192_S8192_d1 (by decide), constant_apply,
    Ideal.ofBits_zero_f32, zero_add, coe_sum]
  refine Finset.sum_congr rfl fun k _ => ?_
  rw [← expo_apply S M hM i k]
  exact congrArg _ (funext fun a => Fin.ext (by match a with | ⟨0, _⟩ => rfl | ⟨1, _⟩ => rfl))

/-- The softmax of real scores, with the shift by the row maximum still in it. -/
theorem softmax_apply (S : Mat 8192 8192) (M : Fin 8192 → ℝ)
    (hM : ∀ i, Spec.rowmax (F := Ideal) (toE2 S) (ix1 i) = ((M i : ℝ) : EReal)) (i j : Fin 8192) :
    Spec.softmax (F := Ideal) (toE2 S) (ix2 i j)
      = ((Real.exp (S i j - M i) / ∑ j', Real.exp (S i j' - M i) : ℝ) : EReal) := by
  have hpos : (0 : ℝ) < ∑ j', Real.exp (S i j' - M i) :=
    Finset.sum_pos (fun j' _ => Real.exp_pos _) ⟨i, Finset.mem_univ _⟩
  unfold Spec.softmax
  rw [hostDivf_apply, col8192_apply, rowsum_apply S M hM, expo_apply S M hM, Ideal.div_coe hpos.ne', ← EReal.coe_mul,
    mul_one_div]

/-- The shift cancels: the softmax of real scores holds exp s(i,j) / Σ exp s(i,j'). -/
theorem softmax_coe (S : Mat 8192 8192) :
    Spec.softmax (F := Ideal) (toE2 S) = toE2 (fun i j => Real.exp (S i j) / ∑ j', Real.exp (S i j')) := by
  obtain ⟨M, hM⟩ := rowmax_coe S
  funext idx
  obtain ⟨i, j, rfl⟩ : ∃ (i : Fin 8192) (j : Fin 8192), idx = ix2 i j := ⟨idx 0, idx 1, eq_ix2 idx⟩
  rw [softmax_apply S M hM, toE2_ix2]
  congr 1
  simp only [Real.exp_sub]
  rw [← Finset.sum_div, div_div_div_cancel_right₀ (Real.exp_pos _).ne']

/-! ## The attention average -/

/-- On real arrays softmax(q·kᵀ)·v holds the real attention average. -/
theorem attn_coe (q ky v : Mat 8192 256) :
    Host.dotGeneral (F := Ideal) (φ₁ := .f32) (φ₂ := .f32) dot_S8192x8192_S8192x256_S8192x256_1_0_0_1_n_n none
        (Spec.softmax (Spec.scores (toE2 q) (toE2 ky))) (toE2 v)
      = toE2 (RealSpec.attn q ky v) := by
  rw [scores_coe, softmax_coe]
  funext idx
  obtain ⟨i, c, rfl⟩ : ∃ (i : Fin 8192) (c : Fin 256), idx = ix2 i c := ⟨idx 0, idx 1, eq_ix2 idx⟩
  simp only [Host.dotGeneral]
  rw [dot_plain_apply 8192 8192 256 _ rfl rfl rfl rfl rfl rfl]
  simp only [toE2_ix2]
  unfold RealSpec.attn
  rw [coe_sum]
  simp only [EReal.coe_mul]

end Cert.ReferenceIdeal.RefVal

end
-- ==== Proof.Val.RefLn.lean ====
/-
  The reference's layer normalisation and its MLP block on real arrays, at the ideal instance: when every buffer
  holds the extended-real reading of a real array, each stage of the reference holds the reading of the real
  computation's stage. A row's mean is its sum divided by 256; jnp.var's guard 256 − 0 > 0 holds, so the variance is
  the mean squared deviation; the variance is not negative and ε is positive, so the square root is taken of a
  positive real, is a nonzero real, and the quotient by it is the real quotient; the MLP's hidden layer is the
  maximum with zero of a real, its products and sums are real.
-/
import Idealize.ShloMosaic.PureOps.Ideal.Laws
import Idealize.ShloMosaic.Lib.IdealHost
import Idealize.ShloMosaic.Lib.Pipeline.Value
import proofs.«422171_j68341519614500_3_alg».proof.Proof.RefSpec
import proofs.«422171_j68341519614500_3_alg».proof.Proof.Val.RealSpec
import proofs.«422171_j68341519614500_3_alg».proof.Proof.Val.Consts

noncomputable section

open scoped BigOperators

namespace Cert.ReferenceIdeal.RefVal

open Idealize.ShloMosaic Idealize.ShloMosaic.ValueIdx Cert.ReferenceIdeal Cert.ReferenceIdeal.Facts₀ Cert.RealSpec

namespace Ln

/-! ## Extended reals that are reals -/

/-- The reading of a finite sum of reals is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, is the real quotient. -/
theorem div_coe_coe (a y : ℝ) (h : y ≠ 0) : Ideal.div (a : EReal) (y : EReal) = ((a / y : ℝ) : EReal) := by
  rw [Ideal.div_coe h, ← EReal.coe_mul, mul_one_div]

/-- The maximum of two reals read as extended reals. -/
theorem coe_max (a b : ℝ) : max (a : EReal) (b : EReal) = ((max a b : ℝ) : EReal) :=
  (EReal.coe_strictMono.monotone.map_max).symm

/-- The square root of a positive real is the real square root. -/
theorem sqrt_coe_pos (r : ℝ) (h : 0 < r) : Ideal.sqrt (r : EReal) = ((Real.sqrt r : ℝ) : EReal) := by
  rw [Ideal.sqrt_coe, if_neg (not_lt.mpr h.le)]

/-! ## The layout operations at an index -/

/-- A vector of 256 entries laid along the columns, read at (i, j): the entry j. -/
theorem row256_apply (b : FVec Ideal S256 .f32) (i : Fin 8192) (j : Fin 256) : Spec.row256 b (ix2 i j) = b (ix1 j) := by
  unfold Spec.row256
  rw [broadcastInDim_apply _ _ _ (ix2 i j) (ix2 (0 : Fin 1) j) (fun a => by match a with | ⟨0, _⟩ => rfl | ⟨1, _⟩ => rfl),
    broadcastInDim_apply _ _ _ (ix2 (0 : Fin 1) j) (ix1 j) (fun a => by match a with | ⟨0, _⟩ => rfl)]

/-- A vector of 128 entries laid along the columns, read at (i, j): the entry j. -/
theorem row128_apply (b : FVec Ideal S128 .f32) (i : Fin 8192) (j : Fin 128) : Spec.row128 b (ix2 i j) = b (ix1 j) := by
  unfold Spec.row128
  rw [broadcastInDim_apply _ _ _ (ix2 i j) (ix2 (0 : Fin 1) j) (fun a => by match a with | ⟨0, _⟩ => rfl | ⟨1, _⟩ => rfl),
    broadcastInDim_apply _ _ _ (ix2 (0 : Fin 1) j) (ix1 j) (fun a => by match a with | ⟨0, _⟩ => rfl)]

/-- A column repeated along 256 columns, read at (i, j): the column's entry i. -/
theorem col256_apply (a : FVec Ideal S8192x1 .f32) (i : Fin 8192) (j : Fin 256) :
    Spec.col256 a (ix2 i j) = a (ix2 i (0 : Fin 1)) := by
  unfold Spec.col256
  rw [broadcastInDim_apply _ _ _ (ix2 i j) (ix2 i (0 : Fin 1)) (fun a => by match a with | ⟨0, _⟩ => rfl | ⟨1, _⟩ => rfl)]

/-- A vector of 8192 entries stood up as a column, read at (i, 0): the entry i. -/
theorem stand_apply (v : FVec Ideal S8192 .f32) (i : Fin 8192) (z : Fin 1) :
    broadcastInDim S8192x1 ![0] bcast_S8192_S8192x1_0 v (ix2 i z) = v (ix1 i) := by
  rw [broadcastInDim_apply _ _ _ (ix2 i z) (ix1 i) (fun a => by match a with | ⟨0, _⟩ => rfl)]

/-- A scalar constant repeated down a column reads the extended real its pattern denotes. -/
theorem splat1_apply (w : BitVec 32) (i : Fin 8192) (z : Fin 1) :
    Spec.splat1 (F := Ideal) w (ix2 i z) = Ideal.ofBits .f32 w := by
  unfold Spec.splat1
  rw [broadcastInDim_scalar_apply, constant_apply]

end Ln

/-! ## The two products of the MLP block at an index -/

namespace Ln

/-- The first product's left operand index, row axis: the result's row. -/
theorem lhsA_0 (i : S8192x128.Idx) (q : dot_S8192x256_S256x128_S8192x128_1_0_0_1_n_n.contr.Idx) :
    (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide),
    dif_pos (show (0 : Fin S8192x256.rank) ∈ dot_S8192x256_S256x128_S8192x128_1_0_0_1_n_n.lhsNonContracting by decide)]
  rfl
/-- The first product's left operand index, column axis: the contraction's coordinate. -/
theorem lhsA_1 (i : S8192x128.Idx) (q : dot_S8192x256_S256x128_S8192x128_1_0_0_1_n_n.contr.Idx) :
    (dot_S8192x256_S256x128_S8192x128_1_0_0_1_n_n.lhsIdx i q 1).val = (q ⟨0, by decide⟩).val :=
  dot_S8192x256_S256x128_S8192x128_1_0_0_1_n_n.lhsIdx_val_of_single rfl i q
/-- The first product's right operand index, row axis: the contraction's coordinate. -/
theorem rhsA_0 (i : S8192x128.Idx) (q : dot_S8192x256_S256x128_S8192x128_1_0_0_1_n_n.contr.Idx) :
    (dot_S8192x256_S256x128_S8192x128_1_0_0_1_n_n.rhsIdx i q 0).val = (q ⟨0, by decide⟩).val :=
  dot_S8192x256_S256x128_S8192x128_1_0_0_1_n_n.rhsIdx_val_of_single rfl i q
/-- The first product's right operand index, column axis: the result's column. -/
theorem rhsA_1 (i : S8192x128.Idx) (q : dot_S8192x256_S256x128_S8192x128_1_0_0_1_n_n.contr.Idx) :
    (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide),
    dif_pos (show (1 : Fin S256x128.rank) ∈ dot_S8192x256_S256x128_S8192x128_1_0_0_1_n_n.rhsNonContracting by decide)]
  rfl

/-- The product of an 8192 × 256 array with a 256 × 128 array at (i, j): the sum over the 256 inner coordinates. -/
theorem dotA_apply (A : FVec Ideal S8192x256 .f32) (B : FVec Ideal S256x128 .f32) (i : Fin 8192) (j : Fin 128) :
    Host.dotGeneral (F := Ideal) dot_S8192x256_S256x128_S8192x128_1_0_0_1_n_n none A B (ix2 i j)
      = ∑ t : Fin 256, A (ix2 i t) * B (ix2 t j) := by
  simp only [Host.dotGeneral]
  rw [Ideal.dotGeneral_apply,
    ← Equiv.sum_comp (contrEquiv1 dot_S8192x256_S256x128_S8192x128_1_0_0_1_n_n 256 rfl rfl).symm]
  refine Finset.sum_congr rfl fun k _ => ?_
  have hk := contrEquiv1_symm_val dot_S8192x256_S256x128_S8192x128_1_0_0_1_n_n 256 rfl rfl k
  have el : dot_S8192x256_S256x128_S8192x128_1_0_0_1_n_n.lhsIdx (ix2 i j)
      ((contrEquiv1 dot_S8192x256_S256x128_S8192x128_1_0_0_1_n_n 256 rfl rfl).symm k) = ix2 i k :=
    funext fun a => Fin.ext (by
      match a with
      | ⟨0, _⟩ => exact lhsA_0 _ _
      | ⟨1, _⟩ => exact (lhsA_1 _ _).trans hk)
  have er : dot_S8192x256_S256x128_S8192x128_1_0_0_1_n_n.rhsIdx (ix2 i j)
      ((contrEquiv1 dot_S8192x256_S256x128_S8192x128_1_0_0_1_n_n 256 rfl rfl).symm k) = ix2 k j :=
    funext fun a => Fin.ext (by
      match a with
      | ⟨0, _⟩ => exact (rhsA_0 _ _).trans hk
      | ⟨1, _⟩ => exact rhsA_1 _ _)
  rw [el, er]

/-- The second product's left operand index, row axis: the result's row. -/
theorem lhsB_0 (i : S8192x256.Idx) (q : dot_S8192x128_S128x256_S8192x256_1_0_0_1_n_n.contr.Idx) :
    (dot_S8192x128_S128x256_S8192x256_1_0_0_1_n_n.lhsIdx i q 0).val = (i 0).val := by
  unfold DotDims.lhsIdx
  rw [dif_neg (show ¬(0 : Fin S8192x128.rank) ∈ dot_S8192x128_S128x256_S8192x256_1_0_0_1_n_n.lhsBatch by decide),
    dif_pos (show (0 : Fin S8192x128.rank) ∈ dot_S8192x128_S128x256_S8192x256_1_0_0_1_n_n.lhsNonContracting by decide)]
  rfl
/-- The second product's left operand index, column axis: the contraction's coordinate. -/
theorem lhsB_1 (i : S8192x256.Idx) (q : dot_S8192x128_S128x256_S8192x256_1_0_0_1_n_n.contr.Idx) :
    (dot_S8192x128_S128x256_S8192x256_1_0_0_1_n_n.lhsIdx i q 1).val = (q ⟨0, by decide⟩).val :=
  dot_S8192x128_S128x256_S8192x256_1_0_0_1_n_n.lhsIdx_val_of_single rfl i q
/-- The second product's right operand index, row axis: the contraction's coordinate. -/
theorem rhsB_0 (i : S8192x256.Idx) (q : dot_S8192x128_S128x256_S8192x256_1_0_0_1_n_n.contr.Idx) :
    (dot_S8192x128_S128x256_S8192x256_1_0_0_1_n_n.rhsIdx i q 0).val = (q ⟨0, by decide⟩).val :=
  dot_S8192x128_S128x256_S8192x256_1_0_0_1_n_n.rhsIdx_val_of_single rfl i q
/-- The second product's right operand index, column axis: the result's column. -/
theorem rhsB_1 (i : S8192x256.Idx) (q : dot_S8192x128_S128x256_S8192x256_1_0_0_1_n_n.contr.Idx) :
    (dot_S8192x128_S128x256_S8192x256_1_0_0_1_n_n.rhsIdx i q 1).val = (i 1).val := by
  unfold DotDims.rhsIdx
  rw [dif_neg (show ¬(1 : Fin S128x256.rank) ∈ dot_S8192x128_S128x256_S8192x256_1_0_0_1_n_n.rhsBatch by decide),
    dif_pos (show (1 : Fin S128x256.rank) ∈ dot_S8192x128_S128x256_S8192x256_1_0_0_1_n_n.rhsNonContracting by decide)]
  rfl

/-- The product of an 8192 × 128 array with a 128 × 256 array at (i, j): the sum over the 128 inner coordinates. -/
theorem dotB_apply (A : FVec Ideal S8192x128 .f32) (B : FVec Ideal S128x256 .f32) (i : Fin 8192) (j : Fin 256) :
    Host.dotGeneral (F := Ideal) dot_S8192x128_S128x256_S8192x256_1_0_0_1_n_n none A B (ix2 i j)
      = ∑ t : Fin 128, A (ix2 i t) * B (ix2 t j) := by
  simp only [Host.dotGeneral]
  rw [Ideal.dotGeneral_apply,
    ← Equiv.sum_comp (contrEquiv1 dot_S8192x128_S128x256_S8192x256_1_0_0_1_n_n 128 rfl rfl).symm]
  refine Finset.sum_congr rfl fun k _ => ?_
  have hk := contrEquiv1_symm_val dot_S8192x128_S128x256_S8192x256_1_0_0_1_n_n 128 rfl rfl k
  have el : dot_S8192x128_S128x256_S8192x256_1_0_0_1_n_n.lhsIdx (ix2 i j)
      ((contrEquiv1 dot_S8192x128_S128x256_S8192x256_1_0_0_1_n_n 128 rfl rfl).symm k) = ix2 i k :=
    funext fun a => Fin.ext (by
      match a with
      | ⟨0, _⟩ => exact lhsB_0 _ _
      | ⟨1, _⟩ => exact (lhsB_1 _ _).trans hk)
  have er : dot_S8192x128_S128x256_S8192x256_1_0_0_1_n_n.rhsIdx (ix2 i j)
      ((contrEquiv1 dot_S8192x128_S128x256_S8192x256_1_0_0_1_n_n 128 rfl rfl).symm k) = ix2 k j :=
    funext fun a => Fin.ext (by
      match a with
      | ⟨0, _⟩ => exact (rhsB_0 _ _).trans hk
      | ⟨1, _⟩ => exact rhsB_1 _ _)
  rw [el, er]

/-! ## A row's sum -/

/-- The host's sum over the 256 columns from the zero constant, at row i: the sum of the row's entries. -/
theorem rowsum_apply (x : FVec Ideal S8192x256 .f32) (i : Fin 8192) :
    Host.reduceAdd (F := Ideal) x (constant (F := Ideal) S_ .f32 0x00000000#32) reducesTo_S8192x256_S8192_d1 h_S_ (ix1 i)
      = ∑ k : Fin 256, x (ix2 i k) := by
  rw [hostReduceAdd_apply, Ideal.hostReduceAdd_single reducesTo_S8192x256_S8192_d1 (by decide), constant_apply,
    Ideal.ofBits_zero_f32, zero_add]
  refine Finset.sum_congr rfl fun k _ => ?_
  exact congrArg x (funext fun a => Fin.ext (by match a with | ⟨0, _⟩ => rfl | ⟨1, _⟩ => rfl))

end Ln

/-! ## The row mean, the variance and the normalisation -/

namespace Ln

/-- The number of columns is not zero. -/
theorem cN_ne : (cN : ℝ) ≠ 0 := by norm_num [cN]

/-- The host's square root at an index is the ideal instance's square root of the element. -/
theorem hostSqrt_apply {s : Shape} {φ : FTy} (a : FVec Ideal s φ) (i : s.Idx) : Host.sqrt a i = Ideal.sqrt (a i) := rfl

/-- The row mean of a real array is the real row mean. -/
theorem mean_coe (x : Mat 8192 256) (i : Fin 8192) (z : Fin 1) :
    Spec.mean (F := Ideal) (toE2 x) (ix2 i z) = ((RealSpec.mean cN x i : ℝ) : EReal) := by
  unfold Spec.mean
  rw [hostDivf_apply, stand_apply, rowsum_apply, splat1_apply, Consts.ofBits_256]
  simp only [toE2_ix2]
  rw [← coe_sum, div_coe_coe _ _ cN_ne]
  rfl

/-- The deviations from the row mean. -/
def dev (x : FVec Ideal S8192x256 .f32) : FVec Ideal S8192x256 .f32 := subf x (Spec.col256 (Spec.mean x))

/-- The count the variance divides by: 256 less the integer 0 converted. -/
def count : FVec Ideal S_ .f32 :=
  subf (constant S_ .f32 0x43800000#32) (sitofp (F := Ideal) .f32 (constantI S_ 32 0#32))

/-- The variance, with its deviations and its count named. -/
theorem var_eq (x : FVec Ideal S8192x256 .f32) :
    Spec.var x = select (broadcastInDim S8192x1 ![] bcast_S_S8192x1 (cmpf (F := Ideal) .ogt count (constant S_ .f32 0x00000000#32)))
      (Host.divf (broadcastInDim S8192x1 ![0] bcast_S8192_S8192x1_0
          (Host.reduceAdd (mulf (dev x) (dev x)) (constant S_ .f32 0x00000000#32) reducesTo_S8192x256_S8192_d1 h_S_))
        (broadcastInDim S8192x1 ![] bcast_S_S8192x1 count))
      (broadcastInDim S8192x1 ![] bcast_S_S8192x1 (id (constant S_ .f32 0x7FC00000#32))) := rfl

/-- The count is 256. -/
theorem count_eq : count ix0 = ((cN : ℝ) : EReal) := by
  unfold count
  rw [subf_apply, constant_apply, sitofp_apply, Consts.ofBits_256]
  show ((cN : ℝ) : EReal) - (((0#32 : BitVec 32).toInt : ℝ) : EReal) = _
  simp

/-- The count repeated down the column is 256 at every row. -/
theorem count_bcast (j : S8192x1.Idx) : broadcastInDim S8192x1 ![] bcast_S_S8192x1 count j = ((cN : ℝ) : EReal) := by
  rw [broadcastInDim_scalar_apply, count_eq]

/-- The variance's guard, count > 0, holds at every row. -/
theorem guard_eq (j : S8192x1.Idx) :
    broadcastInDim S8192x1 ![] bcast_S_S8192x1 (cmpf (F := Ideal) .ogt count (constant S_ .f32 0x00000000#32)) j = 1#1 := by
  rw [broadcastInDim_scalar_apply, cmpf_apply, count_eq, constant_apply, Ideal.ofBits_zero_f32]
  show BitVec.ofBool (decide ((0 : EReal) < ((cN : ℝ) : EReal))) = 1#1
  rw [decide_eq_true (EReal.coe_pos.mpr (by norm_num [cN]))]
  rfl

/-- A deviation of a real array is the real deviation. -/
theorem dev_coe (x : Mat 8192 256) (i : Fin 8192) (k : Fin 256) :
    dev (toE2 x) (ix2 i k) = ((x i k - RealSpec.mean cN x i : ℝ) : EReal) := by
  unfold dev
  rw [subf_apply, col256_apply, mean_coe, toE2_ix2, ← EReal.coe_sub]

/-- The variance of a real array is the real mean squared deviation. -/
theorem var_coe (x : Mat 8192 256) (i : Fin 8192) (z : Fin 1) :
    Spec.var (F := Ideal) (toE2 x) (ix2 i z) = ((RealSpec.var cN x i : ℝ) : EReal) := by
  rw [var_eq, select_apply, guard_eq, select_one, hostDivf_apply, stand_apply, rowsum_apply, count_bcast]
  simp only [mulf_apply, dev_coe, ← EReal.coe_mul]
  rw [← coe_sum, div_coe_coe _ _ cN_ne]
  rfl

/-- The real mean squared deviation is not negative. -/
theorem var_nonneg (x : Mat 8192 256) (i : Fin 8192) : 0 ≤ RealSpec.var cN x i := by
  unfold RealSpec.var
  exact div_nonneg (Finset.sum_nonneg fun j _ => mul_self_nonneg _) (by norm_num [cN])

end Ln

/-- Layer normalisation of real arrays is the real layer normalisation. -/
theorem lnorm_coe (x : Mat 8192 256) (γ β : Vc 256) :
    Spec.lnorm (F := Ideal) (toE2 x) (toE1 γ) (toE1 β) = toE2 (RealSpec.lnorm cN cEps x γ β) := by
  funext j
  obtain ⟨p, q, rfl⟩ : ∃ (p : Fin 8192) (q : Fin 256), j = ix2 p q := ⟨j 0, j 1, eq_ix2 j⟩
  have hpos : 0 < RealSpec.var cN x p + cEps := add_pos_of_nonneg_of_pos (Ln.var_nonneg x p) cEps_pos
  have hs : Real.sqrt (RealSpec.var cN x p + cEps) ≠ 0 := (Real.sqrt_pos.mpr hpos).ne'
  unfold Spec.lnorm
  rw [addf_apply, mulf_apply, hostDivf_apply, subf_apply, Ln.col256_apply, Ln.col256_apply, Ln.mean_coe, Ln.row256_apply,
    Ln.row256_apply, Ln.hostSqrt_apply, addf_apply, Ln.var_coe, Ln.splat1_apply, Consts.ofBits_eps, toE1_ix1, toE1_ix1,
    toE2_ix2 x, ← EReal.coe_add, Ln.sqrt_coe_pos _ hpos, ← EReal.coe_sub, Ln.div_coe_coe _ _ hs, ← EReal.coe_mul,
    ← EReal.coe_add]
  rfl

/-! ## The MLP block -/

namespace Ln

/-- The hidden layer of real arrays: the maximum with zero of the real projection. -/
theorem hidden_coe (x : Mat 8192 256) (W1 : Mat 256 128) (b1 : Vc 128) (i : Fin 8192) (t : Fin 128) :
    Spec.relu (addf (Host.dotGeneral (F := Ideal) (φ₁ := .f32) (φ₂ := .f32) dot_S8192x256_S256x128_S8192x128_1_0_0_1_n_n none (toE2 x) (toE2 W1))
        (Spec.row128 (toE1 b1))) (ix2 i t)
      = ((max (RealSpec.lin x W1 b1 i t) 0 : ℝ) : EReal) := by
  unfold Spec.relu
  rw [maximumf_apply, addf_apply, dotA_apply, row128_apply, broadcastInDim_scalar_apply, constant_apply,
    Ideal.ofBits_zero_f32, toE1_ix1]
  simp only [toE2_ix2, ← EReal.coe_mul]
  rw [← coe_sum, ← EReal.coe_add, ← EReal.coe_zero, coe_max]
  rfl

end Ln

/-- The MLP block before its normalisation, on real arrays: the real hidden layer times W2, plus b2, plus the residual. -/
theorem mlp_pre_coe (x : Mat 8192 256) (W1 : Mat 256 128) (b1 : Vc 128) (W2 : Mat 128 256) (b2 : Vc 256) :
    addf (addf (Host.dotGeneral (F := Ideal) (φ₁ := .f32) (φ₂ := .f32) dot_S8192x128_S128x256_S8192x256_1_0_0_1_n_n none
        (Spec.relu (addf (Host.dotGeneral (φ₁ := .f32) (φ₂ := .f32) dot_S8192x256_S256x128_S8192x128_1_0_0_1_n_n none (toE2 x) (toE2 W1))
          (Spec.row128 (toE1 b1)))) (toE2 W2)) (Spec.row256 (toE1 b2))) (toE2 x)
      = toE2 (fun i j => ((∑ t, max (RealSpec.lin x W1 b1 i t) 0 * W2 t j) + b2 j) + x i j) := by
  funext j
  obtain ⟨p, q, rfl⟩ : ∃ (p : Fin 8192) (q : Fin 256), j = ix2 p q := ⟨j 0, j 1, eq_ix2 j⟩
  rw [addf_apply, addf_apply, Ln.dotB_apply, Ln.row256_apply, toE1_ix1, toE2_ix2 x]
  simp only [Ln.hidden_coe, toE2_ix2, ← EReal.coe_mul]
  rw [← Ln.coe_sum, ← EReal.coe_add, ← EReal.coe_add]

/-- The MLP block of real arrays is the real MLP block. -/
theorem mlpLN_coe (x : Mat 8192 256) (W1 : Mat 256 128) (b1 : Vc 128) (W2 : Mat 128 256) (b2 γ β : Vc 256) :
    Spec.mlpLN (F := Ideal) (toE2 x) (toE2 W1) (toE1 b1) (toE2 W2) (toE1 b2) (toE1 γ) (toE1 β)
      = toE2 (RealSpec.mlpLN cN cEps x W1 b1 W2 b2 γ β) := by
  unfold Spec.mlpLN
  rw [mlp_pre_coe, lnorm_coe]
  rfl

end Cert.ReferenceIdeal.RefVal

end
-- ==== Proof.Val.RefResult.lean ====
/-
  The reference's value on real arguments. When each of the sixteen argument buffers holds the reading, as extended
  reals, of a real array, every stage of the reference holds the reading of the real computation's stage: the three
  projections, the attention average plus its residual (the sum of two readings is the reading of the sum) under layer
  normalisation, the same block again on the first block's output, and the MLP block. So the reference's run ends with
  the result buffer holding the reading of the real computation's result, its arguments unchanged.
-/
import proofs.«422171_j68341519614500_3_alg».proof.Proof.Val.RefLinAttn
import proofs.«422171_j68341519614500_3_alg».proof.Proof.Val.RefLn
import proofs.«422171_j68341519614500_3_alg».proof.Proof.RefRun

noncomputable section

namespace Cert.ReferenceIdeal.RefVal

open Idealize.ShloMosaic Idealize.ShloMosaic.ValueIdx Idealize.SL.Sem
open Cert.ReferenceIdeal Cert.ReferenceIdeal.Facts₀ Cert.RealSpec

/-- The entrywise sum of the readings of two real matrices is the reading of their entrywise sum. -/
theorem resid_add_toE2 {a b : ℕ} (φ : FTy) (x y : Mat a b) :
    addf (F := Ideal) (φ := φ) (toE2 x) (toE2 y) = toE2 (fun i c => x i c + y i c) :=
  funext fun i => (EReal.coe_add _ _).symm

/-- One attention block on real arrays: the average of the value rows under the softmax of the scores, plus the
    residual, layer-normalised, holds the reading of the real block. -/
theorem attnLN_coe (q ky v res : Mat 8192 256) (γ β : Vc 256) :
    Spec.attnLN (F := Ideal) (toE2 q) (toE2 ky) (toE2 v) (toE2 res) (toE1 γ) (toE1 β)
      = toE2 (RealSpec.attnLN cN cEps q ky v res γ β) := by
  unfold Spec.attnLN RealSpec.attnLN
  rw [attn_coe, resid_add_toE2, lnorm_coe]

/-- The whole reference on sixteen real arguments holds the reading of the real computation's result. -/
theorem result_coe (x0 x1 x2 x3 : Mat 8192 256) (Wq : Mat 256 256) (bq : Vc 256) (Wk : Mat 256 256) (bk : Vc 256) (Wv : Mat 256 256) (bv : Vc 256) (W1 : Mat 256 128) (b1 : Vc 128) (W2 : Mat 128 256) (b2 γ β : Vc 256) :
    Spec.result (F := Ideal) (toE2 x0) (toE2 x1) (toE2 x2) (toE2 x3) (toE2 Wq) (toE1 bq) (toE2 Wk) (toE1 bk) (toE2 Wv) (toE1 bv) (toE2 W1) (toE1 b1) (toE2 W2) (toE1 b2) (toE1 γ) (toE1 β)
      = toE2 (RealSpec.result cN cEps x0 x1 x2 x3 Wq bq Wk bk Wv bv W1 b1 W2 b2 γ β) := by
  unfold Spec.result Spec.out2 Spec.out1 RealSpec.result
  rw [lin_coe x0 Wq bq, lin_coe x1 Wk bk, lin_coe x2 Wv bv, attnLN_coe,
    lin_coe x3 Wq bq, lin_coe _ Wk bk, lin_coe _ Wv bv, attnLN_coe, mlpLN_coe]

/-- The reference's run from a memory whose sixteen argument buffers hold, on each core, the readings of real arrays
    (which may differ from core to core): it terminates, each core's result buffer holds the reading of the real
    computation's result on that core's arrays, and the arguments are unchanged. -/
theorem ref_value_dev (m' : (ℓ : Loc Cert.ReferenceIdeal.nD Cert.ReferenceIdeal.τ Cert.ReferenceIdeal.sig) → Buf (Elt Ideal) ℓ) (ρ' : Dev Cert.ReferenceIdeal.nD → PrngReg)
    (x0 x1 x2 x3 : Dev Cert.ReferenceIdeal.nD → Mat 8192 256) (Wq : Dev Cert.ReferenceIdeal.nD → Mat 256 256) (bq : Dev Cert.ReferenceIdeal.nD → Vc 256) (Wk : Dev Cert.ReferenceIdeal.nD → Mat 256 256) (bk : Dev Cert.ReferenceIdeal.nD → Vc 256) (Wv : Dev Cert.ReferenceIdeal.nD → Mat 256 256) (bv : Dev Cert.ReferenceIdeal.nD → Vc 256) (W1 : Dev Cert.ReferenceIdeal.nD → Mat 256 128) (b1 : Dev Cert.ReferenceIdeal.nD → Vc 128) (W2 : Dev Cert.ReferenceIdeal.nD → Mat 128 256) (b2 γ β : Dev Cert.ReferenceIdeal.nD → Vc 256)
    (h : ∀ c : Dev Cert.ReferenceIdeal.nD,
      m' ((c.tc : Thread Cert.ReferenceIdeal.nD Cert.ReferenceIdeal.τ).loc Cert.ReferenceIdeal.main_arg0) = toE2 (x0 c)
      ∧ m' ((c.tc : Thread Cert.ReferenceIdeal.nD Cert.ReferenceIdeal.τ).loc Cert.ReferenceIdeal.main_arg1) = toE2 (x1 c)
      ∧ m' ((c.tc : Thread Cert.ReferenceIdeal.nD Cert.ReferenceIdeal.τ).loc Cert.ReferenceIdeal.main_arg2) = toE2 (x2 c)
      ∧ m' ((c.tc : Thread Cert.ReferenceIdeal.nD Cert.ReferenceIdeal.τ).loc Cert.ReferenceIdeal.main_arg3) = toE2 (x3 c)
      ∧ m' ((c.tc : Thread Cert.ReferenceIdeal.nD Cert.ReferenceIdeal.τ).loc Cert.ReferenceIdeal.main_arg4) = toE2 (Wq c)
      ∧ m' ((c.tc : Thread Cert.ReferenceIdeal.nD Cert.ReferenceIdeal.τ).loc Cert.ReferenceIdeal.main_arg5) = toE1 (bq c)
      ∧ m' ((c.tc : Thread Cert.ReferenceIdeal.nD Cert.ReferenceIdeal.τ).loc Cert.ReferenceIdeal.main_arg6) = toE2 (Wk c)
      ∧ m' ((c.tc : Thread Cert.ReferenceIdeal.nD Cert.ReferenceIdeal.τ).loc Cert.ReferenceIdeal.main_arg7) = toE1 (bk c)
      ∧ m' ((c.tc : Thread Cert.ReferenceIdeal.nD Cert.ReferenceIdeal.τ).loc Cert.ReferenceIdeal.main_arg8) = toE2 (Wv c)
      ∧ m' ((c.tc : Thread Cert.ReferenceIdeal.nD Cert.ReferenceIdeal.τ).loc Cert.ReferenceIdeal.main_arg9) = toE1 (bv c)
      ∧ m' ((c.tc : Thread Cert.ReferenceIdeal.nD Cert.ReferenceIdeal.τ).loc Cert.ReferenceIdeal.main_arg10) = toE2 (W1 c)
      ∧ m' ((c.tc : Thread Cert.ReferenceIdeal.nD Cert.ReferenceIdeal.τ).loc Cert.ReferenceIdeal.main_arg11) = toE1 (b1 c)
      ∧ m' ((c.tc : Thread Cert.ReferenceIdeal.nD Cert.ReferenceIdeal.τ).loc Cert.ReferenceIdeal.main_arg12) = toE2 (W2 c)
      ∧ m' ((c.tc : Thread Cert.ReferenceIdeal.nD Cert.ReferenceIdeal.τ).loc Cert.ReferenceIdeal.main_arg13) = toE1 (b2 c)
      ∧ m' ((c.tc : Thread Cert.ReferenceIdeal.nD Cert.ReferenceIdeal.τ).loc Cert.ReferenceIdeal.main_arg14) = toE1 (γ c)
      ∧ m' ((c.tc : Thread Cert.ReferenceIdeal.nD Cert.ReferenceIdeal.τ).loc Cert.ReferenceIdeal.main_arg15) = toE1 (β c)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v117) = toE2 (RealSpec.result cN cEps (x0 c) (x1 c) (x2 c) (x3 c) (Wq c) (bq c) (Wk c) (bk c) (Wv c) (bv c) (W1 c) (b1 c) (W2 c) (b2 c) (γ c) (β c))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  (θ_run _ _ _).mono (fun r hr c => by
    obtain ⟨hv, hrest⟩ := hr c
    obtain ⟨e0, e1, e2, e3, e4, e5, e6, e7, e8, e9, e10, e11, e12, e13, e14, e15⟩ := h c
    refine ⟨?_, hrest⟩
    rw [hv, e0, e1, e2, e3, e4, e5, e6, e7, e8, e9, e10, e11, e12, e13, e14, e15]
    exact result_coe (x0 c) (x1 c) (x2 c) (x3 c) (Wq c) (bq c) (Wk c) (bk c) (Wv c) (bv c) (W1 c) (b1 c) (W2 c) (b2 c) (γ c) (β c))
    (Cert.ReferenceIdeal.Hand.run (F := Ideal) m' ρ')

/-- The reference's run from a memory whose sixteen argument buffers hold the readings of real arrays: it terminates,
    the result buffer holds the reading of the real computation's result, and the arguments are unchanged. -/
theorem ref_value (m' : (ℓ : Loc Cert.ReferenceIdeal.nD Cert.ReferenceIdeal.τ Cert.ReferenceIdeal.sig) → Buf (Elt Ideal) ℓ) (ρ' : Dev Cert.ReferenceIdeal.nD → PrngReg)
    (x0 x1 x2 x3 : Mat 8192 256) (Wq : Mat 256 256) (bq : Vc 256) (Wk : Mat 256 256) (bk : Vc 256) (Wv : Mat 256 256) (bv : Vc 256) (W1 : Mat 256 128) (b1 : Vc 128) (W2 : Mat 128 256) (b2 γ β : Vc 256)
    (h : ∀ c : Dev Cert.ReferenceIdeal.nD,
      m' ((c.tc : Thread Cert.ReferenceIdeal.nD Cert.ReferenceIdeal.τ).loc Cert.ReferenceIdeal.main_arg0) = toE2 x0
      ∧ m' ((c.tc : Thread Cert.ReferenceIdeal.nD Cert.ReferenceIdeal.τ).loc Cert.ReferenceIdeal.main_arg1) = toE2 x1
      ∧ m' ((c.tc : Thread Cert.ReferenceIdeal.nD Cert.ReferenceIdeal.τ).loc Cert.ReferenceIdeal.main_arg2) = toE2 x2
      ∧ m' ((c.tc : Thread Cert.ReferenceIdeal.nD Cert.ReferenceIdeal.τ).loc Cert.ReferenceIdeal.main_arg3) = toE2 x3
      ∧ m' ((c.tc : Thread Cert.ReferenceIdeal.nD Cert.ReferenceIdeal.τ).loc Cert.ReferenceIdeal.main_arg4) = toE2 Wq
      ∧ m' ((c.tc : Thread Cert.ReferenceIdeal.nD Cert.ReferenceIdeal.τ).loc Cert.ReferenceIdeal.main_arg5) = toE1 bq
      ∧ m' ((c.tc : Thread Cert.ReferenceIdeal.nD Cert.ReferenceIdeal.τ).loc Cert.ReferenceIdeal.main_arg6) = toE2 Wk
      ∧ m' ((c.tc : Thread Cert.ReferenceIdeal.nD Cert.ReferenceIdeal.τ).loc Cert.ReferenceIdeal.main_arg7) = toE1 bk
      ∧ m' ((c.tc : Thread Cert.ReferenceIdeal.nD Cert.ReferenceIdeal.τ).loc Cert.ReferenceIdeal.main_arg8) = toE2 Wv
      ∧ m' ((c.tc : Thread Cert.ReferenceIdeal.nD Cert.ReferenceIdeal.τ).loc Cert.ReferenceIdeal.main_arg9) = toE1 bv
      ∧ m' ((c.tc : Thread Cert.ReferenceIdeal.nD Cert.ReferenceIdeal.τ).loc Cert.ReferenceIdeal.main_arg10) = toE2 W1
      ∧ m' ((c.tc : Thread Cert.ReferenceIdeal.nD Cert.ReferenceIdeal.τ).loc Cert.ReferenceIdeal.main_arg11) = toE1 b1
      ∧ m' ((c.tc : Thread Cert.ReferenceIdeal.nD Cert.ReferenceIdeal.τ).loc Cert.ReferenceIdeal.main_arg12) = toE2 W2
      ∧ m' ((c.tc : Thread Cert.ReferenceIdeal.nD Cert.ReferenceIdeal.τ).loc Cert.ReferenceIdeal.main_arg13) = toE1 b2
      ∧ m' ((c.tc : Thread Cert.ReferenceIdeal.nD Cert.ReferenceIdeal.τ).loc Cert.ReferenceIdeal.main_arg14) = toE1 γ
      ∧ m' ((c.tc : Thread Cert.ReferenceIdeal.nD Cert.ReferenceIdeal.τ).loc Cert.ReferenceIdeal.main_arg15) = toE1 β) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v117) = toE2 (RealSpec.result cN cEps x0 x1 x2 x3 Wq bq Wk bk Wv bv W1 b1 W2 b2 γ β)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  ref_value_dev m' ρ' (fun _ => x0) (fun _ => x1) (fun _ => x2) (fun _ => x3) (fun _ => Wq) (fun _ => bq) (fun _ => Wk) (fun _ => bk) (fun _ => Wv) (fun _ => bv) (fun _ => W1) (fun _ => b1) (fun _ => W2) (fun _ => b2) (fun _ => γ) (fun _ => β) h

end Cert.ReferenceIdeal.RefVal

end
-- ==== Proof.lean ====
/-
  The certificate's claim, assembled from its five conjuncts.

  The three frame conjuncts: each program terminates without fault from any memory of which the precondition holds, and
  its sixteen argument arrays end as they began. For the kernel, read bit-exactly and read over the extended reals, the
  run is five pipelined regions in a row; at the end every unscoped buffer holds the last boundary's contents, and an
  argument is written by no region, so those contents are the launch contents. For the reference the run is a chain of
  host operations that store only into their own results.

  The fourth conjunct is trivial: the idealised kernel is the kernel's own text, no operation rewritten.

  The fifth conjunct joins the two programs at the ideal instance through one real function. The precondition says every
  entry of every argument is finite, that is, a real; so each argument buffer is the reading of a real array. On real
  arrays both programs compute the reading of the same real function of the sixteen arrays: three linear projections,
  the attention average under the row softmax plus the residual, layer-normalised; that block once more on the first
  block's output; and the two-layer perceptron with the rectifier plus its residual, layer-normalised. The reference
  takes the softmax with the exponent shifted by the row maximum and divides by the square root of variance plus ε over
  whole arrays; the kernel accumulates, block of keys by block of keys, running sums of exponentials rescaled as the
  running maximum grows, multiplies by the reciprocal square root, and forms its matrix products block-wise. The laws
  that join them: a shift of the exponent by any real cancels between the softmax's numerator and denominator, so the
  running sums do not depend on the running maximum; multiplying by the reciprocal square root of a positive real is
  dividing by its square root; a matrix product over all rows is, row block by row block, the product of the blocks, and
  a sum over all keys is the sum over the key blocks of the block sums.
-/
import proofs.«422171_j68341519614500_3_alg».proof.Defs
import proofs.«422171_j68341519614500_3_alg».proof.Proof.Gen.Kernel
import proofs.«422171_j68341519614500_3_alg».proof.Proof.Gen.KernelIdeal
import proofs.«422171_j68341519614500_3_alg».proof.Proof.Gen.ReferenceIdeal
import proofs.«422171_j68341519614500_3_alg».proof.Proof.Gen.Pre_finite_inputs
import proofs.«422171_j68341519614500_3_alg».proof.Proof.K.Args
import proofs.«422171_j68341519614500_3_alg».proof.Proof.KI.Args
import proofs.«422171_j68341519614500_3_alg».proof.Proof.RefRun
import proofs.«422171_j68341519614500_3_alg».proof.Proof.Val.Bridge
import proofs.«422171_j68341519614500_3_alg».proof.Proof.Val.RefResult

noncomputable section

namespace Cert.Proof

open Idealize.ShloMosaic Idealize.ShloMosaic.TcCoe Idealize.SL.Sem
open Cert.RealSpec

/-- The kernel, read bit-exactly, runs and leaves its arguments as launched. -/
theorem frame_Kernel : Cert.frame_Kernel := fun m ρ _ =>
  (θ_run _ _ _).mono (fun r h c =>
    ⟨(h c _ (Cert.Kernel.Hand.mem_uc Cert.Kernel.main_arg0 (by decide))).trans (Cert.Kernel.Hand.W5_main_arg0 m ρ c),
     (h c _ (Cert.Kernel.Hand.mem_uc Cert.Kernel.main_arg1 (by decide))).trans (Cert.Kernel.Hand.W5_main_arg1 m ρ c),
     (h c _ (Cert.Kernel.Hand.mem_uc Cert.Kernel.main_arg2 (by decide))).trans (Cert.Kernel.Hand.W5_main_arg2 m ρ c),
     (h c _ (Cert.Kernel.Hand.mem_uc Cert.Kernel.main_arg3 (by decide))).trans (Cert.Kernel.Hand.W5_main_arg3 m ρ c),
     (h c _ (Cert.Kernel.Hand.mem_uc Cert.Kernel.main_arg4 (by decide))).trans (Cert.Kernel.Hand.W5_main_arg4 m ρ c),
     (h c _ (Cert.Kernel.Hand.mem_uc Cert.Kernel.main_arg5 (by decide))).trans (Cert.Kernel.Hand.W5_main_arg5 m ρ c),
     (h c _ (Cert.Kernel.Hand.mem_uc Cert.Kernel.main_arg6 (by decide))).trans (Cert.Kernel.Hand.W5_main_arg6 m ρ c),
     (h c _ (Cert.Kernel.Hand.mem_uc Cert.Kernel.main_arg7 (by decide))).trans (Cert.Kernel.Hand.W5_main_arg7 m ρ c),
     (h c _ (Cert.Kernel.Hand.mem_uc Cert.Kernel.main_arg8 (by decide))).trans (Cert.Kernel.Hand.W5_main_arg8 m ρ c),
     (h c _ (Cert.Kernel.Hand.mem_uc Cert.Kernel.main_arg9 (by decide))).trans (Cert.Kernel.Hand.W5_main_arg9 m ρ c),
     (h c _ (Cert.Kernel.Hand.mem_uc Cert.Kernel.main_arg10 (by decide))).trans (Cert.Kernel.Hand.W5_main_arg10 m ρ c),
     (h c _ (Cert.Kernel.Hand.mem_uc Cert.Kernel.main_arg11 (by decide))).trans (Cert.Kernel.Hand.W5_main_arg11 m ρ c),
     (h c _ (Cert.Kernel.Hand.mem_uc Cert.Kernel.main_arg12 (by decide))).trans (Cert.Kernel.Hand.W5_main_arg12 m ρ c),
     (h c _ (Cert.Kernel.Hand.mem_uc Cert.Kernel.main_arg13 (by decide))).trans (Cert.Kernel.Hand.W5_main_arg13 m ρ c),
     (h c _ (Cert.Kernel.Hand.mem_uc Cert.Kernel.main_arg14 (by decide))).trans (Cert.Kernel.Hand.W5_main_arg14 m ρ c),
     (h c _ (Cert.Kernel.Hand.mem_uc Cert.Kernel.main_arg15 (by decide))).trans (Cert.Kernel.Hand.W5_main_arg15 m ρ c)⟩)
    (Cert.Kernel.Hand.run_all (F := Bits) m ρ)

/-- The kernel, read over the extended reals, runs and leaves its arguments as launched. -/
theorem frame_KernelIdeal : Cert.frame_KernelIdeal := fun m ρ _ =>
  (θ_run _ _ _).mono (fun r h c =>
    ⟨(h c _ (Cert.KernelIdeal.Hand.mem_uc Cert.KernelIdeal.main_arg0 (by decide))).trans (Cert.KernelIdeal.Hand.W5_main_arg0 m ρ c),
     (h c _ (Cert.KernelIdeal.Hand.mem_uc Cert.KernelIdeal.main_arg1 (by decide))).trans (Cert.KernelIdeal.Hand.W5_main_arg1 m ρ c),
     (h c _ (Cert.KernelIdeal.Hand.mem_uc Cert.KernelIdeal.main_arg2 (by decide))).trans (Cert.KernelIdeal.Hand.W5_main_arg2 m ρ c),
     (h c _ (Cert.KernelIdeal.Hand.mem_uc Cert.KernelIdeal.main_arg3 (by decide))).trans (Cert.KernelIdeal.Hand.W5_main_arg3 m ρ c),
     (h c _ (Cert.KernelIdeal.Hand.mem_uc Cert.KernelIdeal.main_arg4 (by decide))).trans (Cert.KernelIdeal.Hand.W5_main_arg4 m ρ c),
     (h c _ (Cert.KernelIdeal.Hand.mem_uc Cert.KernelIdeal.main_arg5 (by decide))).trans (Cert.KernelIdeal.Hand.W5_main_arg5 m ρ c),
     (h c _ (Cert.KernelIdeal.Hand.mem_uc Cert.KernelIdeal.main_arg6 (by decide))).trans (Cert.KernelIdeal.Hand.W5_main_arg6 m ρ c),
     (h c _ (Cert.KernelIdeal.Hand.mem_uc Cert.KernelIdeal.main_arg7 (by decide))).trans (Cert.KernelIdeal.Hand.W5_main_arg7 m ρ c),
     (h c _ (Cert.KernelIdeal.Hand.mem_uc Cert.KernelIdeal.main_arg8 (by decide))).trans (Cert.KernelIdeal.Hand.W5_main_arg8 m ρ c),
     (h c _ (Cert.KernelIdeal.Hand.mem_uc Cert.KernelIdeal.main_arg9 (by decide))).trans (Cert.KernelIdeal.Hand.W5_main_arg9 m ρ c),
     (h c _ (Cert.KernelIdeal.Hand.mem_uc Cert.KernelIdeal.main_arg10 (by decide))).trans (Cert.KernelIdeal.Hand.W5_main_arg10 m ρ c),
     (h c _ (Cert.KernelIdeal.Hand.mem_uc Cert.KernelIdeal.main_arg11 (by decide))).trans (Cert.KernelIdeal.Hand.W5_main_arg11 m ρ c),
     (h c _ (Cert.KernelIdeal.Hand.mem_uc Cert.KernelIdeal.main_arg12 (by decide))).trans (Cert.KernelIdeal.Hand.W5_main_arg12 m ρ c),
     (h c _ (Cert.KernelIdeal.Hand.mem_uc Cert.KernelIdeal.main_arg13 (by decide))).trans (Cert.KernelIdeal.Hand.W5_main_arg13 m ρ c),
     (h c _ (Cert.KernelIdeal.Hand.mem_uc Cert.KernelIdeal.main_arg14 (by decide))).trans (Cert.KernelIdeal.Hand.W5_main_arg14 m ρ c),
     (h c _ (Cert.KernelIdeal.Hand.mem_uc Cert.KernelIdeal.main_arg15 (by decide))).trans (Cert.KernelIdeal.Hand.W5_main_arg15 m ρ c)⟩)
    (Cert.KernelIdeal.Hand.run_all (F := Ideal) m ρ)

/-- The reference runs and leaves its arguments as launched. -/
theorem frame_ReferenceIdeal : Cert.frame_ReferenceIdeal := fun m ρ _ =>
  (θ_run _ _ _).mono (fun _ h c => (h c).2) (Cert.ReferenceIdeal.Hand.run (F := Ideal) m ρ)

/-- On finite inputs the kernel and the reference both end with the reading of the same real array. -/
theorem algebraic : Cert.algebraic_KernelIdeal_ReferenceIdeal := by
  intro m ρ m' ρ' hpre hagree
  refine ⟨fun c => toE2 (Cert.KernelIdeal.Val.vout m hpre c), Cert.KernelIdeal.Val.kernel_value m ρ hpre, ?_⟩
  exact Cert.ReferenceIdeal.RefVal.ref_value_dev m' ρ'
    (Cert.KernelIdeal.Val.x0 m hpre) (Cert.KernelIdeal.Val.x1 m hpre) (Cert.KernelIdeal.Val.x2 m hpre) (Cert.KernelIdeal.Val.x3 m hpre) (Cert.KernelIdeal.Val.x4 m hpre) (Cert.KernelIdeal.Val.x5 m hpre) (Cert.KernelIdeal.Val.x6 m hpre) (Cert.KernelIdeal.Val.x7 m hpre) (Cert.KernelIdeal.Val.x8 m hpre) (Cert.KernelIdeal.Val.x9 m hpre) (Cert.KernelIdeal.Val.x10 m hpre) (Cert.KernelIdeal.Val.x11 m hpre) (Cert.KernelIdeal.Val.x12 m hpre) (Cert.KernelIdeal.Val.x13 m hpre) (Cert.KernelIdeal.Val.x14 m hpre) (Cert.KernelIdeal.Val.x15 m hpre)
    (fun c =>
      ⟨((hagree c).1).trans (Cert.KernelIdeal.Val.x0_spec m hpre c),
       ((hagree c).2.1).trans (Cert.KernelIdeal.Val.x1_spec m hpre c),
       ((hagree c).2.2.1).trans (Cert.KernelIdeal.Val.x2_spec m hpre c),
       ((hagree c).2.2.2.1).trans (Cert.KernelIdeal.Val.x3_spec m hpre c),
       ((hagree c).2.2.2.2.1).trans (Cert.KernelIdeal.Val.x4_spec m hpre c),
       ((hagree c).2.2.2.2.2.1).trans (Cert.KernelIdeal.Val.x5_spec m hpre c),
       ((hagree c).2.2.2.2.2.2.1).trans (Cert.KernelIdeal.Val.x6_spec m hpre c),
       ((hagree c).2.2.2.2.2.2.2.1).trans (Cert.KernelIdeal.Val.x7_spec m hpre c),
       ((hagree c).2.2.2.2.2.2.2.2.1).trans (Cert.KernelIdeal.Val.x8_spec m hpre c),
       ((hagree c).2.2.2.2.2.2.2.2.2.1).trans (Cert.KernelIdeal.Val.x9_spec m hpre c),
       ((hagree c).2.2.2.2.2.2.2.2.2.2.1).trans (Cert.KernelIdeal.Val.x10_spec m hpre c),
       ((hagree c).2.2.2.2.2.2.2.2.2.2.2.1).trans (Cert.KernelIdeal.Val.x11_spec m hpre c),
       ((hagree c).2.2.2.2.2.2.2.2.2.2.2.2.1).trans (Cert.KernelIdeal.Val.x12_spec m hpre c),
       ((hagree c).2.2.2.2.2.2.2.2.2.2.2.2.2.1).trans (Cert.KernelIdeal.Val.x13_spec m hpre c),
       ((hagree c).2.2.2.2.2.2.2.2.2.2.2.2.2.2.1).trans (Cert.KernelIdeal.Val.x14_spec m hpre c),
       ((hagree c).2.2.2.2.2.2.2.2.2.2.2.2.2.2.2).trans (Cert.KernelIdeal.Val.x15_spec m hpre c)⟩)

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
